-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v29)) (v1 : (c : Dev Cert.KernelIdeal.nD) → Buf (Elt Ideal) ((c.tc : Thread Cert.KernelIdeal.nD Cert.KernelIdeal.τ).loc Cert.KernelIdeal.main_v38)) (v2 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_v38) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_v10) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608x2 : Shape := ⟨2, ![8388608, 2]⟩
abbrev S_ : Shape := ⟨0, ![]⟩

class Facts : Prop where
  bcast_S_S8388608x2 : S_.BroadcastsInDim S8388608x2 (![] : Fin 0 → Fin S8388608x2.rank)
  reducesTo_S8388608x2_S_d0_1 : S8388608x2.ReducesTo [0, 1] S_
  h_S_ : 0 < S_.numel

variable [Facts]

def fn {F : FTy → Type} [FloatOps F] (main_arg0 : FVec F S8388608x2 .f32) (main_arg1 : IVec S8388608x2 32) : IVec S_ 1 :=
  let main_v0 : FVec F S8388608x2 .f32 := Host.absf main_arg0
  let main_cst : FVec F S_ .f32 := constant S_ .f32 0x7F800000#32
  let main_v1 : FVec F S8388608x2 .f32 := broadcastInDim S8388608x2 ![] bcast_S_S8388608x2 main_cst
  let main_v2 : IVec S8388608x2 1 := cmpf .olt main_v0 main_v1
  let main_c : IVec S_ 1 := constantI S_ 1 1#1
  let main_v3 : IVec S_ 1 := (fun x v => Host.reduce IntOp.andi x v reducesTo_S8388608x2_S_d0_1 h_S_) main_v2 main_c
  let main_c_0 : IVec S_ 32 := constantI S_ 32 0#32
  let main_v4 : IVec S8388608x2 32 := broadcastInDim S8388608x2 ![] bcast_S_S8388608x2 main_c_0
  let main_v5 : IVec S8388608x2 1 := cmpi .sge main_arg1 main_v4
  let main_c_1 : IVec S_ 32 := constantI S_ 32 8#32
  let main_v6 : IVec S8388608x2 32 := broadcastInDim S8388608x2 ![] bcast_S_S8388608x2 main_c_1
  let main_v7 : IVec S8388608x2 1 := cmpi .slt main_arg1 main_v6
  let main_v8 : IVec S8388608x2 1 := andi main_v5 main_v7
  let main_c_2 : IVec S_ 1 := constantI S_ 1 1#1
  let main_v9 : IVec S_ 1 := (fun x v => Host.reduce IntOp.andi x v reducesTo_S8388608x2_S_d0_1 h_S_) main_v8 main_c_2
  let main_v10 : IVec S_ 1 := andi main_v3 main_v9
  main_v10
-- ==== Kernel.lean ====
abbrev S8388608x2 : Shape := ⟨2, ![8388608, 2]⟩
abbrev S16777216 : Shape := ⟨1, ![16777216]⟩
abbrev S131072x128 : Shape := ⟨2, ![131072, 128]⟩
abbrev S1x8 : Shape := ⟨2, ![1, 8]⟩
abbrev S2048x128 : Shape := ⟨2, ![2048, 128]⟩
abbrev S2048 : Shape := ⟨1, ![2048]⟩
abbrev S2048x1 : Shape := ⟨2, ![2048, 1]⟩
abbrev S1 : Shape := ⟨1, ![1]⟩
abbrev S1x1 : Shape := ⟨2, ![1, 1]⟩
abbrev S8 : Shape := ⟨1, ![8]⟩
abbrev S_ : Shape := ⟨0, ![]⟩
abbrev S7 : Shape := ⟨1, ![7]⟩
abbrev S128x128 : Shape := ⟨2, ![128, 128]⟩
abbrev S512x512 : Shape := ⟨2, ![512, 512]⟩
abbrev S512x128 : Shape := ⟨2, ![512, 128]⟩
abbrev S4096x128 : Shape := ⟨2, ![4096, 128]⟩
abbrev S512 : Shape := ⟨1, ![512]⟩
abbrev S512x1 : Shape := ⟨2, ![512, 1]⟩
abbrev S512x8 : Shape := ⟨2, ![512, 8]⟩
abbrev S16777216x1 : Shape := ⟨2, ![16777216, 1]⟩

abbrev nBuf : Space → Nat
  | .hbm => 67
  | .vmem => 12
  | .smem => 0
  | _ => 0

abbrev bufTy : (tb : Table) → Fin (tcTables nBuf tb) → BufTy
  | .hbm, ⟨0, _⟩ => ⟨S8388608x2, .f32⟩
  | .hbm, ⟨1, _⟩ => ⟨S8388608x2, .i32⟩
  | .hbm, ⟨2, _⟩ => ⟨S16777216, .i32⟩
  | .hbm, ⟨3, _⟩ => ⟨S16777216, .f32⟩
  | .hbm, ⟨4, _⟩ => ⟨S131072x128, .i32⟩
  | .hbm, ⟨5, _⟩ => ⟨S1x8, .i32⟩
  | .hbm, ⟨6, _⟩ => ⟨S8, .i32⟩
  | .hbm, ⟨7, _⟩ => ⟨S_, .i32⟩
  | .hbm, ⟨8, _⟩ => ⟨S_, .i32⟩
  | .hbm, ⟨9, _⟩ => ⟨S8, .i32⟩
  | .hbm, ⟨10, _⟩ => ⟨S_, .i32⟩
  | .hbm, ⟨11, _⟩ => ⟨S1, .i32⟩
  | .hbm, ⟨12, _⟩ => ⟨S7, .i32⟩
  | .hbm, ⟨13, _⟩ => ⟨S8, .i32⟩
  | .hbm, ⟨14, _⟩ => ⟨S8, .f32⟩
  | .hbm, ⟨15, _⟩ => ⟨S1x8, .f32⟩
  | .hbm, ⟨16, _⟩ => ⟨S128x128, .i32⟩
  | .hbm, ⟨17, _⟩ => ⟨S128x128, .i32⟩
  | .hbm, ⟨18, _⟩ => ⟨S128x128, .i1⟩
  | .hbm, ⟨19, _⟩ => ⟨S128x128, .bf16⟩
  | .hbm, ⟨20, _⟩ => ⟨S512x512, .i32⟩
  | .hbm, ⟨21, _⟩ => ⟨S512x512, .i32⟩
  | .hbm, ⟨22, _⟩ => ⟨S512x512, .i1⟩
  | .hbm, ⟨23, _⟩ => ⟨S512x512, .bf16⟩
  | .hbm, ⟨24, _⟩ => ⟨S131072x128, .i32⟩
  | .hbm, ⟨25, _⟩ => ⟨S16777216, .i32⟩
  | .hbm, ⟨26, _⟩ => ⟨S16777216, .i32⟩
  | .hbm, ⟨27, _⟩ => ⟨S_, .f32⟩
  | .hbm, ⟨28, _⟩ => ⟨S16777216, .f32⟩
  | .hbm, ⟨29, _⟩ => ⟨S_, .i32⟩
  | .hbm, ⟨30, _⟩ => ⟨S16777216, .i32⟩
  | .hbm, ⟨31, _⟩ => ⟨S16777216, .i1⟩
  | .hbm, ⟨32, _⟩ => ⟨S_, .i32⟩
  | .hbm, ⟨33, _⟩ => ⟨S16777216, .i32⟩
  | .hbm, ⟨34, _⟩ => ⟨S16777216, .i32⟩
  | .hbm, ⟨35, _⟩ => ⟨S16777216, .i32⟩
  | .hbm, ⟨36, _⟩ => ⟨S16777216x1, .i32⟩
  | .hbm, ⟨37, _⟩ => ⟨S16777216, .f32⟩
  | .hbm, ⟨38, _⟩ => ⟨S_, .i32⟩
  | .hbm, ⟨39, _⟩ => ⟨S16777216, .i32⟩
  | .hbm, ⟨40, _⟩ => ⟨S_, .i32⟩
  | .hbm, ⟨41, _⟩ => ⟨S_, .i32⟩
  | .hbm, ⟨42, _⟩ => ⟨S16777216, .i32⟩
  | .hbm, ⟨43, _⟩ => ⟨S16777216, .i32⟩
  | .hbm, ⟨44, _⟩ => ⟨S16777216, .i32⟩
  | .hbm, ⟨45, _⟩ => ⟨S_, .i32⟩
  | .hbm, ⟨46, _⟩ => ⟨S16777216, .i32⟩
  | .hbm, ⟨47, _⟩ => ⟨S16777216, .i1⟩
  | .hbm, ⟨48, _⟩ => ⟨S16777216, .i32⟩
  | .hbm, ⟨49, _⟩ => ⟨S16777216, .i32⟩
  | .hbm, ⟨50, _⟩ => ⟨S_, .i32⟩
  | .hbm, ⟨51, _⟩ => ⟨S16777216, .i32⟩
  | .hbm, ⟨52, _⟩ => ⟨S16777216, .i1⟩
  | .hbm, ⟨53, _⟩ => ⟨S16777216, .i1⟩
  | .hbm, ⟨54, _⟩ => ⟨S_, .i32⟩
  | .hbm, ⟨55, _⟩ => ⟨S16777216, .i32⟩
  | .hbm, ⟨56, _⟩ => ⟨S16777216, .i32⟩
  | .hbm, ⟨57, _⟩ => ⟨S16777216, .i32⟩
  | .hbm, ⟨58, _⟩ => ⟨S_, .i32⟩
  | .hbm, ⟨59, _⟩ => ⟨S16777216, .i32⟩
  | .hbm, ⟨60, _⟩ => ⟨S16777216, .i1⟩
  | .hbm, ⟨61, _⟩ => ⟨S_, .i32⟩
  | .hbm, ⟨62, _⟩ => ⟨S16777216, .i32⟩
  | .hbm, ⟨63, _⟩ => ⟨S16777216, .i32⟩
  | .hbm, ⟨64, _⟩ => ⟨S16777216, .i32⟩
  | .hbm, ⟨65, _⟩ => ⟨S16777216x1, .i32⟩
  | .hbm, ⟨66, _⟩ => ⟨S16777216, .i32⟩
  | .local _ .vmem, ⟨0, _⟩ => ⟨S2048x128, .i32⟩
  | .local _ .vmem, ⟨1, _⟩ => ⟨S2048x128, .i32⟩
  | .local _ .vmem, ⟨2, _⟩ => ⟨S1x8, .i32⟩
  | .local _ .vmem, ⟨3, _⟩ => ⟨S1x8, .f32⟩
  | .local _ .vmem, ⟨4, _⟩ => ⟨S512x128, .i32⟩
  | .local _ .vmem, ⟨5, _⟩ => ⟨S512x128, .i32⟩
  | .local _ .vmem, ⟨6, _⟩ => ⟨S1x8, .f32⟩
  | .local _ .vmem, ⟨7, _⟩ => ⟨S128x128, .bf16⟩
  | .local _ .vmem, ⟨8, _⟩ => ⟨S512x512, .bf16⟩
  | .local _ .vmem, ⟨9, _⟩ => ⟨S512x128, .i32⟩
  | .local _ .vmem, ⟨10, _⟩ => ⟨S512x128, .i32⟩
  | .local _ .vmem, ⟨11, _⟩ => ⟨S1x8, .f32⟩
  | _, _ => ⟨S8388608x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_call0_c : Ref sig .tc := ⟨.hbm, 7, rfl⟩
abbrev main_call0_call0_v0 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst : Ref sig .tc := ⟨.hbm, 27, rfl⟩
abbrev main_v22 : Ref sig .tc := ⟨.hbm, 28, rfl⟩
abbrev main_c_0 : Ref sig .tc := ⟨.hbm, 29, rfl⟩
abbrev main_v23 : Ref sig .tc := ⟨.hbm, 30, rfl⟩
abbrev main_v24 : Ref sig .tc := ⟨.hbm, 31, rfl⟩
abbrev main_c_1 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_c_2 : Ref sig .tc := ⟨.hbm, 38, rfl⟩
abbrev main_v30 : Ref sig .tc := ⟨.hbm, 39, rfl⟩
abbrev main_c_3 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_c : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_0 : Ref sig .tc := ⟨.hbm, 54, rfl⟩
abbrev main_call1_v12 : Ref sig .tc := ⟨.hbm, 55, rfl⟩
abbrev main_call1_v13 : Ref sig .tc := ⟨.hbm, 56, rfl⟩
abbrev main_v31 : Ref sig .tc := ⟨.hbm, 57, rfl⟩
abbrev main_c_4 : Ref sig .tc := ⟨.hbm, 58, rfl⟩
abbrev main_v32 : Ref sig .tc := ⟨.hbm, 59, rfl⟩
abbrev main_v33 : Ref sig .tc := ⟨.hbm, 60, rfl⟩
abbrev main_c_5 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg4_1 : Ref sig .tc := ⟨.vmem, 10, rfl⟩
abbrev cc1_scratch0 : Ref sig .tc := ⟨.vmem, 11, rfl⟩
abbrev cc0_sem0_0 : DmaSem sig := 0
abbrev cc0_sem0_1 : DmaSem sig := 1
abbrev cc0_sem1_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem4_1 : DmaSem sig := 9

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v75 : BitVec 1 := Scalar.cmpi .eq arg0 c63_i32
  let v76 : BitVec 32 := Scalar.extui v75
  let c0_i32_22 : BitVec 32 := 0#32
  let v77 : BitVec 1 := Scalar.cmpi .ne v76 c0_i32_22
  v77

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![256], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x128 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x8 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x128 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  shapeCasts_S8388608x2_S16777216 : S8388608x2.ShapeCasts S16777216
  shapeCasts_S16777216_S131072x128 : S16777216.ShapeCasts S131072x128
  inb_S1x8_S1x8_0_0 : ∀ a, (![0, 0] : Fin 2 → Nat) a + S1x8.size a ≤ S1x8.size a
  h_S1x8 : 0 < S1x8.numel
  shapeCasts_S1x8_S1x8 : S1x8.ShapeCasts S1x8
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  natLt_1_32 : 1 < 32
  reduces_S2048x128_S2048 : S2048x128.Reduces [1] S2048
  shapeCasts_S2048_S2048x1 : S2048.ShapeCasts S2048x1
  reduces_S2048x1_S1 : S2048x1.Reduces [0] S1
  shapeCasts_S1_S1x1 : S1.ShapeCasts S1x1
  concatenates_S1x1_S1x1_S1x1_S1x1_S1x1_S1x1_S1x1_S1x1_S1x8_d1 : Shape.Concatenates [S1x1, S1x1, S1x1, S1x1, S1x1, S1x1, S1x1, S1x1] S1x8 1
  shapeCasts_S1x8_S8 : S1x8.ShapeCasts S8
  bcast_S_S_ : S_.BroadcastsInDim S_ (![] : Fin 0 → Fin S_.rank)
  reduceWindows_S8_S8_w8s1p7_0 : S8.ReduceWindows (![8] : Fin 1 → Nat) ![1] ![7] ![0] S8
  h_S_ : 0 < S_.numel
  bcast_S_S1 : S_.BroadcastsInDim S1 (![] : Fin 0 → Fin S1.rank)
  slices_S8_S7_0 : S8.Slices ![0] S7
  concatenates_S1_S7_S8_d0 : Shape.Concatenates [S1, S7] S8 0
  shapeCasts_S8_S1x8 : S8.ShapeCasts S1x8
  inb_S512x128_S512x128_0_0 : ∀ a, (![0, 0] : Fin 2 → Nat) a + S512x128.size a ≤ S512x128.size a
  h_S512x128 : 0 < S512x128.numel
  shapeCasts_S512x128_S512x128 : S512x128.ShapeCasts S512x128
  bitsLt_bf16_f32 : FTy.bits .bf16 < FTy.bits .f32
  concatenates_S512x128_S512x128_S512x128_S512x128_S512x128_S512x128_S512x128_S512x128_S4096x128_d0 : Shape.Concatenates [S512x128, S512x128, S512x128, S512x128, S512x128, S512x128, S512x128, S512x128] S4096x128 0
  inb_S128x128_S128x128_0_0 : ∀ a, (![0, 0] : Fin 2 → Nat) a + S128x128.size a ≤ S128x128.size a
  h_S128x128 : 0 < S128x128.numel
  shapeCasts_S128x128_S128x128 : S128x128.ShapeCasts S128x128
  reduces_S512x128_S512 : S512x128.Reduces [1] S512
  shapeCasts_S512_S512x1 : S512.ShapeCasts S512x1
  concatenates_S512x1_S512x1_S512x1_S512x1_S512x1_S512x1_S512x1_S512x1_S512x8_d1 : Shape.Concatenates [S512x1, S512x1, S512x1, S512x1, S512x1, S512x1, S512x1, S512x1] S512x8 1
  inb_S512x512_S512x512_0_0 : ∀ a, (![0, 0] : Fin 2 → Nat) a + S512x512.size a ≤ S512x512.size a
  h_S512x512 : 0 < S512x512.numel
  shapeCasts_S512x512_S512x512 : S512x512.ShapeCasts S512x512
  broadcasts_S1x8_S512x8 : S1x8.Broadcasts S512x8
  slices_S4096x128_o0_0_S512x128 : S4096x128.Slices ![0, 0] S512x128
  slices_S512x8_o0_0_S512x1 : S512x8.Slices ![0, 0] S512x1
  broadcasts_S512x1_S512x128 : S512x1.Broadcasts S512x128
  slices_S4096x128_o512_0_S512x128 : S4096x128.Slices ![512, 0] S512x128
  slices_S512x8_o0_1_S512x1 : S512x8.Slices ![0, 1] S512x1
  slices_S4096x128_o1024_0_S512x128 : S4096x128.Slices ![1024, 0] S512x128
  slices_S512x8_o0_2_S512x1 : S512x8.Slices ![0, 2] S512x1
  slices_S4096x128_o1536_0_S512x128 : S4096x128.Slices ![1536, 0] S512x128
  slices_S512x8_o0_3_S512x1 : S512x8.Slices ![0, 3] S512x1
  slices_S4096x128_o2048_0_S512x128 : S4096x128.Slices ![2048, 0] S512x128
  slices_S512x8_o0_4_S512x1 : S512x8.Slices ![0, 4] S512x1
  slices_S4096x128_o2560_0_S512x128 : S4096x128.Slices ![2560, 0] S512x128
  slices_S512x8_o0_5_S512x1 : S512x8.Slices ![0, 5] S512x1
  slices_S4096x128_o3072_0_S512x128 : S4096x128.Slices ![3072, 0] S512x128
  slices_S512x8_o0_6_S512x1 : S512x8.Slices ![0, 6] S512x1
  slices_S4096x128_o3584_0_S512x128 : S4096x128.Slices ![3584, 0] S512x128
  slices_S512x8_o0_7_S512x1 : S512x8.Slices ![0, 7] S512x1
  reduces_S512x8_S8 : S512x8.Reduces [0] S8
  shapeCasts_S131072x128_S16777216 : S131072x128.ShapeCasts S16777216
  bcast_S_S16777216 : S_.BroadcastsInDim S16777216 (![] : Fin 0 → Fin S16777216.rank)
  bcast_S16777216_S16777216x1_0 : S16777216.BroadcastsInDim S16777216x1 (![0] : Fin 1 → Fin S16777216x1.rank)
  dot_S4096x128_S128x128_S4096x128_1_0_0_1_n_n_wf : DotDims.WF S4096x128 S128x128 S4096x128 [1] [0] [0] [1] [] []
  dot_S512x512_S512x8_S512x8_1_0_0_1_n_n_wf : DotDims.WF S512x512 S512x8 S512x8 [1] [0] [0] [1] [] []
  scatter_S16777216_S16777216x1_S16777216_n_0_0_1_wf : ScatterDims.WF S16777216 S16777216x1 S16777216 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S131072x128.size a
  hwx0_0 : ∀ i : grid0.Coords, EltTy.bits .i32 = 32 ∨ (Rect.block (s := S131072x128) S2048x128.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x8.size a ≤ S1x8.size a
  hwx0_1 : ∀ i : grid0.Coords, EltTy.bits .i32 = 32 ∨ (Rect.block (s := S1x8) S1x8.size (cc0_transform_1 i) (hinb0_1 i)).WholeWords (EltTy.packing .i32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x128.size a ≤ S131072x128.size a
  hwx1_0 : ∀ i : grid1.Coords, EltTy.bits .i32 = 32 ∨ (Rect.block (s := S131072x128) S512x128.size (cc1_transform_0 i) (hinb1_0 i)).WholeWords (EltTy.packing .i32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x8.size a ≤ S1x8.size a
  hwx1_1 : ∀ i : grid1.Coords, EltTy.bits .f32 = 32 ∨ (Rect.block (s := S1x8) S1x8.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S512x512.size a
  hwx1_3 : ∀ i : grid1.Coords, EltTy.bits .bf16 = 32 ∨ (Rect.block (s := S512x512) S512x512.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x128.size a ≤ S131072x128.size a
  hwx1_4 : ∀ i : grid1.Coords, EltTy.bits .i32 = 32 ∨ (Rect.block (s := S131072x128) S512x128.size (cc1_transform_4 i) (hinb1_4 i)).WholeWords (EltTy.packing .i32)

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S512x512_S512x8_S512x8_1_0_0_1_n_n : DotDims S512x512 S512x8 S512x8 where
  lhsContracting := [1]
  rhsContracting := [0]
  lhsNonContracting := [0]
  rhsNonContracting := [1]
  lhsBatch := []
  rhsBatch := []
  wf := dot_S512x512_S512x8_S512x8_1_0_0_1_n_n_wf
def scatter_S16777216_S16777216x1_S16777216_n_0_0_1 : ScatterDims S16777216 S16777216x1 S16777216 where
  updateWindowDims := []
  insertedWindowDims := [0]
  scatterDimsToOperandDims := [0]
  indexVectorDim := 1
  wf := scatter_S16777216_S16777216x1_S16777216_n_0_0_1_wf

abbrev win0_0 : Pipeline.Window sig grid0 :=
  Pipeline.Window.ofSpec (Memref.whole main_v2) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x8.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_v2) S512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S1x8.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v14) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v18) S512x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v19) S512x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S8388608x2 : Shape := ⟨2, ![8388608, 2]⟩
abbrev S16777216 : Shape := ⟨1, ![16777216]⟩
abbrev S_ : Shape := ⟨0, ![]⟩
abbrev S8 : Shape := ⟨1, ![8]⟩
abbrev S16777216x1 : Shape := ⟨2, ![16777216, 1]⟩

abbrev nBuf : Space → Nat
  | .hbm => 51
  | .vmem => 0
  | .smem => 0
  | _ => 0

abbrev bufTy : (tb : Table) → Fin (tcTables nBuf tb) → BufTy
  | .hbm, ⟨0, _⟩ => ⟨S8388608x2, .f32⟩
  | .hbm, ⟨1, _⟩ => ⟨S8388608x2, .i32⟩
  | .hbm, ⟨2, _⟩ => ⟨S16777216, .i32⟩
  | .hbm, ⟨3, _⟩ => ⟨S_, .i32⟩
  | .hbm, ⟨4, _⟩ => ⟨S8, .i32⟩
  | .hbm, ⟨5, _⟩ => ⟨S_, .i32⟩
  | .hbm, ⟨6, _⟩ => ⟨S_, .i32⟩
  | .hbm, ⟨7, _⟩ => ⟨S16777216, .i32⟩
  | .hbm, ⟨8, _⟩ => ⟨S16777216, .i32⟩
  | .hbm, ⟨9, _⟩ => ⟨S_, .i32⟩
  | .hbm, ⟨10, _⟩ => ⟨S16777216, .i32⟩
  | .hbm, ⟨11, _⟩ => ⟨S16777216, .i1⟩
  | .hbm, ⟨12, _⟩ => ⟨S_, .i32⟩
  | .hbm, ⟨13, _⟩ => ⟨S16777216, .i32⟩
  | .hbm, ⟨14, _⟩ => ⟨S16777216, .i32⟩
  | .hbm, ⟨15, _⟩ => ⟨S16777216, .i32⟩
  | .hbm, ⟨16, _⟩ => ⟨S16777216x1, .i32⟩
  | .hbm, ⟨17, _⟩ => ⟨S_, .i32⟩
  | .hbm, ⟨18, _⟩ => ⟨S16777216, .i32⟩
  | .hbm, ⟨19, _⟩ => ⟨S8, .i32⟩
  | .hbm, ⟨20, _⟩ => ⟨S16777216, .i32⟩
  | .hbm, ⟨21, _⟩ => ⟨S16777216, .i32⟩
  | .hbm, ⟨22, _⟩ => ⟨S16777216, .i32⟩
  | .hbm, ⟨23, _⟩ => ⟨S16777216, .f32⟩
  | .hbm, ⟨24, _⟩ => ⟨S_, .i32⟩
  | .hbm, ⟨25, _⟩ => ⟨S16777216, .i32⟩
  | .hbm, ⟨26, _⟩ => ⟨S16777216, .i1⟩
  | .hbm, ⟨27, _⟩ => ⟨S_, .i32⟩
  | .hbm, ⟨28, _⟩ => ⟨S16777216, .i32⟩
  | .hbm, ⟨29, _⟩ => ⟨S16777216, .i32⟩
  | .hbm, ⟨30, _⟩ => ⟨S16777216, .i32⟩
  | .hbm, ⟨31, _⟩ => ⟨S16777216x1, .i32⟩
  | .hbm, ⟨32, _⟩ => ⟨S16777216, .f32⟩
  | .hbm, ⟨33, _⟩ => ⟨S_, .i32⟩
  | .hbm, ⟨34, _⟩ => ⟨S_, .i32⟩
  | .hbm, ⟨35, _⟩ => ⟨S16777216, .i32⟩
  | .hbm, ⟨36, _⟩ => ⟨S16777216, .i32⟩
  | .hbm, ⟨37, _⟩ => ⟨S16777216, .i32⟩
  | .hbm, ⟨38, _⟩ => ⟨S_, .i32⟩
  | .hbm, ⟨39, _⟩ => ⟨S16777216, .i32⟩
  | .hbm, ⟨40, _⟩ => ⟨S16777216, .i1⟩
  | .hbm, ⟨41, _⟩ => ⟨S16777216, .i32⟩
  | .hbm, ⟨42, _⟩ => ⟨S16777216, .i32⟩
  | .hbm, ⟨43, _⟩ => ⟨S_, .i32⟩
  | .hbm, ⟨44, _⟩ => ⟨S16777216, .i32⟩
  | .hbm, ⟨45, _⟩ => ⟨S16777216, .i1⟩
  | .hbm, ⟨46, _⟩ => ⟨S16777216, .i1⟩
  | .hbm, ⟨47, _⟩ => ⟨S_, .i32⟩
  | .hbm, ⟨48, _⟩ => ⟨S16777216, .i32⟩
  | .hbm, ⟨49, _⟩ => ⟨S16777216, .i32⟩
  | .hbm, ⟨50, _⟩ => ⟨S16777216, .i32⟩
  | _, _ => ⟨S8388608x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_v2 : Ref sig .tc := ⟨.hbm, 8, rfl⟩
abbrev main_c_1 : Ref sig .tc := ⟨.hbm, 9, rfl⟩
abbrev main_v3 : Ref sig .tc := ⟨.hbm, 10, rfl⟩
abbrev main_v4 : Ref sig .tc := ⟨.hbm, 11, rfl⟩
abbrev main_c_2 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_3 : Ref sig .tc := ⟨.hbm, 17, rfl⟩
abbrev main_v9 : Ref sig .tc := ⟨.hbm, 18, rfl⟩
abbrev main_v10 : Ref sig .tc := ⟨.hbm, 19, rfl⟩
abbrev main_call1_v0 : Ref sig .tc := ⟨.hbm, 20, rfl⟩
abbrev main_call1_v1_0 : Ref sig .tc := ⟨.hbm, 21, rfl⟩
abbrev main_v11 : Ref sig .tc := ⟨.hbm, 22, rfl⟩
abbrev main_v12 : Ref sig .tc := ⟨.hbm, 23, rfl⟩
abbrev main_c_4 : Ref sig .tc := ⟨.hbm, 24, rfl⟩
abbrev main_v13 : Ref sig .tc := ⟨.hbm, 25, rfl⟩
abbrev main_v14 : Ref sig .tc := ⟨.hbm, 26, rfl⟩
abbrev main_c_5 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_6 : Ref sig .tc := ⟨.hbm, 33, rfl⟩
abbrev main_call2_v0 : Ref sig .tc := ⟨.hbm, 34, rfl⟩
abbrev main_call2_v1 : Ref sig .tc := ⟨.hbm, 35, rfl⟩
abbrev main_call2_v2 : Ref sig .tc := ⟨.hbm, 36, rfl⟩
abbrev main_call2_v3 : Ref sig .tc := ⟨.hbm, 37, rfl⟩
abbrev main_call2_v4 : Ref sig .tc := ⟨.hbm, 38, rfl⟩
abbrev main_call2_v5 : Ref sig .tc := ⟨.hbm, 39, rfl⟩
abbrev main_call2_v6 : Ref sig .tc := ⟨.hbm, 40, rfl⟩
abbrev main_call2_v7 : Ref sig .tc := ⟨.hbm, 41, rfl⟩
abbrev main_call2_v8 : Ref sig .tc := ⟨.hbm, 42, rfl⟩
abbrev main_call2_c : Ref sig .tc := ⟨.hbm, 43, rfl⟩
abbrev main_call2_v9 : Ref sig .tc := ⟨.hbm, 44, rfl⟩
abbrev main_call2_v10 : Ref sig .tc := ⟨.hbm, 45, rfl⟩
abbrev main_call2_v11 : Ref sig .tc := ⟨.hbm, 46, rfl⟩
abbrev main_call2_c_0 : Ref sig .tc := ⟨.hbm, 47, rfl⟩
abbrev main_call2_v12 : Ref sig .tc := ⟨.hbm, 48, rfl⟩
abbrev main_call2_v13 : Ref sig .tc := ⟨.hbm, 49, rfl⟩
abbrev main_v20 : Ref sig .tc := ⟨.hbm, 50, rfl⟩

abbrev nD : Nat := 1
abbrev τ : Topo := Topo.v7x

variable {F : FTy → Type} [FloatOps F]

class Facts₀ : Prop where
  shapeCasts_S8388608x2_S16777216 : S8388608x2.ShapeCasts S16777216
  bcast_S_S8 : S_.BroadcastsInDim S8 (![] : Fin 0 → Fin S8.rank)
  bcast_S_S16777216 : S_.BroadcastsInDim S16777216 (![] : Fin 0 → Fin S16777216.rank)
  bcast_S16777216_S16777216x1_0 : S16777216.BroadcastsInDim S16777216x1 (![0] : Fin 1 → Fin S16777216x1.rank)
  scatter_S8_S16777216x1_S16777216_n_0_0_1_wf : ScatterDims.WF S8 S16777216x1 S16777216 [] [0] [0] 1
  gather_S16777216_S16777216x1_S16777216_n_0_n_n_0_1_1_wf : GatherDims.WF S16777216 S16777216x1 S16777216 [] [0] [] [0] [] 1 ![1]

variable [Facts₀]

def scatter_S8_S16777216x1_S16777216_n_0_0_1 : ScatterDims S8 S16777216x1 S16777216 where
  updateWindowDims := []
  insertedWindowDims := [0]
  scatterDimsToOperandDims := [0]
  indexVectorDim := 1
  wf := scatter_S8_S16777216x1_S16777216_n_0_0_1_wf
def comparator_i32_i32_d0 : BitVec 32 × BitVec 32 → BitVec 32 × BitVec 32 → BitVec 1 :=
  fun l r =>
    let v2 := IntOp.cmpi .slt l.1 r.1
    v2
def gather_S16777216_S16777216x1_S16777216_n_0_n_n_0_1_1 : GatherDims S16777216 S16777216x1 S16777216 where
  offsetDims := []
  collapsedSliceDims := [0]
  operandBatchingDims := []
  startIndicesBatchingDims := []
  startIndexMap := [0]
  indexVectorDim := 1
  sliceSizes := ![1]
  wf := gather_S16777216_S16777216x1_S16777216_n_0_n_n_0_1_1_wf

class Facts : Prop extends Facts₀ where

variable [Facts]
-- ==== Proof.K.Hist.Base.lean ====
/-
  The histogram kernel's grid walk, the facts every point shares.

  The body has two conditions on the grid point: "this is the first block" (it then zeroes the row of running counts)
  and "this is the last block" (it then converts the running counts to integers into its result). Over the 64 points
  they single out point 0 and point 63; at every other point the result window is idle and is not written back.
-/
import proofs.«428384_j28252294873409_1_alg».proof.Proof.Gen.Kernel.Launch
import proofs.«428384_j28252294873409_1_alg».proof.Proof.Gen.Kernel.Skeleton
import proofs.«428384_j28252294873409_1_alg».proof.Proof.Gen.Kernel.Points
import proofs.«428384_j28252294873409_1_alg».proof.Proof.K.Steps
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hist

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the contents of the core's buffers when the region is entered: a parameter
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is the
    entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditions -/

/-- "This is the first block": the condition under which the body zeroes the running counts. -/
abbrev isFirst (i : grid0.Coords) : Prop := (Scalar.cmpi .ne (Scalar.extui (Scalar.cmpi .eq (BitVec.ofNat 32 (i 0).val) 0#32)) 0#32) = 1#1
/-- It holds at point 0 only. -/
theorem isFirst_iff : ∀ t : Fin cfg0.N, isFirst (grid0.coords t) ↔ t.val % 64 = 0 :=
  (by decide +kernel : ∀ t : Fin grid0.N, isFirst (grid0.coords t) ↔ t.val % 64 = 0)

/-- "This is the last block": the condition under which the body writes its result. -/
abbrev isLast (i : grid0.Coords) : Prop := k0_cond2 i = 1#1
/-- It holds at point 63 only. -/
theorem isLast_iff : ∀ t : Fin cfg0.N, isLast (grid0.coords t) ↔ t.val % 64 = 63 :=
  (by decide +kernel : ∀ t : Fin grid0.N, isLast (grid0.coords t) ↔ t.val % 64 = 63)

/-! ## Where the windows are idle -/

/-- The input window is never idle. -/
theorem live_in : ∀ t : Fin cfg0.N, cfg0.idle 0 (grid0.coords t) = false := by decide +kernel
/-- Away from the last block the result window is idle, -/
theorem idle_out : ∀ t : Fin cfg0.N, ¬isLast (grid0.coords t) → cfg0.idle 1 (grid0.coords t) = true := by decide +kernel
/-- and is not written back. -/
theorem noFlush_out : ∀ t : Fin cfg0.N, ¬isLast (grid0.coords t) → (cfg0.win 1).flush t = false := by decide +kernel
/-- At the last block it is live. -/
theorem live_out : ∀ t : Fin cfg0.N, isLast (grid0.coords t) → cfg0.idle 1 (grid0.coords t) = false := by decide +kernel

/-! ## The memrefs the body is called with -/

/-- The result window's one staging buffer, as a view: its contents are stated through it. -/
abbrev VOut : View sig .tc .vmem S1x8 .i32 := (Memref.whole cc0_stg1_0 : Memref sig .tc .vmem S1x8 .i32).view
/-- Each window's current staging memref at point `t`, and its wholeness. -/
abbrev mIn (t : Fin cfg0.N) : Memref sig .tc .vmem S2048x128 .i32 := win0_0.stage (cfg0.slots t 0)
abbrev hIn (t : Fin cfg0.N) : (mIn t).IsWhole := hstage0_0 ((cfg0.slots t 0).cast nbuf0_0)
abbrev mOut (t : Fin cfg0.N) : Memref sig .tc .vmem S1x8 .i32 := win0_1.stage (cfg0.slots t 1)
abbrev hOut (t : Fin cfg0.N) : (mOut t).IsWhole := hstage0_1 ((cfg0.slots t 1).cast nbuf0_1)
/-- The row of running counts: a whole scoped buffer of the kernel's own, carried from point to point. -/
abbrev mAcc : Memref sig .tc .vmem S1x8 .f32 := Memref.whole cc0_scratch0
/-- The same as a view. -/
abbrev VAcc : View sig .tc .vmem S1x8 .f32 := mAcc.view

/-- The core's other scoped buffers (the second kernel's staging buffers and scratch), each whole at some contents:
    the histogram kernel never touches them. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f))

/-- What the launch hands the region: the running counts at some contents, the other scoped buffers, and the
    generator register at some state. -/
theorem PhiA0_eq (c : Dev nD) :
    (Pipeline.ΦA spec0 c : sProp 𝕄)
      = iprop(iprop((∃ d, owns (c : Thread nD τ) mAcc fullShare d) ∗ others (F := F) c) ∗ (∃ r, prngReg c r)) := by
  unfold Pipeline.ΦA others; rw [scopedRest0_eq]; simp only [mAcc, owns_whole]; try rfl

end Cert.Kernel.Hist

end
-- ==== Proof.K.Hist.RunFirst.lean ====
/-
  The histogram body at the first block: it zeroes the running counts, then adds the block's eight counts.
-/
import proofs.«428384_j28252294873409_1_alg».proof.Proof.K.Hist.Base

set_option maxRecDepth 16384

noncomputable section

namespace Cert.Kernel.Hist

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body at the first block, on whole memrefs — the input block at `x0`, the idle result buffer at `xi1` handed
    back untouched, the running counts at anything — runs to the continuation holding the input as it was and the
    running counts with the pieces its two stores wrote (last first): the pieces are the witness the run finds. -/
noncomputable def runFirst (c : Dev nD) (i : grid0.Coords) (arg1 : Memref sig .tc .vmem S2048x128 .i32) (harg1 : arg1.IsWhole) (arg2 : Memref sig .tc .vmem S1x8 .i32) (harg2 : arg2.IsWhole) (arg3 : Memref sig .tc .vmem S1x8 .f32) (harg3 : arg3.IsWhole) (hc0 : isFirst i) (hc1 : ¬isLast i)
    (x0 : Vec F S2048x128 .i32) :
    { LS0 : List (View.Piece (Elt F) S1x8 .f32) //
      ∀ (xi1 : Vec F S1x8 .i32) (E : Set ℕ) (K : PUnit → sProp 𝕄),
        iprop(owns (c : Thread nD τ) arg1 fullShare x0 ∗ owns (c : Thread nD τ) arg2 fullShare xi1 ∗ (∃ d, owns (c : Thread nD τ) arg3 fullShare d)
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc0_hist_kernel i arg1 harg1 arg2 harg2 arg3 harg3) K } := by
  refine ⟨?_, fun xi1 E K => ?run⟩
  case run =>
    simp only [cc0_hist_kernel_eq_skeleton]; unfold cc0_hist_kernel_skel
    simp only [k0_part1_eq_skeleton]
    unfold owns
    iintro ⟨⟨%f0, %hf0, H0⟩, ⟨%f1, %hf1, H1⟩, ⟨%ds0, %fs0, -, HS0⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

end Cert.Kernel.Hist

end
-- ==== Proof.K.Hist.RunMid.lean ====
/-
  The histogram body at a block that is neither the first nor the last: it adds the block's eight counts to the
  running counts.
-/
import proofs.«428384_j28252294873409_1_alg».proof.Proof.K.Hist.RunFirst

set_option maxRecDepth 16384

noncomputable section

namespace Cert.Kernel.Hist

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body at a middle block, on whole memrefs — the input block at `x0`, the idle result buffer at `xi1` handed
    back untouched, the running counts at what the block before left (`xs0`) — runs to the continuation holding the
    input as it was and the running counts with the piece its store wrote: the witness the run finds. -/
noncomputable def runMid (c : Dev nD) (i : grid0.Coords) (arg1 : Memref sig .tc .vmem S2048x128 .i32) (harg1 : arg1.IsWhole) (arg2 : Memref sig .tc .vmem S1x8 .i32) (harg2 : arg2.IsWhole) (arg3 : Memref sig .tc .vmem S1x8 .f32) (harg3 : arg3.IsWhole) (hc0 : ¬isFirst i) (hc1 : ¬isLast i)
    (x0 : Vec F S2048x128 .i32) (xs0 : Vec F S1x8 .f32) :
    { LS0 : List (View.Piece (Elt F) S1x8 .f32) //
      ∀ (xi1 : Vec F S1x8 .i32) (E : Set ℕ) (K : PUnit → sProp 𝕄),
        iprop(owns (c : Thread nD τ) arg1 fullShare x0 ∗ owns (c : Thread nD τ) arg2 fullShare xi1 ∗ owns (c : Thread nD τ) arg3 fullShare xs0
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc0_hist_kernel i arg1 harg1 arg2 harg2 arg3 harg3) K } := by
  refine ⟨?_, fun xi1 E K => ?run⟩
  case run =>
    simp only [cc0_hist_kernel_eq_skeleton]; unfold cc0_hist_kernel_skel
    simp only [k0_part1_eq_skeleton]
    unfold owns
    iintro ⟨⟨%f0, %hf0, H0⟩, ⟨%f1, %hf1, H1⟩, ⟨%fs0, %hfs0, HS0⟩, Hk⟩
    obtain rfl := harg1.eq_unread hf0; obtain rfl := harg2.eq_unread hf1; obtain rfl := harg3.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

end Cert.Kernel.Hist

end
-- ==== Proof.K.Hist.RunLast.lean ====
/-
  The histogram body at the last block: it adds the block's eight counts to the running counts, then converts the
  running counts to integers into its result.
-/
import proofs.«428384_j28252294873409_1_alg».proof.Proof.K.Hist.RunMid

set_option maxRecDepth 16384

noncomputable section

namespace Cert.Kernel.Hist

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body at the last block, on whole memrefs — the input block at `x0`, the result buffer at anything, the
    running counts at what the block before left (`xs0`) — runs to the continuation holding the input as it was, the
    result buffer with the piece its store wrote (`L1`) and the running counts with theirs (`LS0`): the witnesses
    the run finds. -/
noncomputable def runLast (c : Dev nD) (i : grid0.Coords) (arg1 : Memref sig .tc .vmem S2048x128 .i32) (harg1 : arg1.IsWhole) (arg2 : Memref sig .tc .vmem S1x8 .i32) (harg2 : arg2.IsWhole) (arg3 : Memref sig .tc .vmem S1x8 .f32) (harg3 : arg3.IsWhole) (hc0 : ¬isFirst i) (hc1 : isLast i)
    (x0 : Vec F S2048x128 .i32) (xs0 : Vec F S1x8 .f32) :
    Σ' (L1 : List (View.Piece (Elt F) S1x8 .i32)), { LS0 : List (View.Piece (Elt F) S1x8 .f32) //
      ∀ (E : Set ℕ) (K : PUnit → sProp 𝕄),
        iprop(owns (c : Thread nD τ) arg1 fullShare x0 ∗ (∃ d, owns (c : Thread nD τ) arg2 fullShare d) ∗ owns (c : Thread nD τ) arg3 fullShare xs0
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f LS0)) -∗ K ⟨⟩))
          ⊢ wp frame (wpE (defs₀ (F := F)) Variants.none c none) E (cc0_hist_kernel i arg1 harg1 arg2 harg2 arg3 harg3) K } := by
  refine ⟨?_, ?_, fun E K => ?run⟩
  case run =>
    simp only [cc0_hist_kernel_eq_skeleton]; unfold cc0_hist_kernel_skel
    simp only [k0_part1_eq_skeleton]
    unfold owns
    iintro ⟨⟨%f0, %hf0, H0⟩, ⟨%d1, %f1, -, H1⟩, ⟨%fs0, %hfs0, HS0⟩, Hk⟩
    obtain rfl := harg1.eq_unread hf0; obtain rfl := harg3.eq_unread hfs0
    sl_exec (disch := first | exact hc0 | exact hc1)
    sl_step
    iapply Hk
    isplitl [H0]
    · iexists _; isplitr; · ipureintro; exact harg1.read_unread _
      iexact H0
    isplitl [H1]; · iexists _; iexact H1
    iexists _; iexact HS0

end Cert.Kernel.Hist

end
-- ==== Proof.K.Hist.Dat.lean ====
/-
  The histogram kernel's proof data over its 64 blocks, and its body obligation.

  After block n the row of running counts holds what the case of block n left in it: the first block zeroes it and
  adds its counts; every later block adds its counts to what the block before left. The result window holds, after the
  last block, the running counts converted to integers; at every other block it is idle. The invariant carries the
  running counts, owned at that value, from each point to the next.
-/
import proofs.«428384_j28252294873409_1_alg».proof.Proof.K.Hist.RunLast

set_option maxRecDepth 16384

noncomputable section

namespace Cert.Kernel.Hist

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- The first block's two stores cover the row of running counts. -/
theorem cover_accFirst (c : Dev nD) (i : grid0.Coords) (arg1 : Memref sig .tc .vmem S2048x128 .i32) (harg1 : arg1.IsWhole) (arg2 : Memref sig .tc .vmem S1x8 .i32) (harg2 : arg2.IsWhole) (arg3 : Memref sig .tc .vmem S1x8 .f32) (harg3 : arg3.IsWhole) (hc0 : isFirst i) (hc1 : ¬isLast i)
    (x0 : Vec F S2048x128 .i32) (y : S1x8.Idx) :
    ∃ pc ∈ (runFirst c i arg1 harg1 arg2 harg2 arg3 harg3 hc0 hc1 x0).1, y ∈ pc.1.set :=
  View.cover_of_tiledL (runFirst c i arg1 harg1 arg2 harg2 arg3 harg3 hc0 hc1 x0).1 S1x8.size (by sl_kernel_rfl) y

/-- What the first block leaves in the row of running counts: its pieces read back. -/
def accFirst (c : Dev nD) (i : grid0.Coords) (arg1 : Memref sig .tc .vmem S2048x128 .i32) (harg1 : arg1.IsWhole) (arg2 : Memref sig .tc .vmem S1x8 .i32) (harg2 : arg2.IsWhole) (arg3 : Memref sig .tc .vmem S1x8 .f32) (harg3 : arg3.IsWhole) (hc0 : isFirst i) (hc1 : ¬isLast i)
    (x0 : Vec F S2048x128 .i32) : Vec F S1x8 .f32 :=
  VAcc.read (Elt F) (VAcc.writes (Elt F) VAcc.junk (runFirst c i arg1 harg1 arg2 harg2 arg3 harg3 hc0 hc1 x0).1)

/-- A middle block's store covers the row of running counts. -/
theorem cover_accMid (c : Dev nD) (i : grid0.Coords) (arg1 : Memref sig .tc .vmem S2048x128 .i32) (harg1 : arg1.IsWhole) (arg2 : Memref sig .tc .vmem S1x8 .i32) (harg2 : arg2.IsWhole) (arg3 : Memref sig .tc .vmem S1x8 .f32) (harg3 : arg3.IsWhole) (hc0 : ¬isFirst i) (hc1 : ¬isLast i)
    (x0 : Vec F S2048x128 .i32) (xs0 : Vec F S1x8 .f32) (y : S1x8.Idx) :
    ∃ pc ∈ (runMid c i arg1 harg1 arg2 harg2 arg3 harg3 hc0 hc1 x0 xs0).1, y ∈ pc.1.set :=
  View.cover_of_tiledL (runMid c i arg1 harg1 arg2 harg2 arg3 harg3 hc0 hc1 x0 xs0).1 S1x8.size (by sl_kernel_rfl) y

/-- What a middle block leaves in the row of running counts: its piece read back. -/
def accMid (c : Dev nD) (i : grid0.Coords) (arg1 : Memref sig .tc .vmem S2048x128 .i32) (harg1 : arg1.IsWhole) (arg2 : Memref sig .tc .vmem S1x8 .i32) (harg2 : arg2.IsWhole) (arg3 : Memref sig .tc .vmem S1x8 .f32) (harg3 : arg3.IsWhole) (hc0 : ¬isFirst i) (hc1 : ¬isLast i)
    (x0 : Vec F S2048x128 .i32) (xs0 : Vec F S1x8 .f32) : Vec F S1x8 .f32 :=
  VAcc.read (Elt F) (VAcc.writes (Elt F) VAcc.junk (runMid c i arg1 harg1 arg2 harg2 arg3 harg3 hc0 hc1 x0 xs0).1)

/-- The last block's store into the result covers it. -/
theorem cover_outLast (c : Dev nD) (i : grid0.Coords) (arg1 : Memref sig .tc .vmem S2048x128 .i32) (harg1 : arg1.IsWhole) (arg2 : Memref sig .tc .vmem S1x8 .i32) (harg2 : arg2.IsWhole) (arg3 : Memref sig .tc .vmem S1x8 .f32) (harg3 : arg3.IsWhole) (hc0 : ¬isFirst i) (hc1 : isLast i)
    (x0 : Vec F S2048x128 .i32) (xs0 : Vec F S1x8 .f32) (y : S1x8.Idx) :
    ∃ pc ∈ (runLast c i arg1 harg1 arg2 harg2 arg3 harg3 hc0 hc1 x0 xs0).1, y ∈ pc.1.set :=
  View.cover_of_tiledL (runLast c i arg1 harg1 arg2 harg2 arg3 harg3 hc0 hc1 x0 xs0).1 S1x8.size (by sl_kernel_rfl) y

/-- What the last block leaves in the result's staging buffer: its piece read back. -/
def outLast (c : Dev nD) (i : grid0.Coords) (arg1 : Memref sig .tc .vmem S2048x128 .i32) (harg1 : arg1.IsWhole) (arg2 : Memref sig .tc .vmem S1x8 .i32) (harg2 : arg2.IsWhole) (arg3 : Memref sig .tc .vmem S1x8 .f32) (harg3 : arg3.IsWhole) (hc0 : ¬isFirst i) (hc1 : isLast i)
    (x0 : Vec F S2048x128 .i32) (xs0 : Vec F S1x8 .f32) : Vec F S1x8 .i32 :=
  VOut.read (Elt F) (VOut.writes (Elt F) VOut.junk (runLast c i arg1 harg1 arg2 harg2 arg3 harg3 hc0 hc1 x0 xs0).1)

/-- The last block's store into the row of running counts covers it. -/
theorem cover_accLast (c : Dev nD) (i : grid0.Coords) (arg1 : Memref sig .tc .vmem S2048x128 .i32) (harg1 : arg1.IsWhole) (arg2 : Memref sig .tc .vmem S1x8 .i32) (harg2 : arg2.IsWhole) (arg3 : Memref sig .tc .vmem S1x8 .f32) (harg3 : arg3.IsWhole) (hc0 : ¬isFirst i) (hc1 : isLast i)
    (x0 : Vec F S2048x128 .i32) (xs0 : Vec F S1x8 .f32) (y : S1x8.Idx) :
    ∃ pc ∈ (runLast c i arg1 harg1 arg2 harg2 arg3 harg3 hc0 hc1 x0 xs0).2.1, y ∈ pc.1.set :=
  View.cover_of_tiledL (runLast c i arg1 harg1 arg2 harg2 arg3 harg3 hc0 hc1 x0 xs0).2.1 S1x8.size (by sl_kernel_rfl) y

/-- What the last block leaves in the row of running counts: its piece read back. -/
def accLast (c : Dev nD) (i : grid0.Coords) (arg1 : Memref sig .tc .vmem S2048x128 .i32) (harg1 : arg1.IsWhole) (arg2 : Memref sig .tc .vmem S1x8 .i32) (harg2 : arg2.IsWhole) (arg3 : Memref sig .tc .vmem S1x8 .f32) (harg3 : arg3.IsWhole) (hc0 : ¬isFirst i) (hc1 : isLast i)
    (x0 : Vec F S2048x128 .i32) (xs0 : Vec F S1x8 .f32) : Vec F S1x8 .f32 :=
  VAcc.read (Elt F) (VAcc.writes (Elt F) VAcc.junk (runLast c i arg1 harg1 arg2 harg2 arg3 harg3 hc0 hc1 x0 xs0).2.1)

/-- The result's staging buffer where no block has stored into it: nothing consults it. -/
def outIdle : Vec F S1x8 .i32 := VOut.read (Elt F) VOut.junk

/-! ## What the result buffer and the running counts hold after each block -/

theorem N64 : cfg0.N = 64 := N_0

/-- After the body at block `n`: the result's staging buffer and the row of running counts — the case of block `n`,
    run at the block's memrefs and its input block, over the running counts block `n - 1` left. -/
def outsAt0 (c : Dev nD) : (n : ℕ) → n < cfg0.N → Vec F S1x8 .i32 × Vec F S1x8 .f32
  | 0, hn => (outIdle, accFirst c (grid0.coords ⟨0, hn⟩) (mIn ⟨0, hn⟩) (hIn ⟨0, hn⟩) (mOut ⟨0, hn⟩) (hOut ⟨0, hn⟩) mAcc (Memref.isWhole_whole _) ((isFirst_iff ⟨0, hn⟩).mpr (Nat.zero_mod _)) (fun h => (fun h => by (try dsimp only at h); omega) ((isLast_iff ⟨0, hn⟩).mp h)) (iblk0 V c 0 ⟨0, hn⟩))
  | n + 1, hn =>
    if h1 : (n + 1) % 64 = 63 then
      (outLast c (grid0.coords ⟨n + 1, hn⟩) (mIn ⟨n + 1, hn⟩) (hIn ⟨n + 1, hn⟩) (mOut ⟨n + 1, hn⟩) (hOut ⟨n + 1, hn⟩) mAcc (Memref.isWhole_whole _) (fun h => (fun h => by have hN : n + 1 < 64 := lt_of_lt_of_eq hn N64; (try dsimp only at h); omega) ((isFirst_iff ⟨n + 1, hn⟩).mp h)) ((isLast_iff ⟨n + 1, hn⟩).mpr h1) (iblk0 V c 0 ⟨n + 1, hn⟩) (outsAt0 c n (Nat.lt_of_succ_lt hn)).2,
       accLast c (grid0.coords ⟨n + 1, hn⟩) (mIn ⟨n + 1, hn⟩) (hIn ⟨n + 1, hn⟩) (mOut ⟨n + 1, hn⟩) (hOut ⟨n + 1, hn⟩) mAcc (Memref.isWhole_whole _) (fun h => (fun h => by have hN : n + 1 < 64 := lt_of_lt_of_eq hn N64; (try dsimp only at h); omega) ((isFirst_iff ⟨n + 1, hn⟩).mp h)) ((isLast_iff ⟨n + 1, hn⟩).mpr h1) (iblk0 V c 0 ⟨n + 1, hn⟩) (outsAt0 c n (Nat.lt_of_succ_lt hn)).2)
    else
      (outIdle, accMid c (grid0.coords ⟨n + 1, hn⟩) (mIn ⟨n + 1, hn⟩) (hIn ⟨n + 1, hn⟩) (mOut ⟨n + 1, hn⟩) (hOut ⟨n + 1, hn⟩) mAcc (Memref.isWhole_whole _) (fun h => (fun h => by have hN : n + 1 < 64 := lt_of_lt_of_eq hn N64; (try dsimp only at h); omega) ((isFirst_iff ⟨n + 1, hn⟩).mp h)) (fun h => h1 ((isLast_iff ⟨n + 1, hn⟩).mp h)) (iblk0 V c 0 ⟨n + 1, hn⟩) (outsAt0 c n (Nat.lt_of_succ_lt hn)).2)

/-- At the first block. -/
theorem outsAt0_first (c : Dev nD) (t : Fin cfg0.N) (h0 : t.val % 64 = 0) (h1 : ¬t.val % 64 = 63) :
    outsAt0 V c t.val t.isLt = (outIdle, accFirst c (grid0.coords t) (mIn t) (hIn t) (mOut t) (hOut t) mAcc (Memref.isWhole_whole _) ((isFirst_iff t).mpr h0) (fun h => h1 ((isLast_iff t).mp h)) (iblk0 V c 0 t)) := by
  obtain ⟨n, hn⟩ := t
  cases n with
  | zero => exact rfl
  | succ n => exact (by exfalso; have hN : n + 1 < 64 := lt_of_lt_of_eq hn N64; (try dsimp only at h0); omega)

/-- At a middle block: over what the block before left. -/
theorem outsAt0_mid (c : Dev nD) (t : Fin cfg0.N) (h0 : ¬t.val % 64 = 0) (h1 : ¬t.val % 64 = 63) :
    outsAt0 V c t.val t.isLt = (outIdle, accMid c (grid0.coords t) (mIn t) (hIn t) (mOut t) (hOut t) mAcc (Memref.isWhole_whole _) (fun h => h0 ((isFirst_iff t).mp h)) (fun h => h1 ((isLast_iff t).mp h)) (iblk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h1).trans rfl

/-- At the last block: over what the block before left. -/
theorem outsAt0_last (c : Dev nD) (t : Fin cfg0.N) (h0 : ¬t.val % 64 = 0) (h1 : t.val % 64 = 63) :
    outsAt0 V c t.val t.isLt = (outLast c (grid0.coords t) (mIn t) (hIn t) (mOut t) (hOut t) mAcc (Memref.isWhole_whole _) (fun h => h0 ((isFirst_iff t).mp h)) ((isLast_iff t).mpr h1) (iblk0 V c 0 t) (outsAt0 V c (t.val - 1) (Nat.lt_of_le_of_lt (Nat.sub_le _ _) t.isLt)).2, accLast c (grid0.coords t) (mIn t) (hIn t) (mOut t) (hOut t) mAcc (Memref.isWhole_whole _) (fun h => h0 ((isFirst_iff t).mp h)) ((isLast_iff t).mpr h1) (iblk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_pos h1).trans rfl

/-! ## The invariant -/

/-- The region's invariant before block `n`: before the first block what the launch hands over (the running counts at
    anything); afterwards the running counts at what the block before left, the core's other scoped buffers at
    anything, and the generator register at some state. -/
def PhiS (c : Dev nD) : (n : ℕ) → n ≤ cfg0.N → sProp 𝕄
  | 0, _ => Pipeline.ΦA spec0 c
  | n + 1, hn => iprop(iprop(owns (c : Thread nD τ) mAcc fullShare ((outsAt0 V c n hn).2) ∗ others (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) mAcc fullShare ((outsAt0 V c n hn).2) ∗ others (F := F) c) ∗ (∃ r, prngReg c r)) := rfl

theorem PhiS_pos (c : Dev nD) (n : ℕ) (h : n ≤ cfg0.N) (hz : n ≠ 0) :
    PhiS V c n h = iprop(iprop(owns (c : Thread nD τ) mAcc fullShare ((outsAt0 V c (n - 1) (by omega)).2) ∗ others (F := F) c) ∗ (∃ r, prngReg c r)) := by
  cases n with
  | zero => exact absurd rfl hz
  | succ n => rfl

/-! ## The proof data -/

/-- The histogram pipeline's proof data on core `c`: the arrays as the region finds them; after the body at block
    `t` the input's buffer at its block and the result's at `outsAt0`'s first component; the invariant `PhiS`;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
  Φ t := PhiS V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]

/-- The input's current staging buffer holds its block at every point. -/
theorem before0_0 (c : Dev nD) (t : Fin cfg0.N) (d) : (dat0 V c).before 0 t d = iblk0 V c 0 t :=
  before0_0_of V (dat0 V c) (A_eq0 V c 0) (after0_0 V c) t d

/-! ## The body obligation -/

/-- What the body is called with at block `t`, -/
def bodyPre0 (c : Dev nD) (t : Fin cfg0.N) : sProp 𝕄 :=
  iprop((dat0 V c).Φ t.castSucc ∗ (dat0 V c).owesAt () t.castSucc
    ∗ (∃ d, owns (c : Thread nD τ) (mIn t) fullShare ((dat0 V c).before 0 t d))
    ∗ (∃ d, owns (c : Thread nD τ) (mOut t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any block: the closed forms of its two conditions say which case the block is in; the invariant hands
    the body the running counts (at anything at the first block, at what the block before left afterwards) and takes
    them back at this block's value; the other scoped buffers, the generator register and the core's debts pass
    through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS V c (t.val + 1) t.isLt from rfl, PhiS_succ]
  have hN : t.val < 64 := lt_of_lt_of_eq t.isLt N64
  rw [show (dat0 V c).leavesExact 0 t = owns (c : Thread nD τ) (mIn t) fullShare ((dat0 V c).after 0 t) from by
    unfold Dat.leavesExact; rw [live_in t], after0_0]
  by_cases h0 : t.val % 64 = 0
  · have h1 : ¬t.val % 64 = 63 := by omega
    have hz : t.val = 0 := by omega
    rw [Dat.leavesExact_idle (dat0 V c) 1 t (idle_out t (fun h => h1 ((isLast_iff t).mp h))) (noFlush_out t (fun h => h1 ((isLast_iff t).mp h)))]
    rw [outsAt0_first V c t h0 h1]
    unfold accFirst; (try dsimp only)
    rw [PhiS_castSucc V c t, PhiS_zero V c _ _ hz, PhiA0_eq]
    iintro ⟨⟨⟨HS0, HR⟩, Hg⟩, Ho, ⟨%d0, H0⟩, ⟨%d1, H1⟩⟩
    iapply ((runFirst c (grid0.coords t) _ _ _ _ _ _ ((isFirst_iff t).mpr h0) (fun h => h1 ((isLast_iff t).mp h)) (iblk0 V c 0 t)).2 _ Set.univ _)
    isplitl [H0]; · iexact H0
    isplitl [H1]; · iexact H1
    isplitl [HS0]; · iexact HS0
    iintro ⟨H0, H1, ⟨%es0, HS0⟩⟩
    isplitl [HS0 HR Hg]
    · isplitl [HS0 HR]
      · isplitl [HS0]
        · unfold owns; iexists _; isplitr
          swap; · iexact HS0
          ipureintro; exact View.read_writes_of_cover _ _ _ _ _ (cover_accFirst c _ _ _ _ _ _ _ _ _ _)
        iexact HR
      iexact Hg
    isplitl [Ho]; · iexact Ho
    isplitl [H0]; · iexact H0
    iexists _; iexact H1
  · have hz : t.val ≠ 0 := by omega
    by_cases h1 : t.val % 64 = 63
    · rw [show (dat0 V c).leavesExact 1 t = owns (c : Thread nD τ) (mOut t) fullShare ((dat0 V c).after 1 t) from by
        unfold Dat.leavesExact; rw [live_out t ((isLast_iff t).mpr h1)], after0_1]
      rw [outsAt0_last V c t h0 h1]
      unfold outLast accLast; (try dsimp only)
      rw [PhiS_castSucc V c t, PhiS_pos V c _ _ hz]
      iintro ⟨⟨⟨HS0, HR⟩, Hg⟩, Ho, ⟨%d0, H0⟩, ⟨%d1, H1⟩⟩
      iapply ((runLast c (grid0.coords t) _ _ _ _ _ _ (fun h => h0 ((isFirst_iff t).mp h)) ((isLast_iff t).mpr h1) (iblk0 V c 0 t) _).2.2 Set.univ _)
      isplitl [H0]; · iexact H0
      isplitl [H1]; · iexists _; iexact H1
      isplitl [HS0]; · iexact HS0
      iintro ⟨H0, ⟨%e1, H1⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (cover_accLast c _ _ _ _ _ _ _ _ _ _ _)
          iexact HR
        iexact Hg
      isplitl [Ho]; · iexact Ho
      isplitl [H0]; · iexact H0
      unfold owns; iexists _; isplitr
      swap; · iexact H1
      ipureintro; exact View.read_writes_of_cover _ _ _ _ _ (cover_outLast c _ _ _ _ _ _ _ _ _ _ _)
    · rw [Dat.leavesExact_idle (dat0 V c) 1 t (idle_out t (fun h => h1 ((isLast_iff t).mp h))) (noFlush_out t (fun h => h1 ((isLast_iff t).mp h)))]
      rw [outsAt0_mid V c t h0 h1]
      unfold accMid; (try dsimp only)
      rw [PhiS_castSucc V c t, PhiS_pos V c _ _ hz]
      iintro ⟨⟨⟨HS0, HR⟩, Hg⟩, Ho, ⟨%d0, H0⟩, ⟨%d1, H1⟩⟩
      iapply ((runMid c (grid0.coords t) _ _ _ _ _ _ (fun h => h0 ((isFirst_iff t).mp h)) (fun h => h1 ((isLast_iff t).mp h)) (iblk0 V c 0 t) _).2 _ Set.univ _)
      isplitl [H0]; · iexact H0
      isplitl [H1]; · iexact H1
      isplitl [HS0]; · iexact HS0
      iintro ⟨H0, H1, ⟨%es0, HS0⟩⟩
      isplitl [HS0 HR Hg]
      · isplitl [HS0 HR]
        · isplitl [HS0]
          · unfold owns; iexists _; isplitr
            swap; · iexact HS0
            ipureintro; exact View.read_writes_of_cover _ _ _ _ _ (cover_accMid c _ _ _ _ _ _ _ _ _ _ _)
          iexact HR
        iexact Hg
      isplitl [Ho]; · iexact Ho
      isplitl [H0]; · iexact H0
      iexists _; iexact H1

/-- The library's body obligation, at every block. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first block. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any block the invariant gives the launch's back: the running counts' value is forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HR⟩, Hg⟩
  isplitl [HS0 HR]
  · isplitl [HS0]
    · iexists _; iexact HS0
    iexact HR
  iexact Hg

/-- The same after the last block. -/
theorem hout0 (c : Dev nD) : (dat0 V c).Φ (Fin.last cfg0.N) ⊢ Pipeline.ΦA spec0 c :=
  Phi_out0 V c _ (by rw [Fin.val_last]; have : cfg0.N = 64 := N64; omega)

end Cert.Kernel.Hist

end
-- ==== Proof.K.Hist.Value.lean ====
/-
  The histogram kernel's result array.

  Each case of the body leaves in the row of running counts the counts it found (zeros at the first block) plus the
  block's eight counts; the input block the body reads at block t is rows 2048 t … 2048 t + 2047 of the array of expert
  ids; so after block n the running counts are the n-th term of the recurrence, and the result array, whose one
  block is written back after block 63 only, is the 63rd term converted to integers.
-/
import proofs.«428384_j28252294873409_1_alg».proof.Proof.K.Hist.Dat

set_option maxRecDepth 16384

noncomputable section

namespace Cert.Kernel.Hist

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
open Idealize.ShloMosaic.ValueIdx

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case's pieces read back as -/

theorem hz : (![0, 0] : Fin 2 → Nat) = fun _ => 0 := funext fun a => by fin_cases a <;> rfl

/-- A middle block leaves the running counts it found plus the block's eight counts. -/
theorem accMid_eq (c : Dev nD) (i : grid0.Coords) (arg1 : Memref sig .tc .vmem S2048x128 .i32) (harg1 : arg1.IsWhole) (arg2 : Memref sig .tc .vmem S1x8 .i32) (harg2 : arg2.IsWhole) (arg3 : Memref sig .tc .vmem S1x8 .f32) (harg3 : arg3.IsWhole) (hc0 : ¬isFirst i) (hc1 : ¬isLast i)
    (x0 : Vec F S2048x128 .i32) (xs0 : Vec F S1x8 .f32) :
    accMid c i arg1 harg1 arg2 harg2 arg3 harg3 hc0 hc1 x0 xs0 = Steps.hstep x0 xs0 := by
  unfold accMid
  rw [View.read_writes_eq_canon _ _ _ (cover_accMid c i arg1 harg1 arg2 harg2 arg3 harg3 hc0 hc1 x0 xs0)]
  unfold runMid
  dsimp only
  sl_unfold_words
  rw [View.canon_unit_zero hz]
  simp only [View.readAt_eq_ld, harg1.read_unread, harg3.read_unread, View.ld_unit_zero (S := S2048x128) hz, View.ld_unit_zero (S := S1x8) hz]
  rfl

/-- The last block leaves the running counts it found plus the block's eight counts, -/
theorem accLast_eq (c : Dev nD) (i : grid0.Coords) (arg1 : Memref sig .tc .vmem S2048x128 .i32) (harg1 : arg1.IsWhole) (arg2 : Memref sig .tc .vmem S1x8 .i32) (harg2 : arg2.IsWhole) (arg3 : Memref sig .tc .vmem S1x8 .f32) (harg3 : arg3.IsWhole) (hc0 : ¬isFirst i) (hc1 : isLast i)
    (x0 : Vec F S2048x128 .i32) (xs0 : Vec F S1x8 .f32) :
    accLast c i arg1 harg1 arg2 harg2 arg3 harg3 hc0 hc1 x0 xs0 = Steps.hstep x0 xs0 := by
  unfold accLast
  rw [View.read_writes_eq_canon _ _ _ (cover_accLast c i arg1 harg1 arg2 harg2 arg3 harg3 hc0 hc1 x0 xs0)]
  unfold runLast
  dsimp only
  sl_unfold_words
  rw [View.canon_unit_zero hz]
  simp only [View.readAt_eq_ld, harg1.read_unread, harg3.read_unread, View.ld_unit_zero (S := S2048x128) hz, View.ld_unit_zero (S := S1x8) hz]
  rfl

/-- and in its result those running counts converted to integers. -/
theorem outLast_eq (c : Dev nD) (i : grid0.Coords) (arg1 : Memref sig .tc .vmem S2048x128 .i32) (harg1 : arg1.IsWhole) (arg2 : Memref sig .tc .vmem S1x8 .i32) (harg2 : arg2.IsWhole) (arg3 : Memref sig .tc .vmem S1x8 .f32) (harg3 : arg3.IsWhole) (hc0 : ¬isFirst i) (hc1 : isLast i)
    (x0 : Vec F S2048x128 .i32) (xs0 : Vec F S1x8 .f32) :
    outLast c i arg1 harg1 arg2 harg2 arg3 harg3 hc0 hc1 x0 xs0 = Steps.hout (Steps.hstep x0 xs0) := by
  unfold outLast
  rw [View.read_writes_eq_canon _ _ _ (cover_outLast c i arg1 harg1 arg2 harg2 arg3 harg3 hc0 hc1 x0 xs0)]
  unfold runLast
  dsimp only
  sl_unfold_words
  rw [View.canon_unit_zero hz]
  simp only [View.readAt_eq_ld, harg1.read_unread, harg3.read_unread, View.readCov_unit_zero (S := S1x8) _ hz, View.ld_unit_zero (S := S2048x128) hz, View.ld_unit_zero (S := S1x8) hz]
  rfl

/-- The first block leaves the block's eight counts added to zeros. -/
theorem accFirst_eq (c : Dev nD) (i : grid0.Coords) (arg1 : Memref sig .tc .vmem S2048x128 .i32) (harg1 : arg1.IsWhole) (arg2 : Memref sig .tc .vmem S1x8 .i32) (harg2 : arg2.IsWhole) (arg3 : Memref sig .tc .vmem S1x8 .f32) (harg3 : arg3.IsWhole) (hc0 : isFirst i) (hc1 : ¬isLast i)
    (x0 : Vec F S2048x128 .i32) :
    accFirst c i arg1 harg1 arg2 harg2 arg3 harg3 hc0 hc1 x0 = Steps.hstep x0 Steps.hzero := by
  unfold accFirst
  rw [View.read_writes_eq_canon _ _ _ (cover_accFirst c i arg1 harg1 arg2 harg2 arg3 harg3 hc0 hc1 x0)]
  unfold runFirst
  dsimp only
  sl_unfold_words
  rw [View.canon_cons_unit_zero (S := S1x8) hz]
  simp only [View.readAt_eq_ld, harg1.read_unread, View.readCov_unit_zero (S := S1x8) _ hz, View.ld_unit_zero (S := S2048x128) hz, View.ld_unit_zero (S := S1x8) hz]
  rfl

/-! ## The input block the body reads -/

/-- The array of expert ids as the region finds it. -/
abbrev xarr (c : Dev nD) : Vec F S131072x128 .i32 := V c main_v2
/-- The input window's block at point `t`. -/
abbrev xblk (c : Dev nD) (t : Fin cfg0.N) : Vec F S2048x128 .i32 := iblk0 V c 0 t

/-- The input window's index map, decided over the grid: block `t` of the rows, the one block of the columns. -/
theorem idx_in : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- The block the body reads at point `t` is rows 2048 t … 2048 t + 2047 of the array. -/
theorem xblk_eq (c : Dev nD) (t : Fin cfg0.N) : xblk V c t = Steps.xblk0 (xarr V c) t.val := by
  have hN : t.val < 64 := lt_of_lt_of_eq t.isLt N64
  obtain ⟨e0, e1⟩ := idx_in t
  funext y
  show V c main_v2 (((cfg0.win 0).blk t).view.emb y) = V c main_v2 (ix2 ⟨(2048 * t.val + (y 0).val) % 131072, Nat.mod_lt _ (by decide)⟩ ⟨(y 1).val % 128, Nat.mod_lt _ (by decide)⟩)
  refine congrArg (V c main_v2) ?_
  funext a; apply Fin.ext
  match a with
  | ⟨0, _⟩ => show win0_0.index t (0 : Fin 2) * 2048 + 1 * (y 0).val = (2048 * t.val + (y 0).val) % 131072; have hj : (y 0).val < 2048 := (y 0).isLt; omega
  | ⟨1, _⟩ => show win0_0.index t (1 : Fin 2) * 128 + 1 * (y 1).val = (y 1).val % 128; have hj : (y 1).val < 128 := (y 1).isLt; omega

/-! ## The running counts after each block -/

/-- After block `n` the row of running counts is the `n`-th term of the recurrence: by induction on the block. -/
theorem acc_eq (c : Dev nD) (n : ℕ) : ∀ t : Fin cfg0.N, t.val = n → (outsAt0 V c t.val t.isLt).2 = Steps.accSeq (xarr V c) n := by
  induction n with
  | zero =>
    intro t ht
    have h0 : t.val % 64 = 0 := by omega
    have h1 : ¬t.val % 64 = 63 := by omega
    rw [outsAt0_first V c t h0 h1]; dsimp only
    refine (accFirst_eq c (grid0.coords t) (mIn t) (hIn t) (mOut t) (hOut t) mAcc (Memref.isWhole_whole _) ((isFirst_iff t).mpr h0) (fun h => h1 ((isLast_iff t).mp h)) (xblk V c t)).trans ?_
    rw [xblk_eq V c t, ht]; rfl
  | succ n ih =>
    intro t ht
    have hN : t.val < 64 := lt_of_lt_of_eq t.isLt N64
    have h0 : ¬t.val % 64 = 0 := by omega
    have hp : (outsAt0 V c (t.val - 1) (Nat.lt_of_le_of_lt (Nat.sub_le _ _) t.isLt)).2 = Steps.accSeq (xarr V c) n :=
      ih ⟨t.val - 1, Nat.lt_of_le_of_lt (Nat.sub_le _ _) t.isLt⟩ (by show t.val - 1 = n; omega)
    by_cases h1 : t.val % 64 = 63
    · rw [outsAt0_last V c t h0 h1]; dsimp only
      refine (accLast_eq c (grid0.coords t) (mIn t) (hIn t) (mOut t) (hOut t) mAcc (Memref.isWhole_whole _) (fun h => h0 ((isFirst_iff t).mp h)) ((isLast_iff t).mpr h1) (xblk V c t) (outsAt0 V c (t.val - 1) (Nat.lt_of_le_of_lt (Nat.sub_le _ _) t.isLt)).2).trans ?_
      rw [hp, xblk_eq V c t, ht]; rfl
    · rw [outsAt0_mid V c t h0 h1]; dsimp only
      refine (accMid_eq c (grid0.coords t) (mIn t) (hIn t) (mOut t) (hOut t) mAcc (Memref.isWhole_whole _) (fun h => h0 ((isFirst_iff t).mp h)) (fun h => h1 ((isLast_iff t).mp h)) (xblk V c t) (outsAt0 V c (t.val - 1) (Nat.lt_of_le_of_lt (Nat.sub_le _ _) t.isLt)).2).trans ?_
      rw [hp, xblk_eq V c t, ht]; rfl

/-! ## The result array -/

/-- The last point of the grid. -/
abbrev tLast : Fin cfg0.N := ⟨63, by rw [N64]; decide⟩

/-- The histogram of the array of expert ids, as contents of the result array (its one block is the array). -/
abbrev histRes (c : Dev nD) : Buf (Elt F) ((c : Thread nD τ).loc main_v3) := Steps.histOut (xarr V c)

/-- After the last block the result's staging buffer holds the histogram. -/
theorem out_last (c : Dev nD) : (outsAt0 V c tLast.val tLast.isLt).1 = Steps.histOut (xarr V c) := by
  have h0 : ¬tLast.val % 64 = 0 := by decide
  have h1 : tLast.val % 64 = 63 := by decide
  have hp : (outsAt0 V c (tLast.val - 1) (Nat.lt_of_le_of_lt (Nat.sub_le _ _) tLast.isLt)).2 = Steps.accSeq (xarr V c) 62 :=
    acc_eq V c 62 ⟨tLast.val - 1, Nat.lt_of_le_of_lt (Nat.sub_le _ _) tLast.isLt⟩ rfl
  rw [outsAt0_last V c tLast h0 h1]; dsimp only
  refine (outLast_eq c (grid0.coords tLast) (mIn tLast) (hIn tLast) (mOut tLast) (hOut tLast) mAcc (Memref.isWhole_whole _) (fun h => h0 ((isFirst_iff tLast).mp h)) ((isLast_iff tLast).mpr h1) (xblk V c tLast) (outsAt0 V c (tLast.val - 1) (Nat.lt_of_le_of_lt (Nat.sub_le _ _) tLast.isLt)).2).trans ?_
  rw [hp, xblk_eq V c tLast]; rfl

/-- The one write-back, after the last block, writes the histogram: block (0, 0) of the [1,8] array read through
    zero offsets is the array. -/
theorem flushed_out (c : Dev nD) (t : Fin cfg0.N) (hf : (cfg0.win 1).flush t = true) :
    (dat0 V c).flushed 1 t = ((cfg0.win 1).blk t).view.read (Elt F) (histRes V c) := by
  have hN : t.val < 64 := lt_of_lt_of_eq t.isLt N64
  have h63 : t.val = 63 := by have := (flush0_1 t).mp hf; omega
  obtain rfl : t = tLast := Fin.ext h63
  show (cfg0.win 1).cut (grid0.coords tLast) ((dat0 V c).after 1 tLast) = _
  rw [after0_1, out_last V c]
  have hz' : (fun a => win0_1.index tLast a * main_v3.ty.shape.size a) = fun _ => 0 := funext fun a => by fin_cases a <;> decide
  exact (Memref.read_access_unit_zero (Elt F) main_v3 hz' (fun a => by rw [congrFun hz' a]; simp) (histRes V c)).symm

/-- The input array is as the region found it. -/
theorem final0_in (c : Dev nD) : (dat0 V c).arrAt 0 cfg0.N = V c main_v2 :=
  ((dat0 V c).arrAt_in 0 rfl _).trans (A_eq0 V c 0)

/-- THE VALUE: the result array ends holding the histogram of the array of expert ids — the running counts after
    the last block, converted to integers. -/
theorem final0_out (c : Dev nD) : (dat0 V c).arrAt 1 cfg0.N = Steps.histOut (V c main_v2) :=
  (dat0 V c).arrAt_eq_of_cover 1 (histRes V c) (flushed_out V c) fun i =>
    ⟨tLast, (flush0_1 tLast).mpr rfl, by
      show i ∈ ((View.whole main_v3).slice (win0_1.rect tLast)).set
      rw [View.set_slice_whole, Rect.mem_set_unit]
      intro a
      have h0 : (i 0 : Nat) < 1 := (i 0).isLt
      have h1 : (i 1 : Nat) < 8 := (i 1).isLt
      match a with
      | ⟨0, _⟩ => show win0_1.index tLast 0 * win0_1.size 0 ≤ (i 0 : Nat) ∧ (i 0 : Nat) < win0_1.index tLast 0 * win0_1.size 0 + win0_1.xsize (grid0.coords tLast) 0
                  rw [show win0_1.index tLast 0 * win0_1.size 0 = 0 from by decide +kernel, show win0_1.xsize (grid0.coords tLast) 0 = 1 from by decide +kernel]; omega
      | ⟨1, _⟩ => show win0_1.index tLast 1 * win0_1.size 1 ≤ (i 1 : Nat) ∧ (i 1 : Nat) < win0_1.index tLast 1 * win0_1.size 1 + win0_1.xsize (grid0.coords tLast) 1
                  rw [show win0_1.index tLast 1 * win0_1.size 1 = 0 from by decide +kernel, show win0_1.xsize (grid0.coords tLast) 1 = 8 from by decide +kernel]; omega⟩

end Cert.Kernel.Hist

end
-- ==== Proof.KI.Run.lean ====
/-
  The run of the idealized kernel program with every unscoped buffer named at the end.

  @main is host operations, the histogram region, host operations, the rank region, host operations. Each region's
  frame (its proof data, the body at every grid point, its invariant's two ends) is supplied as a bundle; here the
  contents each region leaves in its result array are defined from that proof data (the array after the last
  write-back), the two regions are stated as segments of @main between thread states that hold every unscoped buffer of
  the core at a named valuation, and the launch is the conditional run over those two segments.
-/
import proofs.«428384_j28252294873409_1_alg».proof.Proof.KI.RegionsV
import Idealize.ShloMosaic.Lib.Pipeline.RegionsLoop
import Idealize.ShloMosaic.Lib.Pipeline.FrameSuffix
import Idealize.ShloMosaic.Lib.Pipeline.Frame

noncomputable section

namespace Cert.KernelIdeal.RunV

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

/-- A core's TensorCore buffers at a region's entry. -/
abbrev Ent (F : FTy → Type) : Type := (c : Dev nD) → (b : Ref sig .tc) → Buf (Elt F) ((c : Thread nD τ).loc b)

/-- What the histogram region's frame supplies: proof data over any entry contents, with the arrays those contents,
    full shares, nothing owed, the body obligation, and the class invariant at both ends. -/
structure Reg0 (F : FTy → Type) [FloatOps F] where
  dat : Ent F → (c : Dev nD) → Dat τ (Elt F) Unit ℕ (UR sig nD τ) ℕ cfg0 c
  hA : ∀ V c w, (dat V c).A w = V c (Pipeline.arrRef spec0 w)
  hq : ∀ V c w, (dat V c).q w = fullShare
  howed : ∀ V c t, (dat V c).owed t = 0
  hrec : ∀ V c t, (dat V c).recorded t = Set.univ
  hbody : ∀ V c, BodyObligation (dat V c) (defs₀ (F := F)) Variants.none () Set.univ
  hin : ∀ V c, (Pipeline.ΦA spec0 c : sProp (MT nD τ sig Unit (Elt F) ℕ (UR sig nD τ) ℕ)) ⊢ (dat V c).Φ 0
  hout : ∀ V c, (dat V c).Φ (Fin.last cfg0.N) ⊢ (Pipeline.ΦA spec0 c : sProp (MT nD τ sig Unit (Elt F) ℕ (UR sig nD τ) ℕ))

/-- The same of the rank region. -/
structure Reg1 (F : FTy → Type) [FloatOps F] where
  dat : Ent F → (c : Dev nD) → Dat τ (Elt F) Unit ℕ (UR sig nD τ) ℕ cfg1 c
  hA : ∀ V c w, (dat V c).A w = V c (Pipeline.arrRef spec1 w)
  hq : ∀ V c w, (dat V c).q w = fullShare
  howed : ∀ V c t, (dat V c).owed t = 0
  hrec : ∀ V c t, (dat V c).recorded t = Set.univ
  hbody : ∀ V c, BodyObligation (dat V c) (defs₀ (F := F)) Variants.none () Set.univ
  hin : ∀ V c, (Pipeline.ΦA spec1 c : sProp (MT nD τ sig Unit (Elt F) ℕ (UR sig nD τ) ℕ)) ⊢ (dat V c).Φ 0
  hout : ∀ V c, (dat V c).Φ (Fin.last cfg1.N) ⊢ (Pipeline.ΦA spec1 c : sProp (MT nD τ sig Unit (Elt F) ℕ (UR sig nD τ) ℕ))

variable (m : (ℓ : Loc nD τ sig) → Buf (Elt F) ℓ) (ρ : Dev nD → PrngReg) (D0 : Reg0 F) (D1 : Reg1 F)

/-! ## The contents the regions leave -/

/-- The histogram region's entry contents: the launch memory after the first host operations. -/
abbrev ent0 : Ent F := fun c b => V1 m c b

/-- Core `c`'s buffers at the histogram region's exit: its arrays at what the pipeline leaves, the rest as entered. -/
def W2 (c : Dev nD) : Valuation τ sig (Elt F) :=
  Pipeline.withArrays spec0 c (V1 m c) fun w => (D0.dat (ent0 m) c).arrAt w cfg0.N

/-- The unknowns with the histogram's result fixed. -/
def outsA : Outs (F := F) := fun _ r c => W2 m D0 c (Proc.devRef .tc r)

/-- The rank region's entry contents. -/
abbrev ent1 : Ent F := fun c b => V5 m (outsA m D0) c b

/-- Core `c`'s buffers at the rank region's exit. -/
def W6 (c : Dev nD) : Valuation τ sig (Elt F) :=
  Pipeline.withArrays spec1 c (V5 m (outsA m D0) c) fun w => (D1.dat (ent1 m D0) c).arrAt w cfg1.N

/-- What the two regions leave: item 6 is the rank region, item 2 the histogram region. -/
def outs : Outs (F := F) := fun J r c =>
  if J = 6 then W6 m D0 D1 c (Proc.devRef .tc r) else W2 m D0 c (Proc.devRef .tc r)

theorem outs_two (r : Ref sig .tc) (c : Dev nD) : outs m D0 D1 2 r c = W2 m D0 c (Proc.devRef .tc r) := if_neg (by decide)
theorem outs_six (r : Ref sig .tc) (c : Dev nD) : outs m D0 D1 6 r c = W6 m D0 D1 c (Proc.devRef .tc r) := if_pos rfl

/-- Before the rank region only the histogram's result has been read off the unknowns. -/
theorem V5_outs (c : Dev nD) : V5 m (outs m D0 D1) c = V5 m (outsA m D0) c := by
  show StableHlo.after hostOps1_2 (StableHlo.after hostOps1_1 (StableHlo.after hostOps1
      (Function.update (V1 m c) main_v3 (outs m D0 D1 2 main_v3 c)))) = _
  rw [outs_two]
  rfl

/-- The histogram's result, as the unknowns name it, is the proof data's array after the last write-back. -/
theorem outs_v3 (c : Dev nD) : outs m D0 D1 2 main_v3 c = (D0.dat (ent0 m) c).arrAt 1 cfg0.N := by
  rw [outs_two]; unfold W2
  exact Pipeline.withArrays_arr spec0 launch0.win.arr_inj c _ _ 1

/-- The rank region's result likewise. -/
theorem outs_v19 (c : Dev nD) : outs m D0 D1 6 main_v19 c = (D1.dat (ent1 m D0) c).arrAt 4 cfg1.N := by
  rw [outs_six]; unfold W6
  exact Pipeline.withArrays_arr spec1 launch1.win.arr_inj c _ _ 4

/-! ## The proof data family and what rides beside the buffers -/

/-- Both pipelines' proof data, each at its region's entry contents. -/
def pdats : (p : Fin 2) → (c : Dev nD) → Dat τ (Elt F) Unit ℕ (UR sig nD τ) ℕ (cfgs p) c
  | ⟨0, _⟩ => fun c => D0.dat (ent0 m) c
  | ⟨1, _⟩ => fun c => D1.dat (ent1 m D0) c

abbrev 𝒱₀ : Variants := Variants.none
/-- No core owes another anything: no level is assigned. -/
abbrev L : GSem nD τ sig → Finset Unit := fun _ => ∅
abbrev lv : GSem nD τ sig → Unit → ℕ := fun _ _ => 0

/-- Beside the buffers: the generator register at some state and the core owing nothing. -/
abbrev Rr (c : Dev nD) : sProp 𝕄 :=
  iprop((∃ r, prngReg c r) ∗ ∃ W, owes (c : Thread nD τ) (0 : CellTallies nD τ sig Unit) W)

/-! ## The histogram region between its thread states -/

/-- At the histogram region's exit each of its arrays holds what the pipeline leaves: the input as entered, the
    result the unknowns' value. -/
theorem hF0 (c : Dev nD) (w : Fin cfg0.W) :
    (D0.dat (ent0 m) c).arrAt w cfg0.N = V2 m (outs m D0 D1) c (Pipeline.arrRef spec0 w) := by
  match w with
  | ⟨0, _⟩ =>
    refine ((D0.dat (ent0 m) c).arrAt_in 0 rfl _).trans ((D0.hA (ent0 m) c 0).trans ?_)
    exact (V2_of m (outs m D0 D1) c main_v2 (by decide)).symm
  | ⟨1, _⟩ =>
    refine (outs_v3 m D0 D1 c).symm.trans ?_
    show _ = Function.update (V1 m c) main_v3 (outs m D0 D1 2 main_v3 c) (Proc.devRef .tc main_v3)
    exact (Function.update_self (Proc.devRef .tc main_v3 : DevRef τ sig) _ (V1 m c)).symm

/-- Every other buffer is as entered. -/
theorem hrest0 (c : Dev nD) : ∀ b : Ref sig .tc, b ∉ (Finset.univ.image (Pipeline.arrRef spec0) : Finset (Ref sig .tc)) →
    V2 m (outs m D0 D1) c b = V1 m c b := fun b hb =>
  V2_of m (outs m D0 D1) c b (fun h => hb (by
    rcases List.mem_singleton.mp h with rfl
    exact Finset.mem_image_of_mem (Pipeline.arrRef spec0) (Finset.mem_univ (1 : Fin 2))))

set_option backward.isDefEq.respectTransparency.types false in
/-- The histogram region as a segment: entered from every unscoped buffer at the contents after the first host
    operations, left with the result array at what the pipeline wrote back. -/
def reg0 : RegionSeg (pcfgs (F := F)) adm (pdats m D0 D1) () defs₀ 𝒱₀ L lv 0 where
  win := launch0.win.to₀
  block_pos := launch0.block_pos
  stage_whole := launch0.stage_whole
  K := PEmpty
  osem k := k.elim
  ho := Pipeline.OwnSemFacts.none _
  hbody c := (D0.hbody (ent0 m) c).loose
  hwaits := Pipeline.hwaits_of_owed_zero _ _ _ _ L lv 0 fun c t => D0.howed (ent0 m) c t
  pre c := iprop(StableHlo.held (c : Thread nD τ) (Pipeline.ucRefs τ sig) (V1 m c) ∗ Rr c)
  post c := iprop(StableHlo.held (c : Thread nD τ) (Pipeline.ucRefs τ sig) (V2 m (outs m D0 D1) c) ∗ Rr c)
  X c := iprop(∃ r, prngReg c r)
  Y c := iprop(∃ r, prngReg c r)
  Z c := Pipeline.unscopedRest (Ix := Unit) (Name := ℕ) (U := UR sig nD τ) (Lvl := ℕ) spec0 c (ent0 m c)
  hentry c := by
    rw [Pipeline.ownSems0_none]
    have hsplit := Pipeline.arrays_of_unscopedBufs (p := 0) (pcfgs (F := F)) adm (pdats m D0 D1) launch0.win launch0.arr_whole c
      ((pdats m D0 D1 0 c).share_full (D0.hq (ent0 m) c)) (ent0 m c) (D0.hA (ent0 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [show (pdats m D0 D1 0 c).owed 0 = 0 from D0.howed (ent0 m) c 0,
        show (pdats m D0 D1 0 c).recorded 0 = Set.univ from D0.hrec (ent0 m) c 0]
      icases HO with ⟨%W, HO⟩; iexists W; isplitr; · ipureintro; exact fun _ _ => Or.inl trivial
      iexact HO
    isplitl [Hp]; · iexact Hp
    iexact Hrest
  hin c := by
    refine BIBase.Entails.trans ?_ (D0.hin (ent0 m) c)
    unfold Pipeline.ΦA
    iintro ⟨Hp, -, Hr⟩
    isplitl [Hr]; · iexact Hr
    iexact Hp
  hout c := by
    rw [Pipeline.ownSems0_none]
    refine (D0.hout (ent0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m D0 D1) ((pdats m D0 D1 0 c).share_full (D0.hq (ent0 m) c))
      (ent0 m c) (fun b => V2 m (outs m D0 D1) c b) ((pdats m D0 D1 0 c).arrAt · cfg0.N) (hF0 m D0 D1 c) (hrest0 m D0 D1 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m D0 D1 0 c).owed (Fin.last _) = 0 from D0.howed (ent0 m) c _]
    icases HO with ⟨%W, -, HO⟩; iexists W; iexact HO

/-! ## The rank region between its thread states -/

/-- At the rank region's exit each of its arrays holds what the pipeline leaves: the four inputs as entered, the
    result the unknowns' value. -/
theorem hF1 (c : Dev nD) (w : Fin cfg1.W) :
    (D1.dat (ent1 m D0) c).arrAt w cfg1.N = V6 m (outs m D0 D1) c (Pipeline.arrRef spec1 w) := by
  have hV : ∀ b : Ref sig .tc, ent1 m D0 c b = V5 m (outs m D0 D1) c b := fun b => by rw [V5_outs]
  match w with
  | ⟨0, _⟩ =>
    refine ((D1.dat (ent1 m D0) c).arrAt_in 0 rfl _).trans ((D1.hA (ent1 m D0) c 0).trans ((hV _).trans ?_))
    exact (V6_of m (outs m D0 D1) c main_v2 (by decide)).symm
  | ⟨1, _⟩ =>
    refine ((D1.dat (ent1 m D0) c).arrAt_in 1 rfl _).trans ((D1.hA (ent1 m D0) c 1).trans ((hV _).trans ?_))
    exact (V6_of m (outs m D0 D1) c main_v10 (by decide)).symm
  | ⟨2, _⟩ =>
    refine ((D1.dat (ent1 m D0) c).arrAt_in 2 rfl _).trans ((D1.hA (ent1 m D0) c 2).trans ((hV _).trans ?_))
    exact (V6_of m (outs m D0 D1) c main_v14 (by decide)).symm
  | ⟨3, _⟩ =>
    refine ((D1.dat (ent1 m D0) c).arrAt_in 3 rfl _).trans ((D1.hA (ent1 m D0) c 3).trans ((hV _).trans ?_))
    exact (V6_of m (outs m D0 D1) c main_v18 (by decide)).symm
  | ⟨4, _⟩ =>
    refine (outs_v19 m D0 D1 c).symm.trans ?_
    show _ = Function.update (V5 m (outs m D0 D1) c) main_v19 (outs m D0 D1 6 main_v19 c) (Proc.devRef .tc main_v19)
    exact (Function.update_self (Proc.devRef .tc main_v19 : DevRef τ sig) _ (V5 m (outs m D0 D1) c)).symm

/-- Every other buffer is as entered. -/
theorem hrest1 (c : Dev nD) : ∀ b : Ref sig .tc, b ∉ (Finset.univ.image (Pipeline.arrRef spec1) : Finset (Ref sig .tc)) →
    V6 m (outs m D0 D1) c b = ent1 m D0 c b := fun b hb => by
  rw [show ent1 m D0 c b = V5 m (outs m D0 D1) c b from by rw [V5_outs]]
  exact V6_of m (outs m D0 D1) c b (fun h => hb (by
    rcases List.mem_singleton.mp h with rfl
    exact Finset.mem_image_of_mem (Pipeline.arrRef spec1) (Finset.mem_univ (4 : Fin 5))))

set_option backward.isDefEq.respectTransparency.types false in
/-- The rank region as a segment: entered from every unscoped buffer at the contents after the middle host
    operations, left with the result array at what the pipeline wrote back. -/
def reg1 : RegionSeg (pcfgs (F := F)) adm (pdats m D0 D1) () defs₀ 𝒱₀ L lv 1 where
  win := launch1.win.to₀
  block_pos := launch1.block_pos
  stage_whole := launch1.stage_whole
  K := PEmpty
  osem k := k.elim
  ho := Pipeline.OwnSemFacts.none _
  hbody c := (D1.hbody (ent1 m D0) c).loose
  hwaits := Pipeline.hwaits_of_owed_zero _ _ _ _ L lv 1 fun c t => D1.howed (ent1 m D0) c t
  pre c := iprop(StableHlo.held (c : Thread nD τ) (Pipeline.ucRefs τ sig) (V5 m (outs m D0 D1) c) ∗ Rr c)
  post c := iprop(StableHlo.held (c : Thread nD τ) (Pipeline.ucRefs τ sig) (V6 m (outs m D0 D1) c) ∗ Rr c)
  X c := iprop(∃ r, prngReg c r)
  Y c := iprop(∃ r, prngReg c r)
  Z c := Pipeline.unscopedRest (Ix := Unit) (Name := ℕ) (U := UR sig nD τ) (Lvl := ℕ) spec1 c (ent1 m D0 c)
  hentry c := by
    rw [Pipeline.ownSems0_none, V5_outs]
    have hsplit := Pipeline.arrays_of_unscopedBufs (p := 1) (pcfgs (F := F)) adm (pdats m D0 D1) launch1.win launch1.arr_whole c
      ((pdats m D0 D1 1 c).share_full (D1.hq (ent1 m D0) c)) (ent1 m D0 c) (D1.hA (ent1 m D0) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [show (pdats m D0 D1 1 c).owed 0 = 0 from D1.howed (ent1 m D0) c 0,
        show (pdats m D0 D1 1 c).recorded 0 = Set.univ from D1.hrec (ent1 m D0) c 0]
      icases HO with ⟨%W, HO⟩; iexists W; isplitr; · ipureintro; exact fun _ _ => Or.inl trivial
      iexact HO
    isplitl [Hp]; · iexact Hp
    iexact Hrest
  hin c := by
    refine BIBase.Entails.trans ?_ (D1.hin (ent1 m D0) c)
    unfold Pipeline.ΦA
    iintro ⟨Hp, -, Hr⟩
    isplitl [Hr]; · iexact Hr
    iexact Hp
  hout c := by
    rw [Pipeline.ownSems0_none]
    refine (D1.hout (ent1 m D0) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m D0 D1) ((pdats m D0 D1 1 c).share_full (D1.hq (ent1 m D0) c))
      (ent1 m D0 c) (fun b => V6 m (outs m D0 D1) c b) ((pdats m D0 D1 1 c).arrAt · cfg1.N) (hF1 m D0 D1 c) (hrest1 m D0 D1 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m D0 D1 1 c).owed (Fin.last _) = 0 from D1.howed (ent1 m D0) c _]
    icases HO with ⟨%W, -, HO⟩; iexists W; iexact HO

/-! ## The run -/

set_option backward.isDefEq.respectTransparency.types false in
/-- From any memory with zero counters every weakly fair execution of @main terminates, nothing faulting, and every
    final state has each unscoped buffer of each core at the last valuation: the launch memory carried through the
    host operations and the two regions' write-backs. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = V9 m (outs m D0 D1) c b) :=
  run_cond m (EP := emb₁) (ι := ()) (𝒱₀ := 𝒱₀) (L := L) (lv := lv) (hL := fun _ _ => rfl) (ρ := ρ) (outs := outs m D0 D1)
    (pdats := pdats m D0 D1) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rr c)
    (hE0 := by
      refine Pipeline.initEach L lv fun c => ?_
      iintro ⟨⟨-, HO, -, Hp, -⟩, -⟩
      imodintro
      isplitl [Hp]; · iexists _; iexact Hp
      iexists ∅; iexact HO)
    (hE2 := fun c => by
      iintro ⟨-, HO⟩
      iexact HO)
    (R0 := reg0 m D0 D1) (hpre0 := fun _ => .rfl) (hpost0 := fun _ => .rfl)
    (R1 := reg1 m D0 D1) (hpre1 := fun _ => .rfl) (hpost1 := fun _ => .rfl)

end Cert.KernelIdeal.RunV

end
-- ==== Proof.KI.Steps.lean ====
/-
  The two kernels as pure functions of what they read.

  The histogram kernel walks the 131072 × 128 array of expert ids in 64 blocks of 2048 rows; it keeps a row of eight
  running counts in a scratch that it zeroes at the first block, adds each block's eight counts to at every block,
  and converts to integers into its result at the last block. The rank kernel walks the same array in 256 blocks of
  512 rows; it keeps a row of eight running offsets that it sets to the base offsets at the first block and advances
  by the block's eight counts at every block, and writes for every entry of the block its destination: the entry's
  count of equal ids earlier in its row (a product with a strictly triangular 0/1 matrix), plus the count of equal ids
  in the block's earlier rows (a second triangular product), plus the running offset of its id.
-/
import proofs.«428384_j28252294873409_1_alg».proof.Proof.Gen.KernelIdeal.Skeleton
import Idealize.ShloMosaic.Lib.ValueIdx

noncomputable section

namespace Cert.KernelIdeal.Steps

open Idealize.ShloMosaic Idealize.ShloMosaic.ValueIdx Cert.KernelIdeal Cert.KernelIdeal.Gen

variable {F : FTy → Type} [FloatOps F]

/-- The histogram scratch after a block: the scratch before it plus the block's eight counts. -/
def hstep (x : Vec F S2048x128 .i32) (acc : Vec F S1x8 .f32) : Vec F S1x8 .f32 :=
  k0_pay1 (k0_pay4 x) (k0_pay5 x) (k0_pay6 x) (k0_pay7 x) (k0_pay8 x) (k0_pay9 x) acc

/-- The histogram scratch as the first block resets it. -/
def hzero : Vec F S1x8 .f32 := k0_pay3

/-- The histogram's result from the scratch after the last block. -/
def hout (acc : Vec F S1x8 .f32) : Vec F S1x8 .i32 := k0_pay2 acc

/-- The running offsets as the first block of the rank kernel sets them. -/
def rinit (base : Vec F S1x8 .f32) : Vec F S1x8 .f32 := k1_pay1 base

/-- The running offsets after a block: advanced by the block's eight counts. -/
def rstep (x : Vec F S512x128 .i32) (run : Vec F S1x8 .f32) : Vec F S1x8 .f32 :=
  k1_pay16 (k1_pay13 (F := F) (k1_pay3 x) (k1_pay4 x) (k1_pay5 x) (k1_pay6 x) (k1_pay7 x) (k1_pay8 x) (k1_pay9 x) (k1_pay10 x)) run

/-- The destinations the rank kernel writes for a block, from the block, the two triangular matrices and the running
    offsets the block starts from. -/
def rout (x : Vec F S512x128 .i32) (mbt : Vec F S128x128 .bf16) (mr : Vec F S512x512 .bf16) (run : Vec F S1x8 .f32) :
    Vec F S512x128 .i32 :=
  k1_pay15 (k1_pay3 x) (k1_pay4 x) (k1_pay5 x) (k1_pay6 x) (k1_pay7 x) (k1_pay8 x) (k1_pay9 x) (k1_pay10 x)
    (k1_pay12 (k1_pay11 x) mbt)
    (k1_pay14 (k1_pay3 x) (k1_pay4 x) (k1_pay5 x) (k1_pay6 x) (k1_pay7 x) (k1_pay8 x) (k1_pay9 x) (k1_pay10 x) mr run)
    (Scalar.ofBits .f32 0x00000000#32)

/-- Block `k` of 2048 rows of the array of expert ids. -/
def xblk0 (a : Vec F S131072x128 .i32) (k : ℕ) : Vec F S2048x128 .i32 := fun y =>
  a (ix2 ⟨(2048 * k + (y 0).val) % 131072, Nat.mod_lt _ (by decide)⟩ ⟨(y 1).val % 128, Nat.mod_lt _ (by decide)⟩)

/-- Block `k` of 512 rows of the array of expert ids. -/
def xblk1 (a : Vec F S131072x128 .i32) (k : ℕ) : Vec F S512x128 .i32 := fun y =>
  a (ix2 ⟨(512 * k + (y 0).val) % 131072, Nat.mod_lt _ (by decide)⟩ ⟨(y 1).val % 128, Nat.mod_lt _ (by decide)⟩)

/-- The histogram scratch after block `n`. -/
def accSeq (a : Vec F S131072x128 .i32) : ℕ → Vec F S1x8 .f32
  | 0 => hstep (xblk0 a 0) hzero
  | n + 1 => hstep (xblk0 a (n + 1)) (accSeq a n)

/-- The running offsets block `n` of the rank kernel starts from. -/
def runSeq (a : Vec F S131072x128 .i32) (base : Vec F S1x8 .f32) : ℕ → Vec F S1x8 .f32
  | 0 => rinit base
  | n + 1 => rstep (xblk1 a n) (runSeq a base n)

/-- The histogram kernel's result array. -/
def histOut (a : Vec F S131072x128 .i32) : Vec F S1x8 .i32 := hout (accSeq a 63)

/-- The rank kernel's result array: entry (r, l) is written by block r / 512 at its row r % 512. -/
def rankOut (a : Vec F S131072x128 .i32) (base : Vec F S1x8 .f32) (mbt : Vec F S128x128 .bf16) (mr : Vec F S512x512 .bf16) :
    Vec F S131072x128 .i32 := fun j =>
  rout (xblk1 a ((j 0).val / 512)) mbt mr (runSeq a base ((j 0).val / 512))
    (ix2 ⟨(j 0).val % 512, Nat.mod_lt _ (by decide)⟩ ⟨(j 1).val % 128, Nat.mod_lt _ (by decide)⟩)

end Cert.KernelIdeal.Steps

end
-- ==== Proof.KI.Hist.Base.lean ====
/-
  The histogram kernel's grid walk, the facts every point shares.

  The body has two conditions on the grid point: "this is the first block" (it then zeroes the row of running counts)
  and "this is the last block" (it then converts the running counts to integers into its result). Over the 64 points
  they single out point 0 and point 63; at every other point the result window is idle and is not written back.
-/
import proofs.«428384_j28252294873409_1_alg».proof.Proof.Gen.KernelIdeal.Launch
import proofs.«428384_j28252294873409_1_alg».proof.Proof.Gen.KernelIdeal.Skeleton
import proofs.«428384_j28252294873409_1_alg».proof.Proof.Gen.KernelIdeal.Points
import proofs.«428384_j28252294873409_1_alg».proof.Proof.KI.Steps
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hist

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the contents of the core's buffers when the region is entered: a parameter
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is the
    entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditions -/

/-- "This is the first block": the condition under which the body zeroes the running counts. -/
abbrev isFirst (i : grid0.Coords) : Prop := (Scalar.cmpi .ne (Scalar.extui (Scalar.cmpi .eq (BitVec.ofNat 32 (i 0).val) 0#32)) 0#32) = 1#1
/-- It holds at point 0 only. -/
theorem isFirst_iff : ∀ t : Fin cfg0.N, isFirst (grid0.coords t) ↔ t.val % 64 = 0 :=
  (by decide +kernel : ∀ t : Fin grid0.N, isFirst (grid0.coords t) ↔ t.val % 64 = 0)

/-- "This is the last block": the condition under which the body writes its result. -/
abbrev isLast (i : grid0.Coords) : Prop := k0_cond2 i = 1#1
/-- It holds at point 63 only. -/
theorem isLast_iff : ∀ t : Fin cfg0.N, isLast (grid0.coords t) ↔ t.val % 64 = 63 :=
  (by decide +kernel : ∀ t : Fin grid0.N, isLast (grid0.coords t) ↔ t.val % 64 = 63)

/-! ## Where the windows are idle -/

/-- The input window is never idle. -/
theorem live_in : ∀ t : Fin cfg0.N, cfg0.idle 0 (grid0.coords t) = false := by decide +kernel
/-- Away from the last block the result window is idle, -/
theorem idle_out : ∀ t : Fin cfg0.N, ¬isLast (grid0.coords t) → cfg0.idle 1 (grid0.coords t) = true := by decide +kernel
/-- and is not written back. -/
theorem noFlush_out : ∀ t : Fin cfg0.N, ¬isLast (grid0.coords t) → (cfg0.win 1).flush t = false := by decide +kernel
/-- At the last block it is live. -/
theorem live_out : ∀ t : Fin cfg0.N, isLast (grid0.coords t) → cfg0.idle 1 (grid0.coords t) = false := by decide +kernel

/-! ## The memrefs the body is called with -/

/-- The result window's one staging buffer, as a view: its contents are stated through it. -/
abbrev VOut : View sig .tc .vmem S1x8 .i32 := (Memref.whole cc0_stg1_0 : Memref sig .tc .vmem S1x8 .i32).view
/-- Each window's current staging memref at point `t`, and its wholeness. -/
abbrev mIn (t : Fin cfg0.N) : Memref sig .tc .vmem S2048x128 .i32 := win0_0.stage (cfg0.slots t 0)
abbrev hIn (t : Fin cfg0.N) : (mIn t).IsWhole := hstage0_0 ((cfg0.slots t 0).cast nbuf0_0)
abbrev mOut (t : Fin cfg0.N) : Memref sig .tc .vmem S1x8 .i32 := win0_1.stage (cfg0.slots t 1)
abbrev hOut (t : Fin cfg0.N) : (mOut t).IsWhole := hstage0_1 ((cfg0.slots t 1).cast nbuf0_1)
/-- The row of running counts: a whole scoped buffer of the kernel's own, carried from point to point. -/
abbrev mAcc : Memref sig .tc .vmem S1x8 .f32 := Memref.whole cc0_scratch0
/-- The same as a view. -/
abbrev VAcc : View sig .tc .vmem S1x8 .f32 := mAcc.view

/-- The core's other scoped buffers (the second kernel's staging buffers and scratch), each whole at some contents:
    the histogram kernel never touches them. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f))

/-- What the launch hands the region: the running counts at some contents, the other scoped buffers, and the
    generator register at some state. -/
theorem PhiA0_eq (c : Dev nD) :
    (Pipeline.ΦA spec0 c : sProp 𝕄)
      = iprop(iprop((∃ d, owns (c : Thread nD τ) mAcc fullShare d) ∗ others (F := F) c) ∗ (∃ r, prngReg c r)) := by
  unfold Pipeline.ΦA others; rw [scopedRest0_eq]; simp only [mAcc, owns_whole]; try rfl

end Cert.KernelIdeal.Hist

end
-- ==== Proof.KI.Hist.RunFirst.lean ====
/-
  The histogram body at the first block: it zeroes the running counts, then adds the block's eight counts.
-/
import proofs.«428384_j28252294873409_1_alg».proof.Proof.KI.Hist.Base

set_option maxRecDepth 16384

noncomputable section

namespace Cert.KernelIdeal.Hist

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body at the first block, on whole memrefs — the input block at `x0`, the idle result buffer at `xi1` handed
    back untouched, the running counts at anything — runs to the continuation holding the input as it was and the
    running counts with the pieces its two stores wrote (last first): the pieces are the witness the run finds. -/
noncomputable def runFirst (c : Dev nD) (i : grid0.Coords) (arg1 : Memref sig .tc .vmem S2048x128 .i32) (harg1 : arg1.IsWhole) (arg2 : Memref sig .tc .vmem S1x8 .i32) (harg2 : arg2.IsWhole) (arg3 : Memref sig .tc .vmem S1x8 .f32) (harg3 : arg3.IsWhole) (hc0 : isFirst i) (hc1 : ¬isLast i)
    (x0 : Vec F S2048x128 .i32) :
    { LS0 : List (View.Piece (Elt F) S1x8 .f32) //
      ∀ (xi1 : Vec F S1x8 .i32) (E : Set ℕ) (K : PUnit → sProp 𝕄),
        iprop(owns (c : Thread nD τ) arg1 fullShare x0 ∗ owns (c : Thread nD τ) arg2 fullShare xi1 ∗ (∃ d, owns (c : Thread nD τ) arg3 fullShare d)
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc0_hist_kernel i arg1 harg1 arg2 harg2 arg3 harg3) K } := by
  refine ⟨?_, fun xi1 E K => ?run⟩
  case run =>
    simp only [cc0_hist_kernel_eq_skeleton]; unfold cc0_hist_kernel_skel
    simp only [k0_part1_eq_skeleton]
    unfold owns
    iintro ⟨⟨%f0, %hf0, H0⟩, ⟨%f1, %hf1, H1⟩, ⟨%ds0, %fs0, -, HS0⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

end Cert.KernelIdeal.Hist

end
-- ==== Proof.KI.Hist.RunMid.lean ====
/-
  The histogram body at a block that is neither the first nor the last: it adds the block's eight counts to the
  running counts.
-/
import proofs.«428384_j28252294873409_1_alg».proof.Proof.KI.Hist.RunFirst

set_option maxRecDepth 16384

noncomputable section

namespace Cert.KernelIdeal.Hist

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body at a middle block, on whole memrefs — the input block at `x0`, the idle result buffer at `xi1` handed
    back untouched, the running counts at what the block before left (`xs0`) — runs to the continuation holding the
    input as it was and the running counts with the piece its store wrote: the witness the run finds. -/
noncomputable def runMid (c : Dev nD) (i : grid0.Coords) (arg1 : Memref sig .tc .vmem S2048x128 .i32) (harg1 : arg1.IsWhole) (arg2 : Memref sig .tc .vmem S1x8 .i32) (harg2 : arg2.IsWhole) (arg3 : Memref sig .tc .vmem S1x8 .f32) (harg3 : arg3.IsWhole) (hc0 : ¬isFirst i) (hc1 : ¬isLast i)
    (x0 : Vec F S2048x128 .i32) (xs0 : Vec F S1x8 .f32) :
    { LS0 : List (View.Piece (Elt F) S1x8 .f32) //
      ∀ (xi1 : Vec F S1x8 .i32) (E : Set ℕ) (K : PUnit → sProp 𝕄),
        iprop(owns (c : Thread nD τ) arg1 fullShare x0 ∗ owns (c : Thread nD τ) arg2 fullShare xi1 ∗ owns (c : Thread nD τ) arg3 fullShare xs0
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc0_hist_kernel i arg1 harg1 arg2 harg2 arg3 harg3) K } := by
  refine ⟨?_, fun xi1 E K => ?run⟩
  case run =>
    simp only [cc0_hist_kernel_eq_skeleton]; unfold cc0_hist_kernel_skel
    simp only [k0_part1_eq_skeleton]
    unfold owns
    iintro ⟨⟨%f0, %hf0, H0⟩, ⟨%f1, %hf1, H1⟩, ⟨%fs0, %hfs0, HS0⟩, Hk⟩
    obtain rfl := harg1.eq_unread hf0; obtain rfl := harg2.eq_unread hf1; obtain rfl := harg3.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

end Cert.KernelIdeal.Hist

end
-- ==== Proof.KI.Hist.RunLast.lean ====
/-
  The histogram body at the last block: it adds the block's eight counts to the running counts, then converts the
  running counts to integers into its result.
-/
import proofs.«428384_j28252294873409_1_alg».proof.Proof.KI.Hist.RunMid

set_option maxRecDepth 16384

noncomputable section

namespace Cert.KernelIdeal.Hist

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body at the last block, on whole memrefs — the input block at `x0`, the result buffer at anything, the
    running counts at what the block before left (`xs0`) — runs to the continuation holding the input as it was, the
    result buffer with the piece its store wrote (`L1`) and the running counts with theirs (`LS0`): the witnesses
    the run finds. -/
noncomputable def runLast (c : Dev nD) (i : grid0.Coords) (arg1 : Memref sig .tc .vmem S2048x128 .i32) (harg1 : arg1.IsWhole) (arg2 : Memref sig .tc .vmem S1x8 .i32) (harg2 : arg2.IsWhole) (arg3 : Memref sig .tc .vmem S1x8 .f32) (harg3 : arg3.IsWhole) (hc0 : ¬isFirst i) (hc1 : isLast i)
    (x0 : Vec F S2048x128 .i32) (xs0 : Vec F S1x8 .f32) :
    Σ' (L1 : List (View.Piece (Elt F) S1x8 .i32)), { LS0 : List (View.Piece (Elt F) S1x8 .f32) //
      ∀ (E : Set ℕ) (K : PUnit → sProp 𝕄),
        iprop(owns (c : Thread nD τ) arg1 fullShare x0 ∗ (∃ d, owns (c : Thread nD τ) arg2 fullShare d) ∗ owns (c : Thread nD τ) arg3 fullShare xs0
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f LS0)) -∗ K ⟨⟩))
          ⊢ wp frame (wpE (defs₀ (F := F)) Variants.none c none) E (cc0_hist_kernel i arg1 harg1 arg2 harg2 arg3 harg3) K } := by
  refine ⟨?_, ?_, fun E K => ?run⟩
  case run =>
    simp only [cc0_hist_kernel_eq_skeleton]; unfold cc0_hist_kernel_skel
    simp only [k0_part1_eq_skeleton]
    unfold owns
    iintro ⟨⟨%f0, %hf0, H0⟩, ⟨%d1, %f1, -, H1⟩, ⟨%fs0, %hfs0, HS0⟩, Hk⟩
    obtain rfl := harg1.eq_unread hf0; obtain rfl := harg3.eq_unread hfs0
    sl_exec (disch := first | exact hc0 | exact hc1)
    sl_step
    iapply Hk
    isplitl [H0]
    · iexists _; isplitr; · ipureintro; exact harg1.read_unread _
      iexact H0
    isplitl [H1]; · iexists _; iexact H1
    iexists _; iexact HS0

end Cert.KernelIdeal.Hist

end
-- ==== Proof.KI.Hist.Dat.lean ====
/-
  The histogram kernel's proof data over its 64 blocks, and its body obligation.

  After block n the row of running counts holds what the case of block n left in it: the first block zeroes it and
  adds its counts; every later block adds its counts to what the block before left. The result window holds, after the
  last block, the running counts converted to integers; at every other block it is idle. The invariant carries the
  running counts, owned at that value, from each point to the next.
-/
import proofs.«428384_j28252294873409_1_alg».proof.Proof.KI.Hist.RunLast

set_option maxRecDepth 16384

noncomputable section

namespace Cert.KernelIdeal.Hist

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- The first block's two stores cover the row of running counts. -/
theorem cover_accFirst (c : Dev nD) (i : grid0.Coords) (arg1 : Memref sig .tc .vmem S2048x128 .i32) (harg1 : arg1.IsWhole) (arg2 : Memref sig .tc .vmem S1x8 .i32) (harg2 : arg2.IsWhole) (arg3 : Memref sig .tc .vmem S1x8 .f32) (harg3 : arg3.IsWhole) (hc0 : isFirst i) (hc1 : ¬isLast i)
    (x0 : Vec F S2048x128 .i32) (y : S1x8.Idx) :
    ∃ pc ∈ (runFirst c i arg1 harg1 arg2 harg2 arg3 harg3 hc0 hc1 x0).1, y ∈ pc.1.set :=
  View.cover_of_tiledL (runFirst c i arg1 harg1 arg2 harg2 arg3 harg3 hc0 hc1 x0).1 S1x8.size (by sl_kernel_rfl) y

/-- What the first block leaves in the row of running counts: its pieces read back. -/
def accFirst (c : Dev nD) (i : grid0.Coords) (arg1 : Memref sig .tc .vmem S2048x128 .i32) (harg1 : arg1.IsWhole) (arg2 : Memref sig .tc .vmem S1x8 .i32) (harg2 : arg2.IsWhole) (arg3 : Memref sig .tc .vmem S1x8 .f32) (harg3 : arg3.IsWhole) (hc0 : isFirst i) (hc1 : ¬isLast i)
    (x0 : Vec F S2048x128 .i32) : Vec F S1x8 .f32 :=
  VAcc.read (Elt F) (VAcc.writes (Elt F) VAcc.junk (runFirst c i arg1 harg1 arg2 harg2 arg3 harg3 hc0 hc1 x0).1)

/-- A middle block's store covers the row of running counts. -/
theorem cover_accMid (c : Dev nD) (i : grid0.Coords) (arg1 : Memref sig .tc .vmem S2048x128 .i32) (harg1 : arg1.IsWhole) (arg2 : Memref sig .tc .vmem S1x8 .i32) (harg2 : arg2.IsWhole) (arg3 : Memref sig .tc .vmem S1x8 .f32) (harg3 : arg3.IsWhole) (hc0 : ¬isFirst i) (hc1 : ¬isLast i)
    (x0 : Vec F S2048x128 .i32) (xs0 : Vec F S1x8 .f32) (y : S1x8.Idx) :
    ∃ pc ∈ (runMid c i arg1 harg1 arg2 harg2 arg3 harg3 hc0 hc1 x0 xs0).1, y ∈ pc.1.set :=
  View.cover_of_tiledL (runMid c i arg1 harg1 arg2 harg2 arg3 harg3 hc0 hc1 x0 xs0).1 S1x8.size (by sl_kernel_rfl) y

/-- What a middle block leaves in the row of running counts: its piece read back. -/
def accMid (c : Dev nD) (i : grid0.Coords) (arg1 : Memref sig .tc .vmem S2048x128 .i32) (harg1 : arg1.IsWhole) (arg2 : Memref sig .tc .vmem S1x8 .i32) (harg2 : arg2.IsWhole) (arg3 : Memref sig .tc .vmem S1x8 .f32) (harg3 : arg3.IsWhole) (hc0 : ¬isFirst i) (hc1 : ¬isLast i)
    (x0 : Vec F S2048x128 .i32) (xs0 : Vec F S1x8 .f32) : Vec F S1x8 .f32 :=
  VAcc.read (Elt F) (VAcc.writes (Elt F) VAcc.junk (runMid c i arg1 harg1 arg2 harg2 arg3 harg3 hc0 hc1 x0 xs0).1)

/-- The last block's store into the result covers it. -/
theorem cover_outLast (c : Dev nD) (i : grid0.Coords) (arg1 : Memref sig .tc .vmem S2048x128 .i32) (harg1 : arg1.IsWhole) (arg2 : Memref sig .tc .vmem S1x8 .i32) (harg2 : arg2.IsWhole) (arg3 : Memref sig .tc .vmem S1x8 .f32) (harg3 : arg3.IsWhole) (hc0 : ¬isFirst i) (hc1 : isLast i)
    (x0 : Vec F S2048x128 .i32) (xs0 : Vec F S1x8 .f32) (y : S1x8.Idx) :
    ∃ pc ∈ (runLast c i arg1 harg1 arg2 harg2 arg3 harg3 hc0 hc1 x0 xs0).1, y ∈ pc.1.set :=
  View.cover_of_tiledL (runLast c i arg1 harg1 arg2 harg2 arg3 harg3 hc0 hc1 x0 xs0).1 S1x8.size (by sl_kernel_rfl) y

/-- What the last block leaves in the result's staging buffer: its piece read back. -/
def outLast (c : Dev nD) (i : grid0.Coords) (arg1 : Memref sig .tc .vmem S2048x128 .i32) (harg1 : arg1.IsWhole) (arg2 : Memref sig .tc .vmem S1x8 .i32) (harg2 : arg2.IsWhole) (arg3 : Memref sig .tc .vmem S1x8 .f32) (harg3 : arg3.IsWhole) (hc0 : ¬isFirst i) (hc1 : isLast i)
    (x0 : Vec F S2048x128 .i32) (xs0 : Vec F S1x8 .f32) : Vec F S1x8 .i32 :=
  VOut.read (Elt F) (VOut.writes (Elt F) VOut.junk (runLast c i arg1 harg1 arg2 harg2 arg3 harg3 hc0 hc1 x0 xs0).1)

/-- The last block's store into the row of running counts covers it. -/
theorem cover_accLast (c : Dev nD) (i : grid0.Coords) (arg1 : Memref sig .tc .vmem S2048x128 .i32) (harg1 : arg1.IsWhole) (arg2 : Memref sig .tc .vmem S1x8 .i32) (harg2 : arg2.IsWhole) (arg3 : Memref sig .tc .vmem S1x8 .f32) (harg3 : arg3.IsWhole) (hc0 : ¬isFirst i) (hc1 : isLast i)
    (x0 : Vec F S2048x128 .i32) (xs0 : Vec F S1x8 .f32) (y : S1x8.Idx) :
    ∃ pc ∈ (runLast c i arg1 harg1 arg2 harg2 arg3 harg3 hc0 hc1 x0 xs0).2.1, y ∈ pc.1.set :=
  View.cover_of_tiledL (runLast c i arg1 harg1 arg2 harg2 arg3 harg3 hc0 hc1 x0 xs0).2.1 S1x8.size (by sl_kernel_rfl) y

/-- What the last block leaves in the row of running counts: its piece read back. -/
def accLast (c : Dev nD) (i : grid0.Coords) (arg1 : Memref sig .tc .vmem S2048x128 .i32) (harg1 : arg1.IsWhole) (arg2 : Memref sig .tc .vmem S1x8 .i32) (harg2 : arg2.IsWhole) (arg3 : Memref sig .tc .vmem S1x8 .f32) (harg3 : arg3.IsWhole) (hc0 : ¬isFirst i) (hc1 : isLast i)
    (x0 : Vec F S2048x128 .i32) (xs0 : Vec F S1x8 .f32) : Vec F S1x8 .f32 :=
  VAcc.read (Elt F) (VAcc.writes (Elt F) VAcc.junk (runLast c i arg1 harg1 arg2 harg2 arg3 harg3 hc0 hc1 x0 xs0).2.1)

/-- The result's staging buffer where no block has stored into it: nothing consults it. -/
def outIdle : Vec F S1x8 .i32 := VOut.read (Elt F) VOut.junk

/-! ## What the result buffer and the running counts hold after each block -/

theorem N64 : cfg0.N = 64 := N_0

/-- After the body at block `n`: the result's staging buffer and the row of running counts — the case of block `n`,
    run at the block's memrefs and its input block, over the running counts block `n - 1` left. -/
def outsAt0 (c : Dev nD) : (n : ℕ) → n < cfg0.N → Vec F S1x8 .i32 × Vec F S1x8 .f32
  | 0, hn => (outIdle, accFirst c (grid0.coords ⟨0, hn⟩) (mIn ⟨0, hn⟩) (hIn ⟨0, hn⟩) (mOut ⟨0, hn⟩) (hOut ⟨0, hn⟩) mAcc (Memref.isWhole_whole _) ((isFirst_iff ⟨0, hn⟩).mpr (Nat.zero_mod _)) (fun h => (fun h => by (try dsimp only at h); omega) ((isLast_iff ⟨0, hn⟩).mp h)) (iblk0 V c 0 ⟨0, hn⟩))
  | n + 1, hn =>
    if h1 : (n + 1) % 64 = 63 then
      (outLast c (grid0.coords ⟨n + 1, hn⟩) (mIn ⟨n + 1, hn⟩) (hIn ⟨n + 1, hn⟩) (mOut ⟨n + 1, hn⟩) (hOut ⟨n + 1, hn⟩) mAcc (Memref.isWhole_whole _) (fun h => (fun h => by have hN : n + 1 < 64 := lt_of_lt_of_eq hn N64; (try dsimp only at h); omega) ((isFirst_iff ⟨n + 1, hn⟩).mp h)) ((isLast_iff ⟨n + 1, hn⟩).mpr h1) (iblk0 V c 0 ⟨n + 1, hn⟩) (outsAt0 c n (Nat.lt_of_succ_lt hn)).2,
       accLast c (grid0.coords ⟨n + 1, hn⟩) (mIn ⟨n + 1, hn⟩) (hIn ⟨n + 1, hn⟩) (mOut ⟨n + 1, hn⟩) (hOut ⟨n + 1, hn⟩) mAcc (Memref.isWhole_whole _) (fun h => (fun h => by have hN : n + 1 < 64 := lt_of_lt_of_eq hn N64; (try dsimp only at h); omega) ((isFirst_iff ⟨n + 1, hn⟩).mp h)) ((isLast_iff ⟨n + 1, hn⟩).mpr h1) (iblk0 V c 0 ⟨n + 1, hn⟩) (outsAt0 c n (Nat.lt_of_succ_lt hn)).2)
    else
      (outIdle, accMid c (grid0.coords ⟨n + 1, hn⟩) (mIn ⟨n + 1, hn⟩) (hIn ⟨n + 1, hn⟩) (mOut ⟨n + 1, hn⟩) (hOut ⟨n + 1, hn⟩) mAcc (Memref.isWhole_whole _) (fun h => (fun h => by have hN : n + 1 < 64 := lt_of_lt_of_eq hn N64; (try dsimp only at h); omega) ((isFirst_iff ⟨n + 1, hn⟩).mp h)) (fun h => h1 ((isLast_iff ⟨n + 1, hn⟩).mp h)) (iblk0 V c 0 ⟨n + 1, hn⟩) (outsAt0 c n (Nat.lt_of_succ_lt hn)).2)

/-- At the first block. -/
theorem outsAt0_first (c : Dev nD) (t : Fin cfg0.N) (h0 : t.val % 64 = 0) (h1 : ¬t.val % 64 = 63) :
    outsAt0 V c t.val t.isLt = (outIdle, accFirst c (grid0.coords t) (mIn t) (hIn t) (mOut t) (hOut t) mAcc (Memref.isWhole_whole _) ((isFirst_iff t).mpr h0) (fun h => h1 ((isLast_iff t).mp h)) (iblk0 V c 0 t)) := by
  obtain ⟨n, hn⟩ := t
  cases n with
  | zero => exact rfl
  | succ n => exact (by exfalso; have hN : n + 1 < 64 := lt_of_lt_of_eq hn N64; (try dsimp only at h0); omega)

/-- At a middle block: over what the block before left. -/
theorem outsAt0_mid (c : Dev nD) (t : Fin cfg0.N) (h0 : ¬t.val % 64 = 0) (h1 : ¬t.val % 64 = 63) :
    outsAt0 V c t.val t.isLt = (outIdle, accMid c (grid0.coords t) (mIn t) (hIn t) (mOut t) (hOut t) mAcc (Memref.isWhole_whole _) (fun h => h0 ((isFirst_iff t).mp h)) (fun h => h1 ((isLast_iff t).mp h)) (iblk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h1).trans rfl

/-- At the last block: over what the block before left. -/
theorem outsAt0_last (c : Dev nD) (t : Fin cfg0.N) (h0 : ¬t.val % 64 = 0) (h1 : t.val % 64 = 63) :
    outsAt0 V c t.val t.isLt = (outLast c (grid0.coords t) (mIn t) (hIn t) (mOut t) (hOut t) mAcc (Memref.isWhole_whole _) (fun h => h0 ((isFirst_iff t).mp h)) ((isLast_iff t).mpr h1) (iblk0 V c 0 t) (outsAt0 V c (t.val - 1) (Nat.lt_of_le_of_lt (Nat.sub_le _ _) t.isLt)).2, accLast c (grid0.coords t) (mIn t) (hIn t) (mOut t) (hOut t) mAcc (Memref.isWhole_whole _) (fun h => h0 ((isFirst_iff t).mp h)) ((isLast_iff t).mpr h1) (iblk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_pos h1).trans rfl

/-! ## The invariant -/

/-- The region's invariant before block `n`: before the first block what the launch hands over (the running counts at
    anything); afterwards the running counts at what the block before left, the core's other scoped buffers at
    anything, and the generator register at some state. -/
def PhiS (c : Dev nD) : (n : ℕ) → n ≤ cfg0.N → sProp 𝕄
  | 0, _ => Pipeline.ΦA spec0 c
  | n + 1, hn => iprop(iprop(owns (c : Thread nD τ) mAcc fullShare ((outsAt0 V c n hn).2) ∗ others (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) mAcc fullShare ((outsAt0 V c n hn).2) ∗ others (F := F) c) ∗ (∃ r, prngReg c r)) := rfl

theorem PhiS_pos (c : Dev nD) (n : ℕ) (h : n ≤ cfg0.N) (hz : n ≠ 0) :
    PhiS V c n h = iprop(iprop(owns (c : Thread nD τ) mAcc fullShare ((outsAt0 V c (n - 1) (by omega)).2) ∗ others (F := F) c) ∗ (∃ r, prngReg c r)) := by
  cases n with
  | zero => exact absurd rfl hz
  | succ n => rfl

/-! ## The proof data -/

/-- The histogram pipeline's proof data on core `c`: the arrays as the region finds them; after the body at block
    `t` the input's buffer at its block and the result's at `outsAt0`'s first component; the invariant `PhiS`;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
  Φ t := PhiS V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]

/-- The input's current staging buffer holds its block at every point. -/
theorem before0_0 (c : Dev nD) (t : Fin cfg0.N) (d) : (dat0 V c).before 0 t d = iblk0 V c 0 t :=
  before0_0_of V (dat0 V c) (A_eq0 V c 0) (after0_0 V c) t d

/-! ## The body obligation -/

/-- What the body is called with at block `t`, -/
def bodyPre0 (c : Dev nD) (t : Fin cfg0.N) : sProp 𝕄 :=
  iprop((dat0 V c).Φ t.castSucc ∗ (dat0 V c).owesAt () t.castSucc
    ∗ (∃ d, owns (c : Thread nD τ) (mIn t) fullShare ((dat0 V c).before 0 t d))
    ∗ (∃ d, owns (c : Thread nD τ) (mOut t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any block: the closed forms of its two conditions say which case the block is in; the invariant hands
    the body the running counts (at anything at the first block, at what the block before left afterwards) and takes
    them back at this block's value; the other scoped buffers, the generator register and the core's debts pass
    through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS V c (t.val + 1) t.isLt from rfl, PhiS_succ]
  have hN : t.val < 64 := lt_of_lt_of_eq t.isLt N64
  rw [show (dat0 V c).leavesExact 0 t = owns (c : Thread nD τ) (mIn t) fullShare ((dat0 V c).after 0 t) from by
    unfold Dat.leavesExact; rw [live_in t], after0_0]
  by_cases h0 : t.val % 64 = 0
  · have h1 : ¬t.val % 64 = 63 := by omega
    have hz : t.val = 0 := by omega
    rw [Dat.leavesExact_idle (dat0 V c) 1 t (idle_out t (fun h => h1 ((isLast_iff t).mp h))) (noFlush_out t (fun h => h1 ((isLast_iff t).mp h)))]
    rw [outsAt0_first V c t h0 h1]
    unfold accFirst; (try dsimp only)
    rw [PhiS_castSucc V c t, PhiS_zero V c _ _ hz, PhiA0_eq]
    iintro ⟨⟨⟨HS0, HR⟩, Hg⟩, Ho, ⟨%d0, H0⟩, ⟨%d1, H1⟩⟩
    iapply ((runFirst c (grid0.coords t) _ _ _ _ _ _ ((isFirst_iff t).mpr h0) (fun h => h1 ((isLast_iff t).mp h)) (iblk0 V c 0 t)).2 _ Set.univ _)
    isplitl [H0]; · iexact H0
    isplitl [H1]; · iexact H1
    isplitl [HS0]; · iexact HS0
    iintro ⟨H0, H1, ⟨%es0, HS0⟩⟩
    isplitl [HS0 HR Hg]
    · isplitl [HS0 HR]
      · isplitl [HS0]
        · unfold owns; iexists _; isplitr
          swap; · iexact HS0
          ipureintro; exact View.read_writes_of_cover _ _ _ _ _ (cover_accFirst c _ _ _ _ _ _ _ _ _ _)
        iexact HR
      iexact Hg
    isplitl [Ho]; · iexact Ho
    isplitl [H0]; · iexact H0
    iexists _; iexact H1
  · have hz : t.val ≠ 0 := by omega
    by_cases h1 : t.val % 64 = 63
    · rw [show (dat0 V c).leavesExact 1 t = owns (c : Thread nD τ) (mOut t) fullShare ((dat0 V c).after 1 t) from by
        unfold Dat.leavesExact; rw [live_out t ((isLast_iff t).mpr h1)], after0_1]
      rw [outsAt0_last V c t h0 h1]
      unfold outLast accLast; (try dsimp only)
      rw [PhiS_castSucc V c t, PhiS_pos V c _ _ hz]
      iintro ⟨⟨⟨HS0, HR⟩, Hg⟩, Ho, ⟨%d0, H0⟩, ⟨%d1, H1⟩⟩
      iapply ((runLast c (grid0.coords t) _ _ _ _ _ _ (fun h => h0 ((isFirst_iff t).mp h)) ((isLast_iff t).mpr h1) (iblk0 V c 0 t) _).2.2 Set.univ _)
      isplitl [H0]; · iexact H0
      isplitl [H1]; · iexists _; iexact H1
      isplitl [HS0]; · iexact HS0
      iintro ⟨H0, ⟨%e1, H1⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (cover_accLast c _ _ _ _ _ _ _ _ _ _ _)
          iexact HR
        iexact Hg
      isplitl [Ho]; · iexact Ho
      isplitl [H0]; · iexact H0
      unfold owns; iexists _; isplitr
      swap; · iexact H1
      ipureintro; exact View.read_writes_of_cover _ _ _ _ _ (cover_outLast c _ _ _ _ _ _ _ _ _ _ _)
    · rw [Dat.leavesExact_idle (dat0 V c) 1 t (idle_out t (fun h => h1 ((isLast_iff t).mp h))) (noFlush_out t (fun h => h1 ((isLast_iff t).mp h)))]
      rw [outsAt0_mid V c t h0 h1]
      unfold accMid; (try dsimp only)
      rw [PhiS_castSucc V c t, PhiS_pos V c _ _ hz]
      iintro ⟨⟨⟨HS0, HR⟩, Hg⟩, Ho, ⟨%d0, H0⟩, ⟨%d1, H1⟩⟩
      iapply ((runMid c (grid0.coords t) _ _ _ _ _ _ (fun h => h0 ((isFirst_iff t).mp h)) (fun h => h1 ((isLast_iff t).mp h)) (iblk0 V c 0 t) _).2 _ Set.univ _)
      isplitl [H0]; · iexact H0
      isplitl [H1]; · iexact H1
      isplitl [HS0]; · iexact HS0
      iintro ⟨H0, H1, ⟨%es0, HS0⟩⟩
      isplitl [HS0 HR Hg]
      · isplitl [HS0 HR]
        · isplitl [HS0]
          · unfold owns; iexists _; isplitr
            swap; · iexact HS0
            ipureintro; exact View.read_writes_of_cover _ _ _ _ _ (cover_accMid c _ _ _ _ _ _ _ _ _ _ _)
          iexact HR
        iexact Hg
      isplitl [Ho]; · iexact Ho
      isplitl [H0]; · iexact H0
      iexists _; iexact H1

/-- The library's body obligation, at every block. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first block. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any block the invariant gives the launch's back: the running counts' value is forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HR⟩, Hg⟩
  isplitl [HS0 HR]
  · isplitl [HS0]
    · iexists _; iexact HS0
    iexact HR
  iexact Hg

/-- The same after the last block. -/
theorem hout0 (c : Dev nD) : (dat0 V c).Φ (Fin.last cfg0.N) ⊢ Pipeline.ΦA spec0 c :=
  Phi_out0 V c _ (by rw [Fin.val_last]; have : cfg0.N = 64 := N64; omega)

end Cert.KernelIdeal.Hist

end
-- ==== Proof.KI.Hist.Value.lean ====
/-
  The histogram kernel's result array.

  Each case of the body leaves in the row of running counts the counts it found (zeros at the first block) plus the
  block's eight counts; the input block the body reads at block t is rows 2048 t … 2048 t + 2047 of the array of expert
  ids; so after block n the running counts are the n-th term of the recurrence, and the result array, whose one
  block is written back after block 63 only, is the 63rd term converted to integers.
-/
import proofs.«428384_j28252294873409_1_alg».proof.Proof.KI.Hist.Dat

set_option maxRecDepth 16384

noncomputable section

namespace Cert.KernelIdeal.Hist

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case's pieces read back as -/

theorem hz : (![0, 0] : Fin 2 → Nat) = fun _ => 0 := funext fun a => by fin_cases a <;> rfl

/-- A middle block leaves the running counts it found plus the block's eight counts. -/
theorem accMid_eq (c : Dev nD) (i : grid0.Coords) (arg1 : Memref sig .tc .vmem S2048x128 .i32) (harg1 : arg1.IsWhole) (arg2 : Memref sig .tc .vmem S1x8 .i32) (harg2 : arg2.IsWhole) (arg3 : Memref sig .tc .vmem S1x8 .f32) (harg3 : arg3.IsWhole) (hc0 : ¬isFirst i) (hc1 : ¬isLast i)
    (x0 : Vec F S2048x128 .i32) (xs0 : Vec F S1x8 .f32) :
    accMid c i arg1 harg1 arg2 harg2 arg3 harg3 hc0 hc1 x0 xs0 = Steps.hstep x0 xs0 := by
  unfold accMid
  rw [View.read_writes_eq_canon _ _ _ (cover_accMid c i arg1 harg1 arg2 harg2 arg3 harg3 hc0 hc1 x0 xs0)]
  unfold runMid
  dsimp only
  sl_unfold_words
  rw [View.canon_unit_zero hz]
  simp only [View.readAt_eq_ld, harg1.read_unread, harg3.read_unread, View.ld_unit_zero (S := S2048x128) hz, View.ld_unit_zero (S := S1x8) hz]
  rfl

/-- The last block leaves the running counts it found plus the block's eight counts, -/
theorem accLast_eq (c : Dev nD) (i : grid0.Coords) (arg1 : Memref sig .tc .vmem S2048x128 .i32) (harg1 : arg1.IsWhole) (arg2 : Memref sig .tc .vmem S1x8 .i32) (harg2 : arg2.IsWhole) (arg3 : Memref sig .tc .vmem S1x8 .f32) (harg3 : arg3.IsWhole) (hc0 : ¬isFirst i) (hc1 : isLast i)
    (x0 : Vec F S2048x128 .i32) (xs0 : Vec F S1x8 .f32) :
    accLast c i arg1 harg1 arg2 harg2 arg3 harg3 hc0 hc1 x0 xs0 = Steps.hstep x0 xs0 := by
  unfold accLast
  rw [View.read_writes_eq_canon _ _ _ (cover_accLast c i arg1 harg1 arg2 harg2 arg3 harg3 hc0 hc1 x0 xs0)]
  unfold runLast
  dsimp only
  sl_unfold_words
  rw [View.canon_unit_zero hz]
  simp only [View.readAt_eq_ld, harg1.read_unread, harg3.read_unread, View.ld_unit_zero (S := S2048x128) hz, View.ld_unit_zero (S := S1x8) hz]
  rfl

/-- and in its result those running counts converted to integers. -/
theorem outLast_eq (c : Dev nD) (i : grid0.Coords) (arg1 : Memref sig .tc .vmem S2048x128 .i32) (harg1 : arg1.IsWhole) (arg2 : Memref sig .tc .vmem S1x8 .i32) (harg2 : arg2.IsWhole) (arg3 : Memref sig .tc .vmem S1x8 .f32) (harg3 : arg3.IsWhole) (hc0 : ¬isFirst i) (hc1 : isLast i)
    (x0 : Vec F S2048x128 .i32) (xs0 : Vec F S1x8 .f32) :
    outLast c i arg1 harg1 arg2 harg2 arg3 harg3 hc0 hc1 x0 xs0 = Steps.hout (Steps.hstep x0 xs0) := by
  unfold outLast
  rw [View.read_writes_eq_canon _ _ _ (cover_outLast c i arg1 harg1 arg2 harg2 arg3 harg3 hc0 hc1 x0 xs0)]
  unfold runLast
  dsimp only
  sl_unfold_words
  rw [View.canon_unit_zero hz]
  simp only [View.readAt_eq_ld, harg1.read_unread, harg3.read_unread, View.readCov_unit_zero (S := S1x8) _ hz, View.ld_unit_zero (S := S2048x128) hz, View.ld_unit_zero (S := S1x8) hz]
  rfl

/-- The first block leaves the block's eight counts added to zeros. -/
theorem accFirst_eq (c : Dev nD) (i : grid0.Coords) (arg1 : Memref sig .tc .vmem S2048x128 .i32) (harg1 : arg1.IsWhole) (arg2 : Memref sig .tc .vmem S1x8 .i32) (harg2 : arg2.IsWhole) (arg3 : Memref sig .tc .vmem S1x8 .f32) (harg3 : arg3.IsWhole) (hc0 : isFirst i) (hc1 : ¬isLast i)
    (x0 : Vec F S2048x128 .i32) :
    accFirst c i arg1 harg1 arg2 harg2 arg3 harg3 hc0 hc1 x0 = Steps.hstep x0 Steps.hzero := by
  unfold accFirst
  rw [View.read_writes_eq_canon _ _ _ (cover_accFirst c i arg1 harg1 arg2 harg2 arg3 harg3 hc0 hc1 x0)]
  unfold runFirst
  dsimp only
  sl_unfold_words
  rw [View.canon_cons_unit_zero (S := S1x8) hz]
  simp only [View.readAt_eq_ld, harg1.read_unread, View.readCov_unit_zero (S := S1x8) _ hz, View.ld_unit_zero (S := S2048x128) hz, View.ld_unit_zero (S := S1x8) hz]
  rfl

/-! ## The input block the body reads -/

/-- The array of expert ids as the region finds it. -/
abbrev xarr (c : Dev nD) : Vec F S131072x128 .i32 := V c main_v2
/-- The input window's block at point `t`. -/
abbrev xblk (c : Dev nD) (t : Fin cfg0.N) : Vec F S2048x128 .i32 := iblk0 V c 0 t

/-- The input window's index map, decided over the grid: block `t` of the rows, the one block of the columns. -/
theorem idx_in : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- The block the body reads at point `t` is rows 2048 t … 2048 t + 2047 of the array. -/
theorem xblk_eq (c : Dev nD) (t : Fin cfg0.N) : xblk V c t = Steps.xblk0 (xarr V c) t.val := by
  have hN : t.val < 64 := lt_of_lt_of_eq t.isLt N64
  obtain ⟨e0, e1⟩ := idx_in t
  funext y
  show V c main_v2 (((cfg0.win 0).blk t).view.emb y) = V c main_v2 (ix2 ⟨(2048 * t.val + (y 0).val) % 131072, Nat.mod_lt _ (by decide)⟩ ⟨(y 1).val % 128, Nat.mod_lt _ (by decide)⟩)
  refine congrArg (V c main_v2) ?_
  funext a; apply Fin.ext
  match a with
  | ⟨0, _⟩ => show win0_0.index t (0 : Fin 2) * 2048 + 1 * (y 0).val = (2048 * t.val + (y 0).val) % 131072; have hj : (y 0).val < 2048 := (y 0).isLt; omega
  | ⟨1, _⟩ => show win0_0.index t (1 : Fin 2) * 128 + 1 * (y 1).val = (y 1).val % 128; have hj : (y 1).val < 128 := (y 1).isLt; omega

/-! ## The running counts after each block -/

/-- After block `n` the row of running counts is the `n`-th term of the recurrence: by induction on the block. -/
theorem acc_eq (c : Dev nD) (n : ℕ) : ∀ t : Fin cfg0.N, t.val = n → (outsAt0 V c t.val t.isLt).2 = Steps.accSeq (xarr V c) n := by
  induction n with
  | zero =>
    intro t ht
    have h0 : t.val % 64 = 0 := by omega
    have h1 : ¬t.val % 64 = 63 := by omega
    rw [outsAt0_first V c t h0 h1]; dsimp only
    refine (accFirst_eq c (grid0.coords t) (mIn t) (hIn t) (mOut t) (hOut t) mAcc (Memref.isWhole_whole _) ((isFirst_iff t).mpr h0) (fun h => h1 ((isLast_iff t).mp h)) (xblk V c t)).trans ?_
    rw [xblk_eq V c t, ht]; rfl
  | succ n ih =>
    intro t ht
    have hN : t.val < 64 := lt_of_lt_of_eq t.isLt N64
    have h0 : ¬t.val % 64 = 0 := by omega
    have hp : (outsAt0 V c (t.val - 1) (Nat.lt_of_le_of_lt (Nat.sub_le _ _) t.isLt)).2 = Steps.accSeq (xarr V c) n :=
      ih ⟨t.val - 1, Nat.lt_of_le_of_lt (Nat.sub_le _ _) t.isLt⟩ (by show t.val - 1 = n; omega)
    by_cases h1 : t.val % 64 = 63
    · rw [outsAt0_last V c t h0 h1]; dsimp only
      refine (accLast_eq c (grid0.coords t) (mIn t) (hIn t) (mOut t) (hOut t) mAcc (Memref.isWhole_whole _) (fun h => h0 ((isFirst_iff t).mp h)) ((isLast_iff t).mpr h1) (xblk V c t) (outsAt0 V c (t.val - 1) (Nat.lt_of_le_of_lt (Nat.sub_le _ _) t.isLt)).2).trans ?_
      rw [hp, xblk_eq V c t, ht]; rfl
    · rw [outsAt0_mid V c t h0 h1]; dsimp only
      refine (accMid_eq c (grid0.coords t) (mIn t) (hIn t) (mOut t) (hOut t) mAcc (Memref.isWhole_whole _) (fun h => h0 ((isFirst_iff t).mp h)) (fun h => h1 ((isLast_iff t).mp h)) (xblk V c t) (outsAt0 V c (t.val - 1) (Nat.lt_of_le_of_lt (Nat.sub_le _ _) t.isLt)).2).trans ?_
      rw [hp, xblk_eq V c t, ht]; rfl

/-! ## The result array -/

/-- The last point of the grid. -/
abbrev tLast : Fin cfg0.N := ⟨63, by rw [N64]; decide⟩

/-- The histogram of the array of expert ids, as contents of the result array (its one block is the array). -/
abbrev histRes (c : Dev nD) : Buf (Elt F) ((c : Thread nD τ).loc main_v3) := Steps.histOut (xarr V c)

/-- After the last block the result's staging buffer holds the histogram. -/
theorem out_last (c : Dev nD) : (outsAt0 V c tLast.val tLast.isLt).1 = Steps.histOut (xarr V c) := by
  have h0 : ¬tLast.val % 64 = 0 := by decide
  have h1 : tLast.val % 64 = 63 := by decide
  have hp : (outsAt0 V c (tLast.val - 1) (Nat.lt_of_le_of_lt (Nat.sub_le _ _) tLast.isLt)).2 = Steps.accSeq (xarr V c) 62 :=
    acc_eq V c 62 ⟨tLast.val - 1, Nat.lt_of_le_of_lt (Nat.sub_le _ _) tLast.isLt⟩ rfl
  rw [outsAt0_last V c tLast h0 h1]; dsimp only
  refine (outLast_eq c (grid0.coords tLast) (mIn tLast) (hIn tLast) (mOut tLast) (hOut tLast) mAcc (Memref.isWhole_whole _) (fun h => h0 ((isFirst_iff tLast).mp h)) ((isLast_iff tLast).mpr h1) (xblk V c tLast) (outsAt0 V c (tLast.val - 1) (Nat.lt_of_le_of_lt (Nat.sub_le _ _) tLast.isLt)).2).trans ?_
  rw [hp, xblk_eq V c tLast]; rfl

/-- The one write-back, after the last block, writes the histogram: block (0, 0) of the [1,8] array read through
    zero offsets is the array. -/
theorem flushed_out (c : Dev nD) (t : Fin cfg0.N) (hf : (cfg0.win 1).flush t = true) :
    (dat0 V c).flushed 1 t = ((cfg0.win 1).blk t).view.read (Elt F) (histRes V c) := by
  have hN : t.val < 64 := lt_of_lt_of_eq t.isLt N64
  have h63 : t.val = 63 := by have := (flush0_1 t).mp hf; omega
  obtain rfl : t = tLast := Fin.ext h63
  show (cfg0.win 1).cut (grid0.coords tLast) ((dat0 V c).after 1 tLast) = _
  rw [after0_1, out_last V c]
  have hz' : (fun a => win0_1.index tLast a * main_v3.ty.shape.size a) = fun _ => 0 := funext fun a => by fin_cases a <;> decide
  exact (Memref.read_access_unit_zero (Elt F) main_v3 hz' (fun a => by rw [congrFun hz' a]; simp) (histRes V c)).symm

/-- The input array is as the region found it. -/
theorem final0_in (c : Dev nD) : (dat0 V c).arrAt 0 cfg0.N = V c main_v2 :=
  ((dat0 V c).arrAt_in 0 rfl _).trans (A_eq0 V c 0)

/-- THE VALUE: the result array ends holding the histogram of the array of expert ids — the running counts after
    the last block, converted to integers. -/
theorem final0_out (c : Dev nD) : (dat0 V c).arrAt 1 cfg0.N = Steps.histOut (V c main_v2) :=
  (dat0 V c).arrAt_eq_of_cover 1 (histRes V c) (flushed_out V c) fun i =>
    ⟨tLast, (flush0_1 tLast).mpr rfl, by
      show i ∈ ((View.whole main_v3).slice (win0_1.rect tLast)).set
      rw [View.set_slice_whole, Rect.mem_set_unit]
      intro a
      have h0 : (i 0 : Nat) < 1 := (i 0).isLt
      have h1 : (i 1 : Nat) < 8 := (i 1).isLt
      match a with
      | ⟨0, _⟩ => show win0_1.index tLast 0 * win0_1.size 0 ≤ (i 0 : Nat) ∧ (i 0 : Nat) < win0_1.index tLast 0 * win0_1.size 0 + win0_1.xsize (grid0.coords tLast) 0
                  rw [show win0_1.index tLast 0 * win0_1.size 0 = 0 from by decide +kernel, show win0_1.xsize (grid0.coords tLast) 0 = 1 from by decide +kernel]; omega
      | ⟨1, _⟩ => show win0_1.index tLast 1 * win0_1.size 1 ≤ (i 1 : Nat) ∧ (i 1 : Nat) < win0_1.index tLast 1 * win0_1.size 1 + win0_1.xsize (grid0.coords tLast) 1
                  rw [show win0_1.index tLast 1 * win0_1.size 1 = 0 from by decide +kernel, show win0_1.xsize (grid0.coords tLast) 1 = 8 from by decide +kernel]; omega⟩

end Cert.KernelIdeal.Hist

end
-- ==== Proof.KI.Frame0.lean ====
/-
  Region 0, the histogram kernel: its proof data, its body obligation and its result array.

  `Cert.KernelIdeal.Hist.dat0`, `A_eq0`, `body_obligation0`, `hin0`, `hout0` are the proof data over the 64 blocks;
  `final0_in` and `final0_out` say what the two windows' arrays hold after the region: the array of expert ids as it
  was, and its histogram.
-/
import proofs.«428384_j28252294873409_1_alg».proof.Proof.KI.Hist.Value
-- ==== Proof.KI.Frame1Shared.lean ====
/-
  The rank kernel's region, what its two cases share.

  The region walks the 131072 × 128 array of expert ids in 256 blocks of 512 rows. At every point the body reads the
  block, the row of eight base offsets, the two triangular 0/1 matrices and the row of eight running offsets it keeps in
  a scratch, writes the block's destinations, and advances the running offsets; at the first point it first sets the
  running offsets to the base offsets. Here: a window's block at a point, read off the array as the region finds it;
  that an input's staging buffer holds its block at every point; the first-point test in closed form; names for the
  staging and scratch memrefs; and the region's invariant with the scratch named.
-/
import proofs.«428384_j28252294873409_1_alg».proof.Proof.Gen.KernelIdeal.Launch
import proofs.«428384_j28252294873409_1_alg».proof.Proof.Gen.KernelIdeal.Skeleton
import proofs.«428384_j28252294873409_1_alg».proof.Proof.Gen.KernelIdeal.Points
import proofs.«428384_j28252294873409_1_alg».proof.Proof.KI.Steps
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

-- membership in a rectangle of 512 × 128 entries: the elaborator's structural look recurses once per coordinate
set_option maxRecDepth 16384

noncomputable section

namespace Cert.KernelIdeal.Rank

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the core's buffer contents when the rank kernel's region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data
    whose array is the entry contents and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof data
    whose array is the entry contents and whose body leaves the block in place: unfetched, the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof data
    whose array is the entry contents and whose body leaves the block in place: unfetched, the block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof data
    whose array is the entry contents and whose body leaves the block in place: unfetched, the block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The first-point test -/

/-- The body's test "is this the first point", from the grid coordinate. -/
abbrev cond1 (i : grid1.Coords) : Prop :=
  (Scalar.cmpi .ne (Scalar.extui (Scalar.cmpi .eq (BitVec.ofNat 32 (i 0).val) 0#32) : BitVec 32) 0#32) = 1#1

/-- It holds at point 0 and nowhere else: decided over the 256 points. -/
theorem hcond1 : ∀ t : Fin cfg1.N, cond1 (grid1.coords t) ↔ t.val = 0 :=
  (by decide +kernel : ∀ t : Fin grid1.N, cond1 (grid1.coords t) ↔ t.val = 0)

/-! ## The memrefs the body is called with -/

/-- One staging buffer of the output window, through which its contents are stated. -/
abbrev VO1_4 : View sig .tc .vmem S512x128 .i32 := (Memref.whole cc1_stg4_0 : Memref sig .tc .vmem S512x128 .i32).view
/-- Each window's current staging memref at point `t`, and its wholeness. -/
abbrev ms1_0 (t : Fin cfg1.N) : Memref sig .tc .vmem S512x128 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x8 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x512 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x128 .i32 := win1_4.stage (cfg1.slots t 4)
abbrev hs1_4 (t : Fin cfg1.N) : (ms1_4 t).IsWhole := hstage1_4 ((cfg1.slots t 4).cast nbuf1_4)
/-- The scratch that carries the running offsets from point to point. -/
abbrev scM1 : Memref sig .tc .vmem S1x8 .f32 := Memref.whole cc1_scratch0
/-- The same as a view: what it holds is stated through it. -/
abbrev VS1 : View sig .tc .vmem S1x8 .f32 := scM1.view

/-- The invariant the launch hands the region, with the scoped buffers that are no staging buffer of this region
    written out: the histogram kernel's three staging buffers and its scratch, and this kernel's scratch, each owned at
    some contents; and the generator register at some state. -/
theorem PhiA1_eq (c : Dev nD) :
    (Pipeline.ΦA spec1 c : sProp 𝕄)
      = iprop(iprop((∃ d, owns (c : Thread nD τ) (Memref.whole cc0_stg0_0 : Memref sig .tc .vmem S2048x128 .i32) fullShare d)
          ∗ (∃ d, owns (c : Thread nD τ) (Memref.whole cc0_stg0_1 : Memref sig .tc .vmem S2048x128 .i32) fullShare d)
          ∗ (∃ d, owns (c : Thread nD τ) (Memref.whole cc0_stg1_0 : Memref sig .tc .vmem S1x8 .i32) fullShare d)
          ∗ (∃ d, owns (c : Thread nD τ) (Memref.whole cc0_scratch0 : Memref sig .tc .vmem S1x8 .f32) fullShare d)
          ∗ (∃ d, owns (c : Thread nD τ) scM1 fullShare d)) ∗ (∃ r, prngReg c r)) := by
  unfold Pipeline.ΦA; rw [scopedRest1_eq]; simp only [scM1, owns_whole]; try rfl

end Cert.KernelIdeal.Rank

end
-- ==== Proof.KI.Frame1RunA.lean ====
/-
  The rank kernel's body at the first point.

  On whole staging memrefs — the block of ids, the base offsets and the two triangular matrices at given contents, the
  output's buffer and the scratch at anything — the body runs to the end holding the inputs as they were, the output's
  buffer with the block's destinations stored and the scratch with the base offsets and then the advanced offsets
  stored. What was stored is found by running the body: the pieces, last first, are the witness.
-/
import proofs.«428384_j28252294873409_1_alg».proof.Proof.KI.Frame1Shared

-- membership in a rectangle of 512 × 128 entries: the elaborator's structural look recurses once per coordinate
set_option maxRecDepth 16384

noncomputable section

namespace Cert.KernelIdeal.Rank

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the core's buffer contents when the rank kernel's region is entered
variable (V : (c : Dev nD) → (b : Ref sig .tc) → Buf (Elt F) ((c : Thread nD τ).loc b))

set_option maxHeartbeats 4000000 in
/-- The body's stores at the first point, as pieces (last first) for the output's buffer and for the scratch, with the
    proof that the body runs from the inputs' contents to those stores. -/
noncomputable def kernelRun1_A (c : Dev nD) (i : grid1.Coords) (arg1 : Memref sig .tc .vmem S512x128 .i32) (harg1 : arg1.IsWhole) (arg2 : Memref sig .tc .vmem S1x8 .f32) (harg2 : arg2.IsWhole) (arg3 : Memref sig .tc .vmem S128x128 .bf16) (harg3 : arg3.IsWhole) (arg4 : Memref sig .tc .vmem S512x512 .bf16) (harg4 : arg4.IsWhole) (arg5 : Memref sig .tc .vmem S512x128 .i32) (harg5 : arg5.IsWhole) (arg6 : Memref sig .tc .vmem S1x8 .f32) (harg6 : arg6.IsWhole) (hc : cond1 i)
    (x0 : Vec F S512x128 .i32) (x1 : Vec F S1x8 .f32) (x2 : Vec F S128x128 .bf16) (x3 : Vec F S512x512 .bf16) :
    Σ' (L4 : List (View.Piece (Elt F) S512x128 .i32)), { LS : List (View.Piece (Elt F) S1x8 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS)) -∗ K ⟨⟩))
          ⊢ wp frame (wpE (defs₀ (F := F)) Variants.none c none) E (cc1_rank_kernel i arg1 harg1 arg2 harg2 arg3 harg3 arg4 harg4 arg5 harg5 arg6 harg6) K } := by
  refine ⟨?_, ?_, fun E K => ?run⟩
  case run =>
    simp only [cc1_rank_kernel_eq_skeleton]; unfold cc1_rank_kernel_skel
    simp only [k1_part3_eq_skeleton, k1_part1_eq_skeleton, k1_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds, %fs, -, HS⟩, Hk⟩
    obtain rfl := harg1.eq_unread hf0; obtain rfl := harg2.eq_unread hf1; obtain rfl := harg3.eq_unread hf2; obtain rfl := harg4.eq_unread hf3
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact HS

end Cert.KernelIdeal.Rank

end
-- ==== Proof.KI.Frame1RunB.lean ====
/-
  The rank kernel's body at a point after the first.

  As at the first point, but the scratch is handed in at the running offsets the point before left, and the body does
  not reset it: it stores the block's destinations into the output's buffer and the advanced offsets into the scratch.
-/
import proofs.«428384_j28252294873409_1_alg».proof.Proof.KI.Frame1RunA

-- membership in a rectangle of 512 × 128 entries: the elaborator's structural look recurses once per coordinate
set_option maxRecDepth 16384

noncomputable section

namespace Cert.KernelIdeal.Rank

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the core's buffer contents when the rank kernel's region is entered
variable (V : (c : Dev nD) → (b : Ref sig .tc) → Buf (Elt F) ((c : Thread nD τ).loc b))

set_option maxHeartbeats 4000000 in
/-- The body's stores at a later point, as pieces (last first) for the output's buffer and for the scratch, with the
    proof that the body runs from the inputs' contents and the scratch's to those stores. -/
noncomputable def kernelRun1_B (c : Dev nD) (i : grid1.Coords) (arg1 : Memref sig .tc .vmem S512x128 .i32) (harg1 : arg1.IsWhole) (arg2 : Memref sig .tc .vmem S1x8 .f32) (harg2 : arg2.IsWhole) (arg3 : Memref sig .tc .vmem S128x128 .bf16) (harg3 : arg3.IsWhole) (arg4 : Memref sig .tc .vmem S512x512 .bf16) (harg4 : arg4.IsWhole) (arg5 : Memref sig .tc .vmem S512x128 .i32) (harg5 : arg5.IsWhole) (arg6 : Memref sig .tc .vmem S1x8 .f32) (harg6 : arg6.IsWhole) (hc : ¬cond1 i)
    (x0 : Vec F S512x128 .i32) (x1 : Vec F S1x8 .f32) (x2 : Vec F S128x128 .bf16) (x3 : Vec F S512x512 .bf16) (xs : Vec F S1x8 .f32) :
    Σ' (L4 : List (View.Piece (Elt F) S512x128 .i32)), { LS : List (View.Piece (Elt F) S1x8 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS)) -∗ K ⟨⟩))
          ⊢ wp frame (wpE (defs₀ (F := F)) Variants.none c none) E (cc1_rank_kernel i arg1 harg1 arg2 harg2 arg3 harg3 arg4 harg4 arg5 harg5 arg6 harg6) K } := by
  refine ⟨?_, ?_, fun E K => ?run⟩
  case run =>
    simp only [cc1_rank_kernel_eq_skeleton]; unfold cc1_rank_kernel_skel
    simp only [k1_part3_eq_skeleton, k1_part1_eq_skeleton, k1_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg1.eq_unread hf0; obtain rfl := harg2.eq_unread hf1; obtain rfl := harg3.eq_unread hf2; obtain rfl := harg4.eq_unread hf3; obtain rfl := harg6.eq_unread hfs
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact HS

end Cert.KernelIdeal.Rank

end
-- ==== Proof.KI.Frame1Body.lean ====
/-
  The rank kernel's region: its proof data and the body obligation.

  What each case's stores leave is read back from the pieces the runs found. Point by point: the output's buffer
  after point 0 is the first case's, over the blocks at point 0; after a later point the second case's, over that
  point's blocks and the running offsets the point before left in the scratch. The region's invariant is the launch's
  before the first point; afterwards it names the scratch's contents — what the point before left — and keeps the
  other scoped buffers and the generator register at anything. With these the body's run at each point is the
  pipeline's body obligation.
-/
import proofs.«428384_j28252294873409_1_alg».proof.Proof.KI.Frame1RunB

-- membership in a rectangle of 512 × 128 entries: the elaborator's structural look recurses once per coordinate
set_option maxRecDepth 16384

noncomputable section

namespace Cert.KernelIdeal.Rank

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the core's buffer contents when the rank kernel's region is entered
variable (V : (c : Dev nD) → (b : Ref sig .tc) → Buf (Elt F) ((c : Thread nD τ).loc b))

/-! ## What each case leaves -/

/-- Case A's pieces for the output's buffer tile its block, so they cover it. -/
theorem cover1_A_4 (c : Dev nD) (i : grid1.Coords) (arg1 : Memref sig .tc .vmem S512x128 .i32) (harg1 : arg1.IsWhole) (arg2 : Memref sig .tc .vmem S1x8 .f32) (harg2 : arg2.IsWhole) (arg3 : Memref sig .tc .vmem S128x128 .bf16) (harg3 : arg3.IsWhole) (arg4 : Memref sig .tc .vmem S512x512 .bf16) (harg4 : arg4.IsWhole) (arg5 : Memref sig .tc .vmem S512x128 .i32) (harg5 : arg5.IsWhole) (arg6 : Memref sig .tc .vmem S1x8 .f32) (harg6 : arg6.IsWhole) (hc : cond1 i)
    (x0 : Vec F S512x128 .i32) (x1 : Vec F S1x8 .f32) (x2 : Vec F S128x128 .bf16) (x3 : Vec F S512x512 .bf16) (y : S512x128.Idx) :
    ∃ pc ∈ (kernelRun1_A c i arg1 harg1 arg2 harg2 arg3 harg3 arg4 harg4 arg5 harg5 arg6 harg6 hc x0 x1 x2 x3).1, y ∈ pc.1.set :=
  View.cover_of_tiledL (kernelRun1_A c i arg1 harg1 arg2 harg2 arg3 harg3 arg4 harg4 arg5 harg5 arg6 harg6 hc x0 x1 x2 x3).1 S512x128.size (by sl_kernel_rfl) y

/-- What case A leaves in the output's buffer: its pieces read back. -/
def out1_A_4 (c : Dev nD) (i : grid1.Coords) (arg1 : Memref sig .tc .vmem S512x128 .i32) (harg1 : arg1.IsWhole) (arg2 : Memref sig .tc .vmem S1x8 .f32) (harg2 : arg2.IsWhole) (arg3 : Memref sig .tc .vmem S128x128 .bf16) (harg3 : arg3.IsWhole) (arg4 : Memref sig .tc .vmem S512x512 .bf16) (harg4 : arg4.IsWhole) (arg5 : Memref sig .tc .vmem S512x128 .i32) (harg5 : arg5.IsWhole) (arg6 : Memref sig .tc .vmem S1x8 .f32) (harg6 : arg6.IsWhole) (hc : cond1 i)
    (x0 : Vec F S512x128 .i32) (x1 : Vec F S1x8 .f32) (x2 : Vec F S128x128 .bf16) (x3 : Vec F S512x512 .bf16) : Vec F S512x128 .i32 :=
  VO1_4.read (Elt F) (VO1_4.writes (Elt F) VO1_4.junk (kernelRun1_A c i arg1 harg1 arg2 harg2 arg3 harg3 arg4 harg4 arg5 harg5 arg6 harg6 hc x0 x1 x2 x3).1)

/-- Case A's pieces for the scratch cover it. -/
theorem scover1_A (c : Dev nD) (i : grid1.Coords) (arg1 : Memref sig .tc .vmem S512x128 .i32) (harg1 : arg1.IsWhole) (arg2 : Memref sig .tc .vmem S1x8 .f32) (harg2 : arg2.IsWhole) (arg3 : Memref sig .tc .vmem S128x128 .bf16) (harg3 : arg3.IsWhole) (arg4 : Memref sig .tc .vmem S512x512 .bf16) (harg4 : arg4.IsWhole) (arg5 : Memref sig .tc .vmem S512x128 .i32) (harg5 : arg5.IsWhole) (arg6 : Memref sig .tc .vmem S1x8 .f32) (harg6 : arg6.IsWhole) (hc : cond1 i)
    (x0 : Vec F S512x128 .i32) (x1 : Vec F S1x8 .f32) (x2 : Vec F S128x128 .bf16) (x3 : Vec F S512x512 .bf16) (y : S1x8.Idx) :
    ∃ pc ∈ (kernelRun1_A c i arg1 harg1 arg2 harg2 arg3 harg3 arg4 harg4 arg5 harg5 arg6 harg6 hc x0 x1 x2 x3).2.1, y ∈ pc.1.set :=
  View.cover_of_tiledL (kernelRun1_A c i arg1 harg1 arg2 harg2 arg3 harg3 arg4 harg4 arg5 harg5 arg6 harg6 hc x0 x1 x2 x3).2.1 S1x8.size (by sl_kernel_rfl) y

/-- What case A leaves in the scratch: its pieces read back. -/
def sout1_A (c : Dev nD) (i : grid1.Coords) (arg1 : Memref sig .tc .vmem S512x128 .i32) (harg1 : arg1.IsWhole) (arg2 : Memref sig .tc .vmem S1x8 .f32) (harg2 : arg2.IsWhole) (arg3 : Memref sig .tc .vmem S128x128 .bf16) (harg3 : arg3.IsWhole) (arg4 : Memref sig .tc .vmem S512x512 .bf16) (harg4 : arg4.IsWhole) (arg5 : Memref sig .tc .vmem S512x128 .i32) (harg5 : arg5.IsWhole) (arg6 : Memref sig .tc .vmem S1x8 .f32) (harg6 : arg6.IsWhole) (hc : cond1 i)
    (x0 : Vec F S512x128 .i32) (x1 : Vec F S1x8 .f32) (x2 : Vec F S128x128 .bf16) (x3 : Vec F S512x512 .bf16) : Vec F S1x8 .f32 :=
  VS1.read (Elt F) (VS1.writes (Elt F) VS1.junk (kernelRun1_A c i arg1 harg1 arg2 harg2 arg3 harg3 arg4 harg4 arg5 harg5 arg6 harg6 hc x0 x1 x2 x3).2.1)

/-- Case B's pieces for the output's buffer tile its block, so they cover it. -/
theorem cover1_B_4 (c : Dev nD) (i : grid1.Coords) (arg1 : Memref sig .tc .vmem S512x128 .i32) (harg1 : arg1.IsWhole) (arg2 : Memref sig .tc .vmem S1x8 .f32) (harg2 : arg2.IsWhole) (arg3 : Memref sig .tc .vmem S128x128 .bf16) (harg3 : arg3.IsWhole) (arg4 : Memref sig .tc .vmem S512x512 .bf16) (harg4 : arg4.IsWhole) (arg5 : Memref sig .tc .vmem S512x128 .i32) (harg5 : arg5.IsWhole) (arg6 : Memref sig .tc .vmem S1x8 .f32) (harg6 : arg6.IsWhole) (hc : ¬cond1 i)
    (x0 : Vec F S512x128 .i32) (x1 : Vec F S1x8 .f32) (x2 : Vec F S128x128 .bf16) (x3 : Vec F S512x512 .bf16) (xs : Vec F S1x8 .f32) (y : S512x128.Idx) :
    ∃ pc ∈ (kernelRun1_B c i arg1 harg1 arg2 harg2 arg3 harg3 arg4 harg4 arg5 harg5 arg6 harg6 hc x0 x1 x2 x3 xs).1, y ∈ pc.1.set :=
  View.cover_of_tiledL (kernelRun1_B c i arg1 harg1 arg2 harg2 arg3 harg3 arg4 harg4 arg5 harg5 arg6 harg6 hc x0 x1 x2 x3 xs).1 S512x128.size (by sl_kernel_rfl) y

/-- What case B leaves in the output's buffer: its pieces read back. -/
def out1_B_4 (c : Dev nD) (i : grid1.Coords) (arg1 : Memref sig .tc .vmem S512x128 .i32) (harg1 : arg1.IsWhole) (arg2 : Memref sig .tc .vmem S1x8 .f32) (harg2 : arg2.IsWhole) (arg3 : Memref sig .tc .vmem S128x128 .bf16) (harg3 : arg3.IsWhole) (arg4 : Memref sig .tc .vmem S512x512 .bf16) (harg4 : arg4.IsWhole) (arg5 : Memref sig .tc .vmem S512x128 .i32) (harg5 : arg5.IsWhole) (arg6 : Memref sig .tc .vmem S1x8 .f32) (harg6 : arg6.IsWhole) (hc : ¬cond1 i)
    (x0 : Vec F S512x128 .i32) (x1 : Vec F S1x8 .f32) (x2 : Vec F S128x128 .bf16) (x3 : Vec F S512x512 .bf16) (xs : Vec F S1x8 .f32) : Vec F S512x128 .i32 :=
  VO1_4.read (Elt F) (VO1_4.writes (Elt F) VO1_4.junk (kernelRun1_B c i arg1 harg1 arg2 harg2 arg3 harg3 arg4 harg4 arg5 harg5 arg6 harg6 hc x0 x1 x2 x3 xs).1)

/-- Case B's pieces for the scratch cover it. -/
theorem scover1_B (c : Dev nD) (i : grid1.Coords) (arg1 : Memref sig .tc .vmem S512x128 .i32) (harg1 : arg1.IsWhole) (arg2 : Memref sig .tc .vmem S1x8 .f32) (harg2 : arg2.IsWhole) (arg3 : Memref sig .tc .vmem S128x128 .bf16) (harg3 : arg3.IsWhole) (arg4 : Memref sig .tc .vmem S512x512 .bf16) (harg4 : arg4.IsWhole) (arg5 : Memref sig .tc .vmem S512x128 .i32) (harg5 : arg5.IsWhole) (arg6 : Memref sig .tc .vmem S1x8 .f32) (harg6 : arg6.IsWhole) (hc : ¬cond1 i)
    (x0 : Vec F S512x128 .i32) (x1 : Vec F S1x8 .f32) (x2 : Vec F S128x128 .bf16) (x3 : Vec F S512x512 .bf16) (xs : Vec F S1x8 .f32) (y : S1x8.Idx) :
    ∃ pc ∈ (kernelRun1_B c i arg1 harg1 arg2 harg2 arg3 harg3 arg4 harg4 arg5 harg5 arg6 harg6 hc x0 x1 x2 x3 xs).2.1, y ∈ pc.1.set :=
  View.cover_of_tiledL (kernelRun1_B c i arg1 harg1 arg2 harg2 arg3 harg3 arg4 harg4 arg5 harg5 arg6 harg6 hc x0 x1 x2 x3 xs).2.1 S1x8.size (by sl_kernel_rfl) y

/-- What case B leaves in the scratch: its pieces read back. -/
def sout1_B (c : Dev nD) (i : grid1.Coords) (arg1 : Memref sig .tc .vmem S512x128 .i32) (harg1 : arg1.IsWhole) (arg2 : Memref sig .tc .vmem S1x8 .f32) (harg2 : arg2.IsWhole) (arg3 : Memref sig .tc .vmem S128x128 .bf16) (harg3 : arg3.IsWhole) (arg4 : Memref sig .tc .vmem S512x512 .bf16) (harg4 : arg4.IsWhole) (arg5 : Memref sig .tc .vmem S512x128 .i32) (harg5 : arg5.IsWhole) (arg6 : Memref sig .tc .vmem S1x8 .f32) (harg6 : arg6.IsWhole) (hc : ¬cond1 i)
    (x0 : Vec F S512x128 .i32) (x1 : Vec F S1x8 .f32) (x2 : Vec F S128x128 .bf16) (x3 : Vec F S512x512 .bf16) (xs : Vec F S1x8 .f32) : Vec F S1x8 .f32 :=
  VS1.read (Elt F) (VS1.writes (Elt F) VS1.junk (kernelRun1_B c i arg1 harg1 arg2 harg2 arg3 harg3 arg4 harg4 arg5 harg5 arg6 harg6 hc x0 x1 x2 x3 xs).2.1)

/-! ## Point by point -/

/-- What the output's staging buffer and the scratch hold after the body at point `n`: at point 0 the first case's
    contents over that point's blocks; at a later point the second case's, over that point's blocks and the scratch as the
    point before left it. -/
def outsAt1 (c : Dev nD) : (n : ℕ) → n < cfg1.N → Vec F S512x128 .i32 × Vec F S1x8 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1 (Memref.isWhole_whole _) ((hcond1 ⟨0, hn⟩).mpr rfl) (iblk1 V c 0 ⟨0, hn⟩) (iblk1 V c 1 ⟨0, hn⟩) (iblk1 V c 2 ⟨0, hn⟩) (iblk1 V c 3 ⟨0, hn⟩), sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1 (Memref.isWhole_whole _) ((hcond1 ⟨0, hn⟩).mpr rfl) (iblk1 V c 0 ⟨0, hn⟩) (iblk1 V c 1 ⟨0, hn⟩) (iblk1 V c 2 ⟨0, hn⟩) (iblk1 V c 3 ⟨0, hn⟩))
  | n + 1, hn => (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => Nat.succ_ne_zero n ((hcond1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => Nat.succ_ne_zero n ((hcond1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

/-- At the first point. -/
theorem outsAt1_A (c : Dev nD) (t : Fin cfg1.N) (h0 : t.val = 0) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) scM1 (Memref.isWhole_whole _) ((hcond1 t).mpr h0) (iblk1 V c 0 t) (iblk1 V c 1 t) (iblk1 V c 2 t) (iblk1 V c 3 t), sout1_A c (grid1.coords t) (ms1_0 t) (hs1_0 t) (ms1_1 t) (hs1_1 t) (ms1_2 t) (hs1_2 t) (ms1_3 t) (hs1_3 t) (ms1_4 t) (hs1_4 t) scM1 (Memref.isWhole_whole _) ((hcond1 t).mpr h0) (iblk1 V c 0 t) (iblk1 V c 1 t) (iblk1 V c 2 t) (iblk1 V c 3 t)) := by
  obtain ⟨n, hn⟩ := t
  cases n with
  | zero => exact rfl
  | succ n => exact absurd h0 (Nat.succ_ne_zero n)

/-- At a later point: over what the point before left in the scratch. -/
theorem outsAt1_B (c : Dev nD) (t : Fin cfg1.N) (h0 : ¬t.val = 0) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1 t).mp h)) (iblk1 V c 0 t) (iblk1 V c 1 t) (iblk1 V c 2 t) (iblk1 V c 3 t) (outsAt1 V c (t.val - 1) (Nat.lt_of_le_of_lt (Nat.sub_le _ _) t.isLt)).2, sout1_B c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1 t).mp h)) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact absurd rfl h0
  | succ n => exact rfl

/-! ## The invariant -/

/-- Before the first point, what the launch hands the region; before a later point, the scratch owned at what the point
    before left in it, the other scoped buffers at anything, and the generator register at some state. -/
def PhiS (c : Dev nD) : (n : ℕ) → n ≤ cfg1.N → sProp 𝕄
  | 0, _ => Pipeline.ΦA spec1 c
  | n + 1, hn => iprop(iprop((∃ d, owns (c : Thread nD τ) (Memref.whole cc0_stg0_0 : Memref sig .tc .vmem S2048x128 .i32) fullShare d)
          ∗ (∃ d, owns (c : Thread nD τ) (Memref.whole cc0_stg0_1 : Memref sig .tc .vmem S2048x128 .i32) fullShare d)
          ∗ (∃ d, owns (c : Thread nD τ) (Memref.whole cc0_stg1_0 : Memref sig .tc .vmem S1x8 .i32) fullShare d)
          ∗ (∃ d, owns (c : Thread nD τ) (Memref.whole cc0_scratch0 : Memref sig .tc .vmem S1x8 .f32) fullShare d)
          ∗ owns (c : Thread nD τ) scM1 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ d, owns (c : Thread nD τ) (Memref.whole cc0_stg0_0 : Memref sig .tc .vmem S2048x128 .i32) fullShare d)
          ∗ (∃ d, owns (c : Thread nD τ) (Memref.whole cc0_stg0_1 : Memref sig .tc .vmem S2048x128 .i32) fullShare d)
          ∗ (∃ d, owns (c : Thread nD τ) (Memref.whole cc0_stg1_0 : Memref sig .tc .vmem S1x8 .i32) fullShare d)
          ∗ (∃ d, owns (c : Thread nD τ) (Memref.whole cc0_scratch0 : Memref sig .tc .vmem S1x8 .f32) fullShare d)
          ∗ owns (c : Thread nD τ) scM1 fullShare ((outsAt1 V c n hn).2)) ∗ (∃ r, prngReg c r)) := rfl

theorem PhiS_pos (c : Dev nD) (n : ℕ) (h : n ≤ cfg1.N) (hz : n ≠ 0) :
    PhiS V c n h = iprop(iprop((∃ d, owns (c : Thread nD τ) (Memref.whole cc0_stg0_0 : Memref sig .tc .vmem S2048x128 .i32) fullShare d)
          ∗ (∃ d, owns (c : Thread nD τ) (Memref.whole cc0_stg0_1 : Memref sig .tc .vmem S2048x128 .i32) fullShare d)
          ∗ (∃ d, owns (c : Thread nD τ) (Memref.whole cc0_stg1_0 : Memref sig .tc .vmem S1x8 .i32) fullShare d)
          ∗ (∃ d, owns (c : Thread nD τ) (Memref.whole cc0_scratch0 : Memref sig .tc .vmem S1x8 .f32) fullShare d)
          ∗ owns (c : Thread nD τ) scM1 fullShare ((outsAt1 V c (n - 1) (by omega)).2)) ∗ (∃ r, prngReg c r)) := by
  cases n with
  | zero => exact absurd rfl hz
  | succ n => rfl

/-! ## The proof data -/

/-- The region's proof data on core `c`: the arrays as the region finds them; after the body at a point each input's
    buffer at its block and the output's at what the point's case leaves; the invariant that names the scratch; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at the point's number. -/
theorem PhiS_castSucc (c : Dev nD) (t : Fin cfg1.N) :
    (dat1 V c).Φ t.castSucc = PhiS V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

set_option maxHeartbeats 4800000 in
/-- The body at any point. The inputs' memrefs hold their blocks; the point is the first or a later one, which selects
    the case and says what the invariant hands over for the scratch (anything, or what the point before left); the
    case's run applies; the invariant takes the scratch back at this point's contents, by the cover of the scratch's
    pieces, and the output's buffer is left at this point's contents, by the cover of its pieces. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  rw [after1_0, after1_1, after1_2, after1_3, after1_4]
  by_cases hz : t.val = 0
  · rw [outsAt1_A V c t hz]
    unfold out1_A_4 sout1_A; (try dsimp only)
    rw [PhiS_castSucc V c t, PhiS_zero V c _ _ hz, PhiA1_eq]
    iintro ⟨⟨⟨Ha, Hb, Hc, Hd, HS⟩, Hg⟩, Ho, ⟨%d0, H0⟩, ⟨%d1, H1⟩, ⟨%d2, H2⟩, ⟨%d3, H3⟩, ⟨%d4, H4⟩⟩
    iapply ((kernelRun1_A c (grid1.coords t) _ _ _ _ _ _ _ _ _ _ _ _ ((hcond1 t).mpr hz) (iblk1 V c 0 t) (iblk1 V c 1 t) (iblk1 V c 2 t) (iblk1 V c 3 t)).2.2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, ⟨%es, HS⟩⟩
    isplitl [Ha Hb Hc Hd HS Hg]
    · isplitl [Ha Hb Hc Hd HS]
      · isplitl [Ha]; · iexact Ha
        isplitl [Hb]; · iexact Hb
        isplitl [Hc]; · iexact Hc
        isplitl [Hd]; · iexact Hd
        unfold owns; iexists _; isplitr
        swap; · iexact HS
        ipureintro; exact View.read_writes_of_cover _ _ _ _ _ (scover1_A c _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover1_A_4 c _ _ _ _ _ _ _ _ _ _ _ _ _ _ _ _ _ _)
  · rw [outsAt1_B V c t hz]
    unfold out1_B_4 sout1_B; (try dsimp only)
    rw [PhiS_castSucc V c t, PhiS_pos V c _ _ hz]
    iintro ⟨⟨⟨Ha, Hb, Hc, Hd, HS⟩, Hg⟩, Ho, ⟨%d0, H0⟩, ⟨%d1, H1⟩, ⟨%d2, H2⟩, ⟨%d3, H3⟩, ⟨%d4, H4⟩⟩
    iapply ((kernelRun1_B c (grid1.coords t) _ _ _ _ _ _ _ _ _ _ _ _ (fun h => hz ((hcond1 t).mp h)) (iblk1 V c 0 t) (iblk1 V c 1 t) (iblk1 V c 2 t) (iblk1 V c 3 t) _).2.2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, ⟨%es, HS⟩⟩
    isplitl [Ha Hb Hc Hd HS Hg]
    · isplitl [Ha Hb Hc Hd HS]
      · isplitl [Ha]; · iexact Ha
        isplitl [Hb]; · iexact Hb
        isplitl [Hc]; · iexact Hc
        isplitl [Hd]; · iexact Hd
        unfold owns; iexists _; isplitr
        swap; · iexact HS
        ipureintro; exact View.read_writes_of_cover _ _ _ _ _ (scover1_B c _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover1_B_4 c _ _ _ _ _ _ _ _ _ _ _ _ _ _ _ _ _ _ _)

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the launch's back: the scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨Ha, Hb, Hc, Hd, HS⟩, Hg⟩
  isplitl [Ha Hb Hc Hd HS]
  · isplitl [Ha]; · iexact Ha
    isplitl [Hb]; · iexact Hb
    isplitl [Hc]; · iexact Hc
    isplitl [Hd]; · iexact Hd
    iexists _; iexact HS
  iexact Hg

/-- The same after the last point. -/
theorem hout1 (c : Dev nD) : (dat1 V c).Φ (Fin.last cfg1.N) ⊢ Pipeline.ΦA spec1 c :=
  Phi_out1 V c _ (by rw [Fin.val_last]; have : cfg1.N = 256 := N_1; omega)

end Cert.KernelIdeal.Rank

end
-- ==== Proof.KI.Frame1.lean ====
/-
  The rank kernel's region: what its arrays hold when it ends.

  The inputs' arrays are never written. The output array is written block by block: point t writes rows 512 t to
  512 t + 511 with the destinations of block t computed from the running offsets block t starts from, so that entry
  (r, l) of the result is the whole-array function's: block r / 512, row r % 512.
-/
import proofs.«428384_j28252294873409_1_alg».proof.Proof.KI.Frame1Body

-- membership in a rectangle of 512 × 128 entries: the elaborator's structural look recurses once per coordinate
set_option maxRecDepth 16384

noncomputable section

namespace Cert.KernelIdeal.Rank

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the core's buffer contents when the rank kernel's region is entered
variable (V : (c : Dev nD) → (b : Ref sig .tc) → Buf (Elt F) ((c : Thread nD τ).loc b))

open Idealize.ShloMosaic.ValueIdx

/-! ## The inputs -/

/-- An input's array is never written back: it ends as the region found it. -/
theorem final1_in (c : Dev nD) (w : Fin cfg1.W) (hw : w ≠ 4) : (dat1 V c).arrAt w cfg1.N = V c (Pipeline.arrRef spec1 w) := by
  fin_cases w
  · exact ((dat1 V c).arrAt_in 0 rfl _).trans (A_eq1 V c 0)
  · exact ((dat1 V c).arrAt_in 1 rfl _).trans (A_eq1 V c 1)
  · exact ((dat1 V c).arrAt_in 2 rfl _).trans (A_eq1 V c 2)
  · exact ((dat1 V c).arrAt_in 3 rfl _).trans (A_eq1 V c 3)
  · exact absurd rfl hw

/-! ## The arrays and the blocks, at their literal types -/

/-- The array of expert ids, the row of base offsets and the two triangular matrices as the region finds them. -/
abbrev idsArr (c : Dev nD) : Vec F S131072x128 .i32 := V c main_v2
abbrev baseArr (c : Dev nD) : Vec F S1x8 .f32 := V c main_v10
abbrev mbtArr (c : Dev nD) : Vec F S128x128 .bf16 := V c main_v14
abbrev mrArr (c : Dev nD) : Vec F S512x512 .bf16 := V c main_v18
/-- Their blocks at point `t`. -/
abbrev idsBlk (c : Dev nD) (t : Fin cfg1.N) : Vec F S512x128 .i32 := iblk1 V c 0 t
abbrev baseBlk (c : Dev nD) (t : Fin cfg1.N) : Vec F S1x8 .f32 := iblk1 V c 1 t
abbrev mbtBlk (c : Dev nD) (t : Fin cfg1.N) : Vec F S128x128 .bf16 := iblk1 V c 2 t
abbrev mrBlk (c : Dev nD) (t : Fin cfg1.N) : Vec F S512x512 .bf16 := iblk1 V c 3 t

/-- The block indices, decided over the 256 points: the ids' window and the output's are at block row `t`, column
    block 0; the three one-block inputs stay at block (0, 0). -/
theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Block `t` of the ids is rows 512 t … 512 t + 511 of the array. -/
theorem idsBlk_eq (c : Dev nD) (t : Fin cfg1.N) : idsBlk V c t = Steps.xblk1 (idsArr V c) t.val := by
  obtain ⟨e0, e1, -⟩ := idx1 t
  funext y
  have hy0 : (y 0).val < 512 := (y 0).isLt
  have hy1 : (y 1).val < 128 := (y 1).isLt
  have ht : t.val < 256 := lt_of_lt_of_eq t.isLt (show cfg1.N = 256 from N_1)
  show V c main_v2 (((cfg1.win 0).blk t).view.emb y)
    = V c main_v2 (ix2 ⟨(512 * t.val + (y 0).val) % 131072, Nat.mod_lt _ (by decide)⟩ ⟨(y 1).val % 128, Nat.mod_lt _ (by decide)⟩)
  refine congrArg _ ?_
  funext a; apply Fin.ext
  match a with
  | ⟨0, _⟩ => show win1_0.index t (0 : Fin 2) * 512 + 1 * (y 0).val = (512 * t.val + (y 0).val) % 131072; omega
  | ⟨1, _⟩ => show win1_0.index t (1 : Fin 2) * 128 + 1 * (y 1).val = (y 1).val % 128; omega

/-- The one block of base is the whole array, at every point. -/
theorem baseBlk_eq (c : Dev nD) (t : Fin cfg1.N) : baseBlk V c t = baseArr V c := by
  obtain ⟨-, -, e10, e11, e20, e21, e30, e31, -, -⟩ := idx1 t
  funext y
  have hy0 : (y 0).val < 1 := (y 0).isLt
  have hy1 : (y 1).val < 8 := (y 1).isLt
  show V c main_v10 (((cfg1.win 1).blk t).view.emb y) = V c main_v10 y
  refine congrArg _ ?_
  funext a; apply Fin.ext
  match a with
  | ⟨0, _⟩ => show win1_1.index t (0 : Fin 2) * 1 + 1 * (y 0).val = (y 0).val; omega
  | ⟨1, _⟩ => show win1_1.index t (1 : Fin 2) * 8 + 1 * (y 1).val = (y 1).val; omega

/-- The one block of mbt is the whole array, at every point. -/
theorem mbtBlk_eq (c : Dev nD) (t : Fin cfg1.N) : mbtBlk V c t = mbtArr V c := by
  obtain ⟨-, -, e10, e11, e20, e21, e30, e31, -, -⟩ := idx1 t
  funext y
  have hy0 : (y 0).val < 128 := (y 0).isLt
  have hy1 : (y 1).val < 128 := (y 1).isLt
  show V c main_v14 (((cfg1.win 2).blk t).view.emb y) = V c main_v14 y
  refine congrArg _ ?_
  funext a; apply Fin.ext
  match a with
  | ⟨0, _⟩ => show win1_2.index t (0 : Fin 2) * 128 + 1 * (y 0).val = (y 0).val; omega
  | ⟨1, _⟩ => show win1_2.index t (1 : Fin 2) * 128 + 1 * (y 1).val = (y 1).val; omega

/-- The one block of mr is the whole array, at every point. -/
theorem mrBlk_eq (c : Dev nD) (t : Fin cfg1.N) : mrBlk V c t = mrArr V c := by
  obtain ⟨-, -, e10, e11, e20, e21, e30, e31, -, -⟩ := idx1 t
  funext y
  have hy0 : (y 0).val < 512 := (y 0).isLt
  have hy1 : (y 1).val < 512 := (y 1).isLt
  show V c main_v18 (((cfg1.win 3).blk t).view.emb y) = V c main_v18 y
  refine congrArg _ ?_
  funext a; apply Fin.ext
  match a with
  | ⟨0, _⟩ => show win1_3.index t (0 : Fin 2) * 512 + 1 * (y 0).val = (y 0).val; omega
  | ⟨1, _⟩ => show win1_3.index t (1 : Fin 2) * 512 + 1 * (y 1).val = (y 1).val; omega

/-! ## What the found pieces are -/

theorem hz : (![0, 0] : Fin 2 → Nat) = fun _ => 0 := funext fun a => by fin_cases a <;> rfl

/-- At the first point the scratch is left at the base offsets advanced by the block's counts: the reset is read
    back by the later loads, and the last store covers. -/
theorem sout1_A_eq (c : Dev nD) (i : grid1.Coords) (arg1 : Memref sig .tc .vmem S512x128 .i32) (harg1 : arg1.IsWhole) (arg2 : Memref sig .tc .vmem S1x8 .f32) (harg2 : arg2.IsWhole) (arg3 : Memref sig .tc .vmem S128x128 .bf16) (harg3 : arg3.IsWhole) (arg4 : Memref sig .tc .vmem S512x512 .bf16) (harg4 : arg4.IsWhole) (arg5 : Memref sig .tc .vmem S512x128 .i32) (harg5 : arg5.IsWhole) (arg6 : Memref sig .tc .vmem S1x8 .f32) (harg6 : arg6.IsWhole) (hc : cond1 i) (x0 : Vec F S512x128 .i32) (x1 : Vec F S1x8 .f32) (x2 : Vec F S128x128 .bf16) (x3 : Vec F S512x512 .bf16) :
    sout1_A c i arg1 harg1 arg2 harg2 arg3 harg3 arg4 harg4 arg5 harg5 arg6 harg6 hc x0 x1 x2 x3 = Steps.rstep x0 (Steps.rinit x1) := by
  unfold Steps.rstep Steps.rinit
  unfold sout1_A
  rw [View.read_writes_eq_canon _ _ _ (scover1_A c i arg1 harg1 arg2 harg2 arg3 harg3 arg4 harg4 arg5 harg5 arg6 harg6 hc x0 x1 x2 x3)]
  unfold kernelRun1_A
  dsimp only
  sl_unfold_words
  rw [View.canon_cons_unit_zero (S := S1x8) hz]
  simp only [View.readAt_eq_ld, harg1.read_unread, harg2.read_unread, harg3.read_unread, harg4.read_unread, harg6.read_unread, View.ld_unit_zero (S := S512x128) hz, View.ld_unit_zero (S := S1x8) hz, View.ld_unit_zero (S := S128x128) hz, View.ld_unit_zero (S := S512x512) hz, View.readCov_unit_zero (S := S1x8) _ hz]

/-- At the first point the output's buffer is left at the block's destinations from the base offsets. -/
theorem out1_A_4_eq (c : Dev nD) (i : grid1.Coords) (arg1 : Memref sig .tc .vmem S512x128 .i32) (harg1 : arg1.IsWhole) (arg2 : Memref sig .tc .vmem S1x8 .f32) (harg2 : arg2.IsWhole) (arg3 : Memref sig .tc .vmem S128x128 .bf16) (harg3 : arg3.IsWhole) (arg4 : Memref sig .tc .vmem S512x512 .bf16) (harg4 : arg4.IsWhole) (arg5 : Memref sig .tc .vmem S512x128 .i32) (harg5 : arg5.IsWhole) (arg6 : Memref sig .tc .vmem S1x8 .f32) (harg6 : arg6.IsWhole) (hc : cond1 i) (x0 : Vec F S512x128 .i32) (x1 : Vec F S1x8 .f32) (x2 : Vec F S128x128 .bf16) (x3 : Vec F S512x512 .bf16) :
    out1_A_4 c i arg1 harg1 arg2 harg2 arg3 harg3 arg4 harg4 arg5 harg5 arg6 harg6 hc x0 x1 x2 x3 = Steps.rout x0 x2 x3 (Steps.rinit x1) := by
  unfold Steps.rout Steps.rinit
  unfold out1_A_4
  rw [View.read_writes_eq_canon _ _ _ (cover1_A_4 c i arg1 harg1 arg2 harg2 arg3 harg3 arg4 harg4 arg5 harg5 arg6 harg6 hc x0 x1 x2 x3)]
  unfold kernelRun1_A
  dsimp only
  sl_unfold_words
  rw [View.canon_unit_zero (S := S512x128) hz]
  simp only [View.readAt_eq_ld, harg1.read_unread, harg2.read_unread, harg3.read_unread, harg4.read_unread, harg6.read_unread, View.ld_unit_zero (S := S512x128) hz, View.ld_unit_zero (S := S1x8) hz, View.ld_unit_zero (S := S128x128) hz, View.ld_unit_zero (S := S512x512) hz, View.readCov_unit_zero (S := S1x8) _ hz]

/-- At a later point the scratch is left at the running offsets it held advanced by the block's counts. -/
theorem sout1_B_eq (c : Dev nD) (i : grid1.Coords) (arg1 : Memref sig .tc .vmem S512x128 .i32) (harg1 : arg1.IsWhole) (arg2 : Memref sig .tc .vmem S1x8 .f32) (harg2 : arg2.IsWhole) (arg3 : Memref sig .tc .vmem S128x128 .bf16) (harg3 : arg3.IsWhole) (arg4 : Memref sig .tc .vmem S512x512 .bf16) (harg4 : arg4.IsWhole) (arg5 : Memref sig .tc .vmem S512x128 .i32) (harg5 : arg5.IsWhole) (arg6 : Memref sig .tc .vmem S1x8 .f32) (harg6 : arg6.IsWhole) (hc : ¬cond1 i) (x0 : Vec F S512x128 .i32) (x1 : Vec F S1x8 .f32) (x2 : Vec F S128x128 .bf16) (x3 : Vec F S512x512 .bf16) (xs : Vec F S1x8 .f32) :
    sout1_B c i arg1 harg1 arg2 harg2 arg3 harg3 arg4 harg4 arg5 harg5 arg6 harg6 hc x0 x1 x2 x3 xs = Steps.rstep x0 xs := by
  unfold Steps.rstep
  unfold sout1_B
  rw [View.read_writes_eq_canon _ _ _ (scover1_B c i arg1 harg1 arg2 harg2 arg3 harg3 arg4 harg4 arg5 harg5 arg6 harg6 hc x0 x1 x2 x3 xs)]
  unfold kernelRun1_B
  dsimp only
  sl_unfold_words
  rw [View.canon_unit_zero (S := S1x8) hz]
  simp only [View.readAt_eq_ld, harg1.read_unread, harg2.read_unread, harg3.read_unread, harg4.read_unread, harg6.read_unread, View.ld_unit_zero (S := S512x128) hz, View.ld_unit_zero (S := S1x8) hz, View.ld_unit_zero (S := S128x128) hz, View.ld_unit_zero (S := S512x512) hz, View.readCov_unit_zero (S := S1x8) _ hz]

/-- At a later point the output's buffer is left at the block's destinations from the running offsets it found. -/
theorem out1_B_4_eq (c : Dev nD) (i : grid1.Coords) (arg1 : Memref sig .tc .vmem S512x128 .i32) (harg1 : arg1.IsWhole) (arg2 : Memref sig .tc .vmem S1x8 .f32) (harg2 : arg2.IsWhole) (arg3 : Memref sig .tc .vmem S128x128 .bf16) (harg3 : arg3.IsWhole) (arg4 : Memref sig .tc .vmem S512x512 .bf16) (harg4 : arg4.IsWhole) (arg5 : Memref sig .tc .vmem S512x128 .i32) (harg5 : arg5.IsWhole) (arg6 : Memref sig .tc .vmem S1x8 .f32) (harg6 : arg6.IsWhole) (hc : ¬cond1 i) (x0 : Vec F S512x128 .i32) (x1 : Vec F S1x8 .f32) (x2 : Vec F S128x128 .bf16) (x3 : Vec F S512x512 .bf16) (xs : Vec F S1x8 .f32) :
    out1_B_4 c i arg1 harg1 arg2 harg2 arg3 harg3 arg4 harg4 arg5 harg5 arg6 harg6 hc x0 x1 x2 x3 xs = Steps.rout x0 x2 x3 xs := by
  unfold Steps.rout
  unfold out1_B_4
  rw [View.read_writes_eq_canon _ _ _ (cover1_B_4 c i arg1 harg1 arg2 harg2 arg3 harg3 arg4 harg4 arg5 harg5 arg6 harg6 hc x0 x1 x2 x3 xs)]
  unfold kernelRun1_B
  dsimp only
  sl_unfold_words
  rw [View.canon_unit_zero (S := S512x128) hz]
  simp only [View.readAt_eq_ld, harg1.read_unread, harg2.read_unread, harg3.read_unread, harg4.read_unread, harg6.read_unread, View.ld_unit_zero (S := S512x128) hz, View.ld_unit_zero (S := S1x8) hz, View.ld_unit_zero (S := S128x128) hz, View.ld_unit_zero (S := S512x512) hz, View.readCov_unit_zero (S := S1x8) _ hz]

/-! ## Point by point: the running offsets -/

theorem outsAt1_zero (c : Dev nD) (hn : 0 < cfg1.N) :
    outsAt1 V c 0 hn = (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1 (Memref.isWhole_whole _) ((hcond1 ⟨0, hn⟩).mpr rfl) (idsBlk V c ⟨0, hn⟩) (baseBlk V c ⟨0, hn⟩) (mbtBlk V c ⟨0, hn⟩) (mrBlk V c ⟨0, hn⟩), sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1 (Memref.isWhole_whole _) ((hcond1 ⟨0, hn⟩).mpr rfl) (idsBlk V c ⟨0, hn⟩) (baseBlk V c ⟨0, hn⟩) (mbtBlk V c ⟨0, hn⟩) (mrBlk V c ⟨0, hn⟩)) := rfl

theorem outsAt1_succ (c : Dev nD) (n : ℕ) (hn : n + 1 < cfg1.N) :
    outsAt1 V c (n + 1) hn = (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => Nat.succ_ne_zero n ((hcond1 ⟨n + 1, hn⟩).mp h)) (idsBlk V c ⟨n + 1, hn⟩) (baseBlk V c ⟨n + 1, hn⟩) (mbtBlk V c ⟨n + 1, hn⟩) (mrBlk V c ⟨n + 1, hn⟩) (outsAt1 V c n (Nat.lt_of_succ_lt hn)).2, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => Nat.succ_ne_zero n ((hcond1 ⟨n + 1, hn⟩).mp h)) (idsBlk V c ⟨n + 1, hn⟩) (baseBlk V c ⟨n + 1, hn⟩) (mbtBlk V c ⟨n + 1, hn⟩) (mrBlk V c ⟨n + 1, hn⟩) (outsAt1 V c n (Nat.lt_of_succ_lt hn)).2) := rfl

/-- After point `n` the output's buffer holds block `n`'s destinations from the running offsets block `n` starts from,
    and the scratch the running offsets block `n + 1` starts from: by induction on the point. -/
theorem outsAt1_eq (c : Dev nD) : ∀ (n : ℕ) (hn : n < cfg1.N),
    outsAt1 V c n hn = (Steps.rout (Steps.xblk1 (idsArr V c) n) (mbtArr V c) (mrArr V c) (Steps.runSeq (idsArr V c) (baseArr V c) n),
      Steps.runSeq (idsArr V c) (baseArr V c) (n + 1)) := by
  intro n
  induction n with
  | zero =>
    intro hn
    rw [outsAt1_zero V c hn]
    refine Prod.ext ?_ ?_
    · dsimp only
      refine (out1_A_4_eq c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1 (Memref.isWhole_whole _) ((hcond1 ⟨0, hn⟩).mpr rfl) (idsBlk V c ⟨0, hn⟩) (baseBlk V c ⟨0, hn⟩) (mbtBlk V c ⟨0, hn⟩) (mrBlk V c ⟨0, hn⟩)).trans ?_
      rw [idsBlk_eq V c ⟨0, hn⟩, baseBlk_eq V c ⟨0, hn⟩, mbtBlk_eq V c ⟨0, hn⟩, mrBlk_eq V c ⟨0, hn⟩]
      try rfl
    · dsimp only
      refine (sout1_A_eq c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1 (Memref.isWhole_whole _) ((hcond1 ⟨0, hn⟩).mpr rfl) (idsBlk V c ⟨0, hn⟩) (baseBlk V c ⟨0, hn⟩) (mbtBlk V c ⟨0, hn⟩) (mrBlk V c ⟨0, hn⟩)).trans ?_
      rw [idsBlk_eq V c ⟨0, hn⟩, baseBlk_eq V c ⟨0, hn⟩]
      try rfl
  | succ n ih =>
    intro hn
    rw [outsAt1_succ V c n hn, ih (Nat.lt_of_succ_lt hn)]
    refine Prod.ext ?_ ?_
    · dsimp only
      refine (out1_B_4_eq c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => Nat.succ_ne_zero n ((hcond1 ⟨n + 1, hn⟩).mp h)) (idsBlk V c ⟨n + 1, hn⟩) (baseBlk V c ⟨n + 1, hn⟩) (mbtBlk V c ⟨n + 1, hn⟩) (mrBlk V c ⟨n + 1, hn⟩) (Steps.runSeq (idsArr V c) (baseArr V c) (n + 1))).trans ?_
      rw [idsBlk_eq V c ⟨n + 1, hn⟩, mbtBlk_eq V c ⟨n + 1, hn⟩, mrBlk_eq V c ⟨n + 1, hn⟩]
      try rfl
    · dsimp only
      refine (sout1_B_eq c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => Nat.succ_ne_zero n ((hcond1 ⟨n + 1, hn⟩).mp h)) (idsBlk V c ⟨n + 1, hn⟩) (baseBlk V c ⟨n + 1, hn⟩) (mbtBlk V c ⟨n + 1, hn⟩) (mrBlk V c ⟨n + 1, hn⟩) (Steps.runSeq (idsArr V c) (baseArr V c) (n + 1))).trans ?_
      rw [idsBlk_eq V c ⟨n + 1, hn⟩]
      try rfl

/-! ## From blocks to the array -/

/-- The whole-array function at an entry of block `k`: row `512 k + y₀`, lane `y₁`. -/
theorem rankOut_at (a : Vec F S131072x128 .i32) (b : Vec F S1x8 .f32) (p : Vec F S128x128 .bf16) (q : Vec F S512x512 .bf16)
    (k : ℕ) (y : S512x128.Idx) (j : S131072x128.Idx) (h0 : (j 0).val = 512 * k + (y 0).val) (h1 : (j 1).val = (y 1).val) :
    Steps.rankOut a b p q j = Steps.rout (Steps.xblk1 a k) p q (Steps.runSeq a b k) y := by
  have hy0 : (y 0).val < 512 := (y 0).isLt
  have hy1 : (y 1).val < 128 := (y 1).isLt
  have hk : (j 0).val / 512 = k := by omega
  show Steps.rout (Steps.xblk1 a ((j 0).val / 512)) p q (Steps.runSeq a b ((j 0).val / 512))
      (ix2 ⟨(j 0).val % 512, Nat.mod_lt _ (by decide)⟩ ⟨(j 1).val % 128, Nat.mod_lt _ (by decide)⟩) = _
  rw [hk]
  refine congrArg _ ?_
  funext d; apply Fin.ext
  match d with
  | ⟨0, _⟩ => show (j 0).val % 512 = (y 0).val; omega
  | ⟨1, _⟩ => show (j 1).val % 128 = (y 1).val; omega

/-- What point `t` writes back is block `t` of the whole-array function. -/
theorem flushed1_eq (c : Dev nD) (t : Fin cfg1.N) :
    (dat1 V c).flushed 4 t = ((cfg1.win 4).blk t).view.read (Elt F) (Steps.rankOut (idsArr V c) (baseArr V c) (mbtArr V c) (mrArr V c)) := by
  show (cfg1.win 4).cut (grid1.coords t) ((dat1 V c).after 4 t) = _
  rw [after1_4, outsAt1_eq V c t.val t.isLt]
  obtain ⟨-, -, -, -, -, -, -, -, e0, e1⟩ := idx1 t
  funext y
  show Steps.rout (Steps.xblk1 (idsArr V c) t.val) (mbtArr V c) (mrArr V c) (Steps.runSeq (idsArr V c) (baseArr V c) t.val) y
    = Steps.rankOut (idsArr V c) (baseArr V c) (mbtArr V c) (mrArr V c) (((cfg1.win 4).blk t).view.emb y)
  refine (rankOut_at (idsArr V c) (baseArr V c) (mbtArr V c) (mrArr V c) t.val y _ ?_ ?_).symm
  · show win1_4.index t (0 : Fin 2) * 512 + 1 * (y 0).val = 512 * t.val + (y 0).val; omega
  · show win1_4.index t (1 : Fin 2) * 128 + 1 * (y 1).val = (y 1).val; omega

/-- An index of the output array is in point `t`'s block iff each coordinate is in the block's range on its axis. -/
theorem mem_blk1 (t : Fin cfg1.N) (i : S131072x128.Idx) :
    i ∈ ((cfg1.win 4).blk t).view.set ↔ ∀ a : Fin 2, win1_4.index t a * S512x128.size a ≤ (i a).val ∧ (i a).val < win1_4.index t a * S512x128.size a + S512x128.size a := by
  show i ∈ ((View.whole main_v19).slice (win1_4.rect t)).set ↔ _
  rw [View.set_slice_whole, Rect.mem_set_unit]
  exact Iff.rfl

/-- Row `r` of the output array is written back by point `r / 512`. -/
theorem cover1 (i : S131072x128.Idx) : ∃ t : Fin cfg1.N, (cfg1.win 4).flush t = true ∧ i ∈ ((cfg1.win 4).blk t).view.set := by
  have hi0 : (i 0).val < 131072 := (i 0).isLt
  have hi1 : (i 1).val < 128 := (i 1).isLt
  have hN : cfg1.N = 256 := N_1
  have hq : (i 0).val / 512 < cfg1.N := by omega
  obtain ⟨-, -, -, -, -, -, -, -, e0, e1⟩ := idx1 ⟨(i 0).val / 512, hq⟩
  have e0' : win1_4.index ⟨(i 0).val / 512, hq⟩ (0 : Fin 2) = (i 0).val / 512 := e0
  refine ⟨⟨(i 0).val / 512, hq⟩, flush1_4 _, ?_⟩
  rw [mem_blk1]
  intro a
  match a with
  | ⟨0, _⟩ => show win1_4.index ⟨(i 0).val / 512, hq⟩ (0 : Fin 2) * 512 ≤ (i 0).val ∧ (i 0).val < win1_4.index ⟨(i 0).val / 512, hq⟩ (0 : Fin 2) * 512 + 512; omega
  | ⟨1, _⟩ => show win1_4.index ⟨(i 0).val / 512, hq⟩ (1 : Fin 2) * 128 ≤ (i 1).val ∧ (i 1).val < win1_4.index ⟨(i 0).val / 512, hq⟩ (1 : Fin 2) * 128 + 128; omega

/-- THE VALUE: the output array ends holding the whole-array function of the ids, the base offsets and the two
    triangular matrices as the region found them. -/
theorem final1_out (c : Dev nD) :
    (dat1 V c).arrAt 4 cfg1.N = Steps.rankOut (V c main_v2) (V c main_v10) (V c main_v14) (V c main_v18) :=
  (dat1 V c).arrAt_eq_of_cover 4 (Steps.rankOut (idsArr V c) (baseArr V c) (mbtArr V c) (mrArr V c))
    (fun t _ => flushed1_eq V c t) cover1

end Cert.KernelIdeal.Rank

end
-- ==== Proof.KI.HostVals.lean ====
/-
  What the host operations around the two kernels compute, as terms over the launch contents and over what the
  kernels leave.

  Before the first kernel the two arguments are flattened and the ids regrouped in rows of 128. Between the kernels the
  eight counts are flattened, summed cumulatively (a windowed sum of width 8 over 7 leading zeros), shifted by one
  behind a zero, converted to floats and regrouped as a row; and two strictly triangular 0/1 matrices are made from
  iotas. After the second kernel the destinations are flattened, wrapped once by the length when negative, and made a
  column; the scores, and the positions halved (rounding down), are written at those destinations into zeros.

  Each stretch of operations is first read from ARBITRARY contents, so that reading one stretch never opens the
  stretches before it; the contents between the items are then chained through.
-/
import proofs.«428384_j28252294873409_1_alg».proof.Proof.Gen.KernelIdeal.Regions
import Idealize.ShloMosaic.Lib.StableHlo.Run

noncomputable section

namespace Cert.KernelIdeal.HostVals

open Idealize.ShloMosaic Idealize.ShloMosaic.TcCoe Cert.KernelIdeal Cert.KernelIdeal.Gen

variable {F : FTy → Type} [FloatOps F]

/-! ## The terms -/

/-- The ids, flattened and regrouped in rows of 128. -/
def flatIds (a1 : IVec S8388608x2 32) : IVec S131072x128 32 :=
  shapeCast S131072x128 (shapeCast S16777216 a1 shapeCasts_S8388608x2_S16777216) shapeCasts_S16777216_S131072x128

/-- The scores, flattened. -/
def flatScores (a0 : FVec F S8388608x2 .f32) : FVec F S16777216 .f32 :=
  shapeCast S16777216 a0 shapeCasts_S8388608x2_S16777216

/-- The eight counts, flattened. -/
def countsOf (h : IVec S1x8 32) : IVec S8 32 := shapeCast S8 h shapeCasts_S1x8_S8

/-- The cumulative sum of eight words: the windowed sum of width 8, stride 1, over 7 zeros of padding in front. -/
def cumsumOf (v : IVec S8 32) : IVec S8 32 :=
  Host.reduceWindow IntOp.addi ![8] ![1] ![7] ![0] v (broadcastInDim S_ ![] bcast_S_S_ (constantI S_ 32 0#32))
    reduceWindows_S8_S8_w8s1p7_0 h_S_

/-- Eight words shifted by one behind a zero (the last dropped), as floats, as a row. -/
def shiftOf (s : IVec S8 32) : FVec F S1x8 .f32 :=
  shapeCast S1x8
    (sitofp .f32
      (concatenate S8 0 [⟨S1, broadcastInDim S1 ![] bcast_S_S1 (constantI S_ 32 0#32)⟩,
        ⟨S7, extractStridedSlice S7 ![0] s slices_S8_S7_0⟩] concatenates_S1_S7_S8_d0))
    shapeCasts_S8_S1x8

/-- The base offsets from the eight counts: their exclusive cumulative sums, as a row of floats. -/
def baseOf (h : IVec S1x8 32) : FVec F S1x8 .f32 := shiftOf (cumsumOf (countsOf h))

/-- The 128 × 128 matrix with 1 where the row is before the column. -/
def mbtTerm : FVec F S128x128 .bf16 :=
  uitofp .bf16 (cmpi .slt (iotaInDim S128x128 32 0) (iotaInDim S128x128 32 1))

/-- The 512 × 512 matrix with 1 where the row is after the column. -/
def mrTerm : FVec F S512x512 .bf16 :=
  uitofp .bf16 (cmpi .sgt (iotaInDim S512x512 32 0) (iotaInDim S512x512 32 1))

/-- The destinations, flattened. -/
def flat20 (g : IVec S131072x128 32) : IVec S16777216 32 := shapeCast S16777216 g shapeCasts_S131072x128_S16777216

/-- Flat destinations wrapped once by the length when negative, as a column. -/
def wrapCol (v : IVec S16777216 32) : IVec S16777216x1 32 :=
  broadcastInDim S16777216x1 ![0] bcast_S16777216_S16777216x1_0
    (select (cmpi .slt v (broadcastInDim S16777216 ![] bcast_S_S16777216 (constantI S_ 32 0#32)))
      (addi v (broadcastInDim S16777216 ![] bcast_S_S16777216 (constantI S_ 32 16777216#32))) v)

/-- The column of destinations from what the second kernel leaves. -/
def destCol (g : IVec S131072x128 32) : IVec S16777216x1 32 := wrapCol (flat20 g)

/-- The quotient rounded down, entry by entry, by a scalar: the truncated quotient, less one where the signs differ and
    the remainder is not zero. -/
def floorDivVec (x : IVec S16777216 32) (d : IVec S_ 32) : IVec S16777216 32 :=
  select
    (andi (cmpi .ne (signi x) (broadcastInDim S16777216 ![] bcast_S_S16777216 (signi d)))
      (cmpi .ne (Host.remsi x (broadcastInDim S16777216 ![] bcast_S_S16777216 d))
        (broadcastInDim S16777216 ![] bcast_S_S16777216 (constantI S_ 32 0#32))))
    (subi (Host.divsi x (broadcastInDim S16777216 ![] bcast_S_S16777216 d))
      (broadcastInDim S16777216 ![] bcast_S_S16777216 (constantI S_ 32 1#32)))
    (Host.divsi x (broadcastInDim S16777216 ![] bcast_S_S16777216 d))

/-- The positions halved, rounding down. -/
def halfIota : IVec S16777216 32 := floorDivVec (iotaInDim S16777216 32 0) (constantI S_ 32 2#32)

/-! ## The stretches, from any contents -/

theorem hostOps0_v2 (W : Valuation τ sig (Elt F)) :
    (StableHlo.after hostOps0 W main_v2 : IVec S131072x128 32) = flatIds (W main_arg1) := by
  dsimp only [hostOps0]; after_results; rfl

theorem hostOps0_v1 (W : Valuation τ sig (Elt F)) :
    (StableHlo.after hostOps0 W main_v1 : FVec F S16777216 .f32) = flatScores (W main_arg0) := by
  dsimp only [hostOps0]; after_results; rfl

theorem hostOps1_v4 (W : Valuation τ sig (Elt F)) :
    (StableHlo.after hostOps1 W main_v4 : IVec S8 32) = countsOf (W main_v3) := by
  dsimp only [hostOps1]; after_results; rfl

theorem hostOps1_1_v5 (W : Valuation τ sig (Elt F)) :
    (StableHlo.after hostOps1_1 W main_v5 : IVec S8 32) = cumsumOf (W main_v4) := by
  dsimp only [hostOps1_1]; after_results
  try simp only [StableHlo.TRef.ofBuf, StableHlo.TRef.toBuf, cast_eq]
  rfl

theorem hostOps1_2_v10 (W : Valuation τ sig (Elt F)) :
    (StableHlo.after hostOps1_2 W main_v10 : FVec F S1x8 .f32) = shiftOf (W main_v5) := by
  dsimp only [hostOps1_2]; after_results; rfl

theorem hostOps1_2_v14 (W : Valuation τ sig (Elt F)) :
    (StableHlo.after hostOps1_2 W main_v14 : FVec F S128x128 .bf16) = mbtTerm := by
  dsimp only [hostOps1_2]; after_results; rfl

theorem hostOps1_2_v18 (W : Valuation τ sig (Elt F)) :
    (StableHlo.after hostOps1_2 W main_v18 : FVec F S512x512 .bf16) = mrTerm := by
  dsimp only [hostOps1_2]; after_results; rfl

theorem hostOps2_v20 (W : Valuation τ sig (Elt F)) :
    (StableHlo.after hostOps2 W main_v20 : IVec S16777216 32) = flat20 (W main_v19) := by
  dsimp only [hostOps2]; after_results; rfl

theorem hostOps2_v21 (W : Valuation τ sig (Elt F)) :
    (StableHlo.after hostOps2 W main_v21 : IVec S16777216 32) = iotaInDim S16777216 32 0 := by
  dsimp only [hostOps2]; after_results

theorem hostOps2_v30 (W : Valuation τ sig (Elt F)) :
    (StableHlo.after hostOps2 W main_v30 : IVec S16777216 32)
      = broadcastInDim S16777216 ![] bcast_S_S16777216 (constantI S_ 32 0#32) := by
  dsimp only [hostOps2]; after_results

theorem hostOps2_c_3 (W : Valuation τ sig (Elt F)) :
    (StableHlo.after hostOps2 W main_c_3 : IVec S_ 32) = constantI S_ 32 2#32 := by
  dsimp only [hostOps2]; after_results

theorem hostOps2_v29 (W : Valuation τ sig (Elt F)) :
    (StableHlo.after hostOps2 W main_v29 : FVec F S16777216 .f32)
      = Host.scatter scatter_S16777216_S16777216x1_S16777216_n_0_0_1 (fun _ b => b)
          (broadcastInDim S16777216 ![] bcast_S_S16777216 (constant (F := F) S_ .f32 0x00000000#32))
          (destCol (W main_v19)) (W main_v1) := by
  dsimp only [hostOps2]; after_results; rfl

theorem hostOps2_1_v31 (W : Valuation τ sig (Elt F)) :
    (StableHlo.after hostOps2_1 W main_v31 : IVec S16777216 32) = floorDivVec (W main_v21) (W main_c_3) := by
  dsimp only [hostOps2_1]; after_results_simp
  try simp only [StableHlo.TRef.ofBuf, StableHlo.TRef.toBuf, cast_eq]
  rfl

theorem hostOps2_2_v38 (W : Valuation τ sig (Elt F)) :
    (StableHlo.after hostOps2_2 W main_v38 : IVec S16777216 32)
      = Host.scatter scatter_S16777216_S16777216x1_S16777216_n_0_0_1 (fun _ b => b)
          (W main_v30) (wrapCol (W main_v20)) (W main_v31) := by
  dsimp only [hostOps2_2]; after_results; rfl

/-! ## The contents between the items -/

variable (m : (ℓ : Loc nD τ sig) → Buf (Elt F) ℓ) (outs : Outs (F := F)) (c : Dev nD)

/-- Before the first kernel its input window's array holds the regrouped ids. -/
theorem V1_v2 : (V1 m c main_v2 : IVec S131072x128 32) = flatIds (m ((c : Thread nD τ).loc main_arg1)) :=
  hostOps0_v2 (V0 m c)

/-- … and the flattened scores are in place. -/
theorem V1_v1 : (V1 m c main_v1 : FVec F S16777216 .f32) = flatScores (m ((c : Thread nD τ).loc main_arg0)) :=
  hostOps0_v1 (V0 m c)

/-- The regrouped ids are still there before the second kernel. -/
theorem V5_v2 : V5 m outs c main_v2 = V1 m c main_v2 :=
  (V5_of m outs c main_v2 (by decide)).trans <| (V4_of m outs c main_v2 (by decide)).trans <|
    (V3_of m outs c main_v2 (by decide)).trans <| V2_of m outs c main_v2 (by decide)

/-- What the first kernel leaves is read back at its own reference. -/
theorem V2_v3 : V2 m outs c main_v3 = outs 2 main_v3 c := Function.update_self _ _ _

/-- The flattened counts after the first kernel. -/
theorem V3_v4 : (V3 m outs c main_v4 : IVec S8 32) = countsOf (outs 2 main_v3 c) :=
  (hostOps1_v4 (V2 m outs c)).trans (congrArg countsOf (V2_v3 m outs c))

/-- Their cumulative sums. -/
theorem V4_v5 : (V4 m outs c main_v5 : IVec S8 32) = cumsumOf (countsOf (outs 2 main_v3 c)) :=
  (hostOps1_1_v5 (V3 m outs c)).trans (congrArg cumsumOf (V3_v4 m outs c))

/-- Before the second kernel the base offsets' array holds the exclusive cumulative sums of the counts. -/
theorem V5_v10 : (V5 m outs c main_v10 : FVec F S1x8 .f32) = baseOf (outs 2 main_v3 c) :=
  (hostOps1_2_v10 (V4 m outs c)).trans (congrArg shiftOf (V4_v5 m outs c))

/-- … and the two triangular matrices are in place. -/
theorem V5_v14 : (V5 m outs c main_v14 : FVec F S128x128 .bf16) = mbtTerm := hostOps1_2_v14 (V4 m outs c)
theorem V5_v18 : (V5 m outs c main_v18 : FVec F S512x512 .bf16) = mrTerm := hostOps1_2_v18 (V4 m outs c)

/-- The flattened counts reach the end. -/
theorem V9_v4 : (V9 m outs c main_v4 : IVec S8 32) = countsOf (outs 2 main_v3 c) :=
  (V9_of m outs c main_v4 (by decide)).trans <| (V8_of m outs c main_v4 (by decide)).trans <|
    (V7_of m outs c main_v4 (by decide)).trans <| (V6_of m outs c main_v4 (by decide)).trans <|
    (V5_of m outs c main_v4 (by decide)).trans <| (V4_of m outs c main_v4 (by decide)).trans <| V3_v4 m outs c

/-- What the second kernel leaves is read back at its own reference. -/
theorem V6_v19 : V6 m outs c main_v19 = outs 6 main_v19 c := Function.update_self _ _ _

/-- The flattened scores are still there after the second kernel. -/
theorem V6_v1 : (V6 m outs c main_v1 : FVec F S16777216 .f32) = flatScores (m ((c : Thread nD τ).loc main_arg0)) :=
  (V6_of m outs c main_v1 (by decide)).trans <| (V5_of m outs c main_v1 (by decide)).trans <|
    (V4_of m outs c main_v1 (by decide)).trans <| (V3_of m outs c main_v1 (by decide)).trans <|
    (V2_of m outs c main_v1 (by decide)).trans <| V1_v1 m c

/-- The first result: the scores written at the destinations into zeros. -/
theorem V9_v29 : (V9 m outs c main_v29 : FVec F S16777216 .f32)
    = Host.scatter scatter_S16777216_S16777216x1_S16777216_n_0_0_1 (fun _ b => b)
        (broadcastInDim S16777216 ![] bcast_S_S16777216 (constant (F := F) S_ .f32 0x00000000#32))
        (destCol (outs 6 main_v19 c)) (flatScores (m ((c : Thread nD τ).loc main_arg0))) := by
  refine (V9_of m outs c main_v29 (by decide)).trans <| (V8_of m outs c main_v29 (by decide)).trans <|
    (hostOps2_v29 (V6 m outs c)).trans ?_
  rw [V6_v19, V6_v1]

/-- The second result: the halved positions written at the destinations into zeros. -/
theorem V9_v38 : (V9 m outs c main_v38 : IVec S16777216 32)
    = Host.scatter scatter_S16777216_S16777216x1_S16777216_n_0_0_1 (fun _ b => b)
        (broadcastInDim S16777216 ![] bcast_S_S16777216 (constantI S_ 32 0#32))
        (destCol (outs 6 main_v19 c)) halfIota := by
  have h30 : (V8 m outs c main_v30 : IVec S16777216 32)
      = broadcastInDim S16777216 ![] bcast_S_S16777216 (constantI S_ 32 0#32) :=
    (V8_of m outs c main_v30 (by decide)).trans (hostOps2_v30 (V6 m outs c))
  have h20 : (V8 m outs c main_v20 : IVec S16777216 32) = flat20 (outs 6 main_v19 c) :=
    (V8_of m outs c main_v20 (by decide)).trans <| (hostOps2_v20 (V6 m outs c)).trans
      (congrArg flat20 (V6_v19 m outs c))
  have h31 : (V8 m outs c main_v31 : IVec S16777216 32) = halfIota :=
    (hostOps2_1_v31 (V7 m outs c)).trans (by
      rw [show (V7 m outs c main_v21 : IVec S16777216 32) = iotaInDim S16777216 32 0 from hostOps2_v21 (V6 m outs c),
        show (V7 m outs c main_c_3 : IVec S_ 32) = constantI S_ 32 2#32 from hostOps2_c_3 (V6 m outs c)]
      rfl)
  refine (hostOps2_2_v38 (V8 m outs c)).trans ?_
  rw [h30, h20, h31]
  rfl

end Cert.KernelIdeal.HostVals

end
-- ==== Proof.KI.Dests.lean ====
/-
  The destinations the rank region writes, as a term of the id array alone: the rank kernel's whole-array function
  of the flattened ids, the base offsets made from the histogram of those ids, and the two triangular matrices.
-/
import proofs.«428384_j28252294873409_1_alg».proof.Proof.KI.HostVals
import proofs.«428384_j28252294873409_1_alg».proof.Proof.KI.Steps

noncomputable section

namespace Cert.KernelIdeal.Dests

open Cert.KernelIdeal Cert.KernelIdeal.HostVals Idealize.ShloMosaic

variable {F : FTy → Type} [FloatOps F]

/-- The destinations of the positions. -/
def dests (a1 : IVec S8388608x2 32) : IVec S131072x128 32 :=
  Steps.rankOut (F := F) (flatIds a1) (baseOf (Steps.histOut (F := F) (flatIds a1))) mbtTerm mrTerm

end Cert.KernelIdeal.Dests

end
-- ==== Proof.KI.Final.lean ====
/-
  The idealized kernel program's run, with its three results as terms of the two argument arrays.

  The two regions' frames fill the run's two bundles; the histogram region leaves the eight counts of the flattened
  ids, the rank region the destinations computed from those ids, the base offsets made from the counts and the two
  triangular matrices; the results are the scores and the halved positions scattered to those destinations, and the
  counts.
-/
import proofs.«428384_j28252294873409_1_alg».proof.Proof.KI.Run
import proofs.«428384_j28252294873409_1_alg».proof.Proof.KI.Frame0
import proofs.«428384_j28252294873409_1_alg».proof.Proof.KI.Frame1
import proofs.«428384_j28252294873409_1_alg».proof.Proof.KI.HostVals
import proofs.«428384_j28252294873409_1_alg».proof.Proof.KI.Dests

noncomputable section

namespace Cert.KernelIdeal.Final

open Cert.KernelIdeal Cert.KernelIdeal.Gen Cert.KernelIdeal.RunV Cert.KernelIdeal.HostVals
open Idealize.ShloMosaic Idealize.ShloMosaic.TcCoe Idealize.SL.Sem

variable {F : FTy → Type} [FloatOps F]

/-- The histogram region's frame as the run takes it. -/
def D0 : Reg0 F where
  dat V c := Hist.dat0 V c
  hA V c w := Hist.A_eq0 V c w
  hq _ _ _ := rfl
  howed _ _ _ := rfl
  hrec _ _ _ := rfl
  hbody V c := Hist.body_obligation0 V c
  hin V c := Hist.hin0 V c
  hout V c := Hist.hout0 V c

/-- The rank region's frame as the run takes it. -/
def D1 : Reg1 F where
  dat V c := Rank.dat1 V c
  hA V c w := Rank.A_eq1 V c w
  hq _ _ _ := rfl
  howed _ _ _ := rfl
  hrec _ _ _ := rfl
  hbody V c := Rank.body_obligation1 V c
  hin V c := Rank.hin1 V c
  hout V c := Rank.hout1 V c

variable (m : (ℓ : Loc nD τ sig) → Buf (Elt F) ℓ) (ρ : Dev nD → PrngReg)

/-- What the two regions leave in their result arrays. -/
abbrev outsF : Outs (F := F) := outs m D0 D1

/-- THE RUN: every weakly fair execution of @main terminates, nothing faulting, with every unscoped buffer of each
    core at the last valuation. -/
theorem run : θ_run defs (onTc (τ := τ) (main (F := F))) ⟨m, fun _ => 0, ρ⟩ (fun r => ∀ c : Dev nD,
      ∀ b ∈ Pipeline.ucRefs τ sig, r.2.mem (((c : Thread nD τ)).1, b) = V9 m (outsF m) c b) :=
  run_main m ρ D0 D1

/-- The frame claim's post from the run: no item writes an argument. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c (Proc.devRef .tc main_arg0) (Finset.mem_filter.mpr ⟨StableHlo.devRef_mem_tcRefs main_arg0, by decide⟩)).trans (V9_main_arg0 m (outsF m) c),
     (h c (Proc.devRef .tc main_arg1) (Finset.mem_filter.mpr ⟨StableHlo.devRef_mem_tcRefs main_arg1, by decide⟩)).trans (V9_main_arg1 m (outsF m) c)⟩)
    (run m ρ)

/-- The flattened expert ids of core `c`. -/
abbrev ids (c : Dev nD) : IVec S131072x128 32 := flatIds (m ((c : Thread nD τ).loc main_arg1))

/-- The histogram region leaves the whole-array function of the flattened ids. -/
theorem out3_eq (c : Dev nD) : outsF m 2 main_v3 c = Steps.histOut (F := F) (ids m c) := by
  refine (outs_v3 m D0 D1 c).trans ((Hist.final0_out (ent0 m) c).trans ?_)
  show Steps.histOut (V1 m c main_v2) = _
  rw [V1_v2]

/-- The rank region leaves the whole-array function of the flattened ids, the base offsets made from the
    histogram's counts, and the two triangular matrices. -/
theorem out19_eq (c : Dev nD) :
    outsF m 6 main_v19 c = Steps.rankOut (F := F) (ids m c) (baseOf (outsF m 2 main_v3 c)) mbtTerm mrTerm := by
  refine (outs_v19 m D0 D1 c).trans ((Rank.final1_out (ent1 m D0) c).trans ?_)
  show Steps.rankOut (V5 m (outsA m D0) c main_v2) (V5 m (outsA m D0) c main_v10) (V5 m (outsA m D0) c main_v14)
      (V5 m (outsA m D0) c main_v18) = _
  rw [V5_v2, V1_v2, V5_v10, V5_v14, V5_v18]
  show _ = Steps.rankOut (ids m c) (baseOf (outs m D0 D1 2 main_v3 c)) mbtTerm mrTerm
  rw [outs_two]
  rfl

/-- The first result: the flattened scores set at the destinations into zeros. -/
theorem v29_eq (c : Dev nD) :
    V9 m (outsF m) c main_v29
      = Host.scatter scatter_S16777216_S16777216x1_S16777216_n_0_0_1 (fun _ b => b)
          (broadcastInDim S16777216 ![] bcast_S_S16777216 (constant S_ .f32 0x00000000#32))
          (destCol (Dests.dests (F := F) (m ((c : Thread nD τ).loc main_arg1)))) (flatScores (m ((c : Thread nD τ).loc main_arg0))) := by
  rw [V9_v29, out19_eq, out3_eq]
  rfl

/-- The second result: the halved positions set at the destinations into zeros. -/
theorem v38_eq (c : Dev nD) :
    V9 m (outsF m) c main_v38
      = Host.scatter scatter_S16777216_S16777216x1_S16777216_n_0_0_1 (fun _ b => b)
          (broadcastInDim S16777216 ![] bcast_S_S16777216 (constantI S_ 32 0#32))
          (destCol (Dests.dests (F := F) (m ((c : Thread nD τ).loc main_arg1)))) halfIota := by
  rw [V9_v38, out19_eq, out3_eq]
  rfl

/-- The third result: the eight counts. -/
theorem v4_eq (c : Dev nD) :
    V9 m (outsF m) c main_v4 = countsOf (Steps.histOut (F := F) (flatIds (m ((c : Thread nD τ).loc main_arg1)))) := by
  rw [V9_v4, out3_eq]

/-- A result buffer of the final state is the last valuation's. -/
theorem mem_of_run {r : PUnit × MemSt nD τ sig (Elt F)}
    (h : ∀ c : Dev nD, ∀ b ∈ Pipeline.ucRefs τ sig, r.2.mem (((c : Thread nD τ)).1, b) = V9 m (outsF m) c b)
    (c : Dev nD) (b : Ref sig .tc) (hb : ¬ (Proc.devRef .tc b : DevRef τ sig).isScoped) :
    r.2.mem ((c.tc : Thread nD τ).loc b) = V9 m (outsF m) c b :=
  h c (Proc.devRef .tc b) (Finset.mem_filter.mpr ⟨StableHlo.devRef_mem_tcRefs b, hb⟩)

end Cert.KernelIdeal.Final

end
-- ==== Proof.RefRun.lean ====
import proofs.«428384_j28252294873409_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem
  Idealize.ShloMosaic.StableHlo

variable {F : FTy → Type} [FloatOps F]

/-! ## The reference's operations as one line

@main's own operations in order, each call replaced by the callee's operations over that call's buffer
record: @clip's three (the bound converted, broadcast, the maximum), @argsort's three (the iota, then
one line per result of the stable sort), @floor_divide's sixteen and, last of them, @_where's select. -/

/-- @main's 49 operations, in order, the calls unfolded. -/
abbrev ops : List (HloOp τ sig (Elt F)) :=
  [ reshape main_arg1 main_v0 rfl shapeCasts_S8388608x2_S16777216,
    nullary main_c (constantI S_ 32 0#32),
    unary main_c main_v1 (broadcastInDim S8 ![] bcast_S_S8 : (⟨S_, .i32⟩ : BufTy).Contents (Elt F) → (⟨S8, .i32⟩ : BufTy).Contents (Elt F)),
    nullary main_c_0 (constantI S_ 32 0#32),
    -- @clip over its call's buffers
    unary main_c_0 main_call0_v0 (id : (⟨S_, .i32⟩ : BufTy).Contents (Elt F) → (⟨S_, .i32⟩ : BufTy).Contents (Elt F)),
    unary main_call0_v0 main_call0_v1 (broadcastInDim S16777216 ![] bcast_S_S16777216 : (⟨S_, .i32⟩ : BufTy).Contents (Elt F) → (⟨S16777216, .i32⟩ : BufTy).Contents (Elt F)),
    binary main_call0_v1 main_v0 main_v2 (maxsi : (⟨S16777216, .i32⟩ : BufTy).Contents (Elt F) → (⟨S16777216, .i32⟩ : BufTy).Contents (Elt F) → (⟨S16777216, .i32⟩ : BufTy).Contents (Elt F)),
    nullary main_c_1 (constantI S_ 32 0#32),
    unary main_c_1 main_v3 (broadcastInDim S16777216 ![] bcast_S_S16777216 : (⟨S_, .i32⟩ : BufTy).Contents (Elt F) → (⟨S16777216, .i32⟩ : BufTy).Contents (Elt F)),
    binary main_v2 main_v3 main_v4 (cmpi .slt : (⟨S16777216, .i32⟩ : BufTy).Contents (Elt F) → (⟨S16777216, .i32⟩ : BufTy).Contents (Elt F) → (⟨S16777216, .i1⟩ : BufTy).Contents (Elt F)),
    nullary main_c_2 (constantI S_ 32 8#32),
    unary main_c_2 main_v5 (broadcastInDim S16777216 ![] bcast_S_S16777216 : (⟨S_, .i32⟩ : BufTy).Contents (Elt F) → (⟨S16777216, .i32⟩ : BufTy).Contents (Elt F)),
    binary main_v2 main_v5 main_v6 (addi : (⟨S16777216, .i32⟩ : BufTy).Contents (Elt F) → (⟨S16777216, .i32⟩ : BufTy).Contents (Elt F) → (⟨S16777216, .i32⟩ : BufTy).Contents (Elt F)),
    ternary main_v4 main_v6 main_v2 main_v7 (select : (⟨S16777216, .i1⟩ : BufTy).Contents (Elt F) → (⟨S16777216, .i32⟩ : BufTy).Contents (Elt F) → (⟨S16777216, .i32⟩ : BufTy).Contents (Elt F) → (⟨S16777216, .i32⟩ : BufTy).Contents (Elt F)),
    unary main_v7 main_v8 (broadcastInDim S16777216x1 ![0] bcast_S16777216_S16777216x1_0 : (⟨S16777216, .i32⟩ : BufTy).Contents (Elt F) → (⟨S16777216x1, .i32⟩ : BufTy).Contents (Elt F)),
    nullary main_c_3 (constantI S_ 32 1#32),
    unary main_c_3 main_v9 (broadcastInDim S16777216 ![] bcast_S_S16777216 : (⟨S_, .i32⟩ : BufTy).Contents (Elt F) → (⟨S16777216, .i32⟩ : BufTy).Contents (Elt F)),
    ternary main_v1 main_v8 main_v9 main_v10 ((fun x i u => Host.scatter scatter_S8_S16777216x1_S16777216_n_0_0_1 IntOp.addi x i u) : (⟨S8, .i32⟩ : BufTy).Contents (Elt F) → (⟨S16777216x1, .i32⟩ : BufTy).Contents (Elt F) → (⟨S16777216, .i32⟩ : BufTy).Contents (Elt F) → (⟨S8, .i32⟩ : BufTy).Contents (Elt F)),
    -- @argsort over its call's buffers
    nullary main_call1_v0 (iotaInDim S16777216 32 0 : (⟨S16777216, .i32⟩ : BufTy).Contents (Elt F)),
    binary main_v0 main_call1_v0 main_call1_v1_0 ((fun x y => (Host.sort2 S16777216 0 comparator_i32_i32_d0 x y).1) : (⟨S16777216, .i32⟩ : BufTy).Contents (Elt F) → (⟨S16777216, .i32⟩ : BufTy).Contents (Elt F) → (⟨S16777216, .i32⟩ : BufTy).Contents (Elt F)),
    binary main_v0 main_call1_v0 main_v11 ((fun x y => (Host.sort2 S16777216 0 comparator_i32_i32_d0 x y).2) : (⟨S16777216, .i32⟩ : BufTy).Contents (Elt F) → (⟨S16777216, .i32⟩ : BufTy).Contents (Elt F) → (⟨S16777216, .i32⟩ : BufTy).Contents (Elt F)),
    reshape main_arg0 main_v12 rfl shapeCasts_S8388608x2_S16777216,
    nullary main_c_4 (constantI S_ 32 0#32),
    unary main_c_4 main_v13 (broadcastInDim S16777216 ![] bcast_S_S16777216 : (⟨S_, .i32⟩ : BufTy).Contents (Elt F) → (⟨S16777216, .i32⟩ : BufTy).Contents (Elt F)),
    binary main_v11 main_v13 main_v14 (cmpi .slt : (⟨S16777216, .i32⟩ : BufTy).Contents (Elt F) → (⟨S16777216, .i32⟩ : BufTy).Contents (Elt F) → (⟨S16777216, .i1⟩ : BufTy).Contents (Elt F)),
    nullary main_c_5 (constantI S_ 32 16777216#32),
    unary main_c_5 main_v15 (broadcastInDim S16777216 ![] bcast_S_S16777216 : (⟨S_, .i32⟩ : BufTy).Contents (Elt F) → (⟨S16777216, .i32⟩ : BufTy).Contents (Elt F)),
    binary main_v11 main_v15 main_v16 (addi : (⟨S16777216, .i32⟩ : BufTy).Contents (Elt F) → (⟨S16777216, .i32⟩ : BufTy).Contents (Elt F) → (⟨S16777216, .i32⟩ : BufTy).Contents (Elt F)),
    ternary main_v14 main_v16 main_v11 main_v17 (select : (⟨S16777216, .i1⟩ : BufTy).Contents (Elt F) → (⟨S16777216, .i32⟩ : BufTy).Contents (Elt F) → (⟨S16777216, .i32⟩ : BufTy).Contents (Elt F) → (⟨S16777216, .i32⟩ : BufTy).Contents (Elt F)),
    unary main_v17 main_v18 (broadcastInDim S16777216x1 ![0] bcast_S16777216_S16777216x1_0 : (⟨S16777216, .i32⟩ : BufTy).Contents (Elt F) → (⟨S16777216x1, .i32⟩ : BufTy).Contents (Elt F)),
    binary main_v12 main_v18 main_v19 ((fun x i => Host.gather gather_S16777216_S16777216x1_S16777216_n_0_n_n_0_1_1 x i) : (⟨S16777216, .f32⟩ : BufTy).Contents (Elt F) → (⟨S16777216x1, .i32⟩ : BufTy).Contents (Elt F) → (⟨S16777216, .f32⟩ : BufTy).Contents (Elt F)),
    nullary main_c_6 (constantI S_ 32 2#32),
    -- @floor_divide over its call's buffers
    unary main_c_6 main_call2_v0 (id : (⟨S_, .i32⟩ : BufTy).Contents (Elt F) → (⟨S_, .i32⟩ : BufTy).Contents (Elt F)),
    unary main_call2_v0 main_call2_v1 (broadcastInDim S16777216 ![] bcast_S_S16777216 : (⟨S_, .i32⟩ : BufTy).Contents (Elt F) → (⟨S16777216, .i32⟩ : BufTy).Contents (Elt F)),
    binary main_v11 main_call2_v1 main_call2_v2 (Host.divsi : (⟨S16777216, .i32⟩ : BufTy).Contents (Elt F) → (⟨S16777216, .i32⟩ : BufTy).Contents (Elt F) → (⟨S16777216, .i32⟩ : BufTy).Contents (Elt F)),
    unary main_v11 main_call2_v3 (signi : (⟨S16777216, .i32⟩ : BufTy).Contents (Elt F) → (⟨S16777216, .i32⟩ : BufTy).Contents (Elt F)),
    unary main_call2_v0 main_call2_v4 (signi : (⟨S_, .i32⟩ : BufTy).Contents (Elt F) → (⟨S_, .i32⟩ : BufTy).Contents (Elt F)),
    unary main_call2_v4 main_call2_v5 (broadcastInDim S16777216 ![] bcast_S_S16777216 : (⟨S_, .i32⟩ : BufTy).Contents (Elt F) → (⟨S16777216, .i32⟩ : BufTy).Contents (Elt F)),
    binary main_call2_v3 main_call2_v5 main_call2_v6 (cmpi .ne : (⟨S16777216, .i32⟩ : BufTy).Contents (Elt F) → (⟨S16777216, .i32⟩ : BufTy).Contents (Elt F) → (⟨S16777216, .i1⟩ : BufTy).Contents (Elt F)),
    unary main_call2_v0 main_call2_v7 (broadcastInDim S16777216 ![] bcast_S_S16777216 : (⟨S_, .i32⟩ : BufTy).Contents (Elt F) → (⟨S16777216, .i32⟩ : BufTy).Contents (Elt F)),
    binary main_v11 main_call2_v7 main_call2_v8 (Host.remsi : (⟨S16777216, .i32⟩ : BufTy).Contents (Elt F) → (⟨S16777216, .i32⟩ : BufTy).Contents (Elt F) → (⟨S16777216, .i32⟩ : BufTy).Contents (Elt F)),
    nullary main_call2_c (constantI S_ 32 0#32 : (⟨S_, .i32⟩ : BufTy).Contents (Elt F)),
    unary main_call2_c main_call2_v9 (broadcastInDim S16777216 ![] bcast_S_S16777216 : (⟨S_, .i32⟩ : BufTy).Contents (Elt F) → (⟨S16777216, .i32⟩ : BufTy).Contents (Elt F)),
    binary main_call2_v8 main_call2_v9 main_call2_v10 (cmpi .ne : (⟨S16777216, .i32⟩ : BufTy).Contents (Elt F) → (⟨S16777216, .i32⟩ : BufTy).Contents (Elt F) → (⟨S16777216, .i1⟩ : BufTy).Contents (Elt F)),
    binary main_call2_v6 main_call2_v10 main_call2_v11 (andi : (⟨S16777216, .i1⟩ : BufTy).Contents (Elt F) → (⟨S16777216, .i1⟩ : BufTy).Contents (Elt F) → (⟨S16777216, .i1⟩ : BufTy).Contents (Elt F)),
    nullary main_call2_c_0 (constantI S_ 32 1#32 : (⟨S_, .i32⟩ : BufTy).Contents (Elt F)),
    unary main_call2_c_0 main_call2_v12 (broadcastInDim S16777216 ![] bcast_S_S16777216 : (⟨S_, .i32⟩ : BufTy).Contents (Elt F) → (⟨S16777216, .i32⟩ : BufTy).Contents (Elt F)),
    binary main_call2_v2 main_call2_v12 main_call2_v13 (subi : (⟨S16777216, .i32⟩ : BufTy).Contents (Elt F) → (⟨S16777216, .i32⟩ : BufTy).Contents (Elt F) → (⟨S16777216, .i32⟩ : BufTy).Contents (Elt F)),
    -- @_where over its call's buffers
    ternary main_call2_v11 main_call2_v13 main_call2_v2 main_v20 (select : (⟨S16777216, .i1⟩ : BufTy).Contents (Elt F) → (⟨S16777216, .i32⟩ : BufTy).Contents (Elt F) → (⟨S16777216, .i32⟩ : BufTy).Contents (Elt F) → (⟨S16777216, .i32⟩ : BufTy).Contents (Elt F)) ]

-- forty-nine binds re-associated under the chain
set_option maxRecDepth 2048 in
/-- @main is that straight line: the functions' definitions unfolded at their calls, both sides are one
    chain of host steps once sequencing is reassociated. -/
theorem main_eq (c : Dev nD) : main (F := F) c = seq ops := by
  simp only [main, fn_clip.body, fn_argsort.body, fn_floor_divide.body, fn_where.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨reshape_bufs_sub .., nullary_bufs_sub .., unary_bufs_sub .., nullary_bufs_sub ..,
    unary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., nullary_bufs_sub .., unary_bufs_sub .., ternary_bufs_sub ..,
    nullary_bufs_sub .., binary_bufs_sub .., binary_bufs_sub ..,
    reshape_bufs_sub .., nullary_bufs_sub .., unary_bufs_sub .., binary_bufs_sub .., nullary_bufs_sub .., unary_bufs_sub ..,
    binary_bufs_sub .., ternary_bufs_sub .., unary_bufs_sub .., binary_bufs_sub .., nullary_bufs_sub ..,
    unary_bufs_sub .., unary_bufs_sub .., binary_bufs_sub .., unary_bufs_sub .., unary_bufs_sub .., unary_bufs_sub ..,
    binary_bufs_sub .., unary_bufs_sub .., binary_bufs_sub .., nullary_bufs_sub .., unary_bufs_sub .., binary_bufs_sub ..,
    binary_bufs_sub .., nullary_bufs_sub .., unary_bufs_sub .., binary_bufs_sub .., ternary_bufs_sub ..⟩

/-! ## The results as terms of the arguments

Each definition is one value of the program: the operation that makes it applied to the values it reads. -/

/-- A scalar spread over the 16777216 positions: a constant and its broadcast. -/
def splat (b : BitVec 32) : IVec S16777216 32 :=
  broadcastInDim S16777216 ![] bcast_S_S16777216 (constantI S_ 32 b)

/-- A vector of 16777216 words as a column (the index operand of a scatter or gather). -/
def col (x : IVec S16777216 32) : IVec S16777216x1 32 :=
  broadcastInDim S16777216x1 ![0] bcast_S16777216_S16777216x1_0 x

/-- Negative entries moved up by n, the others kept: the compare with zero, the add, the select. -/
def wrap (n : BitVec 32) (x : IVec S16777216 32) : IVec S16777216 32 :=
  select (cmpi .slt x (splat 0#32)) (addi x (splat n)) x

/-- The expert ids in row-major order. -/
def flat (a1 : IVec S8388608x2 32) : IVec S16777216 32 :=
  shapeCast S16777216 a1 shapeCasts_S8388608x2_S16777216

/-- The flattened ids bounded below by zero. -/
def clipped (a1 : IVec S8388608x2 32) : IVec S16777216 32 :=
  maxsi (splat 0#32) (flat a1)

/-- The bincount: ones added into eight zeros at the clipped ids (a negative one moved up by 8). -/
def res10 (a1 : IVec S8388608x2 32) : IVec S8 32 :=
  Host.scatter scatter_S8_S16777216x1_S16777216_n_0_0_1 IntOp.addi
    (broadcastInDim S8 ![] bcast_S_S8 (constantI S_ 32 0#32))
    (col (wrap 8#32 (clipped a1)))
    (splat 1#32)

/-- The stable argsort of the flattened ids: the positions carried through the sort by id. -/
def order (a1 : IVec S8388608x2 32) : IVec S16777216 32 :=
  (Host.sort2 S16777216 0 comparator_i32_i32_d0 (flat a1) (iotaInDim S16777216 32 0)).2

/-- The scores in row-major order read at the sorted positions (a negative position moved up by 16777216). -/
def res19 (a0 : FVec F S8388608x2 .f32) (a1 : IVec S8388608x2 32) : FVec F S16777216 .f32 :=
  Host.gather gather_S16777216_S16777216x1_S16777216_n_0_n_n_0_1_1
    (shapeCast S16777216 a0 shapeCasts_S8388608x2_S16777216)
    (col (wrap 16777216#32 (order a1)))

/-- The truncated quotient of the sorted positions by two. -/
def quot (a1 : IVec S8388608x2 32) : IVec S16777216 32 :=
  Host.divsi (order a1) (splat 2#32)

/-- Where the truncated quotient is not the floor: the signs of position and divisor differ and the
    remainder is not zero. -/
def adjust (a1 : IVec S8388608x2 32) : IVec S16777216 1 :=
  andi
    (cmpi .ne (signi (order a1)) (broadcastInDim S16777216 ![] bcast_S_S16777216 (signi (constantI S_ 32 2#32))))
    (cmpi .ne (Host.remsi (order a1) (splat 2#32)) (splat 0#32))

/-- The floor of the sorted positions over two: the truncated quotient, less one where it is not the floor. -/
def res20 (a1 : IVec S8388608x2 32) : IVec S16777216 32 :=
  select (adjust a1) (subi (quot a1) (splat 1#32)) (quot a1)

/-! ## The run -/

section Results
-- the sort, the gather and the scatter stay folded while the two sides are compared: the equations never look inside them
attribute [local irreducible] Host.sort2 Host.gather Host.scatter

/-- The bincount's buffer after the line. -/
theorem v10_eq (V : Valuation τ sig (Elt F)) :
    after ops V (main_v10 : DevRef τ sig) = res10 (V (main_arg1 : DevRef τ sig)) := by
  after_results_simp
  rfl

/-- The argsort's buffer after the line. -/
theorem v11_eq (V : Valuation τ sig (Elt F)) :
    after ops V (main_v11 : DevRef τ sig) = order (V (main_arg1 : DevRef τ sig)) := by
  after_results_simp
  rfl

/-- The gathered scores' buffer after the line. -/
theorem v19_eq (V : Valuation τ sig (Elt F)) :
    after ops V (main_v19 : DevRef τ sig) = res19 (V (main_arg0 : DevRef τ sig)) (V (main_arg1 : DevRef τ sig)) := by
  after_results_simp
  rfl

/-- The floor-divided positions' buffer after the line. -/
theorem v20_eq (V : Valuation τ sig (Elt F)) :
    after ops V (main_v20 : DevRef τ sig) = res20 (V (main_arg1 : DevRef τ sig)) := by
  after_results_simp
  rfl

end Results

/-- On the device, for any float values, from any memory with zero counters: every weakly fair execution
    of @main terminates with each result at its term of the arguments and the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v19) = res19 (m ((c.tc : Thread nD τ).loc main_arg0)) (m ((c.tc : Thread nD τ).loc main_arg1))
      ∧ r.2.mem ((c.tc : Thread nD τ).loc main_v20) = res20 (m ((c.tc : Thread nD τ).loc main_arg1))
      ∧ r.2.mem ((c.tc : Thread nD τ).loc main_v10) = res10 (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c main_v19).trans (v19_eq _),
      (h c main_v20).trans (v20_eq _),
      (h c main_v10).trans (v10_eq _),
      (h c main_arg0).trans (by after_results_simp),
      (h c main_arg1).trans (by after_results_simp)⟩)
    (run_seq scopedRefs_eq scopedSems_eq defs main (fun _ => ops) main_eq (fun _ => ops_sub) m ρ)

end Cert.ReferenceIdeal.RefRun

end
-- ==== Proof.PreDecode.lean ====
/-
  The precondition, read back at one entry of the integer input. The printed predicate is the conjunction of two
  reductions by `and` over all axes: the first says every float entry is finite, the second says every entry w of the
  integer input satisfies (0 ≤ w signed) and (w < 8 signed). From "the predicate is 1" we take the second conjunct,
  read the reduction at the entry (r, k), split the elementwise `and`, and read the two signed comparisons against the
  broadcast constants 0 and 8 as inequalities between the signed values. A word in [0, 8) signed has unsigned value below 8.
-/
import proofs.«428384_j28252294873409_1_alg».proof.Proof.Gen.Pre_finite_inputs
import Idealize.ShloMosaic.Lib.ReduceAll
import Idealize.ShloMosaic.Lib.StableHlo.Predicate
import Idealize.ShloMosaic.Lib.ValueIdx

namespace Cert.PreDecode

open Idealize.ShloMosaic Idealize.ShloMosaic.ValueIdx

/-- The scalar shape has one index. -/
instance : Subsingleton Cert.Pre_finite_inputs.S_.Idx := ⟨fun a b => funext fun d => d.elim0⟩

/-- The elementwise fact: at every entry of the integer input both comparisons, against 0 and against 8, are 1.
    (A scalar constant broadcast to the whole shape reads the constant at every entry.) -/
theorem ids_mask {F : FTy → Type} [FloatOps F] [Cert.Pre_finite_inputs.Facts]
    (a0 : FVec F Cert.Pre_finite_inputs.S8388608x2 .f32) (a1 : IVec Cert.Pre_finite_inputs.S8388608x2 32)
    (h : Cert.Pre_finite_inputs.fn (F := F) a0 a1 = fun _ => 1#1) (j : Cert.Pre_finite_inputs.S8388608x2.Idx) :
    IntOp.cmpi .sge (a1 j) 0#32 = 1#1 ∧ IntOp.cmpi .slt (a1 j) 8#32 = 1#1 := by
  have e := congrFun h ix0
  dsimp only [Cert.Pre_finite_inputs.fn] at e
  -- the predicate is (all finite) and (all in range): keep the second reduction
  obtain ⟨-, e2⟩ := IntOp.andi_eq_one.1 e
  -- a reduction by `and` over all axes that is 1 had a 1 at every entry
  have e3 := Host.reduce_andi_all _ _ _ _ ix0 e2 j
  -- the entry is the `and` of the two comparisons
  obtain ⟨h0, h8⟩ := IntOp.andi_eq_one.1 e3
  exact ⟨h0, h8⟩

/-- A 32-bit word whose signed value lies in [0, 8) has unsigned value below 8. -/
theorem toNat_lt_of_toInt (w : BitVec 32) (h0 : 0 ≤ w.toInt) (h8 : w.toInt < 8) : w.toNat < 8 := by
  have hc : 2 * w.toNat < 2 ^ 32 := BitVec.toInt_pos_iff.1 h0
  rw [BitVec.toInt_eq_toNat_of_lt hc] at h8
  omega

/-- THE RANGE, signed: every entry of the integer input lies in [0, 8). -/
theorem ids_in_range {F : FTy → Type} [FloatOps F] [Cert.Pre_finite_inputs.Facts]
    (a0 : FVec F Cert.Pre_finite_inputs.S8388608x2 .f32) (a1 : IVec Cert.Pre_finite_inputs.S8388608x2 32)
    (h : Cert.Pre_finite_inputs.fn (F := F) a0 a1 = fun _ => 1#1) (r : Fin 8388608) (k : Fin 2) :
    0 ≤ (a1 (ix2 r k)).toInt ∧ (a1 (ix2 r k)).toInt < 8 := by
  obtain ⟨h0, h8⟩ := ids_mask a0 a1 h (ix2 r k)
  have z0 : (0#32 : BitVec 32).toInt = 0 := by decide
  have z8 : (8#32 : BitVec 32).toInt = 8 := by decide
  have a := IntOp.cmpi_sge.1 h0
  have b := IntOp.cmpi_slt.1 h8
  rw [z0] at a
  rw [z8] at b
  exact ⟨a, b⟩

/-- THE RANGE, unsigned: every entry of the integer input is below 8 as a natural number. -/
theorem ids_toNat_lt {F : FTy → Type} [FloatOps F] [Cert.Pre_finite_inputs.Facts]
    (a0 : FVec F Cert.Pre_finite_inputs.S8388608x2 .f32) (a1 : IVec Cert.Pre_finite_inputs.S8388608x2 32)
    (h : Cert.Pre_finite_inputs.fn (F := F) a0 a1 = fun _ => 1#1) (r : Fin 8388608) (k : Fin 2) :
    (a1 (ix2 r k)).toNat < 8 :=
  toNat_lt_of_toInt _ (ids_in_range a0 a1 h r k).1 (ids_in_range a0 a1 h r k).2

end Cert.PreDecode
-- ==== Proof.LibRows.lean ====
/-
  Gathers and scatter-adds along the leading axis, read at an index, on the extended reals.

  `x[idx]` for a matrix `x : [N, C]` (or a vector `x : [N]`) and a column of indices `idx : [R, 1]` lowers to a gather
  with collapsed_slice_dims [0], start_index_map [0], index_vector_dim 1 (offset_dims [1] and slice sizes [1, C] for the
  matrix; no offset dims and slice sizes [1] for the vector): result row `r` is the operand's row at `idx[r, 0]` read
  as a signed integer and clamped into [0, N − 1]. The matching scatter-add (inserted_window_dims [0],
  scatter_dims_to_operand_dims [0], index_vector_dim 1; update_window_dims [1] for the matrix, none for the vector) adds
  update row `r` onto operand row `idx[r, 0]`, read signed and NOT clamped, and drops it when that is no row.
  Before a gather jnp wraps a negative index once by the axis size: `select (v < 0) (v + n) v`.
-/
import Idealize.ShloMosaic.PureOps.Ideal
import Idealize.ShloMosaic.PureOps.Ideal.Laws
import Idealize.ShloMosaic.Lib.ValueIdx

noncomputable section

namespace Cert.LibRows

open Idealize.ShloMosaic Idealize.ShloMosaic.ValueIdx

/-- A matrix, a vector and a column of index words, as the host operations see them. -/
abbrev Arr2 (N C : Nat) : Type := (⟨2, ![N, C]⟩ : Shape).Idx → EReal
abbrev Arr1 (N : Nat) : Type := (⟨1, ![N]⟩ : Shape).Idx → EReal
abbrev IdxCol (R : Nat) : Type := (⟨2, ![R, 1]⟩ : Shape).Idx → BitVec 32

/-- A signed index word clamped to a row of an axis of `N` rows. -/
def clampRow {N : Nat} (hN : 0 < N) (w : BitVec 32) : Fin N := ⟨min w.toInt.toNat (N - 1), by omega⟩

/-- jnp's wrap of a negative index, once, by the axis size. -/
def wrapN (n : Nat) (v : BitVec 32) : BitVec 32 := if v.toInt < 0 then v + BitVec.ofNat 32 n else v

/-- The dimension numbers of a row gather; their conditions `wf` are decided on a program's literal shapes. -/
abbrev rowGatherDims (N C R : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The dimension numbers of an entry gather from a vector. -/
abbrev vecGatherDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The dimension numbers of a row scatter. -/
abbrev rowScatterDims (N C R : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The dimension numbers of an entry scatter into a vector. -/
abbrev vecScatterDims (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- THE ROW GATHER READ AT AN INDEX: row `clamp (idx[r, 0])` of the operand. -/
theorem gather_rows_apply {N C R : Nat} (hN : 0 < N)
    (wf : GatherDims.WF ⟨2, ![N, C]⟩ ⟨2, ![R, 1]⟩ ⟨2, ![R, C]⟩ [1] [0] [] [0] [] 1 ![1, C])
    (x : Arr2 N C) (idx : IdxCol R) (r : Fin R) (j : Fin C) :
    Host.gather (rowGatherDims N C R wf) x idx (ix2 r j) = x (ix2 (clampRow hN (idx (ix2 r 0))) j) := by
  unfold Host.gather
  congr 1
  funext a
  refine Fin.ext ?_
  match a with
  | ⟨0, _⟩ =>
    show (rowGatherDims N C R wf).start (ix2 r j) idx 0 + (rowGatherDims N C R wf).batchCoord (ix2 r j) 0
      + (rowGatherDims N C R wf).offCoord (ix2 r j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N C R wf).startIndexMap from List.mem_singleton.mpr rfl)]
    have hsi : (rowGatherDims N C R wf).siIdx (ix2 r j) ⟨List.idxOf (0 : Fin 2) (rowGatherDims N C R wf).startIndexMap,
        List.idxOf_lt_length_iff.2 (List.mem_singleton.mpr rfl)⟩ = ix2 r 0 := by
      funext b; refine Fin.ext ?_
      match b with
      | ⟨0, _⟩ => rfl
      | ⟨1, _⟩ => rfl
    rw [hsi]
    rfl
  | ⟨1, _⟩ =>
    show (rowGatherDims N C R wf).start (ix2 r j) idx 1 + (rowGatherDims N C R wf).batchCoord (ix2 r j) 1
      + (rowGatherDims N C R wf).offCoord (ix2 r j) 1 = j.val
    rw [GatherDims.batchCoord_eq_zero _ _ _ List.not_mem_nil]
    have hs : (rowGatherDims N C R wf).start (ix2 r j) idx 1 = 0 := by
      unfold GatherDims.start
      rw [dif_neg (show (1 : Fin 2) ∉ [(0 : Fin 2)] by decide)]
    have hk : (1 : Fin 2) ∈ (rowGatherDims N C R wf).sKept :=
      (GatherDims.mem_sKept _ _).mpr ⟨(show (1 : Fin 2) ∉ [(0 : Fin 2)] by decide), List.not_mem_nil⟩
    have ho : (rowGatherDims N C R wf).offCoord (ix2 r j) 1 = j.val := by
      unfold GatherDims.offCoord
      rw [dif_pos hk]
      rfl
    rw [hs, ho]
    simp only [Nat.add_zero, Nat.zero_add]

/-- THE ENTRY GATHER READ AT AN INDEX: entry `clamp (idx[r, 0])` of the operand. -/
theorem gather_vec_apply {N R : Nat} (hN : 0 < N)
    (wf : GatherDims.WF ⟨1, ![N]⟩ ⟨2, ![R, 1]⟩ ⟨1, ![R]⟩ [] [0] [] [0] [] 1 ![1])
    (x : Arr1 N) (idx : IdxCol R) (r : Fin R) :
    Host.gather (vecGatherDims N R wf) x idx (ix1 r) = x (ix1 (clampRow hN (idx (ix2 r 0)))) := by
  unfold Host.gather
  congr 1
  funext a
  obtain rfl : a = 0 := Subsingleton.elim _ _
  refine Fin.ext ?_
  show (vecGatherDims N R wf).start (ix1 r) idx 0 + (vecGatherDims N R wf).batchCoord (ix1 r) 0
    + (vecGatherDims N R wf).offCoord (ix1 r) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N R wf).startIndexMap from List.mem_singleton.mpr rfl)]
  have hsi : (vecGatherDims N R wf).siIdx (ix1 r) ⟨List.idxOf (0 : Fin 1) (vecGatherDims N R wf).startIndexMap,
      List.idxOf_lt_length_iff.2 (List.mem_singleton.mpr rfl)⟩ = ix2 r 0 := by
    funext b; refine Fin.ext ?_
    match b with
    | ⟨0, _⟩ => rfl
    | ⟨1, _⟩ => rfl
  rw [hsi]
  rfl

/-- The start of update `(k, b)`'s window: on the row axis the index of row `k`, read signed; on the column axis zero. -/
theorem start_rows0 {N C R : Nat} (wf : ScatterDims.WF ⟨2, ![N, C]⟩ ⟨2, ![R, 1]⟩ ⟨2, ![R, C]⟩ [1] [0] [0] 1)
    (idx : IdxCol R) (k : Fin R) (b : Fin C) :
    (rowScatterDims N C R wf).start (ix2 k b) idx 0 = (idx (ix2 k 0)).toInt := by
  unfold ScatterDims.start
  rw [dif_pos (show (0 : Fin 2) ∈ (rowScatterDims N C R wf).scatterDimsToOperandDims from List.mem_singleton.mpr rfl)]
  have hsi : (rowScatterDims N C R wf).siIdx (ix2 k b) ⟨List.idxOf (0 : Fin 2) (rowScatterDims N C R wf).scatterDimsToOperandDims,
      List.idxOf_lt_length_iff.2 (List.mem_singleton.mpr rfl)⟩ = ix2 k 0 := by
    funext c; refine Fin.ext ?_
    match c with
    | ⟨0, _⟩ => rfl
    | ⟨1, _⟩ => rfl
  rw [hsi]

/-- On the column axis the window of an update starts at zero. -/
theorem start_rows1 {N C R : Nat} (wf : ScatterDims.WF ⟨2, ![N, C]⟩ ⟨2, ![R, 1]⟩ ⟨2, ![R, C]⟩ [1] [0] [0] 1)
    (idx : IdxCol R) (k : Fin R) (b : Fin C) :
    (rowScatterDims N C R wf).start (ix2 k b) idx 1 = 0 := by
  unfold ScatterDims.start
  rw [dif_neg (show (1 : Fin 2) ∉ [(0 : Fin 2)] by decide)]

/-- The window coordinate of update `(k, b)`: zero on the row axis, `b` on the column axis. -/
theorem window_rows0 {N C R : Nat} (wf : ScatterDims.WF ⟨2, ![N, C]⟩ ⟨2, ![R, 1]⟩ ⟨2, ![R, C]⟩ [1] [0] [0] 1)
    (k : Fin R) (b : Fin C) : (rowScatterDims N C R wf).window (ix2 k b) 0 = 0 := by
  unfold ScatterDims.window
  rw [dif_neg (show (0 : Fin 2) ∉ (rowScatterDims N C R wf).sKept by
    simp [ScatterDims.sKept, Shape.kept, List.mem_filter])]

/-- On the column axis the window coordinate of update `(k, b)` is `b`. -/
theorem window_rows1 {N C R : Nat} (wf : ScatterDims.WF ⟨2, ![N, C]⟩ ⟨2, ![R, 1]⟩ ⟨2, ![R, C]⟩ [1] [0] [0] 1)
    (k : Fin R) (b : Fin C) : (rowScatterDims N C R wf).window (ix2 k b) 1 = b.val := by
  unfold ScatterDims.window
  rw [dif_pos (show (1 : Fin 2) ∈ (rowScatterDims N C R wf).sKept by
    simp [ScatterDims.sKept, Shape.kept, List.mem_filter, List.mem_finRange])]
  rfl

/-- Update `(k, b)` lands on `(v, j)` exactly when row `k`'s index, read signed, is `v` and `b` is `j`. -/
theorem resultIdx_rows {N C R : Nat} (wf : ScatterDims.WF ⟨2, ![N, C]⟩ ⟨2, ![R, 1]⟩ ⟨2, ![R, C]⟩ [1] [0] [0] 1)
    (idx : IdxCol R) (k : Fin R) (b : Fin C) (v : Fin N) (j : Fin C) :
    ((rowScatterDims N C R wf).resultIdx? (ix2 k b) idx = some (ix2 v j))
      ↔ ((idx (ix2 k 0)).toInt = (v.val : Int) ∧ j = b) := by
  have hv : v.val < N := v.isLt
  have hb : b.val < C := b.isLt
  unfold ScatterDims.resultIdx?
  split
  · rename_i h
    rw [Option.some.injEq]
    constructor
    · intro hf
      have h0 : ((rowScatterDims N C R wf).start (ix2 k b) idx 0
          + ((rowScatterDims N C R wf).window (ix2 k b) 0 : Nat)).toNat = v.val := congrArg (fun f => (f 0).val) hf
      have h1 : ((rowScatterDims N C R wf).start (ix2 k b) idx 1
          + ((rowScatterDims N C R wf).window (ix2 k b) 1 : Nat)).toNat = j.val := congrArg (fun f => (f 1).val) hf
      have g0 := (h 0).1
      simp only [start_rows0, start_rows1, window_rows0, window_rows1] at h0 h1 g0
      refine ⟨?_, Fin.ext ?_⟩
      · omega
      · omega
    · rintro ⟨h0, h1⟩
      have h1' : j.val = b.val := congrArg Fin.val h1
      funext a
      refine Fin.ext ?_
      match a with
      | ⟨0, _⟩ =>
        show ((rowScatterDims N C R wf).start (ix2 k b) idx 0 + ((rowScatterDims N C R wf).window (ix2 k b) 0 : Nat)).toNat = v.val
        rw [start_rows0, window_rows0]
        omega
      | ⟨1, _⟩ =>
        show ((rowScatterDims N C R wf).start (ix2 k b) idx 1 + ((rowScatterDims N C R wf).window (ix2 k b) 1 : Nat)).toNat = j.val
        rw [start_rows1, window_rows1]
        omega
  · rename_i h
    constructor
    · intro hf
      exact absurd hf (by simp)
    · rintro ⟨h0, h1⟩
      have h1' : j.val = b.val := congrArg Fin.val h1
      exfalso
      apply h
      intro a
      match a with
      | ⟨0, _⟩ =>
        show 0 ≤ (rowScatterDims N C R wf).start (ix2 k b) idx 0 + ((rowScatterDims N C R wf).window (ix2 k b) 0 : Nat)
          ∧ (rowScatterDims N C R wf).start (ix2 k b) idx 0 + ((rowScatterDims N C R wf).window (ix2 k b) 0 : Nat) < (N : Int)
        rw [start_rows0, window_rows0]
        omega
      | ⟨1, _⟩ =>
        show 0 ≤ (rowScatterDims N C R wf).start (ix2 k b) idx 1 + ((rowScatterDims N C R wf).window (ix2 k b) 1 : Nat)
          ∧ (rowScatterDims N C R wf).start (ix2 k b) idx 1 + ((rowScatterDims N C R wf).window (ix2 k b) 1 : Nat) < (C : Int)
        rw [start_rows1, window_rows1]
        omega

/-- THE ROW SCATTER-ADD READ AT AN INDEX: the operand's entry plus the sum of the update entries of the same column in
    the rows whose index, read signed, is this row. -/
theorem scatterAdd_rows_apply {N C R : Nat} (wf : ScatterDims.WF ⟨2, ![N, C]⟩ ⟨2, ![R, 1]⟩ ⟨2, ![R, C]⟩ [1] [0] [0] 1)
    (x : Arr2 N C) (idx : IdxCol R) (u : Arr2 R C) (v : Fin N) (j : Fin C) :
    Host.scatterAdd (F := Ideal) (φ := .f32) (rowScatterDims N C R wf) x idx u (ix2 v j)
      = x (ix2 v j) + ∑ e : Fin R, if (idx (ix2 e 0)).toInt = (v.val : Int) then u (ix2 e j) else 0 := by
  show x (ix2 v j) + ∑ q ∈ Finset.univ.filter (fun q => (rowScatterDims N C R wf).resultIdx? q idx = some (ix2 v j)), u q
    = x (ix2 v j) + ∑ e : Fin R, if (idx (ix2 e 0)).toInt = (v.val : Int) then u (ix2 e j) else 0
  congr 1
  rw [Finset.sum_filter, sum_idx2]
  refine Finset.sum_congr rfl fun k _ => ?_
  simp only [resultIdx_rows wf idx k _ v j]
  by_cases h : (idx (ix2 k 0)).toInt = (v.val : Int)
  · simp only [h, true_and, Finset.sum_ite_eq, Finset.mem_univ, if_true]
  · simp only [h, false_and, if_false, Finset.sum_const_zero]

/-- A sum over a vector's indices is the sum over its one coordinate. -/
theorem sum_idx1 {M : Type*} [AddCommMonoid M] {n : Nat} (f : (⟨1, ![n]⟩ : Shape).Idx → M) :
    ∑ i, f i = ∑ a : Fin n, f (ix1 a) :=
  (Equiv.sum_comp (⟨fun a => ix1 a, fun i => i 0, fun _ => rfl, fun i => (eq_ix1 i).symm⟩ :
    Fin n ≃ (⟨1, ![n]⟩ : Shape).Idx) f).symm

/-- The start of update `k`'s window in a vector: the index of row `k`, read signed. -/
theorem start_vec {N R : Nat} (wf : ScatterDims.WF ⟨1, ![N]⟩ ⟨2, ![R, 1]⟩ ⟨1, ![R]⟩ [] [0] [0] 1)
    (idx : IdxCol R) (k : Fin R) :
    (vecScatterDims N R wf).start (ix1 k) idx 0 = (idx (ix2 k 0)).toInt := by
  unfold ScatterDims.start
  rw [dif_pos (show (0 : Fin 1) ∈ (vecScatterDims N R wf).scatterDimsToOperandDims from List.mem_singleton.mpr rfl)]
  have hsi : (vecScatterDims N R wf).siIdx (ix1 k) ⟨List.idxOf (0 : Fin 1) (vecScatterDims N R wf).scatterDimsToOperandDims,
      List.idxOf_lt_length_iff.2 (List.mem_singleton.mpr rfl)⟩ = ix2 k 0 := by
    funext c; refine Fin.ext ?_
    match c with
    | ⟨0, _⟩ => rfl
    | ⟨1, _⟩ => rfl
  rw [hsi]

/-- An entry update has no window: its window coordinate is zero. -/
theorem window_vec {N R : Nat} (wf : ScatterDims.WF ⟨1, ![N]⟩ ⟨2, ![R, 1]⟩ ⟨1, ![R]⟩ [] [0] [0] 1)
    (k : Fin R) : (vecScatterDims N R wf).window (ix1 k) 0 = 0 := by
  unfold ScatterDims.window
  rw [dif_neg (show (0 : Fin 1) ∉ (vecScatterDims N R wf).sKept by
    simp [ScatterDims.sKept, Shape.kept, List.mem_filter])]

/-- Update `k` lands on entry `v` exactly when row `k`'s index, read signed, is `v`. -/
theorem resultIdx_vec {N R : Nat} (wf : ScatterDims.WF ⟨1, ![N]⟩ ⟨2, ![R, 1]⟩ ⟨1, ![R]⟩ [] [0] [0] 1)
    (idx : IdxCol R) (k : Fin R) (v : Fin N) :
    ((vecScatterDims N R wf).resultIdx? (ix1 k) idx = some (ix1 v)) ↔ (idx (ix2 k 0)).toInt = (v.val : Int) := by
  have hv : v.val < N := v.isLt
  unfold ScatterDims.resultIdx?
  split
  · rename_i h
    rw [Option.some.injEq]
    constructor
    · intro hf
      have h0 : ((vecScatterDims N R wf).start (ix1 k) idx 0
          + ((vecScatterDims N R wf).window (ix1 k) 0 : Nat)).toNat = v.val := congrArg (fun f => (f 0).val) hf
      have g0 := (h 0).1
      simp only [start_vec, window_vec] at h0 g0
      omega
    · intro h0
      funext a
      obtain rfl : a = 0 := Subsingleton.elim _ _
      refine Fin.ext ?_
      show ((vecScatterDims N R wf).start (ix1 k) idx 0 + ((vecScatterDims N R wf).window (ix1 k) 0 : Nat)).toNat = v.val
      rw [start_vec, window_vec]
      omega
  · rename_i h
    constructor
    · intro hf
      exact absurd hf (by simp)
    · intro h0
      exfalso
      apply h
      intro a
      obtain rfl : a = 0 := Subsingleton.elim _ _
      show 0 ≤ (vecScatterDims N R wf).start (ix1 k) idx 0 + ((vecScatterDims N R wf).window (ix1 k) 0 : Nat)
        ∧ (vecScatterDims N R wf).start (ix1 k) idx 0 + ((vecScatterDims N R wf).window (ix1 k) 0 : Nat) < (N : Int)
      rw [start_vec, window_vec]
      omega

/-- THE ENTRY SCATTER-ADD READ AT AN INDEX. -/
theorem scatterAdd_vec_apply {N R : Nat} (wf : ScatterDims.WF ⟨1, ![N]⟩ ⟨2, ![R, 1]⟩ ⟨1, ![R]⟩ [] [0] [0] 1)
    (x : Arr1 N) (idx : IdxCol R) (u : Arr1 R) (v : Fin N) :
    Host.scatterAdd (F := Ideal) (φ := .f32) (vecScatterDims N R wf) x idx u (ix1 v)
      = x (ix1 v) + ∑ e : Fin R, if (idx (ix2 e 0)).toInt = (v.val : Int) then u (ix1 e) else 0 := by
  show x (ix1 v) + ∑ q ∈ Finset.univ.filter (fun q => (vecScatterDims N R wf).resultIdx? q idx = some (ix1 v)), u q
    = x (ix1 v) + ∑ e : Fin R, if (idx (ix2 e 0)).toInt = (v.val : Int) then u (ix1 e) else 0
  congr 1
  rw [Finset.sum_filter, sum_idx1]
  refine Finset.sum_congr rfl fun k _ => ?_
  simp only [resultIdx_vec wf idx k v]

/-- jnp's negative-index wrap, one word: `select (v < 0) (v + n) v`. -/
theorem wrap_word (n : Nat) (v : BitVec 32) :
    Scalar.select (IntOp.cmpi .slt v 0#32) (IntOp.addi v (BitVec.ofNat 32 n)) v = wrapN n v := by
  unfold Scalar.select IntOp.cmpi IntOp.addi wrapN
  by_cases h : v.toInt < 0
  · have hs : v.slt 0#32 = true := by simp [BitVec.slt, h]
    simp only [hs, if_pos h]
    rfl
  · have hs : v.slt 0#32 = false := by simp [BitVec.slt, h]
    simp only [hs, if_neg h]
    rfl

/-- A word that, read signed, is a row reads as that row after the wrap and the clamp. -/
theorem clamp_wrap_of_toInt {N : Nat} (hN : 0 < N) (w : BitVec 32) (v : Fin N) (h : w.toInt = (v.val : Int)) :
    clampRow hN (wrapN N w) = v := by
  have hv : v.val < N := v.isLt
  have hw : wrapN N w = w := by
    unfold wrapN
    rw [if_neg (by omega)]
  rw [hw]
  refine Fin.ext ?_
  show min w.toInt.toNat (N - 1) = v.val
  rw [h, Int.toNat_natCast]
  omega

end Cert.LibRows

end
-- ==== Proof.FloorDiv.lean ====
/-
  The floor of a signed 32-bit word over two, as jnp's floor_divide computes it on the host: the truncated
  quotient, less one where the signs of the word and of the divisor differ and the remainder is not zero.
  Both programs apply this one function, entry by entry, to a vector of positions.
-/
import Idealize.ShloMosaic.PureOps

namespace Cert.FloorDiv

open Idealize.ShloMosaic

/-- The sign of a word as a word: 0, -1 or 1. -/
def signWord (v : BitVec 32) : BitVec 32 := if v = 0 then 0 else if v.msb then -1 else 1

/-- The floor of `v` over two. -/
def floorDivWord (v : BitVec 32) : BitVec 32 :=
  Scalar.select
    (IntOp.andi (IntOp.cmpi .ne (signWord v) (signWord 2#32)) (IntOp.cmpi .ne (IntOp.remsi .host v 2#32) 0#32))
    (IntOp.subi (IntOp.divsi .host v 2#32) 1#32)
    (IntOp.divsi .host v 2#32)

end Cert.FloorDiv
-- ==== Proof.KI.HostValsIdeal.lean ====
/-
  The host operations' terms read at an index, on the extended reals.

  The two triangular matrices are 1 strictly above (row before column) and strictly below (row after column) the
  diagonal. The regroupings keep the row-major position. The base offsets are the exclusive prefix sums of the eight
  counts: the cumulative sum is a windowed sum of width 8 over 7 zeros of padding in front, so position j sums the
  counts 0 … j; the slice and the leading zero shift it by one. A destination is wrapped once by the length when
  negative. The halved positions are the floor of the position over two, word by word.
-/
import proofs.«428384_j28252294873409_1_alg».proof.Proof.KI.HostVals
import proofs.«428384_j28252294873409_1_alg».proof.Proof.LibRows
import proofs.«428384_j28252294873409_1_alg».proof.Proof.FloorDiv
import Idealize.ShloMosaic.PureOps.Ideal
import Idealize.ShloMosaic.Lib.ValueIdx
import Idealize.ShloMosaic.Lib.ValueLayout
import Idealize.ShloMosaic.Lib.IdealHost
import Idealize.ShloMosaic.Lib.Pipeline.Value
import Idealize.ShloMosaic.Lib.StableHlo.Predicate
import Mathlib.Data.BitVec
import Mathlib.Algebra.BigOperators.Fin
import Mathlib.Algebra.BigOperators.Intervals
import Mathlib.Algebra.Order.BigOperators.Group.Finset

noncomputable section

namespace Cert.KernelIdeal.HostValsIdeal

open Idealize.ShloMosaic Idealize.ShloMosaic.ValueIdx
open Cert.KernelIdeal Cert.KernelIdeal.Gen Cert.KernelIdeal.HostVals

/-! ## The triangular matrices -/

/-- A truth word converted to a real is 1 where it holds and 0 where it does not. -/
theorem ofBool_real (b : Bool) (p : Prop) [Decidable p] (h : BitVec.ofBool b = 1#1 ↔ p) :
    ((((BitVec.ofBool b).toNat : ℕ) : ℝ) : EReal) = if p then 1 else 0 := by
  cases b
  · have hp : ¬ p := fun hp => absurd (h.mpr hp) (by decide)
    rw [if_neg hp]; simp
  · have hp : p := h.mp rfl
    rw [if_pos hp]; simp

/-- The 128 × 128 matrix is 1 exactly where the row is before the column. -/
theorem mbt_apply (k c : Fin 128) : mbtTerm (F := Ideal) (ix2 k c) = if k < c then 1 else 0 := by
  have hk := k.isLt
  have hc := c.isLt
  show ((((BitVec.ofBool ((BitVec.ofNat 32 k.val).slt (BitVec.ofNat 32 c.val))).toNat : ℕ) : ℝ) : EReal) = _
  exact ofBool_real _ _ (StableHlo.Predicate.slt_ofNat_iff k.val c.val (by omega) (by omega))

/-- The 512 × 512 matrix is 1 exactly where the row is after the column. -/
theorem mr_apply (r r' : Fin 512) : mrTerm (F := Ideal) (ix2 r r') = if r' < r then 1 else 0 := by
  have hr := r.isLt
  have hr' := r'.isLt
  show ((((BitVec.ofBool ((BitVec.ofNat 32 r'.val).slt (BitVec.ofNat 32 r.val))).toNat : ℕ) : ℝ) : EReal) = _
  exact ofBool_real _ _ (StableHlo.Predicate.slt_ofNat_iff r'.val r.val (by omega) (by omega))

/-! ## The regroupings -/

/-- The flattened scores at a position: the entry at its row and column of the two-column array. -/
theorem flatScores_apply (a0 : FVec Ideal S8388608x2 .f32) (p : Fin 16777216) :
    flatScores a0 (ix1 p)
      = a0 (ix2 ⟨p.val / 2, by have := p.isLt; omega⟩ ⟨p.val % 2, Nat.mod_lt _ (by decide)⟩) := by
  unfold flatScores
  exact shapeCast_apply a0 _ _ _ (by
    rw [Shape.rowMajor_val_two, Shape.rowMajor_val_one]
    show p.val / 2 * 2 + p.val % 2 = p.val
    omega)

/-- The regrouped ids at a position's row and column of width 128: the id at its row and column of width 2. -/
theorem flatIds_apply (a1 : IVec S8388608x2 32) (p : Fin 16777216) :
    flatIds a1 (ix2 ⟨p.val / 128, by have := p.isLt; omega⟩ ⟨p.val % 128, Nat.mod_lt _ (by decide)⟩)
      = a1 (ix2 ⟨p.val / 2, by have := p.isLt; omega⟩ ⟨p.val % 2, Nat.mod_lt _ (by decide)⟩) := by
  unfold flatIds
  rw [shapeCast_apply _ shapeCasts_S16777216_S131072x128
    (ix2 ⟨p.val / 128, by have := p.isLt; omega⟩ ⟨p.val % 128, Nat.mod_lt _ (by decide)⟩) (ix1 p) (by
    rw [Shape.rowMajor_val_two, Shape.rowMajor_val_one]
    show p.val = p.val / 128 * 128 + p.val % 128
    omega)]
  exact shapeCast_apply a1 _ _ _ (by
    rw [Shape.rowMajor_val_two, Shape.rowMajor_val_one]
    show p.val / 2 * 2 + p.val % 2 = p.val
    omega)

/-- The flattened counts. -/
theorem countsOf_apply (h : IVec S1x8 32) (e : Fin 8) : countsOf h (ix1 e) = h (ix2 0 e) := by
  unfold countsOf
  exact shapeCast_1a_a_apply h _ e

/-- The flattened destinations at a position: the destination at its row and column of width 128. -/
theorem flat20_apply (g : IVec S131072x128 32) (p : Fin 16777216) :
    flat20 g (ix1 p)
      = g (ix2 ⟨p.val / 128, by have := p.isLt; omega⟩ ⟨p.val % 128, Nat.mod_lt _ (by decide)⟩) := by
  unfold flat20
  exact shapeCast_apply g _ _ _ (by
    rw [Shape.rowMajor_val_two, Shape.rowMajor_val_one]
    show p.val / 128 * 128 + p.val % 128 = p.val
    omega)

/-- The column of destinations: each wrapped once by the length when negative. -/
theorem destCol_apply (g : IVec S131072x128 32) (p : Fin 16777216) :
    destCol g (ix2 p 0)
      = Cert.LibRows.wrapN 16777216
          (g (ix2 ⟨p.val / 128, by have := p.isLt; omega⟩ ⟨p.val % 128, Nat.mod_lt _ (by decide)⟩)) := by
  unfold destCol wrapCol
  rw [broadcastInDim_apply ![0] bcast_S16777216_S16777216x1_0 _ (ix2 p 0) (ix1 p) (fun a => by
    obtain rfl : a = (0 : Fin 1) := Subsingleton.elim _ _
    rw [if_neg (show ¬ S16777216.size (0 : Fin 1) = 1 by decide)]
    rfl)]
  show Scalar.select (IntOp.cmpi .slt (flat20 g (ix1 p)) 0#32)
      (IntOp.addi (flat20 g (ix1 p)) (BitVec.ofNat 32 16777216)) (flat20 g (ix1 p)) = _
  rw [Cert.LibRows.wrap_word, flat20_apply]

/-- The halved positions: the floor of the position over two. -/
theorem halfIota_apply (p : Fin 16777216) :
    halfIota (ix1 p) = Cert.FloorDiv.floorDivWord (BitVec.ofNat 32 p.val) := rfl

/-! ## The cumulative sum -/

/-- A left fold of wrapping additions is the start plus the sum of the terms. -/
theorem foldl_addi_eq {ι : Type} (g : ι → BitVec 32) (L : List ι) (z : BitVec 32) :
    L.foldl (fun r n => IntOp.addi r (g n)) z = z + (L.map g).sum := by
  induction L generalizing z with
  | nil => simp
  | cons a L ih => rw [List.foldl_cons, ih, List.map_cons, List.sum_cons, ← add_assoc]; rfl

/-- The cumulative sum at position `j`: over the window's eight places, the entry `j + a − 7` where that is not in the
    padding. -/
theorem cumsumOf_apply (v : IVec S8 32) (j : Fin 8) :
    cumsumOf v (ix1 j)
      = ∑ a : Fin 8, if h : 7 ≤ j.val + a.val then v (ix1 ⟨j.val + a.val - 7, by omega⟩) else 0 := by
  have hv0 : broadcastInDim S_ ![] bcast_S_S_ (constantI S_ 32 0#32) (Shape.Idx.first h_S_) = (0 : BitVec 32) := rfl
  unfold cumsumOf Host.reduceWindow
  dsimp only
  rw [foldl_addi_eq, ← Fin.sum_univ_def, ← Equiv.sum_comp (Shape.rowMajor _), Cert.LibRows.sum_idx1]
  simp only [Equiv.symm_apply_apply]
  rw [hv0, zero_add]
  refine Finset.sum_congr rfl fun a _ => ?_
  by_cases h2 : 7 ≤ j.val + a.val
  · rw [dif_pos h2]
    split
    · refine congrArg v (funext fun a' => ?_)
      obtain rfl : a' = (0 : Fin 1) := Subsingleton.elim _ _
      refine Fin.ext ?_
      show j.val * 1 + a.val - 7 = j.val + a.val - 7
      omega
    · next h1 =>
      exfalso
      refine h1 (fun a' => ?_)
      obtain rfl : a' = (0 : Fin 1) := Subsingleton.elim _ _
      show 7 ≤ j.val * 1 + a.val ∧ j.val * 1 + a.val - 7 < 8
      have := j.isLt
      have := a.isLt
      omega
  · rw [dif_neg h2]
    split
    · next h1 =>
      exfalso
      have h10 := (h1 (0 : Fin 1)).1
      change 7 ≤ j.val * 1 + a.val at h10
      omega
    · rfl

/-- Of words that are small naturals, the cumulative sum is the word of the sum. -/
theorem cumsumOf_ofNat (v : IVec S8 32) (n : Fin 8 → ℕ) (hv : ∀ e, v (ix1 e) = BitVec.ofNat 32 (n e)) (j : Fin 8) :
    cumsumOf v (ix1 j)
      = BitVec.ofNat 32 (∑ a : Fin 8, if h : 7 ≤ j.val + a.val then n ⟨j.val + a.val - 7, by omega⟩ else 0) := by
  rw [cumsumOf_apply, ← BitVec.natCast_eq_ofNat, Nat.cast_sum]
  refine Finset.sum_congr rfl fun a _ => ?_
  by_cases h : 7 ≤ j.val + a.val
  · rw [dif_pos h, dif_pos h, hv, BitVec.natCast_eq_ofNat]
  · rw [dif_neg h, dif_neg h, Nat.cast_zero]

/-- The window's sum at position `j` is the sum of the first `j + 1` counts. -/
theorem window_sum (n : Fin 8 → ℕ) (j : Fin 8) :
    (∑ a : Fin 8, if h : 7 ≤ j.val + a.val then n ⟨j.val + a.val - 7, by omega⟩ else 0)
      = ∑ e' ∈ Finset.range (j.val + 1), n ⟨e' % 8, Nat.mod_lt _ (by decide)⟩ := by
  fin_cases j <;> simp [Fin.sum_univ_eight, Finset.sum_range_succ]

/-- A sum of the first counts is at most the sum of all eight. -/
theorem prefix_le_total (n : Fin 8 → ℕ) (k : ℕ) (hk : k ≤ 8) :
    (∑ e' ∈ Finset.range k, n ⟨e' % 8, Nat.mod_lt _ (by decide)⟩) ≤ ∑ e, n e := by
  have h8 : (∑ e, n e) = ∑ e' ∈ Finset.range 8, n ⟨e' % 8, Nat.mod_lt _ (by decide)⟩ := by
    rw [← Fin.sum_univ_eq_sum_range (fun e' => n ⟨e' % 8, Nat.mod_lt _ (by decide)⟩) 8]
    refine Finset.sum_congr rfl fun e _ => congrArg n (Fin.ext ?_)
    show e.val = e.val % 8
    exact (Nat.mod_eq_of_lt e.isLt).symm
  rw [h8]
  exact Finset.sum_le_sum_of_subset (Finset.range_mono hk)

/-! ## The base offsets -/

/-- THE BASE OFFSETS: the exclusive prefix sums of the eight counts, as reals, when the counts' total stays below 2³¹. -/
theorem baseOf_apply (h : IVec S1x8 32) (n : Fin 8 → ℕ) (hn : ∀ e, h (ix2 0 e) = BitVec.ofNat 32 (n e))
    (hsum : ∑ e, n e < 2 ^ 31) (e : Fin 8) :
    baseOf (F := Ideal) h (ix2 0 e)
      = (((∑ e' ∈ Finset.range e.val, n ⟨e' % 8, Nat.mod_lt _ (by decide)⟩ : ℕ) : ℝ) : EReal) := by
  have he := e.isLt
  unfold baseOf shiftOf
  rw [shapeCast_a_1a_apply _ shapeCasts_S8_S1x8 0 e]
  show ((((concatenate S8 0 [⟨S1, broadcastInDim S1 ![] bcast_S_S1 (constantI S_ 32 0#32)⟩,
      ⟨S7, extractStridedSlice S7 ![0] (cumsumOf (countsOf h)) slices_S8_S7_0⟩] concatenates_S1_S7_S8_d0
        (ix1 e)).toInt : ℤ) : ℝ) : EReal) = _
  have hword : concatenate S8 0 [⟨S1, broadcastInDim S1 ![] bcast_S_S1 (constantI S_ 32 0#32)⟩,
      ⟨S7, extractStridedSlice S7 ![0] (cumsumOf (countsOf h)) slices_S8_S7_0⟩] concatenates_S1_S7_S8_d0 (ix1 e)
      = BitVec.ofNat 32 (∑ e' ∈ Finset.range e.val, n ⟨e' % 8, Nat.mod_lt _ (by decide)⟩) := by
    by_cases h0 : e.val = 0
    · rw [concatenate_pair_apply_left (t := S8) (s₁ := S1) (s₂ := S7) (0 : Fin 1) _ _ concatenates_S1_S7_S8_d0 (ix1 e) rfl
        (ix1 (0 : Fin 1))
        (fun b => by
          obtain rfl : b = (0 : Fin 1) := Subsingleton.elim _ _
          show (0 : ℕ) = e.val
          omega)]
      rw [h0, Finset.range_zero, Finset.sum_empty]
      rfl
    · rw [concatenate_pair_apply_right (t := S8) (s₁ := S1) (s₂ := S7) (0 : Fin 1) _ _ concatenates_S1_S7_S8_d0 (ix1 e) rfl rfl
        (ix1 (⟨e.val - 1, by omega⟩ : Fin 7))
        (fun b hb => absurd (Subsingleton.elim _ _) hb)
        (by show e.val - 1 + 1 = e.val; omega)]
      rw [extractStridedSlice_apply ![0] _ slices_S8_S7_0 (ix1 (⟨e.val - 1, by omega⟩ : Fin 7))
        (ix1 (⟨e.val - 1, by omega⟩ : Fin 8)) (fun a => by
        obtain rfl : a = (0 : Fin 1) := Subsingleton.elim _ _
        show e.val - 1 = 0 + (e.val - 1)
        omega)]
      rw [cumsumOf_ofNat (countsOf h) n (fun e'' => (countsOf_apply h e'').trans (hn e'')), window_sum]
      show BitVec.ofNat 32 (∑ e' ∈ Finset.range (e.val - 1 + 1), n ⟨e' % 8, Nat.mod_lt _ (by decide)⟩) = _
      rw [Nat.sub_add_cancel (show 1 ≤ e.val by omega)]
  rw [hword, StableHlo.Predicate.toInt_ofNat_small _ (lt_of_le_of_lt (prefix_le_total n e.val (by omega)) hsum),
    Int.cast_natCast]

end Cert.KernelIdeal.HostValsIdeal

end
-- ==== Proof.Keys.lean ====
/-
  The flat array of expert ids: entry (r, l) of the 131072 × 128 array is position 128 r + l of the flattened one.
  An id's count is the number of positions that hold it.
-/
import Idealize.ShloMosaic.Lib.ValueIdx
import Mathlib.Data.Fintype.Card

namespace Cert.Keys

open Idealize.ShloMosaic Idealize.ShloMosaic.ValueIdx

/-- The array of expert ids as the kernels see it. -/
abbrev Ids : Type := (⟨2, ![131072, 128]⟩ : Shape).Idx → BitVec 32

/-- The id at flat position `p`. -/
def key (a : Ids) (p : Fin 16777216) : BitVec 32 :=
  a (ix2 ⟨p.val / 128, by have := p.isLt; omega⟩ ⟨p.val % 128, Nat.mod_lt _ (by decide)⟩)

/-- How many positions hold the id `e`. -/
def cnt (a : Ids) (e : BitVec 32) : Nat := (Finset.univ.filter fun p : Fin 16777216 => key a p = e).card

/-- How many positions before `q` hold the id `e`. -/
def cntBefore (a : Ids) (e : BitVec 32) (q : Nat) : Nat :=
  (Finset.univ.filter fun p : Fin 16777216 => p.val < q ∧ key a p = e).card

/-- Every id is one of the eight experts. -/
def InRange (a : Ids) : Prop := ∀ p : Fin 16777216, (key a p).toNat < 8

end Cert.Keys
-- ==== Proof.KI.MathCount.lean ====
/-
  Counting in the two kernels, at the ideal values.

  An id's 0/1 mask of a block, summed over the lanes of a row, is the number of lanes of the row that hold the id;
  summed again over the rows it is the number of entries of the block that hold it. A block of H rows starting at
  row B of the 131072 × 128 array is the flat range [128 B, 128 (B + H)) of positions, so adding the blocks' counts
  one after another gives the number of positions before the end of the last block that hold the id. The histogram
  kernel's scratch and the rank kernel's running offsets are such running sums; the histogram's result converts the
  final counts, which are below 2^31, to 32-bit words exactly.
-/
import proofs.«428384_j28252294873409_1_alg».proof.Proof.KI.Steps
import proofs.«428384_j28252294873409_1_alg».proof.Proof.Keys
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Mathlib.Data.EReal.Basic
import Mathlib.Algebra.BigOperators.Ring.Finset

noncomputable section

namespace Cert.KernelIdeal.MathCount

open Idealize.ShloMosaic Idealize.ShloMosaic.ValueIdx Cert.KernelIdeal Cert.KernelIdeal.Steps Cert.Keys
open Cert.KernelIdeal.Gen
open scoped BigOperators

/-- a real count as an extended real -/
abbrev nat (n : ℕ) : EReal := ((n : ℝ) : EReal)

theorem nat_add (m n : ℕ) : nat (m + n) = nat m + nat n := by
  unfold nat; rw [Nat.cast_add, EReal.coe_add]

theorem nat_zero : nat 0 = 0 := by unfold nat; rw [Nat.cast_zero, EReal.coe_zero]

/-- a sum of natural counts is the count of the sum -/
theorem sum_nat {ι : Type*} (s : Finset ι) (f : ι → ℕ) : ∑ i ∈ s, nat (f i) = nat (∑ i ∈ s, f i) := by
  classical
  induction s using Finset.induction_on with
  | empty => simp [nat]
  | insert a s ha ih => rw [Finset.sum_insert ha, Finset.sum_insert ha, ih, nat_add]

/-- a sum of 0/1 indicators is the number of indices where the condition holds -/
theorem sum_ind {ι : Type*} (s : Finset ι) (P : ι → Prop) [DecidablePred P] :
    ∑ i ∈ s, (if P i then (1 : EReal) else 0) = nat (s.filter P).card := by
  have h : ∀ i, (if P i then (1 : EReal) else 0) = nat (if P i then 1 else 0) := fun i => by
    by_cases hp : P i
    · rw [if_pos hp, if_pos hp]; simp [nat]
    · rw [if_neg hp, if_neg hp]; simp [nat]
  rw [Finset.sum_congr rfl (fun i _ => h i), sum_nat, Finset.card_filter]

theorem cmpi_eq_pos {w : ℕ} {a b : BitVec w} (h : a = b) : IntOp.cmpi .eq a b = 1#1 := by
  subst h; simp [IntOp.cmpi]
theorem cmpi_eq_neg {w : ℕ} {a b : BitVec w} (h : ¬ a = b) : IntOp.cmpi .eq a b = 0#1 := by
  have hb : (a == b) = false := by simpa using h
  simp only [IntOp.cmpi, hb]; rfl

/-- an id's 0/1 mask at an entry -/
theorem mask_apply {s : Shape} (x : IVec s 32) (c : BitVec 32) (h : 1 < 32) (i : s.Idx) :
    (sitofp .f32 (extui 32 (cmpi .eq x (broadcast s c)) h) : FVec Ideal s .f32) i = if x i = c then 1 else 0 := by
  show (((((IntOp.cmpi .eq (x i) c).setWidth 32).toInt : ℤ) : ℝ) : EReal) = _
  by_cases hc : x i = c
  · rw [if_pos hc, cmpi_eq_pos hc]
    have : ((1#1 : BitVec 1).setWidth 32).toInt = 1 := by decide
    rw [this]; simp
  · rw [if_neg hc, cmpi_eq_neg hc]
    have : ((0#1 : BitVec 1).setWidth 32).toInt = 0 := by decide
    rw [this]; simp

/-- a lane sum at a row -/
theorem laneSum_apply {R C : ℕ} (m : FVec Ideal ⟨2, ![R, C]⟩ .f32) (h : (⟨2, ![R, C]⟩ : Shape).Reduces [1] ⟨1, ![R]⟩)
    (hφ : FKind.Formats .f32) (hacc : (0x00000000#32 : BitVec 32) = FKind.add.neutral .f32 hφ) (r : Fin R) :
    multiReduction .add [1] ⟨1, ![R]⟩ m 0x00000000#32 h hφ hacc (ix1 r) = ∑ l : Fin C, m (ix2 r l) := by
  refine (Ideal.multiReduction_add_single m _ h hφ hacc (ix1 r)).trans ?_
  refine Finset.sum_congr rfl fun l _ => congrArg m ?_
  funext a; match a with | ⟨0, _⟩ => rfl | ⟨1, _⟩ => rfl

/-- a sum over the rows at a column -/
theorem rowSum_apply {R C : ℕ} (m : FVec Ideal ⟨2, ![R, C]⟩ .f32) (h : (⟨2, ![R, C]⟩ : Shape).Reduces [0] ⟨1, ![C]⟩)
    (hφ : FKind.Formats .f32) (hacc : (0x00000000#32 : BitVec 32) = FKind.add.neutral .f32 hφ) (c : Fin C) :
    multiReduction .add [0] ⟨1, ![C]⟩ m 0x00000000#32 h hφ hacc (ix1 c) = ∑ r : Fin R, m (ix2 r c) := by
  refine (Ideal.multiReduction_add_single m _ h hφ hacc (ix1 c)).trans ?_
  refine Finset.sum_congr rfl fun l _ => congrArg m ?_
  funext a; match a with | ⟨0, _⟩ => rfl | ⟨1, _⟩ => rfl

/-- a vector as a column -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- the number of lanes of a row holding an id: the lane sum of the id's mask -/
theorem laneCount {R C : ℕ} (x : IVec ⟨2, ![R, C]⟩ 32) (c : BitVec 32) (hlt : 1 < 32)
    (h1 : (⟨2, ![R, C]⟩ : Shape).Reduces [1] ⟨1, ![R]⟩)
    (hφ : FKind.Formats .f32) (hacc : (0x00000000#32 : BitVec 32) = FKind.add.neutral .f32 hφ) (r : Fin R) :
    multiReduction .add [1] ⟨1, ![R]⟩
        (sitofp .f32 (extui 32 (cmpi .eq x (broadcast ⟨2, ![R, C]⟩ c)) hlt) : FVec Ideal ⟨2, ![R, C]⟩ .f32) 0x00000000#32 h1 hφ hacc (ix1 r)
      = nat (Finset.univ.filter fun l : Fin C => x (ix2 r l) = c).card :=
  (laneSum_apply _ h1 hφ hacc r).trans
    ((Finset.sum_congr rfl fun l _ => mask_apply x c hlt (ix2 r l)).trans (sum_ind Finset.univ _))

/-- counting row by row is counting the pairs -/
theorem card_prod_filter {R C : ℕ} (P : Fin R → Fin C → Prop) [∀ r l, Decidable (P r l)] :
    ∑ r : Fin R, (Finset.univ.filter fun l : Fin C => P r l).card
      = (Finset.univ.filter fun q : Fin R × Fin C => P q.1 q.2).card := by
  simp only [Finset.card_filter]
  exact (Fintype.sum_prod_type' (fun (r : Fin R) (l : Fin C) => if P r l then 1 else 0)).symm

/-- the two nested sums of one id's mask over a block: the number of entries holding the id -/
theorem blockCount {R C : ℕ} (x : IVec ⟨2, ![R, C]⟩ 32) (c : BitVec 32) (hlt : 1 < 32)
    (h1 : (⟨2, ![R, C]⟩ : Shape).Reduces [1] ⟨1, ![R]⟩) (h2 : (⟨1, ![R]⟩ : Shape).ShapeCasts ⟨2, ![R, 1]⟩)
    (h3 : (⟨2, ![R, 1]⟩ : Shape).Reduces [0] ⟨1, ![1]⟩) (h4 : (⟨1, ![1]⟩ : Shape).ShapeCasts ⟨2, ![1, 1]⟩)
    (hφ hφ' : FKind.Formats .f32) (hacc : (0x00000000#32 : BitVec 32) = FKind.add.neutral .f32 hφ)
    (hacc' : (0x00000000#32 : BitVec 32) = FKind.add.neutral .f32 hφ') :
    shapeCast ⟨2, ![1, 1]⟩ (multiReduction .add [0] ⟨1, ![1]⟩
      (shapeCast ⟨2, ![R, 1]⟩ (multiReduction .add [1] ⟨1, ![R]⟩
        (sitofp .f32 (extui 32 (cmpi .eq x (broadcast ⟨2, ![R, C]⟩ c)) hlt) : FVec Ideal ⟨2, ![R, C]⟩ .f32) 0x00000000#32 h1 hφ hacc) h2)
      0x00000000#32 h3 hφ' hacc') h4 (ix2 0 0)
    = nat (Finset.univ.filter fun q : Fin R × Fin C => x (ix2 q.1 q.2) = c).card := by
  rw [shapeCast_a_1a_apply, rowSum_apply]
  rw [Finset.sum_congr rfl fun r _ => (shapeCast_a_a1_apply _ h2 r 0).trans (laneCount x c hlt h1 hφ hacc r)]
  rw [sum_nat, card_prod_filter]
/-- eight columns in a list -/
abbrev cols8 {α : Type} {R : ℕ} (v0 v1 v2 v3 v4 v5 v6 v7 : (⟨2, ![R, 1]⟩ : Shape).Idx → α) :
    List ((s : Shape) × (s.Idx → α)) :=
  [⟨⟨2, ![R, 1]⟩, v0⟩, ⟨⟨2, ![R, 1]⟩, v1⟩, ⟨⟨2, ![R, 1]⟩, v2⟩, ⟨⟨2, ![R, 1]⟩, v3⟩, ⟨⟨2, ![R, 1]⟩, v4⟩,
    ⟨⟨2, ![R, 1]⟩, v5⟩, ⟨⟨2, ![R, 1]⟩, v6⟩, ⟨⟨2, ![R, 1]⟩, v7⟩]

/-- eight columns side by side, read at a column -/
theorem concat8_apply {α : Type} {R : ℕ} (v0 v1 v2 v3 v4 v5 v6 v7 : (⟨2, ![R, 1]⟩ : Shape).Idx → α)
    (h : Shape.Concatenates [(⟨2, ![R, 1]⟩ : Shape), ⟨2, ![R, 1]⟩, ⟨2, ![R, 1]⟩, ⟨2, ![R, 1]⟩, ⟨2, ![R, 1]⟩, ⟨2, ![R, 1]⟩,
      ⟨2, ![R, 1]⟩, ⟨2, ![R, 1]⟩] ⟨2, ![R, 8]⟩ 1)
    (r : Fin R) (e : Fin 8) :
    concatenate ⟨2, ![R, 8]⟩ 1 [⟨⟨2, ![R, 1]⟩, v0⟩, ⟨⟨2, ![R, 1]⟩, v1⟩, ⟨⟨2, ![R, 1]⟩, v2⟩, ⟨⟨2, ![R, 1]⟩, v3⟩, ⟨⟨2, ![R, 1]⟩, v4⟩,
        ⟨⟨2, ![R, 1]⟩, v5⟩, ⟨⟨2, ![R, 1]⟩, v6⟩, ⟨⟨2, ![R, 1]⟩, v7⟩] h (ix2 r e)
      = (![v0, v1, v2, v3, v4, v5, v6, v7] e) (ix2 r 0) := by
  have hi : ∀ (k : Fin 8) (b : Fin 2), b.cast (rfl : 2 = 2) ≠ (1 : Fin 2) →
      ((ix2 r (0 : Fin 1) : (⟨2, ![R, 1]⟩ : Shape).Idx) b).val = ((ix2 r k : (⟨2, ![R, 8]⟩ : Shape).Idx) (b.cast rfl)).val := by
    intro k b hb
    match b with
    | ⟨0, _⟩ => rfl
    | ⟨1, _⟩ => exact absurd rfl hb
  match e with
  | ⟨0, _⟩ => exact concatenate_apply_piece (t := ⟨2, ![R, 8]⟩) 1 (cols8 v0 v1 v2 v3 v4 v5 v6 v7) h _ 0 (by show _ < 8; omega) _ v0 rfl rfl 0 rfl (ix2 r 0) (hi _) rfl
  | ⟨1, _⟩ => exact concatenate_apply_piece (t := ⟨2, ![R, 8]⟩) 1 (cols8 v0 v1 v2 v3 v4 v5 v6 v7) h _ 1 (by show _ < 8; omega) _ v1 rfl rfl 1 rfl (ix2 r 0) (hi _) rfl
  | ⟨2, _⟩ => exact concatenate_apply_piece (t := ⟨2, ![R, 8]⟩) 1 (cols8 v0 v1 v2 v3 v4 v5 v6 v7) h _ 2 (by show _ < 8; omega) _ v2 rfl rfl 2 rfl (ix2 r 0) (hi _) rfl
  | ⟨3, _⟩ => exact concatenate_apply_piece (t := ⟨2, ![R, 8]⟩) 1 (cols8 v0 v1 v2 v3 v4 v5 v6 v7) h _ 3 (by show _ < 8; omega) _ v3 rfl rfl 3 rfl (ix2 r 0) (hi _) rfl
  | ⟨4, _⟩ => exact concatenate_apply_piece (t := ⟨2, ![R, 8]⟩) 1 (cols8 v0 v1 v2 v3 v4 v5 v6 v7) h _ 4 (by show _ < 8; omega) _ v4 rfl rfl 4 rfl (ix2 r 0) (hi _) rfl
  | ⟨5, _⟩ => exact concatenate_apply_piece (t := ⟨2, ![R, 8]⟩) 1 (cols8 v0 v1 v2 v3 v4 v5 v6 v7) h _ 5 (by show _ < 8; omega) _ v5 rfl rfl 5 rfl (ix2 r 0) (hi _) rfl
  | ⟨6, _⟩ => exact concatenate_apply_piece (t := ⟨2, ![R, 8]⟩) 1 (cols8 v0 v1 v2 v3 v4 v5 v6 v7) h _ 6 (by show _ < 8; omega) _ v6 rfl rfl 6 rfl (ix2 r 0) (hi _) rfl
  | ⟨7, _⟩ => exact concatenate_apply_piece (t := ⟨2, ![R, 8]⟩) 1 (cols8 v0 v1 v2 v3 v4 v5 v6 v7) h _ 7 (by show _ < 8; omega) _ v7 rfl rfl 7 rfl (ix2 r 0) (hi _) rfl

section Cols
variable {α : Type} {R : ℕ} (v0 v1 v2 v3 v4 v5 v6 v7 : (⟨2, ![R, 1]⟩ : Shape).Idx → α)
  (h : Shape.Concatenates [(⟨2, ![R, 1]⟩ : Shape), ⟨2, ![R, 1]⟩, ⟨2, ![R, 1]⟩, ⟨2, ![R, 1]⟩, ⟨2, ![R, 1]⟩, ⟨2, ![R, 1]⟩,
      ⟨2, ![R, 1]⟩, ⟨2, ![R, 1]⟩] ⟨2, ![R, 8]⟩ 1) (r : Fin R)

/-- eight columns side by side, read at each of the eight columns -/
theorem concat8_0 (hk : 0 < 8) : concatenate ⟨2, ![R, 8]⟩ 1 [⟨⟨2, ![R, 1]⟩, v0⟩, ⟨⟨2, ![R, 1]⟩, v1⟩, ⟨⟨2, ![R, 1]⟩, v2⟩, ⟨⟨2, ![R, 1]⟩, v3⟩, ⟨⟨2, ![R, 1]⟩, v4⟩,
        ⟨⟨2, ![R, 1]⟩, v5⟩, ⟨⟨2, ![R, 1]⟩, v6⟩, ⟨⟨2, ![R, 1]⟩, v7⟩] h (ix2 r ⟨0, hk⟩) = v0 (ix2 r 0) :=
  concat8_apply v0 v1 v2 v3 v4 v5 v6 v7 h r ⟨0, hk⟩
theorem concat8_1 (hk : 1 < 8) : concatenate ⟨2, ![R, 8]⟩ 1 [⟨⟨2, ![R, 1]⟩, v0⟩, ⟨⟨2, ![R, 1]⟩, v1⟩, ⟨⟨2, ![R, 1]⟩, v2⟩, ⟨⟨2, ![R, 1]⟩, v3⟩, ⟨⟨2, ![R, 1]⟩, v4⟩,
        ⟨⟨2, ![R, 1]⟩, v5⟩, ⟨⟨2, ![R, 1]⟩, v6⟩, ⟨⟨2, ![R, 1]⟩, v7⟩] h (ix2 r ⟨1, hk⟩) = v1 (ix2 r 0) :=
  concat8_apply v0 v1 v2 v3 v4 v5 v6 v7 h r ⟨1, hk⟩
theorem concat8_2 (hk : 2 < 8) : concatenate ⟨2, ![R, 8]⟩ 1 [⟨⟨2, ![R, 1]⟩, v0⟩, ⟨⟨2, ![R, 1]⟩, v1⟩, ⟨⟨2, ![R, 1]⟩, v2⟩, ⟨⟨2, ![R, 1]⟩, v3⟩, ⟨⟨2, ![R, 1]⟩, v4⟩,
        ⟨⟨2, ![R, 1]⟩, v5⟩, ⟨⟨2, ![R, 1]⟩, v6⟩, ⟨⟨2, ![R, 1]⟩, v7⟩] h (ix2 r ⟨2, hk⟩) = v2 (ix2 r 0) :=
  concat8_apply v0 v1 v2 v3 v4 v5 v6 v7 h r ⟨2, hk⟩
theorem concat8_3 (hk : 3 < 8) : concatenate ⟨2, ![R, 8]⟩ 1 [⟨⟨2, ![R, 1]⟩, v0⟩, ⟨⟨2, ![R, 1]⟩, v1⟩, ⟨⟨2, ![R, 1]⟩, v2⟩, ⟨⟨2, ![R, 1]⟩, v3⟩, ⟨⟨2, ![R, 1]⟩, v4⟩,
        ⟨⟨2, ![R, 1]⟩, v5⟩, ⟨⟨2, ![R, 1]⟩, v6⟩, ⟨⟨2, ![R, 1]⟩, v7⟩] h (ix2 r ⟨3, hk⟩) = v3 (ix2 r 0) :=
  concat8_apply v0 v1 v2 v3 v4 v5 v6 v7 h r ⟨3, hk⟩
theorem concat8_4 (hk : 4 < 8) : concatenate ⟨2, ![R, 8]⟩ 1 [⟨⟨2, ![R, 1]⟩, v0⟩, ⟨⟨2, ![R, 1]⟩, v1⟩, ⟨⟨2, ![R, 1]⟩, v2⟩, ⟨⟨2, ![R, 1]⟩, v3⟩, ⟨⟨2, ![R, 1]⟩, v4⟩,
        ⟨⟨2, ![R, 1]⟩, v5⟩, ⟨⟨2, ![R, 1]⟩, v6⟩, ⟨⟨2, ![R, 1]⟩, v7⟩] h (ix2 r ⟨4, hk⟩) = v4 (ix2 r 0) :=
  concat8_apply v0 v1 v2 v3 v4 v5 v6 v7 h r ⟨4, hk⟩
theorem concat8_5 (hk : 5 < 8) : concatenate ⟨2, ![R, 8]⟩ 1 [⟨⟨2, ![R, 1]⟩, v0⟩, ⟨⟨2, ![R, 1]⟩, v1⟩, ⟨⟨2, ![R, 1]⟩, v2⟩, ⟨⟨2, ![R, 1]⟩, v3⟩, ⟨⟨2, ![R, 1]⟩, v4⟩,
        ⟨⟨2, ![R, 1]⟩, v5⟩, ⟨⟨2, ![R, 1]⟩, v6⟩, ⟨⟨2, ![R, 1]⟩, v7⟩] h (ix2 r ⟨5, hk⟩) = v5 (ix2 r 0) :=
  concat8_apply v0 v1 v2 v3 v4 v5 v6 v7 h r ⟨5, hk⟩
theorem concat8_6 (hk : 6 < 8) : concatenate ⟨2, ![R, 8]⟩ 1 [⟨⟨2, ![R, 1]⟩, v0⟩, ⟨⟨2, ![R, 1]⟩, v1⟩, ⟨⟨2, ![R, 1]⟩, v2⟩, ⟨⟨2, ![R, 1]⟩, v3⟩, ⟨⟨2, ![R, 1]⟩, v4⟩,
        ⟨⟨2, ![R, 1]⟩, v5⟩, ⟨⟨2, ![R, 1]⟩, v6⟩, ⟨⟨2, ![R, 1]⟩, v7⟩] h (ix2 r ⟨6, hk⟩) = v6 (ix2 r 0) :=
  concat8_apply v0 v1 v2 v3 v4 v5 v6 v7 h r ⟨6, hk⟩
theorem concat8_7 (hk : 7 < 8) : concatenate ⟨2, ![R, 8]⟩ 1 [⟨⟨2, ![R, 1]⟩, v0⟩, ⟨⟨2, ![R, 1]⟩, v1⟩, ⟨⟨2, ![R, 1]⟩, v2⟩, ⟨⟨2, ![R, 1]⟩, v3⟩, ⟨⟨2, ![R, 1]⟩, v4⟩,
        ⟨⟨2, ![R, 1]⟩, v5⟩, ⟨⟨2, ![R, 1]⟩, v6⟩, ⟨⟨2, ![R, 1]⟩, v7⟩] h (ix2 r ⟨7, hk⟩) = v7 (ix2 r 0) :=
  concat8_apply v0 v1 v2 v3 v4 v5 v6 v7 h r ⟨7, hk⟩

end Cols

/-- two indices with the same coordinates -/
theorem ix2_congr {n0 n1 : ℕ} {a a' : Fin n0} {b b' : Fin n1} (ha : a.val = a'.val) (hb : b.val = b'.val) :
    (ix2 a b : (⟨2, ![n0, n1]⟩ : Shape).Idx) = ix2 a' b' := by
  rw [Fin.ext ha, Fin.ext hb]

/-- the count before a later position, split at an earlier one -/
theorem cntBefore_split (a : Ids) (e : BitVec 32) (q q' : ℕ) (h : q ≤ q') :
    cntBefore a e q' = cntBefore a e q
      + (Finset.univ.filter fun p : Fin 16777216 => q ≤ p.val ∧ p.val < q' ∧ key a p = e).card := by
  unfold cntBefore
  rw [← Finset.card_union_of_disjoint]
  · refine congrArg Finset.card ?_
    ext p
    simp only [Finset.mem_filter, Finset.mem_univ, true_and, Finset.mem_union]
    constructor
    · rintro ⟨h1, h2⟩
      by_cases hp : p.val < q
      · exact Or.inl ⟨hp, h2⟩
      · exact Or.inr ⟨by omega, h1, h2⟩
    · rintro (⟨h1, h2⟩ | ⟨h1, h2, h3⟩)
      · exact ⟨by omega, h2⟩
      · exact ⟨h2, h3⟩
  · rw [Finset.disjoint_filter]
    rintro p _ ⟨h1, _⟩ ⟨h2, _⟩
    omega

/-- the positions of H rows from row B on, as (row, lane) pairs -/
theorem card_rows (a : Ids) (e : BitVec 32) (H B : ℕ) (hB : B + H ≤ 131072) :
    (Finset.univ.filter fun p : Fin 16777216 => 128 * B ≤ p.val ∧ p.val < 128 * (B + H) ∧ key a p = e).card
      = (Finset.univ.filter fun q : Fin H × Fin 128 =>
          a (ix2 ⟨(B + q.1.val) % 131072, Nat.mod_lt _ (by decide)⟩ ⟨q.2.val % 128, Nat.mod_lt _ (by decide)⟩) = e).card := by
  symm
  refine Finset.card_bij (fun q _ => (⟨128 * (B + q.1.val) + q.2.val, by
      have := q.1.isLt; have := q.2.isLt; omega⟩ : Fin 16777216)) ?_ ?_ ?_
  · intro q hq
    have hq' := (Finset.mem_filter.mp hq).2
    have h1 := q.1.isLt
    have h2 := q.2.isLt
    refine Finset.mem_filter.mpr ⟨Finset.mem_univ _, by show 128 * B ≤ 128 * (B + q.1.val) + q.2.val; omega,
      by show 128 * (B + q.1.val) + q.2.val < 128 * (B + H); omega, ?_⟩
    rw [← hq']
    unfold key
    exact congrArg a (ix2_congr (by show (128 * (B + q.1.val) + q.2.val) / 128 = (B + q.1.val) % 131072; omega)
      (by show (128 * (B + q.1.val) + q.2.val) % 128 = q.2.val % 128; omega))
  · intro q _ q' _ hqq
    have h := congrArg Fin.val hqq
    simp only at h
    have h2 := q.2.isLt
    have h2' := q'.2.isLt
    exact Prod.ext (Fin.ext (by omega)) (Fin.ext (by omega))
  · intro p hp
    obtain ⟨_, hp1, hp2, hp3⟩ := Finset.mem_filter.mp hp
    have hpl := p.isLt
    refine ⟨(⟨p.val / 128 - B, by omega⟩, ⟨p.val % 128, Nat.mod_lt _ (by decide)⟩), ?_, ?_⟩
    · refine Finset.mem_filter.mpr ⟨Finset.mem_univ _, ?_⟩
      rw [← hp3]
      unfold key
      exact congrArg a (ix2_congr (by show (B + (p.val / 128 - B)) % 131072 = p.val / 128; omega)
        (by show p.val % 128 % 128 = p.val % 128; omega))
    · exact Fin.ext (by show 128 * (B + (p.val / 128 - B)) + p.val % 128 = p.val; omega)

/-- the count before the end of H rows from row B on -/
theorem cntBefore_rows (a : Ids) (e : BitVec 32) (H B : ℕ) (hB : B + H ≤ 131072) :
    cntBefore a e (128 * (B + H)) = cntBefore a e (128 * B)
      + (Finset.univ.filter fun q : Fin H × Fin 128 =>
          a (ix2 ⟨(B + q.1.val) % 131072, Nat.mod_lt _ (by decide)⟩ ⟨q.2.val % 128, Nat.mod_lt _ (by decide)⟩) = e).card := by
  rw [cntBefore_split a e (128 * B) (128 * (B + H)) (by omega), card_rows a e H B hB]

theorem cntBefore_zero (a : Ids) (e : BitVec 32) : cntBefore a e 0 = 0 := by
  unfold cntBefore
  rw [Finset.card_eq_zero, Finset.filter_eq_empty_iff]
  rintro p _ ⟨h, _⟩
  omega

theorem cntBefore_all (a : Ids) (e : BitVec 32) : cntBefore a e 16777216 = cnt a e := by
  unfold cntBefore cnt
  refine congrArg Finset.card ?_
  ext p
  simp only [Finset.mem_filter, Finset.mem_univ, true_and]
  exact ⟨fun h => h.2, fun h => ⟨p.isLt, h⟩⟩

theorem cnt_le (a : Ids) (e : BitVec 32) : cnt a e ≤ 16777216 := by
  unfold cnt
  refine (Finset.card_filter_le _ _).trans ?_
  rw [Finset.card_univ, Fintype.card_fin]

/-- a count below 2^31 converts to its 32-bit word -/
theorem fptosi_nat (n : ℕ) (hn : n < 2 ^ 31) : Ideal.fptosi 32 (nat n) = BitVec.ofNat 32 n := by
  unfold Ideal.fptosi nat
  rw [Ideal.toIntClamped_coe, if_pos (Nat.cast_nonneg n), Int.floor_natCast]
  have hhi : (n : ℤ) ≤ ((2 ^ (32 - 1) : ℕ) : ℤ) - 1 := by norm_num <;> omega
  have hlo : (-((2 ^ (32 - 1) : ℕ) : ℤ)) ≤ (n : ℤ) := by norm_num <;> omega
  rw [min_eq_right hhi, max_eq_right hlo, BitVec.ofInt_natCast]

/-! ## The histogram kernel -/

/-- the number of entries of a block holding an id -/
abbrev blkCnt {R C : ℕ} (x : IVec ⟨2, ![R, C]⟩ 32) (c : BitVec 32) : ℕ :=
  (Finset.univ.filter fun q : Fin R × Fin C => x (ix2 q.1 q.2) = c).card

theorem pay4_eq (x : Vec Ideal S2048x128 .i32) : k0_pay4 (F := Ideal) x = x := shapeCast_self x _

/-- one id's total over a block of the histogram kernel -/
theorem blockCount0 (x : Vec Ideal S2048x128 .i32) (c : BitVec 32) :
    shapeCast S1x1 (multiReduction .add [0] S1 (shapeCast S2048x1 (multiReduction .add [1] S2048
      (sitofp .f32 (extui 32 (cmpi .eq (k0_pay4 (F := Ideal) x) (broadcast S2048x128 c)) natLt_1_32) : FVec Ideal S2048x128 .f32)
      0x00000000#32 reduces_S2048x128_S2048 (.inl rfl) rfl) shapeCasts_S2048_S2048x1)
      0x00000000#32 reduces_S2048x1_S1 (.inl rfl) rfl) shapeCasts_S1_S1x1 (ix2 0 0) = nat (blkCnt x c) := by
  refine (blockCount (k0_pay4 (F := Ideal) x) c natLt_1_32 reduces_S2048x128_S2048 shapeCasts_S2048_S2048x1
    reduces_S2048x1_S1 shapeCasts_S1_S1x1 (.inl rfl) (.inl rfl) rfl rfl).trans ?_
  rw [pay4_eq]

/-- an id's total over a block of the histogram kernel, for the four ids the kernel totals first -/
theorem pay5_eq (x : Vec Ideal S2048x128 .i32) : k0_pay5 (F := Ideal) x (ix2 0 0) = nat (blkCnt x 0#32) := by
  unfold k0_pay5
  exact blockCount0 x 0#32

theorem pay6_eq (x : Vec Ideal S2048x128 .i32) : k0_pay6 (F := Ideal) x (ix2 0 0) = nat (blkCnt x 1#32) := by
  unfold k0_pay6
  exact blockCount0 x 1#32

theorem pay7_eq (x : Vec Ideal S2048x128 .i32) : k0_pay7 (F := Ideal) x (ix2 0 0) = nat (blkCnt x 2#32) := by
  unfold k0_pay7
  exact blockCount0 x 2#32

theorem pay8_eq (x : Vec Ideal S2048x128 .i32) : k0_pay8 (F := Ideal) x (ix2 0 0) = nat (blkCnt x 3#32) := by
  unfold k0_pay8
  exact blockCount0 x 3#32

/-- the fifth id's mask -/
theorem pay9_eq (x : Vec Ideal S2048x128 .i32) :
    k0_pay9 (F := Ideal) x
      = (sitofp .f32 (extui 32 (cmpi .eq (k0_pay4 (F := Ideal) x) (broadcast S2048x128 4#32)) natLt_1_32) : FVec Ideal S2048x128 .f32) := by
  unfold k0_pay9
  rfl

/-- the scratch after a block: the scratch before it plus, per id, the number of entries of the block holding it -/
theorem hstep_apply (x : Vec Ideal S2048x128 .i32) (acc : Vec Ideal S1x8 .f32) (e : Fin 8) :
    hstep (F := Ideal) x acc (ix2 0 e) = acc (ix2 0 e) + nat (blkCnt x (BitVec.ofNat 32 e.val)) := by
  unfold hstep k0_pay1
  try dsimp only
  rw [shapeCast_self, addf_apply, pay9_eq]
  refine congrArg (acc (ix2 0 e) + ·) ?_
  match e with
  | ⟨0, _⟩ => rw [concat8_0]; exact pay5_eq x
  | ⟨1, _⟩ => rw [concat8_1]; exact pay6_eq x
  | ⟨2, _⟩ => rw [concat8_2]; exact pay7_eq x
  | ⟨3, _⟩ => rw [concat8_3]; exact pay8_eq x
  | ⟨4, _⟩ => rw [concat8_4]; exact blockCount0 x 4#32
  | ⟨5, _⟩ => rw [concat8_5]; exact blockCount0 x 5#32
  | ⟨6, _⟩ => rw [concat8_6]; exact blockCount0 x 6#32
  | ⟨7, _⟩ => rw [concat8_7]; exact blockCount0 x 7#32

/-- the scratch as the first block resets it is zero -/
theorem hzero_apply (j : S1x8.Idx) : hzero (F := Ideal) j = 0 := by
  unfold hzero k0_pay3
  try dsimp only
  rw [shapeCast_self, broadcast_apply]
  exact Ideal.ofBits_zero_f32

/-- block k of the histogram kernel is the flat range [262144 k, 262144 (k + 1)) -/
theorem cnt_xblk0 (a : Ids) (e : BitVec 32) (k : ℕ) (hk : k < 64) :
    cntBefore a e (262144 * (k + 1)) = cntBefore a e (262144 * k) + blkCnt (xblk0 (F := Ideal) a k) e := by
  have h := cntBefore_rows a e 2048 (2048 * k) (by omega)
  rw [show 128 * (2048 * k + 2048) = 262144 * (k + 1) by omega, show 128 * (2048 * k) = 262144 * k by omega] at h
  exact h

/-- the histogram scratch after block n holds, per id, the number of positions of blocks 0..n holding it (a block of the histogram kernel is 2048·128 = 262144 positions) -/
theorem accSeq_eq (a : Ids) (n : ℕ) (hn : n < 64) (e : Fin 8) :
    accSeq (F := Ideal) a n (ix2 0 e) = nat (cntBefore a (BitVec.ofNat 32 e.val) (262144 * (n + 1))) := by
  induction n with
  | zero =>
    show hstep (F := Ideal) (xblk0 a 0) hzero (ix2 0 e) = _
    rw [hstep_apply, hzero_apply, zero_add, cnt_xblk0 a _ 0 (by omega), Nat.mul_zero, cntBefore_zero, Nat.zero_add]
  | succ n ih =>
    show hstep (F := Ideal) (xblk0 a (n + 1)) (accSeq a n) (ix2 0 e) = _
    rw [hstep_apply, ih (by omega), cnt_xblk0 a _ (n + 1) hn, nat_add]

/-- the histogram's result: the eight counts as 32-bit words -/
theorem histOut_eq (a : Ids) (e : Fin 8) :
    histOut (F := Ideal) a (ix2 0 e) = BitVec.ofNat 32 (cnt a (BitVec.ofNat 32 e.val)) := by
  show Ideal.fptosi 32 (accSeq (F := Ideal) a 63 (ix2 0 e)) = _
  rw [accSeq_eq a 63 (by omega) e, show 262144 * (63 + 1) = 16777216 by norm_num, cntBefore_all]
  exact fptosi_nat _ (lt_of_le_of_lt (cnt_le a _) (by norm_num))

/-! ## The rank kernel -/

theorem pay2_eq (x : Vec Ideal S512x128 .i32) : k1_pay2 (F := Ideal) x = x := shapeCast_self x _

/-- a column of row counts: at each row, the lane sum of an id's mask -/
theorem colCount (x : Vec Ideal S512x128 .i32) (c : BitVec 32) (r : Fin 512) :
    shapeCast S512x1 (multiReduction .add [1] S512
      (sitofp .f32 (extui 32 (cmpi .eq (k1_pay2 (F := Ideal) x) (broadcast S512x128 c)) natLt_1_32) : FVec Ideal S512x128 .f32)
      0x00000000#32 reduces_S512x128_S512 (.inl rfl) rfl) shapeCasts_S512_S512x1 (ix2 r 0)
      = nat (Finset.univ.filter fun l : Fin 128 => x (ix2 r l) = c).card := by
  refine (shapeCast_a_a1_apply _ _ r 0).trans ((laneCount (k1_pay2 (F := Ideal) x) c _ _ _ _ r).trans ?_)
  rw [pay2_eq]

/-- one block's per-id row count, for the other mathematics module to reuse: the lane sum of the id's 0/1 mask of row r -/
theorem rowCount_eq (x : Vec Ideal S512x128 .i32) (r : Fin 512) (e : Fin 8) :
    k1_pay13 (F := Ideal) (k1_pay3 x) (k1_pay4 x) (k1_pay5 x) (k1_pay6 x) (k1_pay7 x) (k1_pay8 x) (k1_pay9 x) (k1_pay10 x) (ix2 r e)
      = nat (Finset.univ.filter fun l : Fin 128 => x (ix2 r l) = BitVec.ofNat 32 e.val).card := by
  unfold k1_pay13
  try dsimp only
  match e with
  | ⟨0, _⟩ => rw [concat8_0]; exact colCount x 0#32 r
  | ⟨1, _⟩ => rw [concat8_1]; exact colCount x 1#32 r
  | ⟨2, _⟩ => rw [concat8_2]; exact colCount x 2#32 r
  | ⟨3, _⟩ => rw [concat8_3]; exact colCount x 3#32 r
  | ⟨4, _⟩ => rw [concat8_4]; exact colCount x 4#32 r
  | ⟨5, _⟩ => rw [concat8_5]; exact colCount x 5#32 r
  | ⟨6, _⟩ => rw [concat8_6]; exact colCount x 6#32 r
  | ⟨7, _⟩ => rw [concat8_7]; exact colCount x 7#32 r

/-- the running offsets after a block: advanced, per id, by the number of entries of the block holding it -/
theorem rstep_apply (x : Vec Ideal S512x128 .i32) (run : Vec Ideal S1x8 .f32) (e : Fin 8) :
    rstep (F := Ideal) x run (ix2 0 e) = run (ix2 0 e) + nat (blkCnt x (BitVec.ofNat 32 e.val)) := by
  unfold rstep k1_pay16
  try dsimp only
  rw [shapeCast_self, addf_apply, shapeCast_a_1a_apply]
  refine congrArg (run (ix2 0 e) + ·) ?_
  refine (rowSum_apply _ _ _ _ e).trans ?_
  rw [Finset.sum_congr rfl fun r _ => rowCount_eq x r e, sum_nat, card_prod_filter]

/-- the running offsets as the first block sets them are the base offsets -/
theorem rinit_apply (base : Vec Ideal S1x8 .f32) : rinit (F := Ideal) base = base := by
  unfold rinit k1_pay1
  try dsimp only
  rw [shapeCast_self, shapeCast_self]

/-- block k of the rank kernel is the flat range [65536 k, 65536 (k + 1)) -/
theorem cnt_xblk1 (a : Ids) (e : BitVec 32) (k : ℕ) (hk : k < 256) :
    cntBefore a e (65536 * (k + 1)) = cntBefore a e (65536 * k) + blkCnt (xblk1 (F := Ideal) a k) e := by
  have h := cntBefore_rows a e 512 (512 * k) (by omega)
  rw [show 128 * (512 * k + 512) = 65536 * (k + 1) by omega, show 128 * (512 * k) = 65536 * k by omega] at h
  exact h

/-- the running offsets block n of the rank kernel starts from: the base offsets plus, per id, the number of positions of blocks 0..n-1 holding it (a block of the rank kernel is 512·128 = 65536 positions) -/
theorem runSeq_eq (a : Ids) (base : Vec Ideal S1x8 .f32) (b : Fin 8 → ℕ) (hb : ∀ e : Fin 8, base (ix2 0 e) = nat (b e))
    (n : ℕ) (hn : n ≤ 256) (e : Fin 8) :
    runSeq (F := Ideal) a base n (ix2 0 e) = nat (b e + cntBefore a (BitVec.ofNat 32 e.val) (65536 * n)) := by
  induction n with
  | zero =>
    show rinit (F := Ideal) base (ix2 0 e) = _
    rw [rinit_apply, hb e, Nat.mul_zero, cntBefore_zero, Nat.add_zero]
  | succ n ih =>
    show rstep (F := Ideal) (xblk1 a n) (runSeq a base n) (ix2 0 e) = _
    rw [rstep_apply, ih (by omega), cnt_xblk1 a _ n (by omega), ← nat_add, Nat.add_assoc]

end Cert.KernelIdeal.MathCount

end
-- ==== Proof.LibSort.lean ====
/-
  A stable sort's permutation is the inverse of the counting rank.

  For keys "key : Fin n → α" in a linear order, position "j" comes BEFORE position "i" in the stable order when its key
  is smaller, or equal with "j < i". "rank key i" counts the positions before "i". It is strictly monotone along that
  strict total order, hence injective, hence a bijection of "Fin n"; the stable insertion sort of the positions by
  "key k < key k'" lists them in the order of the inverse bijection, so the sorted list's entry at "rank key i" is "i".
-/
import Idealize.ShloMosaic.Lib.SortFacts
import Idealize.ShloMosaic.Lib.ValueIdx
import Mathlib.Order.Defs.LinearOrder
import Mathlib.Data.Finset.Card
import Mathlib.Data.Fintype.Card
import Mathlib.Data.List.OfFn
import Mathlib.Logic.Equiv.Defs

namespace Cert.LibSort

open Idealize.ShloMosaic

variable {n : Nat} {α : Type} [LinearOrder α]

/-- j comes before i in the stable order: a smaller key, or an equal key at an earlier position. -/
def Before (key : Fin n → α) (j i : Fin n) : Prop := key j < key i ∨ (key j = key i ∧ j < i)

instance (key : Fin n → α) (j i : Fin n) : Decidable (Before key j i) :=
  inferInstanceAs (Decidable (_ ∨ _))

/-- The number of positions before "i" in the stable order. -/
def rank (key : Fin n → α) (i : Fin n) : Nat := (Finset.univ.filter fun j => Before key j i).card

theorem not_before_self (key : Fin n → α) (i : Fin n) : ¬ Before key i i := by
  rintro (h | ⟨_, h⟩)
  · exact lt_irrefl _ h
  · exact lt_irrefl _ h

theorem before_trans (key : Fin n → α) {a b c : Fin n} (hab : Before key a b) (hbc : Before key b c) :
    Before key a c := by
  rcases hab with h₁ | ⟨e₁, l₁⟩
  · rcases hbc with h₂ | ⟨e₂, _⟩
    · exact Or.inl (lt_trans h₁ h₂)
    · exact Or.inl (e₂ ▸ h₁)
  · rcases hbc with h₂ | ⟨e₂, l₂⟩
    · exact Or.inl (e₁ ▸ h₂)
    · exact Or.inr ⟨e₁.trans e₂, lt_trans l₁ l₂⟩

theorem before_total (key : Fin n → α) {a b : Fin n} (hab : a ≠ b) : Before key a b ∨ Before key b a := by
  rcases lt_trichotomy (key a) (key b) with h | h | h
  · exact Or.inl (Or.inl h)
  · rcases lt_trichotomy a b with l | l | l
    · exact Or.inl (Or.inr ⟨h, l⟩)
    · exact absurd l hab
    · exact Or.inr (Or.inr ⟨h.symm, l⟩)
  · exact Or.inr (Or.inl h)

theorem rank_lt (key : Fin n → α) (i : Fin n) : rank key i < n := by
  have h : i ∉ Finset.univ.filter fun j => Before key j i := by
    simp only [Finset.mem_filter, Finset.mem_univ, true_and]
    exact not_before_self key i
  have := Finset.card_lt_univ_of_notMem h
  rwa [Fintype.card_fin] at this

theorem rank_eq_add (key : Fin n → α) (i : Fin n) :
    rank key i = (Finset.univ.filter fun j => key j < key i).card
      + (Finset.univ.filter fun j => key j = key i ∧ j < i).card := by
  have h : (Finset.univ.filter fun j => Before key j i)
      = (Finset.univ.filter fun j => key j < key i) ∪ (Finset.univ.filter fun j => key j = key i ∧ j < i) := by
    ext j
    simp only [Finset.mem_filter, Finset.mem_union, Finset.mem_univ, true_and]
    exact Iff.rfl
  unfold rank
  rw [h, Finset.card_union_of_disjoint]
  exact Finset.disjoint_filter.mpr fun j _ h₁ h₂ => absurd h₂.1 (ne_of_lt h₁)

/-- The rank is strictly monotone along the stable order. -/
theorem rank_lt_rank (key : Fin n → α) {a b : Fin n} (hab : Before key a b) : rank key a < rank key b := by
  unfold rank
  refine Finset.card_lt_card ⟨fun j hj => ?_, fun h => ?_⟩
  · simp only [Finset.mem_filter, Finset.mem_univ, true_and] at hj ⊢
    exact before_trans key hj hab
  · have ha : a ∈ Finset.univ.filter fun j => Before key j b := by
      simp only [Finset.mem_filter, Finset.mem_univ, true_and]; exact hab
    have := h ha
    simp only [Finset.mem_filter, Finset.mem_univ, true_and] at this
    exact not_before_self key a this

theorem rank_injective (key : Fin n → α) : Function.Injective (rank key) := by
  intro a b h
  by_contra hab
  rcases before_total key hab with l | l
  · exact absurd h (ne_of_lt (rank_lt_rank key l))
  · exact absurd h.symm (ne_of_lt (rank_lt_rank key l))

/-- The rank order IS the stable order. -/
theorem rank_lt_rank_iff (key : Fin n → α) (a b : Fin n) : rank key a < rank key b ↔ Before key a b := by
  refine ⟨fun h => ?_, rank_lt_rank key⟩
  by_cases hab : a = b
  · subst hab; exact absurd h (lt_irrefl _)
  · rcases before_total key hab with l | l
    · exact l
    · exact absurd (rank_lt_rank key l) (lt_asymm h)

/-! ## The insertion sort only asks about pairs out of the input's order -/

/-- Two relations that agree on every pair (later, earlier) of the input list sort it alike: inserting "a" into the
    sorted tail only ever asks the relation whether a tail element "b" goes before "a". -/
theorem stableSort_congr_pairwise {ι : Type} (R R' : ι → ι → Bool) (l : List ι)
    (h : l.Pairwise fun a b => R b a = R' b a) : stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.mp hb)

/-- The rank as a self-map of the positions. -/
def rankFin (key : Fin n → α) (i : Fin n) : Fin n := ⟨rank key i, rank_lt key i⟩

theorem rankFin_bijective (key : Fin n → α) : Function.Bijective (rankFin key) :=
  Finite.injective_iff_bijective.mp fun a b h => rank_injective key (congrArg Fin.val h)

/-- The positions in sorted order: the inverse of the rank. -/
noncomputable def unrank (key : Fin n → α) : Equiv.Perm (Fin n) := (Equiv.ofBijective _ (rankFin_bijective key)).symm

theorem unrank_symm_apply (key : Fin n → α) (i : Fin n) : (unrank key).symm i = rankFin key i := rfl

theorem unrank_rankFin (key : Fin n → α) (i : Fin n) : unrank key (rankFin key i) = i :=
  (Equiv.ofBijective _ (rankFin_bijective key)).symm_apply_apply i

/-- The stable sort of the positions by "key k < key k'" lists them by the inverse of the rank. -/
theorem sortPositions_key (key : Fin n → α) :
    sortPositions n (fun k k' => decide (key k < key k')) = List.ofFn (unrank key) := by
  rw [← sortPositions_of_perm (unrank key)]
  unfold sortPositions
  refine stableSort_congr_pairwise _ _ _ ((List.pairwise_lt_finRange n).imp fun {a b} hab => ?_)
  -- "a" stands before "b" in the input: "b" sorts before "a" only on a strictly smaller key
  simp only [unrank_symm_apply]
  congr 1
  refine propext ?_
  show key b < key a ↔ rank key b < rank key a
  rw [rank_lt_rank_iff]
  exact ⟨Or.inl, fun h => h.elim id fun h' => absurd h'.2 (lt_asymm hab)⟩

theorem sortedFrom_rank (key : Fin n → α) (i : Fin n) :
    sortedFrom (fun k k' => decide (key k < key k')) ⟨rank key i, rank_lt key i⟩ = i := by
  unfold sortedFrom
  rw [List.get_of_eq (sortPositions_key key), List.get_ofFn]
  exact unrank_rankFin key i

/-- A rank-1 index built either way is the same index. -/
theorem ofFin_eq_ix1 {m : Nat} (k : Fin m) : Shape.Idx.ofFin k = ValueIdx.ix1 k := by
  funext d
  match d with
  | ⟨0, _⟩ => rfl

/-- the argsort of 32-bit words compared signed (jnp.argsort: a two-operand stable sort carrying an iota), read at the
    rank of position i: it is i. -/
theorem argsort_at_rank {n : Nat} (hn : n ≤ 2 ^ 32) (x : IVec ⟨1, ![n]⟩ 32) (i : Fin n) :
    (Host.sort2 ⟨1, ![n]⟩ 0 (fun l r : BitVec 32 × BitVec 32 => IntOp.cmpi .slt l.1 r.1) x
        (iotaInDim ⟨1, ![n]⟩ 32 0)).2
      (ValueIdx.ix1 ⟨rank (fun k => (x (ValueIdx.ix1 k)).toInt) i, rank_lt _ i⟩) = BitVec.ofNat 32 i.val := by
  unfold Host.sort2
  simp only [show (0 : Nat) < (⟨1, ![n]⟩ : Shape).rank from Nat.one_pos, dite_true]
  simp only [Fin.isValue, Fin.zero_eta, Matrix.cons_val_zero, Shape.Idx.along_rank1, ofFin_eq_ix1]
  -- the comparator on the fiber is "the signed value is smaller"
  have hb : (fun k k' : Fin n => IntOp.cmpi CmpIPredicate.slt (x (ValueIdx.ix1 k)) (x (ValueIdx.ix1 k')) == 1#1)
      = fun k k' => decide ((x (ValueIdx.ix1 k)).toInt < (x (ValueIdx.ix1 k')).toInt) := by
    funext k k'
    unfold IntOp.cmpi
    simp only [BitVec.slt_eq_decide]
    by_cases h : (x (ValueIdx.ix1 k)).toInt < (x (ValueIdx.ix1 k')).toInt <;> simp [h]
  rw [hb]
  have e := sortedFrom_rank (fun k => (x (ValueIdx.ix1 k)).toInt) i
  -- the carried operand is the identity table: it reads the source position back
  exact congrArg (fun k : Fin n => BitVec.ofNat 32 k.val) e

end Cert.LibSort
-- ==== Proof.KI.MathRank.lean ====
/-
  The rank kernel's value, entry by entry.

  One block: the kernel's last payload at an entry (r, l) holding the id e0 is, after the chain of eight selects picks the
  branch of e0, the sum of a lane term and a row term and a running offset. The lane term is a product of the stacked
  0/1 masks with a strictly triangular 0/1 matrix: the number of lanes k < l of row r holding e0. The row term is a
  product of a strictly triangular 0/1 matrix with the row counts: the number of entries of the rows r' < r holding e0.
  Together they count the entries of the block before (r, l), in row-major order, holding e0.

  The array: the running offset of id e0 at block n is the number of positions holding a smaller id plus the number of
  positions before the block holding e0, so the entry at flat position p is the number of positions with a smaller id
  plus the number of earlier positions with the same id: the stable counting rank of p.
-/
import proofs.«428384_j28252294873409_1_alg».proof.Proof.KI.Steps
import proofs.«428384_j28252294873409_1_alg».proof.Proof.Keys
import proofs.«428384_j28252294873409_1_alg».proof.Proof.LibSort
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Mathlib.Data.EReal.Basic
import Mathlib.Algebra.BigOperators.Ring.Finset
import Mathlib.Algebra.BigOperators.Group.Finset.Basic
import Mathlib.Algebra.Order.BigOperators.Group.Finset
import Mathlib.Algebra.Order.Floor.Ring
import Mathlib.Data.Fintype.BigOperators
import Mathlib.Data.Fintype.Card
import Mathlib.Data.Fintype.Prod
import Mathlib.Data.Finset.Card

noncomputable section

namespace Cert.KernelIdeal.MathRank

open Idealize.ShloMosaic Idealize.ShloMosaic.ValueIdx Cert.KernelIdeal Cert.KernelIdeal.Gen Cert.KernelIdeal.Steps Cert.Keys

/-! ## Natural numbers as ideal floats, and counting by sums of 0/1 -/

/-- A natural number as an ideal float. -/
abbrev nat (n : ℕ) : EReal := ((n : ℝ) : EReal)

theorem nat_add (a b : ℕ) : nat a + nat b = nat (a + b) := by
  show ((a : ℝ) : EReal) + ((b : ℝ) : EReal) = (((a + b : ℕ) : ℝ) : EReal)
  rw [← EReal.coe_add, Nat.cast_add]

theorem nat_sum {ι : Type} (s : Finset ι) (f : ι → ℕ) : ∑ i ∈ s, nat (f i) = nat (∑ i ∈ s, f i) := by
  classical
  induction s using Finset.induction_on with
  | empty => simp [nat]
  | insert a s ha ih => rw [Finset.sum_insert ha, Finset.sum_insert ha, ih, nat_add]

/-- The product of two 0/1 indicators is the indicator of the conjunction. -/
theorem boole_mul_boole (P Q : Prop) [Decidable P] [Decidable Q] :
    (if P then (1 : EReal) else 0) * (if Q then (1 : EReal) else 0) = nat (if P ∧ Q then 1 else 0) := by
  by_cases hP : P <;> by_cases hQ : Q <;> simp [hP, hQ, nat]

/-- A 0/1 indicator times a natural number. -/
theorem boole_mul_nat (P : Prop) [Decidable P] (n : ℕ) :
    (if P then (1 : EReal) else 0) * nat n = nat (if P then n else 0) := by
  by_cases hP : P <;> simp [hP, nat]

/-- A sum of 0/1 indicators over a finite type counts where the indicator holds. -/
theorem sum_boole_card {ι : Type} [Fintype ι] (P : ι → Prop) [DecidablePred P] :
    ∑ i : ι, (if P i then 1 else 0 : ℕ) = (Finset.univ.filter P).card := by
  rw [Finset.sum_boole]; rfl

/-- Converting a natural number below 2^31 to a 32-bit integer gives its word. -/
theorem fptosi_nat (N : ℕ) (h : N < 2 ^ 31) : Ideal.fptosi 32 (nat N) = BitVec.ofNat 32 N := by
  unfold Ideal.fptosi nat
  rw [Ideal.toIntClamped_coe, if_pos (Nat.cast_nonneg N), Int.floor_natCast]
  have e : ((2 ^ (32 - 1) : ℕ) : ℤ) = 2147483648 := by norm_num
  rw [e, min_eq_right (by omega), max_eq_right (by omega)]
  exact BitVec.ofInt_natCast 32 N

/-- Row-major counting in a block: the entries before (r, l) are those of the earlier rows and the earlier lanes of
    row r. -/
theorem block_count {m n : ℕ} (P : Fin m → Fin n → Prop) [∀ a b, Decidable (P a b)] (r : Fin m) (l : Fin n) :
    (Finset.univ.filter fun k : Fin n => P r k ∧ k < l).card
        + ∑ r' : Fin m, (if r' < r then (Finset.univ.filter fun l' : Fin n => P r' l').card else 0)
      = (Finset.univ.filter fun q : Fin m × Fin n => (q.1 < r ∨ (q.1 = r ∧ q.2 < l)) ∧ P q.1 q.2).card := by
  rw [← sum_boole_card (fun q : Fin m × Fin n => (q.1 < r ∨ (q.1 = r ∧ q.2 < l)) ∧ P q.1 q.2), Fintype.sum_prod_type]
  have claim : ∀ r' : Fin m, (∑ l' : Fin n, (if (r' < r ∨ (r' = r ∧ l' < l)) ∧ P r' l' then 1 else 0 : ℕ))
      = (if r' < r then (Finset.univ.filter fun l' : Fin n => P r' l').card else 0)
        + (if r' = r then (Finset.univ.filter fun k : Fin n => P r k ∧ k < l).card else 0) := by
    intro r'
    rcases lt_trichotomy r' r with h | h | h
    · simp only [h, true_or, true_and, if_true, ne_of_lt h, if_false, add_zero]
      exact sum_boole_card _
    · subst h
      simp only [lt_irrefl, false_or, true_and, if_false, if_true, zero_add]
      rw [← sum_boole_card]
      exact Finset.sum_congr rfl fun l' _ => by simp only [and_comm]
    · have h1 : ¬ r' < r := not_lt_of_gt h
      have h2 : r' ≠ r := ne_of_gt h
      simp [h1, h2]
  simp only [claim, Finset.sum_add_distrib, Finset.sum_ite_eq', Finset.mem_univ, if_true]
  exact Nat.add_comm _ _

/-! ## The rank kernel's payloads read at an entry -/

theorem pay2_eq (x : Vec Ideal S512x128 .i32) : k1_pay2 (F := Ideal) x = x := shapeCast_self x _

/-- The mask of id e: the block compared with e. -/
def msk (x : Vec Ideal S512x128 .i32) (e : Fin 8) : IVec S512x128 1 :=
  ![k1_pay3 (F := Ideal) x, k1_pay4 (F := Ideal) x, k1_pay5 (F := Ideal) x, k1_pay6 (F := Ideal) x,
    k1_pay7 (F := Ideal) x, k1_pay8 (F := Ideal) x, k1_pay9 (F := Ideal) x, k1_pay10 (F := Ideal) x] e

theorem msk_apply (x : Vec Ideal S512x128 .i32) (e : Fin 8) (r : Fin 512) (l : Fin 128) :
    msk x e (ix2 r l) = BitVec.ofBool (x (ix2 r l) == BitVec.ofNat 32 e.val) := by
  have h2 : k1_pay2 (F := Ideal) x (ix2 r l) = x (ix2 r l) := congrFun (pay2_eq x) _
  fin_cases e <;> exact congrArg (fun w => BitVec.ofBool (w == BitVec.ofNat 32 _)) h2

/-- A one-bit mask widened and converted to a float is 1 or 0. -/
theorem mask_float (b : Bool) :
    (FloatOps.sitofp (F := Ideal) .f32 ((BitVec.ofBool b).setWidth 32) : Ideal .f32) = if b then 1 else 0 := by
  cases b
  · have : (BitVec.setWidth 32 (BitVec.ofBool false)).toInt = 0 := by decide
    show (((BitVec.setWidth 32 (BitVec.ofBool false)).toInt : ℝ) : EReal) = _
    rw [this]; simp
  · have : (BitVec.setWidth 32 (BitVec.ofBool true)).toInt = 1 := by decide
    show (((BitVec.setWidth 32 (BitVec.ofBool true)).toInt : ℝ) : EReal) = _
    rw [this]; simp

/-- The mask of id e as a float at an entry. -/
theorem msk_float (x : Vec Ideal S512x128 .i32) (e : Fin 8) (r : Fin 512) (k : Fin 128) :
    (FloatOps.sitofp (F := Ideal) .f32 ((msk x e (ix2 r k)).setWidth 32) : Ideal .f32)
      = if x (ix2 r k) = BitVec.ofNat 32 e.val then 1 else 0 := by
  rw [msk_apply, mask_float]; simp only [beq_iff_eq]

/-- Eight blocks of 512 rows stacked along the rows: row 512 e + r of the stack is row r of block e. -/
theorem concat8_rows_apply {α : Type} (f : Fin 8 → S512x128.Idx → α)
    (h : Shape.Concatenates (([⟨S512x128, f 0⟩, ⟨S512x128, f 1⟩, ⟨S512x128, f 2⟩, ⟨S512x128, f 3⟩, ⟨S512x128, f 4⟩,
      ⟨S512x128, f 5⟩, ⟨S512x128, f 6⟩, ⟨S512x128, f 7⟩] : List ((s : Shape) × (s.Idx → α))).map (·.1)) S4096x128 0)
    (e : Fin 8) (r : Fin 512) (k : Fin 128) :
    concatenate S4096x128 0 [⟨S512x128, f 0⟩, ⟨S512x128, f 1⟩, ⟨S512x128, f 2⟩, ⟨S512x128, f 3⟩, ⟨S512x128, f 4⟩,
        ⟨S512x128, f 5⟩, ⟨S512x128, f 6⟩, ⟨S512x128, f 7⟩] h
        (ix2 (⟨512 * e.val + r.val, by have := e.isLt; have := r.isLt; omega⟩ : Fin 4096) k)
      = f e (ix2 r k) := by
  fin_cases e
  · refine concatenate_apply_piece (t := S4096x128) (0 : Fin 2) _ h _ 0 ?_ S512x128 (f 0) ?_ ?_ 0 ?_ (ix2 r k) ?_ ?_
    · show 0 < 8
      omega
    · rfl
    · rfl
    · rfl
    · intro b hb
      match b with
      | ⟨0, _⟩ => exact absurd rfl hb
      | ⟨1, _⟩ => rfl
    · show 0 + r.val = 512 * 0 + r.val
      omega
  · refine concatenate_apply_piece (t := S4096x128) (0 : Fin 2) _ h _ 1 ?_ S512x128 (f 1) ?_ ?_ 512 ?_ (ix2 r k) ?_ ?_
    · show 1 < 8
      omega
    · rfl
    · rfl
    · rfl
    · intro b hb
      match b with
      | ⟨0, _⟩ => exact absurd rfl hb
      | ⟨1, _⟩ => rfl
    · show 512 + r.val = 512 * 1 + r.val
      omega
  · refine concatenate_apply_piece (t := S4096x128) (0 : Fin 2) _ h _ 2 ?_ S512x128 (f 2) ?_ ?_ 1024 ?_ (ix2 r k) ?_ ?_
    · show 2 < 8
      omega
    · rfl
    · rfl
    · rfl
    · intro b hb
      match b with
      | ⟨0, _⟩ => exact absurd rfl hb
      | ⟨1, _⟩ => rfl
    · show 1024 + r.val = 512 * 2 + r.val
      omega
  · refine concatenate_apply_piece (t := S4096x128) (0 : Fin 2) _ h _ 3 ?_ S512x128 (f 3) ?_ ?_ 1536 ?_ (ix2 r k) ?_ ?_
    · show 3 < 8
      omega
    · rfl
    · rfl
    · rfl
    · intro b hb
      match b with
      | ⟨0, _⟩ => exact absurd rfl hb
      | ⟨1, _⟩ => rfl
    · show 1536 + r.val = 512 * 3 + r.val
      omega
  · refine concatenate_apply_piece (t := S4096x128) (0 : Fin 2) _ h _ 4 ?_ S512x128 (f 4) ?_ ?_ 2048 ?_ (ix2 r k) ?_ ?_
    · show 4 < 8
      omega
    · rfl
    · rfl
    · rfl
    · intro b hb
      match b with
      | ⟨0, _⟩ => exact absurd rfl hb
      | ⟨1, _⟩ => rfl
    · show 2048 + r.val = 512 * 4 + r.val
      omega
  · refine concatenate_apply_piece (t := S4096x128) (0 : Fin 2) _ h _ 5 ?_ S512x128 (f 5) ?_ ?_ 2560 ?_ (ix2 r k) ?_ ?_
    · show 5 < 8
      omega
    · rfl
    · rfl
    · rfl
    · intro b hb
      match b with
      | ⟨0, _⟩ => exact absurd rfl hb
      | ⟨1, _⟩ => rfl
    · show 2560 + r.val = 512 * 5 + r.val
      omega
  · refine concatenate_apply_piece (t := S4096x128) (0 : Fin 2) _ h _ 6 ?_ S512x128 (f 6) ?_ ?_ 3072 ?_ (ix2 r k) ?_ ?_
    · show 6 < 8
      omega
    · rfl
    · rfl
    · rfl
    · intro b hb
      match b with
      | ⟨0, _⟩ => exact absurd rfl hb
      | ⟨1, _⟩ => rfl
    · show 3072 + r.val = 512 * 6 + r.val
      omega
  · refine concatenate_apply_piece (t := S4096x128) (0 : Fin 2) _ h _ 7 ?_ S512x128 (f 7) ?_ ?_ 3584 ?_ (ix2 r k) ?_ ?_
    · show 7 < 8
      omega
    · rfl
    · rfl
    · rfl
    · intro b hb
      match b with
      | ⟨0, _⟩ => exact absurd rfl hb
      | ⟨1, _⟩ => rfl
    · show 3584 + r.val = 512 * 7 + r.val
      omega

/-- The eight masks stacked along the rows: row 512 e + r is row r of the mask of id e, as floats. -/
theorem pay11_apply (x : Vec Ideal S512x128 .i32) (e : Fin 8) (r : Fin 512) (k : Fin 128) :
    k1_pay11 (F := Ideal) x (ix2 ⟨512 * e.val + r.val, by have := e.isLt; have := r.isLt; omega⟩ k)
      = if x (ix2 r k) = BitVec.ofNat 32 e.val then 1 else 0 := by
  unfold k1_pay11
  exact (concat8_rows_apply
    (fun e' : Fin 8 => truncf .bf16 (sitofp (F := Ideal) .f32 (extui 32 (msk x e') Gen.natLt_1_32)) Gen.bitsLt_bf16_f32)
    _ e r k).trans (msk_float x e r k)

/-- A column broadcast over the lanes reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A chain of eight selects of which exactly the one of e0 holds takes the value of e0. -/
theorem select_chain (b : Fin 8 → BitVec 1) (A : Fin 8 → EReal) (c : EReal) (e0 : Fin 8)
    (hb : ∀ e, b e = if e = e0 then 1#1 else 0#1) :
    Scalar.select (b 7) (A 7) (Scalar.select (b 6) (A 6) (Scalar.select (b 5) (A 5) (Scalar.select (b 4) (A 4)
      (Scalar.select (b 3) (A 3) (Scalar.select (b 2) (A 2) (Scalar.select (b 1) (A 1) (Scalar.select (b 0) (A 0) c)))))))
      = A e0 := by
  simp only [hb]
  fin_cases e0 <;> simp [Scalar.select]

/-- The kernel's last payload at an entry whose id is e0: the lane term of row 512 e0 + r plus the row term of e0,
    as an integer. -/
theorem pay15_apply (m : Fin 8 → IVec S512x128 1) (v48 : FVec Ideal S4096x128 .f32) (v88 : FVec Ideal S512x8 .f32)
    (c : Ideal .f32) (r : Fin 512) (l : Fin 128) (e0 : Fin 8)
    (hm : ∀ e : Fin 8, m e (ix2 r l) = if e = e0 then 1#1 else 0#1) :
    k1_pay15 (F := Ideal) (m 0) (m 1) (m 2) (m 3) (m 4) (m 5) (m 6) (m 7) v48 v88 c (ix2 r l)
      = Ideal.fptosi 32 (v48 (ix2 ⟨512 * e0.val + r.val, by have := e0.isLt; have := r.isLt; omega⟩ l) + v88 (ix2 r e0)) := by
  unfold k1_pay15
  simp only [fptosi, select_apply, addf_apply, broadcast_apply, slice2_axis0_eq, slice2_axis1_eq, broadcastTo_a1_ab_apply]
  show Ideal.fptosi 32 _ = _
  congr 1
  exact select_chain (fun e => m e (ix2 r l))
    (fun e => v48 (ix2 ⟨512 * e.val + r.val, by have := e.isLt; have := r.isLt; omega⟩ l) + v88 (ix2 r e)) c e0 hm

/-- The first product at an entry: the sum over the contracted lane. -/
theorem matmul1_apply (A : FVec Ideal S4096x128 .bf16) (B : FVec Ideal S128x128 .bf16) (R : Fin 4096) (c : Fin 128) :
    FloatOps.matmul dot_S4096x128_S128x128_S4096x128_1_0_0_1_n_n none A B
        (constant (F := Ideal) S4096x128 .f32 0x00000000#32) (ix2 R c)
      = ∑ k : Fin 128, A (ix2 R k) * B (ix2 k c) := by
  rw [Ideal.matmul_constant_zero_apply,
    ← Equiv.sum_comp (contrEquiv1 dot_S4096x128_S128x128_S4096x128_1_0_0_1_n_n 128 rfl rfl).symm]
  refine Finset.sum_congr rfl fun k _ => ?_
  have c2 := contrEquiv1_symm_val dot_S4096x128_S128x128_S4096x128_1_0_0_1_n_n 128 rfl rfl k
  have l2 : dot_S4096x128_S128x128_S4096x128_1_0_0_1_n_n.lhsIdx (ix2 R c) ((contrEquiv1 _ 128 rfl rfl).symm k) = ix2 R k := by
    funext ax; apply Fin.ext
    match ax with
    | ⟨0, _⟩ => simp [DotDims.lhsIdx, dot_S4096x128_S128x128_S4096x128_1_0_0_1_n_n]; rfl
    | ⟨1, _⟩ => simp [DotDims.lhsIdx, dot_S4096x128_S128x128_S4096x128_1_0_0_1_n_n]; exact c2
  have r2 : dot_S4096x128_S128x128_S4096x128_1_0_0_1_n_n.rhsIdx (ix2 R c) ((contrEquiv1 _ 128 rfl rfl).symm k) = ix2 k c := by
    funext ax; apply Fin.ext
    match ax with
    | ⟨0, _⟩ => simp [DotDims.rhsIdx, dot_S4096x128_S128x128_S4096x128_1_0_0_1_n_n]; exact c2
    | ⟨1, _⟩ => simp [DotDims.rhsIdx, dot_S4096x128_S128x128_S4096x128_1_0_0_1_n_n]; rfl
  rw [l2, r2]

/-- The second product at an entry: the sum over the contracted row. -/
theorem matmul2_apply (A : FVec Ideal S512x512 .bf16) (B : FVec Ideal S512x8 .bf16) (r : Fin 512) (e : Fin 8) :
    FloatOps.matmul dot_S512x512_S512x8_S512x8_1_0_0_1_n_n none A B
        (constant (F := Ideal) S512x8 .f32 0x00000000#32) (ix2 r e)
      = ∑ r' : Fin 512, A (ix2 r r') * B (ix2 r' e) := by
  rw [Ideal.matmul_constant_zero_apply,
    ← Equiv.sum_comp (contrEquiv1 dot_S512x512_S512x8_S512x8_1_0_0_1_n_n 512 rfl rfl).symm]
  refine Finset.sum_congr rfl fun k _ => ?_
  have c2 := contrEquiv1_symm_val dot_S512x512_S512x8_S512x8_1_0_0_1_n_n 512 rfl rfl k
  have l2 : dot_S512x512_S512x8_S512x8_1_0_0_1_n_n.lhsIdx (ix2 r e) ((contrEquiv1 _ 512 rfl rfl).symm k) = ix2 r k := by
    funext ax; apply Fin.ext
    match ax with
    | ⟨0, _⟩ => simp [DotDims.lhsIdx, dot_S512x512_S512x8_S512x8_1_0_0_1_n_n]; rfl
    | ⟨1, _⟩ => simp [DotDims.lhsIdx, dot_S512x512_S512x8_S512x8_1_0_0_1_n_n]; exact c2
  have r2 : dot_S512x512_S512x8_S512x8_1_0_0_1_n_n.rhsIdx (ix2 r e) ((contrEquiv1 _ 512 rfl rfl).symm k) = ix2 k e := by
    funext ax; apply Fin.ext
    match ax with
    | ⟨0, _⟩ => simp [DotDims.rhsIdx, dot_S512x512_S512x8_S512x8_1_0_0_1_n_n]; exact c2
    | ⟨1, _⟩ => simp [DotDims.rhsIdx, dot_S512x512_S512x8_S512x8_1_0_0_1_n_n]; rfl
  rw [l2, r2]

theorem pay12_apply (A : FVec Ideal S4096x128 .bf16) (B : Vec Ideal S128x128 .bf16) (R : Fin 4096) (c : Fin 128) :
    k1_pay12 (F := Ideal) A B (ix2 R c) = ∑ k : Fin 128, A (ix2 R k) * B (ix2 k c) := by
  unfold k1_pay12
  simp only [shapeCast_self]
  exact matmul1_apply A B R c

theorem pay14_apply (m0 m1 m2 m3 m4 m5 m6 m7 : IVec S512x128 1) (mr : Vec Ideal S512x512 .bf16) (run : Vec Ideal S1x8 .f32)
    (r : Fin 512) (e : Fin 8) :
    k1_pay14 (F := Ideal) m0 m1 m2 m3 m4 m5 m6 m7 mr run (ix2 r e)
      = (∑ r' : Fin 512, mr (ix2 r r') * k1_pay13 (F := Ideal) m0 m1 m2 m3 m4 m5 m6 m7 (ix2 r' e)) + run (ix2 0 e) := by
  unfold k1_pay14
  simp only [shapeCast_self, addf_apply, broadcastTo_1b_ab_apply]
  congr 1
  exact matmul2_apply mr _ r e

/-- Eight columns of 512 rows put side by side: column e of the result is column e. -/
theorem concat8_cols_apply {α : Type} (f : Fin 8 → S512x1.Idx → α)
    (h : Shape.Concatenates (([⟨S512x1, f 0⟩, ⟨S512x1, f 1⟩, ⟨S512x1, f 2⟩, ⟨S512x1, f 3⟩, ⟨S512x1, f 4⟩,
      ⟨S512x1, f 5⟩, ⟨S512x1, f 6⟩, ⟨S512x1, f 7⟩] : List ((s : Shape) × (s.Idx → α))).map (·.1)) S512x8 1)
    (e : Fin 8) (r : Fin 512) :
    concatenate S512x8 1 [⟨S512x1, f 0⟩, ⟨S512x1, f 1⟩, ⟨S512x1, f 2⟩, ⟨S512x1, f 3⟩, ⟨S512x1, f 4⟩,
        ⟨S512x1, f 5⟩, ⟨S512x1, f 6⟩, ⟨S512x1, f 7⟩] h (ix2 r e)
      = f e (ix2 r (0 : Fin 1)) := by
  fin_cases e
  · refine concatenate_apply_piece (t := S512x8) (1 : Fin 2) _ h _ 0 ?_ S512x1 (f 0) ?_ ?_ 0 ?_ (ix2 r (0 : Fin 1)) ?_ ?_
    · show 0 < 8
      omega
    · rfl
    · rfl
    · rfl
    · intro b hb
      match b with
      | ⟨0, _⟩ => rfl
      | ⟨1, _⟩ => exact absurd rfl hb
    · rfl
  · refine concatenate_apply_piece (t := S512x8) (1 : Fin 2) _ h _ 1 ?_ S512x1 (f 1) ?_ ?_ 1 ?_ (ix2 r (0 : Fin 1)) ?_ ?_
    · show 1 < 8
      omega
    · rfl
    · rfl
    · rfl
    · intro b hb
      match b with
      | ⟨0, _⟩ => rfl
      | ⟨1, _⟩ => exact absurd rfl hb
    · rfl
  · refine concatenate_apply_piece (t := S512x8) (1 : Fin 2) _ h _ 2 ?_ S512x1 (f 2) ?_ ?_ 2 ?_ (ix2 r (0 : Fin 1)) ?_ ?_
    · show 2 < 8
      omega
    · rfl
    · rfl
    · rfl
    · intro b hb
      match b with
      | ⟨0, _⟩ => rfl
      | ⟨1, _⟩ => exact absurd rfl hb
    · rfl
  · refine concatenate_apply_piece (t := S512x8) (1 : Fin 2) _ h _ 3 ?_ S512x1 (f 3) ?_ ?_ 3 ?_ (ix2 r (0 : Fin 1)) ?_ ?_
    · show 3 < 8
      omega
    · rfl
    · rfl
    · rfl
    · intro b hb
      match b with
      | ⟨0, _⟩ => rfl
      | ⟨1, _⟩ => exact absurd rfl hb
    · rfl
  · refine concatenate_apply_piece (t := S512x8) (1 : Fin 2) _ h _ 4 ?_ S512x1 (f 4) ?_ ?_ 4 ?_ (ix2 r (0 : Fin 1)) ?_ ?_
    · show 4 < 8
      omega
    · rfl
    · rfl
    · rfl
    · intro b hb
      match b with
      | ⟨0, _⟩ => rfl
      | ⟨1, _⟩ => exact absurd rfl hb
    · rfl
  · refine concatenate_apply_piece (t := S512x8) (1 : Fin 2) _ h _ 5 ?_ S512x1 (f 5) ?_ ?_ 5 ?_ (ix2 r (0 : Fin 1)) ?_ ?_
    · show 5 < 8
      omega
    · rfl
    · rfl
    · rfl
    · intro b hb
      match b with
      | ⟨0, _⟩ => rfl
      | ⟨1, _⟩ => exact absurd rfl hb
    · rfl
  · refine concatenate_apply_piece (t := S512x8) (1 : Fin 2) _ h _ 6 ?_ S512x1 (f 6) ?_ ?_ 6 ?_ (ix2 r (0 : Fin 1)) ?_ ?_
    · show 6 < 8
      omega
    · rfl
    · rfl
    · rfl
    · intro b hb
      match b with
      | ⟨0, _⟩ => rfl
      | ⟨1, _⟩ => exact absurd rfl hb
    · rfl
  · refine concatenate_apply_piece (t := S512x8) (1 : Fin 2) _ h _ 7 ?_ S512x1 (f 7) ?_ ?_ 7 ?_ (ix2 r (0 : Fin 1)) ?_ ?_
    · show 7 < 8
      omega
    · rfl
    · rfl
    · rfl
    · intro b hb
      match b with
      | ⟨0, _⟩ => rfl
      | ⟨1, _⟩ => exact absurd rfl hb
    · rfl

/-- The row counts at (r, e): the lane sum of the mask of id e as floats. -/
theorem pay13_apply (m : Fin 8 → IVec S512x128 1) (r : Fin 512) (e : Fin 8) :
    k1_pay13 (F := Ideal) (m 0) (m 1) (m 2) (m 3) (m 4) (m 5) (m 6) (m 7) (ix2 r e)
      = ∑ k : Fin 128, (FloatOps.sitofp (F := Ideal) .f32 ((m e (ix2 r k)).setWidth 32) : Ideal .f32) := by
  unfold k1_pay13
  refine (concat8_cols_apply
    (fun e' : Fin 8 => shapeCast S512x1 (multiReduction .add [1] S512 (sitofp (F := Ideal) .f32 (extui 32 (m e') Gen.natLt_1_32))
      0x00000000#32 Gen.reduces_S512x128_S512 (.inl rfl) rfl) Gen.shapeCasts_S512_S512x1) _ e r).trans ?_
  refine (shapeCast_apply _ Gen.shapeCasts_S512_S512x1 (ix2 r (0 : Fin 1)) (ix1 r) (by
    rw [Shape.rowMajor_val_one, Shape.rowMajor_val_two]
    show r.val = r.val * 1 + 0
    omega)).trans ?_
  refine (Ideal.multiReduction_add_single _ 0x00000000#32 Gen.reduces_S512x128_S512 _ _ (ix1 r)).trans ?_
  refine Finset.sum_congr rfl fun k _ => ?_
  have hl : Gen.reduces_S512x128_S512.lift (ix1 r) k = ix2 r k := by
    funext ax
    apply Fin.ext
    match ax with
    | ⟨0, _⟩ => rfl
    | ⟨1, _⟩ => rfl
  rw [hl]
  rfl

/-- The row count of id e in row r: the number of lanes of the row holding e. -/
theorem rowCount_own (x : Vec Ideal S512x128 .i32) (r : Fin 512) (e : Fin 8) :
    k1_pay13 (F := Ideal) (msk x 0) (msk x 1) (msk x 2) (msk x 3) (msk x 4) (msk x 5) (msk x 6) (msk x 7) (ix2 r e)
      = nat (Finset.univ.filter fun l : Fin 128 => x (ix2 r l) = BitVec.ofNat 32 e.val).card := by
  rw [pay13_apply (msk x) r e, ← sum_boole_card, ← nat_sum]
  refine Finset.sum_congr rfl fun k _ => ?_
  rw [msk_float]
  split <;> simp [nat]

/-! ## One entry of one block -/

theorem ofNat_inj8 : ∀ a b : Fin 8, BitVec.ofNat 32 a.val = BitVec.ofNat 32 b.val → a = b := by decide

theorem rout_eq (x : Vec Ideal S512x128 .i32) (mbt : Vec Ideal S128x128 .bf16) (mr : Vec Ideal S512x512 .bf16)
    (run : Vec Ideal S1x8 .f32) :
    rout (F := Ideal) x mbt mr run
      = k1_pay15 (F := Ideal) (msk x 0) (msk x 1) (msk x 2) (msk x 3) (msk x 4) (msk x 5) (msk x 6) (msk x 7)
          (k1_pay12 (F := Ideal) (k1_pay11 (F := Ideal) x) mbt)
          (k1_pay14 (F := Ideal) (msk x 0) (msk x 1) (msk x 2) (msk x 3) (msk x 4) (msk x 5) (msk x 6) (msk x 7) mr run)
          (Scalar.ofBits .f32 0x00000000#32) := rfl

/-- One entry of one block, given the row counts: the running offset of the entry's id plus the number of entries of
    the block before it, in row-major order, holding the same id. -/
theorem rout_entry_aux (x : Vec Ideal S512x128 .i32) (mbt : Vec Ideal S128x128 .bf16) (mr : Vec Ideal S512x512 .bf16)
    (run : Vec Ideal S1x8 .f32)
    (hrow : ∀ (r' : Fin 512) (e : Fin 8),
      k1_pay13 (F := Ideal) (msk x 0) (msk x 1) (msk x 2) (msk x 3) (msk x 4) (msk x 5) (msk x 6) (msk x 7) (ix2 r' e)
        = nat (Finset.univ.filter fun l : Fin 128 => x (ix2 r' l) = BitVec.ofNat 32 e.val).card)
    (hmbt : ∀ k c : Fin 128, mbt (ix2 k c) = if k < c then 1 else 0)
    (hmr : ∀ r r' : Fin 512, mr (ix2 r r') = if r' < r then 1 else 0)
    (R : Fin 8 → ℕ) (hrun : ∀ e : Fin 8, run (ix2 0 e) = ((R e : ℝ) : EReal)) (hR : ∀ e, R e + 65536 < 2 ^ 31)
    (r : Fin 512) (l : Fin 128) (e0 : Fin 8) (he0 : x (ix2 r l) = BitVec.ofNat 32 e0.val) :
    rout (F := Ideal) x mbt mr run (ix2 r l)
      = BitVec.ofNat 32 (R e0 + (Finset.univ.filter fun q : Fin 512 × Fin 128 =>
          (q.1 < r ∨ (q.1 = r ∧ q.2 < l)) ∧ x (ix2 q.1 q.2) = BitVec.ofNat 32 e0.val).card) := by
  -- exactly the mask of e0 holds at the entry
  have hm : ∀ e : Fin 8, msk x e (ix2 r l) = if e = e0 then 1#1 else 0#1 := by
    intro e
    rw [msk_apply, he0]
    by_cases h : e = e0
    · rw [if_pos h, h, show (BitVec.ofNat 32 e0.val == BitVec.ofNat 32 e0.val) = true from beq_self_eq_true _]; rfl
    · have hne : BitVec.ofNat 32 e0.val ≠ BitVec.ofNat 32 e.val := fun hh => h (ofNat_inj8 _ _ hh).symm
      rw [if_neg h, show (BitVec.ofNat 32 e0.val == BitVec.ofNat 32 e.val) = false from beq_eq_false_iff_ne.mpr hne]; rfl
  -- the lane term: the ids equal to e0 in the earlier lanes of row r
  have h1 : (∑ k : Fin 128, k1_pay11 (F := Ideal) x
        (ix2 ⟨512 * e0.val + r.val, by have := e0.isLt; have := r.isLt; omega⟩ k) * mbt (ix2 k l))
      = nat (Finset.univ.filter fun k : Fin 128 => x (ix2 r k) = BitVec.ofNat 32 e0.val ∧ k < l).card := by
    rw [← sum_boole_card, ← nat_sum]
    refine Finset.sum_congr rfl fun k _ => ?_
    exact (congrArg₂ (fun a b : EReal => a * b) (pay11_apply x e0 r k) (hmbt k l)).trans (boole_mul_boole _ _)
  -- the row term: the ids equal to e0 in the earlier rows
  have h2 : (∑ r' : Fin 512, mr (ix2 r r')
        * k1_pay13 (F := Ideal) (msk x 0) (msk x 1) (msk x 2) (msk x 3) (msk x 4) (msk x 5) (msk x 6) (msk x 7) (ix2 r' e0))
      = nat (∑ r' : Fin 512, if r' < r then
          (Finset.univ.filter fun l' : Fin 128 => x (ix2 r' l') = BitVec.ofNat 32 e0.val).card else 0) := by
    rw [← nat_sum]
    refine Finset.sum_congr rfl fun r' _ => ?_
    exact (congrArg₂ (fun a b : EReal => a * b) (hmr r r') (hrow r' e0)).trans (boole_mul_nat _ _)
  have hb := block_count (fun (a : Fin 512) (b : Fin 128) => x (ix2 a b) = BitVec.ofNat 32 e0.val) r l
  have hcard : (Finset.univ.filter fun q : Fin 512 × Fin 128 =>
      (q.1 < r ∨ (q.1 = r ∧ q.2 < l)) ∧ x (ix2 q.1 q.2) = BitVec.ofNat 32 e0.val).card ≤ 65536 := by
    refine (Finset.card_le_univ _).trans ?_
    simp
  have hbound : (Finset.univ.filter fun k : Fin 128 => x (ix2 r k) = BitVec.ofNat 32 e0.val ∧ k < l).card
      + ((∑ r' : Fin 512, if r' < r then
          (Finset.univ.filter fun l' : Fin 128 => x (ix2 r' l') = BitVec.ofNat 32 e0.val).card else 0) + R e0) < 2 ^ 31 := by
    have := hR e0; omega
  rw [rout_eq, pay15_apply (msk x) _ _ _ r l e0 hm, pay12_apply, pay14_apply, h1, h2, hrun, nat_add, nat_add,
    fptosi_nat _ hbound]
  refine congrArg (BitVec.ofNat 32) ?_
  omega

/-! ## From blocks to the array: positions, ids, counts -/

theorem ix2_congr {n0 n1 : ℕ} {a a' : Fin n0} {b b' : Fin n1} (ha : a.val = a'.val) (hb : b.val = b'.val) :
    (ix2 a b : (⟨2, ![n0, n1]⟩ : Shape).Idx) = ix2 a' b' := by
  rw [Fin.ext ha, Fin.ext hb]

theorem ofNat_toNat32 (w : BitVec 32) : BitVec.ofNat 32 w.toNat = w := by
  apply BitVec.eq_of_toNat_eq
  rw [BitVec.toNat_ofNat]
  exact Nat.mod_eq_of_lt w.isLt

/-- Entry (r, l) of block n of the array is the id at flat position 65536 n + 128 r + l. -/
theorem xblk1_apply (a : Ids) (n : ℕ) (hn : n < 256) (r : Fin 512) (l : Fin 128) :
    xblk1 (F := Ideal) a n (ix2 r l)
      = key a ⟨65536 * n + 128 * r.val + l.val, by have := r.isLt; have := l.isLt; omega⟩ := by
  have := r.isLt
  have := l.isLt
  exact congrArg a (ix2_congr
    (by show (512 * n + r.val) % 131072 = (65536 * n + 128 * r.val + l.val) / 128; omega)
    (by show l.val % 128 = (65536 * n + 128 * r.val + l.val) % 128; omega))

/-- Under in-range ids, the positions whose id is below e0 are counted id by id. -/
theorem lt_count (a : Ids) (ha : InRange a) (p : Fin 16777216) (e0 : Fin 8) (he0 : key a p = BitVec.ofNat 32 e0.val)
    [DecidablePred fun q : Fin 16777216 => (key a q).toInt < (key a p).toInt] :
    (Finset.univ.filter fun q : Fin 16777216 => (key a q).toInt < (key a p).toInt).card
      = ∑ e' ∈ Finset.range e0.val, cnt a (BitVec.ofNat 32 e') := by
  have htoInt : ∀ q : Fin 16777216, (key a q).toInt = ((key a q).toNat : ℤ) := fun q =>
    BitVec.toInt_eq_toNat_of_lt (by have := ha q; omega)
  have hp : (key a p).toNat = e0.val := by
    rw [he0, BitVec.toNat_ofNat]; have := e0.isLt; omega
  have hset : (Finset.univ.filter fun q : Fin 16777216 => (key a q).toInt < (key a p).toInt)
      = Finset.univ.filter fun q : Fin 16777216 => (key a q).toNat < e0.val := by
    refine Finset.filter_congr fun q _ => ?_
    rw [htoInt q, htoInt p, hp]; exact Int.ofNat_lt
  have hfib := Finset.card_eq_sum_card_fiberwise (f := fun q : Fin 16777216 => (key a q).toNat)
    (s := Finset.univ.filter fun q : Fin 16777216 => (key a q).toNat < e0.val) (t := Finset.range e0.val)
    (fun q hq => by simpa using hq)
  rw [hset, hfib]
  refine Finset.sum_congr rfl fun e' he' => ?_
  have he'8 : e' < 8 := by have := Finset.mem_range.mp he'; have := e0.isLt; omega
  unfold cnt
  refine congrArg Finset.card ?_
  ext q
  simp only [Finset.mem_filter, Finset.mem_univ, true_and]
  constructor
  · rintro ⟨_, h⟩
    rw [← h]; exact (ofNat_toNat32 _).symm
  · intro h
    have h' : (key a q).toNat = e' := by rw [h, BitVec.toNat_ofNat]; omega
    exact ⟨by rw [h']; exact Finset.mem_range.mp he', h'⟩

/-- The positions before p holding the id w of p: those before the block of p, and those of the block before p in
    row-major order. -/
theorem eq_count (a : Ids) (p : Fin 16777216) (w : BitVec 32) (hw : key a p = w)
    [DecidablePred fun q : Fin 16777216 => (key a q).toInt = (key a p).toInt ∧ q < p] :
    (Finset.univ.filter fun q : Fin 16777216 => (key a q).toInt = (key a p).toInt ∧ q < p).card
      = cntBefore a w (65536 * (p.val / 128 / 512))
        + (Finset.univ.filter fun q : Fin 512 × Fin 128 =>
            (q.1 < (⟨p.val / 128 % 512, Nat.mod_lt _ (by decide)⟩ : Fin 512)
              ∨ (q.1 = (⟨p.val / 128 % 512, Nat.mod_lt _ (by decide)⟩ : Fin 512)
                  ∧ q.2 < (⟨p.val % 128 % 128, Nat.mod_lt _ (by decide)⟩ : Fin 128)))
            ∧ xblk1 (F := Ideal) a (p.val / 128 / 512) (ix2 q.1 q.2) = w).card := by
  have hpl := p.isLt
  have hn : p.val / 128 / 512 < 256 := by omega
  -- split the positions before p at the start of the block of p
  have hsplit : (Finset.univ.filter fun q : Fin 16777216 => (key a q).toInt = (key a p).toInt ∧ q < p)
      = (Finset.univ.filter fun q : Fin 16777216 => q.val < 65536 * (p.val / 128 / 512) ∧ key a q = w)
        ∪ (Finset.univ.filter fun q : Fin 16777216 =>
            (65536 * (p.val / 128 / 512) ≤ q.val ∧ q.val < p.val) ∧ key a q = w) := by
    ext q
    simp only [Finset.mem_filter, Finset.mem_univ, true_and, Finset.mem_union, BitVec.toInt_inj, hw, Fin.lt_def]
    constructor
    · rintro ⟨h1, h2⟩
      by_cases h : q.val < 65536 * (p.val / 128 / 512)
      · exact Or.inl ⟨h, h1⟩
      · exact Or.inr ⟨⟨by omega, h2⟩, h1⟩
    · rintro (⟨h1, h2⟩ | ⟨⟨h1, h2⟩, h3⟩)
      · exact ⟨h2, by omega⟩
      · exact ⟨h3, h2⟩
  have hdisj : Disjoint
      (Finset.univ.filter fun q : Fin 16777216 => q.val < 65536 * (p.val / 128 / 512) ∧ key a q = w)
      (Finset.univ.filter fun q : Fin 16777216 =>
        (65536 * (p.val / 128 / 512) ≤ q.val ∧ q.val < p.val) ∧ key a q = w) :=
    Finset.disjoint_filter.mpr fun q _ h1 h2 => by have := h1.1; have := h2.1.1; omega
  rw [hsplit, Finset.card_union_of_disjoint hdisj]
  refine congrArg₂ (fun u v : ℕ => u + v) rfl ?_
  -- the block's entries before (r, l) are the positions of the block before p
  symm
  refine Finset.card_bij (fun q _ => (⟨65536 * (p.val / 128 / 512) + 128 * q.1.val + q.2.val, by
    have := q.1.isLt; have := q.2.isLt; omega⟩ : Fin 16777216)) ?_ ?_ ?_
  · intro q hq
    simp only [Finset.mem_filter, Finset.mem_univ, true_and] at hq ⊢
    rw [xblk1_apply a _ hn] at hq
    have := q.2.isLt
    refine ⟨⟨by omega, ?_⟩, hq.2⟩
    rcases hq.1 with h | ⟨h, h'⟩
    · have h1 : q.1.val < p.val / 128 % 512 := h
      omega
    · have h1 : q.1.val = p.val / 128 % 512 := congrArg Fin.val h
      have h2 : q.2.val < p.val % 128 % 128 := h'
      omega
  · intro q₁ _ q₂ _ h
    have hv : 65536 * (p.val / 128 / 512) + 128 * q₁.1.val + q₁.2.val
        = 65536 * (p.val / 128 / 512) + 128 * q₂.1.val + q₂.2.val := congrArg Fin.val h
    have := q₁.2.isLt
    have := q₂.2.isLt
    exact Prod.ext (Fin.ext (by omega)) (Fin.ext (by omega))
  · intro b hb
    simp only [Finset.mem_filter, Finset.mem_univ, true_and] at hb
    obtain ⟨⟨hb1, hb2⟩, hb3⟩ := hb
    have hq1 : (b.val - 65536 * (p.val / 128 / 512)) / 128 < 512 := by omega
    have hback : 65536 * (p.val / 128 / 512) + 128 * ((b.val - 65536 * (p.val / 128 / 512)) / 128)
        + (b.val - 65536 * (p.val / 128 / 512)) % 128 = b.val := by omega
    refine ⟨(⟨(b.val - 65536 * (p.val / 128 / 512)) / 128, hq1⟩,
      ⟨(b.val - 65536 * (p.val / 128 / 512)) % 128, Nat.mod_lt _ (by decide)⟩), ?_, Fin.ext hback⟩
    simp only [Finset.mem_filter, Finset.mem_univ, true_and]
    rw [xblk1_apply a _ hn]
    refine ⟨?_, ?_⟩
    · by_cases h : (b.val - 65536 * (p.val / 128 / 512)) / 128 < p.val / 128 % 512
      · exact Or.inl h
      · refine Or.inr ⟨Fin.ext (by show (b.val - 65536 * (p.val / 128 / 512)) / 128 = p.val / 128 % 512; omega), ?_⟩
        show (b.val - 65536 * (p.val / 128 / 512)) % 128 < p.val % 128 % 128
        omega
    · rw [← hb3]; exact congrArg (key a) (Fin.ext hback)

/-- The rank kernel's result at flat position p, given the row counts and the running offsets: the stable counting
    rank of p. -/
theorem rankOut_eq_aux (a : Ids) (base : Vec Ideal S1x8 .f32) (mbt : Vec Ideal S128x128 .bf16)
    (mr : Vec Ideal S512x512 .bf16) (ha : InRange a)
    (hmbt : ∀ k c : Fin 128, mbt (ix2 k c) = if k < c then 1 else 0)
    (hmr : ∀ r r' : Fin 512, mr (ix2 r r') = if r' < r then 1 else 0)
    (hrow : ∀ (x : Vec Ideal S512x128 .i32) (r' : Fin 512) (e : Fin 8),
      k1_pay13 (F := Ideal) (msk x 0) (msk x 1) (msk x 2) (msk x 3) (msk x 4) (msk x 5) (msk x 6) (msk x 7) (ix2 r' e)
        = nat (Finset.univ.filter fun l : Fin 128 => x (ix2 r' l) = BitVec.ofNat 32 e.val).card)
    (hrunSeq : ∀ (n : ℕ) (_ : n ≤ 256) (e : Fin 8), runSeq (F := Ideal) a base n (ix2 0 e)
        = nat ((∑ e' ∈ Finset.range e.val, cnt a (BitVec.ofNat 32 e')) + cntBefore a (BitVec.ofNat 32 e.val) (65536 * n)))
    (p : Fin 16777216) :
    rankOut (F := Ideal) a base mbt mr
        (ix2 ⟨p.val / 128, by have := p.isLt; omega⟩ ⟨p.val % 128, Nat.mod_lt _ (by decide)⟩)
      = BitVec.ofNat 32 (Cert.LibSort.rank (fun q : Fin 16777216 => (key a q).toInt) p) := by
  have hpl := p.isLt
  have hn : p.val / 128 / 512 < 256 := by omega
  -- the id at p is one of the eight
  obtain ⟨e0, he0⟩ : ∃ e0 : Fin 8, key a p = BitVec.ofNat 32 e0.val :=
    ⟨⟨(key a p).toNat, ha p⟩, (ofNat_toNat32 _).symm⟩
  -- the entry of the block that holds it
  have hx : xblk1 (F := Ideal) a (p.val / 128 / 512)
      (ix2 ⟨p.val / 128 % 512, Nat.mod_lt _ (by decide)⟩ ⟨p.val % 128 % 128, Nat.mod_lt _ (by decide)⟩)
      = BitVec.ofNat 32 e0.val := by
    rw [xblk1_apply a _ hn, ← he0]
    exact congrArg (key a) (Fin.ext (by
      show 65536 * (p.val / 128 / 512) + 128 * (p.val / 128 % 512) + p.val % 128 % 128 = p.val; omega))
  -- the running offsets stay far below 2^31
  have hcnt : ∀ w : BitVec 32, cnt a w ≤ 16777216 := fun w => by
    unfold cnt; exact (Finset.card_le_univ _).trans (by simp)
  have hcb : ∀ (w : BitVec 32) (q : ℕ), cntBefore a w q ≤ 16777216 := fun w q => by
    unfold cntBefore; exact (Finset.card_le_univ _).trans (by simp)
  have hsum : ∀ e : Fin 8, ∑ e' ∈ Finset.range e.val, cnt a (BitVec.ofNat 32 e') ≤ 8 * 16777216 := fun e => by
    refine (Finset.sum_le_card_nsmul _ _ 16777216 fun e' _ => hcnt _).trans ?_
    rw [Finset.card_range, smul_eq_mul]; have := e.isLt; omega
  have hR : ∀ e : Fin 8, (∑ e' ∈ Finset.range e.val, cnt a (BitVec.ofNat 32 e'))
      + cntBefore a (BitVec.ofNat 32 e.val) (65536 * (p.val / 128 / 512)) + 65536 < 2 ^ 31 := fun e => by
    have := hsum e; have := hcb (BitVec.ofNat 32 e.val) (65536 * (p.val / 128 / 512)); omega
  show rout (F := Ideal) (xblk1 (F := Ideal) a (p.val / 128 / 512)) mbt mr (runSeq (F := Ideal) a base (p.val / 128 / 512))
      (ix2 ⟨p.val / 128 % 512, Nat.mod_lt _ (by decide)⟩ ⟨p.val % 128 % 128, Nat.mod_lt _ (by decide)⟩) = _
  rw [rout_entry_aux (xblk1 (F := Ideal) a (p.val / 128 / 512)) mbt mr (runSeq (F := Ideal) a base (p.val / 128 / 512))
    (hrow _) hmbt hmr
    (fun e => (∑ e' ∈ Finset.range e.val, cnt a (BitVec.ofNat 32 e'))
      + cntBefore a (BitVec.ofNat 32 e.val) (65536 * (p.val / 128 / 512)))
    (fun e => hrunSeq _ (le_of_lt hn) e) hR ⟨p.val / 128 % 512, Nat.mod_lt _ (by decide)⟩
    ⟨p.val % 128 % 128, Nat.mod_lt _ (by decide)⟩ e0 hx,
    Cert.LibSort.rank_eq_add (fun q : Fin 16777216 => (key a q).toInt) p,
    lt_count a ha p e0 he0, eq_count a p _ he0]
  exact congrArg (BitVec.ofNat 32) (Nat.add_assoc _ _ _)

/-! ## The running offsets: the block recurrence -/

theorem pay1_eq (base : Vec Ideal S1x8 .f32) : k1_pay1 (F := Ideal) base = base := by
  unfold k1_pay1
  simp only [shapeCast_self]

/-- The running offsets after a block, at id e: the offset before it plus the column sum of the row counts. -/
theorem pay16_apply (v81 : FVec Ideal S512x8 .f32) (run : Vec Ideal S1x8 .f32) (e : Fin 8) :
    k1_pay16 (F := Ideal) v81 run (ix2 (0 : Fin 1) e) = run (ix2 (0 : Fin 1) e) + ∑ r : Fin 512, v81 (ix2 r e) := by
  unfold k1_pay16
  simp only [shapeCast_self, addf_apply]
  refine congrArg (fun t : EReal => run (ix2 (0 : Fin 1) e) + t) ?_
  refine (shapeCast_a_1a_apply _ Gen.shapeCasts_S8_S1x8 (0 : Fin 1) e).trans ?_
  refine (Ideal.multiReduction_add_single _ 0x00000000#32 Gen.reduces_S512x8_S8 _ _ (ix1 e)).trans ?_
  refine Finset.sum_congr rfl fun r _ => ?_
  have hl : Gen.reduces_S512x8_S8.lift (ix1 e) r = ix2 r e := by
    funext ax
    apply Fin.ext
    match ax with
    | ⟨0, _⟩ => rfl
    | ⟨1, _⟩ => rfl
  rw [hl]
  rfl

/-- The number of entries of a block with a property: the sum of the row counts. -/
theorem sum_rowCount {m n : ℕ} (P : Fin m → Fin n → Prop) [∀ a b, Decidable (P a b)] :
    ∑ r : Fin m, (Finset.univ.filter fun l : Fin n => P r l).card
      = (Finset.univ.filter fun q : Fin m × Fin n => P q.1 q.2).card := by
  rw [← sum_boole_card (fun q : Fin m × Fin n => P q.1 q.2), Fintype.sum_prod_type]
  exact Finset.sum_congr rfl fun r _ => (sum_boole_card _).symm

/-- One step of the running offsets at id e: advanced by the number of entries of the block holding e. -/
theorem rstep_apply (x : Vec Ideal S512x128 .i32) (run : Vec Ideal S1x8 .f32) (e : Fin 8) (R : ℕ)
    (hrun : run (ix2 (0 : Fin 1) e) = nat R) :
    rstep (F := Ideal) x run (ix2 (0 : Fin 1) e)
      = nat (R + (Finset.univ.filter fun q : Fin 512 × Fin 128 => x (ix2 q.1 q.2) = BitVec.ofNat 32 e.val).card) := by
  show k1_pay16 (F := Ideal) (k1_pay13 (F := Ideal) (msk x 0) (msk x 1) (msk x 2) (msk x 3) (msk x 4) (msk x 5) (msk x 6) (msk x 7)) run (ix2 (0 : Fin 1) e) = _
  have hs : (∑ r : Fin 512, k1_pay13 (F := Ideal) (msk x 0) (msk x 1) (msk x 2) (msk x 3) (msk x 4) (msk x 5) (msk x 6) (msk x 7) (ix2 r e))
      = nat (∑ r : Fin 512, (Finset.univ.filter fun l : Fin 128 => x (ix2 r l) = BitVec.ofNat 32 e.val).card) := by
    rw [← nat_sum]
    exact Finset.sum_congr rfl fun r _ => rowCount_own x r e
  rw [pay16_apply, hrun, hs, nat_add, sum_rowCount (fun r l => x (ix2 r l) = BitVec.ofNat 32 e.val)]

/-- The positions of block n holding w are the entries of the block holding w. -/
theorem cntBefore_succ (a : Ids) (w : BitVec 32) (n : ℕ) (hn : n < 256) :
    cntBefore a w (65536 * (n + 1)) = cntBefore a w (65536 * n)
      + (Finset.univ.filter fun q : Fin 512 × Fin 128 => xblk1 (F := Ideal) a n (ix2 q.1 q.2) = w).card := by
  unfold cntBefore
  have hsplit : (Finset.univ.filter fun p : Fin 16777216 => p.val < 65536 * (n + 1) ∧ key a p = w)
      = (Finset.univ.filter fun p : Fin 16777216 => p.val < 65536 * n ∧ key a p = w)
        ∪ (Finset.univ.filter fun p : Fin 16777216 =>
            (65536 * n ≤ p.val ∧ p.val < 65536 * (n + 1)) ∧ key a p = w) := by
    ext q
    simp only [Finset.mem_filter, Finset.mem_univ, true_and, Finset.mem_union]
    constructor
    · rintro ⟨h1, h2⟩
      by_cases h : q.val < 65536 * n
      · exact Or.inl ⟨h, h2⟩
      · exact Or.inr ⟨⟨by omega, h1⟩, h2⟩
    · rintro (⟨h1, h2⟩ | ⟨⟨h1, h2⟩, h3⟩)
      · exact ⟨by omega, h2⟩
      · exact ⟨h2, h3⟩
  have hdisj : Disjoint
      (Finset.univ.filter fun p : Fin 16777216 => p.val < 65536 * n ∧ key a p = w)
      (Finset.univ.filter fun p : Fin 16777216 =>
        (65536 * n ≤ p.val ∧ p.val < 65536 * (n + 1)) ∧ key a p = w) :=
    Finset.disjoint_filter.mpr fun q _ h1 h2 => by have := h1.1; have := h2.1.1; omega
  rw [hsplit, Finset.card_union_of_disjoint hdisj]
  refine congrArg₂ (fun u v : ℕ => u + v) rfl ?_
  symm
  refine Finset.card_bij (fun q _ => (⟨65536 * n + 128 * q.1.val + q.2.val, by
    have := q.1.isLt; have := q.2.isLt; omega⟩ : Fin 16777216)) ?_ ?_ ?_
  · intro q hq
    simp only [Finset.mem_filter, Finset.mem_univ, true_and] at hq ⊢
    rw [xblk1_apply a n hn] at hq
    have := q.1.isLt
    have := q.2.isLt
    exact ⟨⟨by omega, by omega⟩, hq⟩
  · intro q₁ _ q₂ _ h
    have hv : 65536 * n + 128 * q₁.1.val + q₁.2.val = 65536 * n + 128 * q₂.1.val + q₂.2.val := congrArg Fin.val h
    have := q₁.2.isLt
    have := q₂.2.isLt
    exact Prod.ext (Fin.ext (by omega)) (Fin.ext (by omega))
  · intro b hb
    simp only [Finset.mem_filter, Finset.mem_univ, true_and] at hb
    obtain ⟨⟨hb1, hb2⟩, hb3⟩ := hb
    have hq1 : (b.val - 65536 * n) / 128 < 512 := by omega
    have hback : 65536 * n + 128 * ((b.val - 65536 * n) / 128) + (b.val - 65536 * n) % 128 = b.val := by omega
    refine ⟨(⟨(b.val - 65536 * n) / 128, hq1⟩, ⟨(b.val - 65536 * n) % 128, Nat.mod_lt _ (by decide)⟩), ?_,
      Fin.ext hback⟩
    simp only [Finset.mem_filter, Finset.mem_univ, true_and]
    rw [xblk1_apply a n hn, ← hb3]
    exact congrArg (key a) (Fin.ext hback)

/-- The running offsets block n starts from: the base offsets plus the counts of the positions before the block. -/
theorem runSeq_own (a : Ids) (base : Vec Ideal S1x8 .f32) (b : Fin 8 → ℕ)
    (hb : ∀ e : Fin 8, base (ix2 (0 : Fin 1) e) = nat (b e)) :
    ∀ (n : ℕ), n ≤ 256 → ∀ e : Fin 8, runSeq (F := Ideal) a base n (ix2 (0 : Fin 1) e)
      = nat (b e + cntBefore a (BitVec.ofNat 32 e.val) (65536 * n))
  | 0, _, e => by
    show rinit (F := Ideal) base (ix2 (0 : Fin 1) e) = _
    unfold rinit
    rw [pay1_eq, hb e]
    have h0 : cntBefore a (BitVec.ofNat 32 e.val) (65536 * 0) = 0 := by
      unfold cntBefore
      rw [Finset.card_eq_zero, Finset.filter_eq_empty_iff]
      intro q _ h
      have := h.1
      omega
    rw [h0, Nat.add_zero]
  | n + 1, hn, e => by
    show rstep (F := Ideal) (xblk1 (F := Ideal) a n) (runSeq (F := Ideal) a base n) (ix2 (0 : Fin 1) e) = _
    rw [rstep_apply _ _ e _ (runSeq_own a base b hb n (by omega) e), cntBefore_succ a _ n (by omega), Nat.add_assoc]

/-- one entry of one block: if the running offsets are natural numbers R e and the entry (r, l) holds the id e0 < 8, the
    kernel writes R e0 + (the number of entries of the block before (r, l) in row-major order holding e0), as a 32-bit
    word -/
theorem rout_entry (x : Vec Ideal S512x128 .i32) (mbt : Vec Ideal S128x128 .bf16) (mr : Vec Ideal S512x512 .bf16)
    (run : Vec Ideal S1x8 .f32)
    (hmbt : ∀ k c : Fin 128, mbt (ix2 k c) = if k < c then 1 else 0)
    (hmr : ∀ r r' : Fin 512, mr (ix2 r r') = if r' < r then 1 else 0)
    (R : Fin 8 → ℕ) (hrun : ∀ e : Fin 8, run (ix2 0 e) = ((R e : ℝ) : EReal)) (hR : ∀ e, R e + 65536 < 2 ^ 31)
    (r : Fin 512) (l : Fin 128) (e0 : Fin 8) (he0 : x (ix2 r l) = BitVec.ofNat 32 e0.val) :
    rout (F := Ideal) x mbt mr run (ix2 r l)
      = BitVec.ofNat 32 (R e0 + (Finset.univ.filter fun q : Fin 512 × Fin 128 =>
          (q.1 < r ∨ (q.1 = r ∧ q.2 < l)) ∧ x (ix2 q.1 q.2) = BitVec.ofNat 32 e0.val).card) :=
  rout_entry_aux x mbt mr run (rowCount_own x) hmbt hmr R hrun hR r l e0 he0

/-- THE RANK KERNEL'S RESULT: under in-range ids, base offsets = the exclusive prefix sums of the counts, and the two
    strictly triangular 0/1 matrices, the entry at flat position p is the stable counting rank of p -/
theorem rankOut_eq (a : Ids) (base : Vec Ideal S1x8 .f32) (mbt : Vec Ideal S128x128 .bf16) (mr : Vec Ideal S512x512 .bf16)
    (ha : InRange a)
    (hbase : ∀ e : Fin 8, base (ix2 0 e)
      = (((∑ e' ∈ Finset.range e.val, cnt a (BitVec.ofNat 32 e') : ℕ) : ℝ) : EReal))
    (hmbt : ∀ k c : Fin 128, mbt (ix2 k c) = if k < c then 1 else 0)
    (hmr : ∀ r r' : Fin 512, mr (ix2 r r') = if r' < r then 1 else 0)
    (p : Fin 16777216) :
    rankOut (F := Ideal) a base mbt mr
        (ix2 ⟨p.val / 128, by have := p.isLt; omega⟩ ⟨p.val % 128, Nat.mod_lt _ (by decide)⟩)
      = BitVec.ofNat 32 (Cert.LibSort.rank (fun q : Fin 16777216 => (key a q).toInt) p) :=
  rankOut_eq_aux a base mbt mr ha hmbt hmr rowCount_own
    (fun n hn e => runSeq_own a base (fun e => ∑ e' ∈ Finset.range e.val, cnt a (BitVec.ofNat 32 e')) hbase n hn e) p

end Cert.KernelIdeal.MathRank

end
-- ==== Proof.LibScatter.lean ====
/-
  The scatter into a vector along its one axis, read at an index.

  `x.at[idx].set(u)` and `x.at[idx].add(u)` for a vector `x : [N]`, a column of indices `idx : [R, 1]` and updates
  `u : [R]` lower to a scatter (inserted_window_dims [0], scatter_dims_to_operand_dims [0], index_vector_dim 1, no
  update window dims): the left fold, over the update positions in row-major order, of the step that replaces the
  entry an update lands on by the body applied to that entry and the update, and drops an update that lands nowhere.

  The row-major numbering is a bijection, so the fold runs once over every update position; that is all that is
  used of it. For the body that returns the update, an entry on which exactly one update lands ends as that update and
  an entry on which none lands is the operand's. For wrapping addition of words the entry ends as the operand's plus
  the sum of the updates that land on it, whatever the order.
-/
import Idealize.ShloMosaic.PureOps.Ideal
import Idealize.ShloMosaic.PureOps.ShapeOps
import Idealize.ShloMosaic.Lib.ValueIdx
import Mathlib.Data.BitVec
import Mathlib.Data.List.FinRange
import Mathlib.Algebra.BigOperators.Fin
import Mathlib.Algebra.BigOperators.Group.Finset.Basic
import proofs.«428384_j28252294873409_1_alg».proof.Proof.LibRows

noncomputable section

namespace Cert.LibScatter

open Idealize.ShloMosaic Idealize.ShloMosaic.ValueIdx Cert.LibRows

/-- One step of the scatter's fold: update position `q` applied to the array `r`. -/
def step {s si u : Shape} {α : Type} {w : Nat} (d : ScatterDims s si u) (f : α → α → α) (idx : IVec si w)
    (upd : u.Idx → α) (r : s.Idx → α) (q : u.Idx) : s.Idx → α :=
  match d.resultIdx? q idx with
  | some i => fun i' => if i' = i then f (r i) (upd q) else r i'
  | none => r

/-- The update positions in row-major order. -/
def positions (u : Shape) : List u.Idx := (List.finRange u.numel).map u.rowMajor.symm

/-- The scatter is the fold of the step over the update positions. -/
theorem scatter_eq_foldl {s si u : Shape} {α : Type} {w : Nat} (d : ScatterDims s si u) (f : α → α → α)
    (x : s.Idx → α) (idx : IVec si w) (upd : u.Idx → α) :
    Host.scatter d f x idx upd = (positions u).foldl (step d f idx upd) x := by
  unfold Host.scatter positions
  rw [List.foldl_map]
  rfl

/-- Every update position occurs in the list. -/
theorem mem_positions {u : Shape} (q : u.Idx) : q ∈ positions u :=
  List.mem_map.mpr ⟨u.rowMajor q, List.mem_finRange _, u.rowMajor.symm_apply_apply q⟩

/-- No update position occurs twice. -/
theorem nodup_positions (u : Shape) : (positions u).Nodup :=
  (List.nodup_finRange _).map u.rowMajor.symm.injective

/-- The step at an entry, for the body that returns the update. -/
theorem step_set_apply {s si u : Shape} {α : Type} {w : Nat} (d : ScatterDims s si u) (idx : IVec si w)
    (upd : u.Idx → α) (r : s.Idx → α) (q : u.Idx) (i' : s.Idx) :
    step d (fun _ b => b) idx upd r q i' = if d.resultIdx? q idx = some i' then upd q else r i' := by
  unfold step
  cases h : d.resultIdx? q idx with
  | none => simp
  | some i =>
    by_cases hi : i' = i
    · subst hi; simp
    · have : ¬ (some i = some i') := fun e => hi (Option.some.inj e).symm
      simp [hi, this]

/-- Folding updates none of which lands on an entry leaves that entry. -/
theorem foldl_set_miss {s si u : Shape} {α : Type} {w : Nat} (d : ScatterDims s si u) (idx : IVec si w)
    (upd : u.Idx → α) (i' : s.Idx) (L : List u.Idx) (x : s.Idx → α)
    (hL : ∀ q ∈ L, d.resultIdx? q idx ≠ some i') :
    L.foldl (step d (fun _ b => b) idx upd) x i' = x i' := by
  induction L generalizing x with
  | nil => rfl
  | cons q L ih =>
    rw [List.foldl_cons, ih _ (fun q' hq' => hL q' (List.mem_cons_of_mem _ hq')), step_set_apply,
      if_neg (hL q List.mem_cons_self)]

/-- Folding updates of which exactly one, `q0`, lands on an entry leaves that update there. -/
theorem foldl_set_hit {s si u : Shape} {α : Type} {w : Nat} (d : ScatterDims s si u) (idx : IVec si w)
    (upd : u.Idx → α) (i' : s.Idx) (q0 : u.Idx) (h0 : d.resultIdx? q0 idx = some i') (L : List u.Idx)
    (x : s.Idx → α) (hnd : L.Nodup) (hmem : q0 ∈ L)
    (huniq : ∀ q ∈ L, d.resultIdx? q idx = some i' → q = q0) :
    L.foldl (step d (fun _ b => b) idx upd) x i' = upd q0 := by
  induction L generalizing x with
  | nil => exact absurd hmem List.not_mem_nil
  | cons q L ih =>
    rw [List.foldl_cons]
    have hnd' := List.nodup_cons.mp hnd
    by_cases hq : q = q0
    · subst hq
      rw [foldl_set_miss d idx upd i' L _ (fun q' hq' e => hnd'.1 (by
        have := huniq q' (List.mem_cons_of_mem _ hq') e
        rw [← this]; exact hq')), step_set_apply, if_pos h0]
    · have hm : q0 ∈ L := by
        rcases List.mem_cons.mp hmem with e | e
        · exact absurd e.symm hq
        · exact e
      exact ih _ hnd'.2 hm (fun q' hq' => huniq q' (List.mem_cons_of_mem _ hq'))

/-- The step at an entry, for wrapping addition of words. -/
theorem step_addi_apply {s si u : Shape} {w n : Nat} (d : ScatterDims s si u) (idx : IVec si w)
    (upd : IVec u n) (r : IVec s n) (q : u.Idx) (i' : s.Idx) :
    step d IntOp.addi idx upd r q i' = r i' + (if d.resultIdx? q idx = some i' then upd q else 0) := by
  unfold step
  cases h : d.resultIdx? q idx with
  | none => simp
  | some i =>
    by_cases hi : i' = i
    · subst hi; simp [IntOp.addi]
    · have : ¬ (some i = some i') := fun e => hi (Option.some.inj e).symm
      simp [hi, this]

/-- Folding the addition step: the start entry plus the sum, over the list, of the updates that land on it. -/
theorem foldl_addi {s si u : Shape} {w n : Nat} (d : ScatterDims s si u) (idx : IVec si w)
    (upd : IVec u n) (i' : s.Idx) (L : List u.Idx) (x : IVec s n) :
    L.foldl (step d IntOp.addi idx upd) x i'
      = x i' + (L.map fun q => if d.resultIdx? q idx = some i' then upd q else 0).sum := by
  induction L generalizing x with
  | nil => simp
  | cons q L ih =>
    rw [List.foldl_cons, ih, step_addi_apply, List.map_cons, List.sum_cons, add_assoc]

/-- The sum over the update positions in row-major order is the sum over all positions. -/
theorem sum_positions {M : Type*} [AddCommMonoid M] {u : Shape} (g : u.Idx → M) :
    ((positions u).map g).sum = ∑ q, g q := by
  unfold positions
  rw [List.map_map, ← Fin.sum_univ_def]
  exact Equiv.sum_comp u.rowMajor.symm g

/-- `x.at[idx].set(u)` at an entry some update lands on, when no two updates land on one entry: that update. -/
theorem scatter_set_vec_hit {α : Type} {N R : Nat} (wf : ScatterDims.WF ⟨1, ![N]⟩ ⟨2, ![R, 1]⟩ ⟨1, ![R]⟩ [] [0] [0] 1)
    (x : (⟨1, ![N]⟩ : Shape).Idx → α) (idx : IdxCol R) (u : (⟨1, ![R]⟩ : Shape).Idx → α)
    (hinj : ∀ k k' : Fin R, (idx (ix2 k 0)).toInt = (idx (ix2 k' 0)).toInt → k = k')
    (k : Fin R) (v : Fin N) (hk : (idx (ix2 k 0)).toInt = (v.val : Int)) :
    Host.scatter (vecScatterDims N R wf) (fun _ b => b) x idx u (ix1 v) = u (ix1 k) := by
  rw [scatter_eq_foldl]
  refine foldl_set_hit _ idx u (ix1 v) (ix1 k) ((resultIdx_vec wf idx k v).mpr hk) _ x
    (nodup_positions _) (mem_positions _) (fun q _ hq => ?_)
  rw [eq_ix1 q] at hq ⊢
  have h1 := (resultIdx_vec wf idx (q 0) v).mp hq
  exact congrArg ix1 (hinj (q 0) k (h1.trans hk.symm))

/-- … and at an entry no update lands on: the operand's. -/
theorem scatter_set_vec_miss {α : Type} {N R : Nat} (wf : ScatterDims.WF ⟨1, ![N]⟩ ⟨2, ![R, 1]⟩ ⟨1, ![R]⟩ [] [0] [0] 1)
    (x : (⟨1, ![N]⟩ : Shape).Idx → α) (idx : IdxCol R) (u : (⟨1, ![R]⟩ : Shape).Idx → α) (v : Fin N)
    (hv : ∀ k : Fin R, (idx (ix2 k 0)).toInt ≠ (v.val : Int)) :
    Host.scatter (vecScatterDims N R wf) (fun _ b => b) x idx u (ix1 v) = x (ix1 v) := by
  rw [scatter_eq_foldl]
  refine foldl_set_miss _ idx u (ix1 v) _ x (fun q _ hq => ?_)
  rw [eq_ix1 q] at hq
  exact hv (q 0) ((resultIdx_vec wf idx (q 0) v).mp hq)

/-- `x.at[idx].add(u)` on 32-bit words: the operand's entry plus the updates that land on it (wrapping addition is
    commutative and associative, so the fold's order does not matter). -/
theorem scatter_addi_vec_apply {N R : Nat} (wf : ScatterDims.WF ⟨1, ![N]⟩ ⟨2, ![R, 1]⟩ ⟨1, ![R]⟩ [] [0] [0] 1)
    (x : IVec ⟨1, ![N]⟩ 32) (idx : IdxCol R) (u : IVec ⟨1, ![R]⟩ 32) (v : Fin N) :
    Host.scatter (vecScatterDims N R wf) IntOp.addi x idx u (ix1 v)
      = x (ix1 v) + ∑ k : Fin R, if (idx (ix2 k 0)).toInt = (v.val : Int) then u (ix1 k) else 0 := by
  rw [scatter_eq_foldl, foldl_addi, sum_positions, sum_idx1]
  congr 1
  refine Finset.sum_congr rfl fun k _ => ?_
  simp only [resultIdx_vec wf idx k v]

/-- The histogram: adding 1 per index into zeros counts, per entry, the indices equal to it. -/
theorem scatter_addi_ones_count {N R : Nat} (wf : ScatterDims.WF ⟨1, ![N]⟩ ⟨2, ![R, 1]⟩ ⟨1, ![R]⟩ [] [0] [0] 1)
    (idx : IdxCol R) (v : Fin N) :
    Host.scatter (vecScatterDims N R wf) IntOp.addi (fun _ => 0#32) idx (fun _ => 1#32) (ix1 v)
      = BitVec.ofNat 32 (Finset.univ.filter fun k : Fin R => (idx (ix2 k 0)).toInt = (v.val : Int)).card := by
  rw [scatter_addi_vec_apply]
  have h1 : (1#32 : BitVec 32) = 1 := rfl
  have h0 : (0#32 : BitVec 32) = 0 := rfl
  rw [h1, h0, Finset.sum_boole, zero_add, BitVec.natCast_eq_ofNat]

end Cert.LibScatter

end
-- ==== Proof.RefVals.lean ====
/-
  The reference's three results read at one index: the flattened inputs, the bincount under in-range ids, the stable
  argsort at the counting rank, the gathered score where the argsort holds a given position, and the floor of a sorted
  position over two as the word function.
-/
import proofs.«428384_j28252294873409_1_alg».proof.Proof.RefRun
import proofs.«428384_j28252294873409_1_alg».proof.Proof.LibRows
import proofs.«428384_j28252294873409_1_alg».proof.Proof.LibScatter
import proofs.«428384_j28252294873409_1_alg».proof.Proof.LibSort
import proofs.«428384_j28252294873409_1_alg».proof.Proof.FloorDiv
import Idealize.ShloMosaic.Lib.IdealHost
import Idealize.ShloMosaic.Lib.ValueIdx
import Idealize.ShloMosaic.Lib.Pipeline.Value

noncomputable section

namespace Cert.ReferenceIdeal.RefVals

open Cert.ReferenceIdeal Cert.ReferenceIdeal.Gen Cert.ReferenceIdeal.RefRun Idealize.ShloMosaic Idealize.ShloMosaic.ValueIdx
  Cert.LibRows

variable {F : FTy → Type} [FloatOps F]

/-! ## The small terms read at an index -/

/-- A constant spread over the positions reads that constant at every position. -/
theorem splat_apply (b : BitVec 32) (j : S16777216.Idx) : splat b j = b := by
  unfold splat
  rw [broadcastInDim_scalar_apply]
  rfl

/-- The column of a vector reads the vector's entry of the same row. -/
theorem col_apply (x : IVec S16777216 32) (k : Fin 16777216) : col x (ix2 k 0) = x (ix1 k) := by
  unfold col
  refine broadcastInDim_apply ![0] bcast_S16777216_S16777216x1_0 x (ix2 k 0) (ix1 k) fun a => ?_
  obtain rfl : a = 0 := Subsingleton.elim _ _
  rw [if_neg (by decide)]
  rfl

/-- The wrap of negative entries by n, one entry: the word function. -/
theorem wrap_apply (n : Nat) (x : IVec S16777216 32) (j : S16777216.Idx) :
    wrap (BitVec.ofNat 32 n) x j = wrapN n (x j) := by
  show Scalar.select (IntOp.cmpi .slt (x j) (splat 0#32 j)) (IntOp.addi (x j) (splat (BitVec.ofNat 32 n) j)) (x j) = _
  rw [splat_apply, splat_apply, wrap_word]

/-- A natural number below 2^31 as a word reads back, signed, as itself. -/
theorem toInt_ofNat_small (n : Nat) (h : n < 2 ^ 31) : (BitVec.ofNat 32 n).toInt = (n : Int) := by
  have h1 : (BitVec.ofNat 32 n).toNat = n := by
    rw [BitVec.toNat_ofNat]
    exact Nat.mod_eq_of_lt (by omega)
  rw [BitVec.toInt_eq_toNat_of_lt (by rw [h1]; omega), h1]

/-- The entry gather's source position: the index of that row, read signed and clamped. (The operand is any array; the
    position is read off the gather of an indicator.) -/
theorem operandIdx_vec {N R : Nat} (hN : 0 < N)
    (wf : GatherDims.WF ⟨1, ![N]⟩ ⟨2, ![R, 1]⟩ ⟨1, ![R]⟩ [] [0] [] [0] [] 1 ![1]) (idx : IdxCol R) (r : Fin R) :
    (vecGatherDims N R wf).operandIdx (ix1 r) idx = ix1 (clampRow hN (idx (ix2 r 0))) := by
  classical
  have h : (if (vecGatherDims N R wf).operandIdx (ix1 r) idx = ix1 (clampRow hN (idx (ix2 r 0))) then (1 : EReal) else 0)
      = (if ix1 (clampRow hN (idx (ix2 r 0))) = ix1 (clampRow hN (idx (ix2 r 0))) then (1 : EReal) else 0) :=
    gather_vec_apply hN wf (fun i => if i = ix1 (clampRow hN (idx (ix2 r 0))) then (1 : EReal) else 0) idx r
  by_contra hne
  rw [if_neg hne, if_pos rfl] at h
  exact zero_ne_one h

/-! ## The results read at an index -/

/-- Flat position p of the ids is entry (p / 2, p % 2). -/
theorem flat_apply (a1 : IVec S8388608x2 32) (p : Fin 16777216) :
    flat a1 (ix1 p) = a1 (ix2 ⟨p.val / 2, by have := p.isLt; omega⟩ ⟨p.val % 2, Nat.mod_lt _ (by decide)⟩) := by
  unfold flat
  refine shapeCast_apply a1 _ (ix1 p) _ ?_
  rw [Shape.rowMajor_val_two, Shape.rowMajor_val_one]
  show p.val / 2 * 2 + p.val % 2 = p.val
  omega

/-- Flat position p of the scores is entry (p / 2, p % 2). -/
theorem flatScores_apply (a0 : FVec F S8388608x2 .f32) (p : Fin 16777216) :
    shapeCast S16777216 a0 shapeCasts_S8388608x2_S16777216 (ix1 p)
      = a0 (ix2 ⟨p.val / 2, by have := p.isLt; omega⟩ ⟨p.val % 2, Nat.mod_lt _ (by decide)⟩) := by
  refine shapeCast_apply a0 _ (ix1 p) _ ?_
  rw [Shape.rowMajor_val_two, Shape.rowMajor_val_one]
  show p.val / 2 * 2 + p.val % 2 = p.val
  omega

/-- An id in [0, 8) passes the lower bound and the wrap unchanged. -/
theorem wrap_clipped_of_range (a1 : IVec S8388608x2 32)
    (hr : ∀ (r : Fin 8388608) (k : Fin 2), 0 ≤ (a1 (ix2 r k)).toInt ∧ (a1 (ix2 r k)).toInt < 8) (p : Fin 16777216) :
    wrap 8#32 (clipped a1) (ix1 p) = flat a1 (ix1 p) ∧ 0 ≤ (flat a1 (ix1 p)).toInt ∧ (flat a1 (ix1 p)).toInt < 8 := by
  have h := hr ⟨p.val / 2, by have := p.isLt; omega⟩ ⟨p.val % 2, Nat.mod_lt _ (by decide)⟩
  rw [← flat_apply a1 p] at h
  have z0 : (0#32 : BitVec 32).toInt = 0 := by decide
  have hc : clipped a1 (ix1 p) = flat a1 (ix1 p) := by
    show IntOp.maxsi (splat 0#32 (ix1 p)) (flat a1 (ix1 p)) = _
    rw [splat_apply]
    unfold IntOp.maxsi
    rw [if_neg]
    rw [BitVec.slt_iff_toInt_lt, z0]
    omega
  refine ⟨?_, h⟩
  rw [wrap_apply 8, hc]
  unfold wrapN
  rw [if_neg (by omega)]

/-- The bincount under in-range ids (the lower bound and the wrap are then the identity): the count of each id. -/
theorem res10_apply (a1 : IVec S8388608x2 32)
    (hr : ∀ (r : Fin 8388608) (k : Fin 2), 0 ≤ (a1 (ix2 r k)).toInt ∧ (a1 (ix2 r k)).toInt < 8) (e : Fin 8) :
    res10 a1 (ix1 e)
      = BitVec.ofNat 32 (Finset.univ.filter fun p : Fin 16777216 => flat a1 (ix1 p) = BitVec.ofNat 32 e.val).card := by
  have hz : broadcastInDim S8 ![] bcast_S_S8 (constantI S_ 32 0#32) = fun _ => 0#32 := by
    funext j
    rw [broadcastInDim_scalar_apply]
    rfl
  have ho : splat 1#32 = fun _ => 1#32 := funext (splat_apply 1#32)
  have hd : scatter_S8_S16777216x1_S16777216_n_0_0_1
      = vecScatterDims 8 16777216 scatter_S8_S16777216x1_S16777216_n_0_0_1_wf := rfl
  unfold res10
  rw [hz, ho, hd, Cert.LibScatter.scatter_addi_ones_count]
  refine congrArg (BitVec.ofNat 32) (congrArg Finset.card (Finset.filter_congr fun p _ => ?_))
  obtain ⟨hw, h0, h8⟩ := wrap_clipped_of_range a1 hr p
  rw [col_apply, hw]
  have he : (BitVec.ofNat 32 e.val).toInt = (e.val : Int) := toInt_ofNat_small _ (by have := e.isLt; omega)
  constructor
  · intro h
    exact BitVec.eq_of_toInt_eq (h.trans he.symm)
  · intro h
    rw [h, he]

/-- The argsort read at the counting rank of position p is p. -/
theorem order_at_rank (a1 : IVec S8388608x2 32) (p : Fin 16777216) :
    order a1 (ix1 ⟨Cert.LibSort.rank (fun q : Fin 16777216 => (flat a1 (ix1 q)).toInt) p, Cert.LibSort.rank_lt _ p⟩)
      = BitVec.ofNat 32 p.val :=
  Cert.LibSort.argsort_at_rank (n := 16777216) (by decide) (flat a1) p

/-- Where the argsort holds position p the gathered score is the score at p. -/
theorem res19_at (a0 : FVec F S8388608x2 .f32) (a1 : IVec S8388608x2 32) (q p : Fin 16777216)
    (hq : order a1 (ix1 q) = BitVec.ofNat 32 p.val) :
    res19 a0 a1 (ix1 q)
      = a0 (ix2 ⟨p.val / 2, by have := p.isLt; omega⟩ ⟨p.val % 2, Nat.mod_lt _ (by decide)⟩) := by
  have hd : gather_S16777216_S16777216x1_S16777216_n_0_n_n_0_1_1
      = vecGatherDims 16777216 16777216 gather_S16777216_S16777216x1_S16777216_n_0_n_n_0_1_1_wf := rfl
  have hN : 0 < 16777216 := by decide
  have hi : (vecGatherDims 16777216 16777216 gather_S16777216_S16777216x1_S16777216_n_0_n_n_0_1_1_wf).operandIdx (ix1 q)
      (col (wrap 16777216#32 (order a1))) = ix1 p := by
    rw [operandIdx_vec hN, col_apply, wrap_apply 16777216, hq,
      clamp_wrap_of_toInt hN _ p (toInt_ofNat_small _ (by have := p.isLt; omega))]
  show shapeCast S16777216 a0 shapeCasts_S8388608x2_S16777216
      (gather_S16777216_S16777216x1_S16777216_n_0_n_n_0_1_1.operandIdx (ix1 q) (col (wrap 16777216#32 (order a1)))) = _
  rw [hd, hi]
  exact flatScores_apply a0 p

/-- The floor-divide chain is the word function entry by entry. -/
theorem res20_at (a1 : IVec S8388608x2 32) (q : Fin 16777216) :
    res20 a1 (ix1 q) = Cert.FloorDiv.floorDivWord (order a1 (ix1 q)) := by
  have h2 : broadcastInDim S16777216 ![] bcast_S_S16777216 (signi (constantI S_ 32 2#32)) (ix1 q)
      = Cert.FloorDiv.signWord 2#32 := by
    rw [broadcastInDim_scalar_apply]
    rfl
  show Scalar.select
      (IntOp.andi
        (IntOp.cmpi .ne (signi (order a1) (ix1 q))
          (broadcastInDim S16777216 ![] bcast_S_S16777216 (signi (constantI S_ 32 2#32)) (ix1 q)))
        (IntOp.cmpi .ne (IntOp.remsi .host (order a1 (ix1 q)) (splat 2#32 (ix1 q))) (splat 0#32 (ix1 q))))
      (IntOp.subi (IntOp.divsi .host (order a1 (ix1 q)) (splat 2#32 (ix1 q))) (splat 1#32 (ix1 q)))
      (IntOp.divsi .host (order a1 (ix1 q)) (splat 2#32 (ix1 q))) = _
  rw [h2]
  simp only [splat_apply]
  rfl

end Cert.ReferenceIdeal.RefVals

end
-- ==== Proof.Bridge.lean ====
/-
  The two programs compute the same three arrays when every expert id lies in [0, 8).

  Write key p for the id at flat position p. The kernel's destination of position p is its stable counting rank:
  the number of positions holding a smaller id, plus the number of earlier positions holding the same id. That rank is
  a bijection of the positions, and the stable argsort is its inverse. So setting score p at destination rank p
  (the kernel) and reading the score at the argsort of each destination (the reference) fill the same array; the same
  holds of the halved positions; and both histograms count, for each id, the positions that hold it.
-/
import proofs.«428384_j28252294873409_1_alg».proof.Proof.KI.Dests
import proofs.«428384_j28252294873409_1_alg».proof.Proof.KI.HostValsIdeal
import proofs.«428384_j28252294873409_1_alg».proof.Proof.KI.MathCount
import proofs.«428384_j28252294873409_1_alg».proof.Proof.KI.MathRank
import proofs.«428384_j28252294873409_1_alg».proof.Proof.RefVals
import proofs.«428384_j28252294873409_1_alg».proof.Proof.LibScatter
import proofs.«428384_j28252294873409_1_alg».proof.Proof.LibSort
import proofs.«428384_j28252294873409_1_alg».proof.Proof.Keys
import proofs.«428384_j28252294873409_1_alg».proof.Proof.FloorDiv

noncomputable section

namespace Cert.Bridge

open Idealize.ShloMosaic Idealize.ShloMosaic.ValueIdx
open Cert.Keys Cert.LibSort Cert.LibRows Cert.LibScatter
open Cert.KernelIdeal Cert.KernelIdeal.Gen Cert.KernelIdeal.HostVals Cert.KernelIdeal.HostValsIdeal Cert.KernelIdeal.Steps
open Cert.KernelIdeal.MathCount Cert.KernelIdeal.MathRank
open Cert.ReferenceIdeal.RefRun Cert.ReferenceIdeal.RefVals

variable (a0 : FVec Ideal S8388608x2 .f32) (a1 : IVec S8388608x2 32)
  (hr : ∀ (r : Fin 8388608) (k : Fin 2), 0 ≤ (a1 (ix2 r k)).toInt ∧ (a1 (ix2 r k)).toInt < 8)

/-- A word that, read signed, lies in [0, 8) is below 8 read unsigned. -/
theorem toNat_lt_of_toInt (w : BitVec 32) (h0 : 0 ≤ w.toInt) (h8 : w.toInt < 8) : w.toNat < 8 := by
  have hw := w.isLt
  rw [BitVec.toInt_eq_toNat_cond] at h0 h8
  by_cases hc : 2 * w.toNat < 2 ^ 32
  · rw [if_pos hc] at h8; omega
  · rw [if_neg hc] at h0; omega

/-- The kernel's array of ids. -/
abbrev ids : Ids := flatIds a1

/-- Both programs read the same id at a flat position. -/
theorem key_eq (p : Fin 16777216) : key (ids a1) p = flat a1 (ix1 p) := by
  unfold key
  exact (flatIds_apply a1 p).trans (flat_apply a1 p).symm

/-- The signed keys the two sides rank by are one function. -/
theorem keyInt_eq : (fun q : Fin 16777216 => (key (ids a1) q).toInt) = fun q => (flat a1 (ix1 q)).toInt :=
  funext fun q => by rw [key_eq]

include hr in
/-- Every id is one of the eight experts. -/
theorem inRange : InRange (ids a1) := fun p => by
  rw [key_eq, flat_apply]
  have h := hr ⟨p.val / 2, by have := p.isLt; omega⟩ ⟨p.val % 2, Nat.mod_lt _ (by decide)⟩
  exact toNat_lt_of_toInt _ h.1 h.2

/-- An id's count is the number of positions at which the reference reads it. -/
theorem cnt_eq (e : BitVec 32) : cnt (ids a1) e = (Finset.univ.filter fun p : Fin 16777216 => flat a1 (ix1 p) = e).card := by
  unfold cnt
  exact congrArg Finset.card (Finset.filter_congr fun p _ => by rw [key_eq])

/-- The eight counts sum to at most the number of positions. -/
theorem sum_cnt_le : ∑ e : Fin 8, cnt (ids a1) (BitVec.ofNat 32 e.val) ≤ 16777216 := by
  unfold cnt
  rw [← Finset.card_biUnion]
  · exact (Finset.card_le_univ _).trans (by simp)
  · intro e _ e' _ hne
    refine Finset.disjoint_filter.mpr fun p _ h h' => hne (Fin.ext ?_)
    have := congrArg BitVec.toNat (h.symm.trans h')
    simp only [BitVec.toNat_ofNat] at this
    have h8 := e.isLt; have h8' := e'.isLt
    omega

include hr in
/-- THE HISTOGRAMS AGREE. -/
theorem counts_eq : countsOf (histOut (F := Ideal) (ids a1)) = res10 a1 := by
  funext j
  obtain ⟨e, rfl⟩ : ∃ e : Fin 8, j = ix1 e := ⟨j 0, eq_ix1 j⟩
  rw [countsOf_apply, histOut_eq, res10_apply a1 hr e, cnt_eq]

include hr in
/-- The kernel's destination of position p is its stable counting rank. -/
theorem dests_apply (p : Fin 16777216) :
    Cert.KernelIdeal.Dests.dests (F := Ideal) a1 (ix2 ⟨p.val / 128, by have := p.isLt; omega⟩ ⟨p.val % 128, Nat.mod_lt _ (by decide)⟩)
      = BitVec.ofNat 32 (rank (fun q : Fin 16777216 => (flat a1 (ix1 q)).toInt) p) := by
  unfold Cert.KernelIdeal.Dests.dests
  rw [← keyInt_eq]
  refine rankOut_eq (ids a1) _ _ _ (inRange a1 hr) (fun e => ?_) mbt_apply mr_apply p
  have hb := baseOf_apply (histOut (F := Ideal) (ids a1)) (fun e => cnt (ids a1) (BitVec.ofNat 32 e.val))
    (fun e => histOut_eq (ids a1) e) (lt_of_le_of_lt (sum_cnt_le a1) (by norm_num)) e
  rw [hb]
  refine congrArg (fun s : ℕ => ((s : ℝ) : EReal)) (Finset.sum_congr rfl fun e' he' => ?_)
  have : e' % 8 = e' := Nat.mod_eq_of_lt (lt_trans (Finset.mem_range.mp he') e.isLt)
  show cnt (ids a1) (BitVec.ofNat 32 (e' % 8)) = cnt (ids a1) (BitVec.ofNat 32 e')
  rw [this]

include hr in
/-- … as a column entry of the scatter's index operand, read signed. -/
theorem destCol_toInt (p : Fin 16777216) :
    (destCol (Cert.KernelIdeal.Dests.dests (F := Ideal) a1) (ix2 p 0)).toInt
      = ((rank (fun q : Fin 16777216 => (flat a1 (ix1 q)).toInt) p : ℕ) : Int) := by
  rw [destCol_apply, dests_apply a1 hr p]
  have hlt := rank_lt (fun q : Fin 16777216 => (flat a1 (ix1 q)).toInt) p
  have hnn : (BitVec.ofNat 32 (rank (fun q : Fin 16777216 => (flat a1 (ix1 q)).toInt) p)).toInt
      = ((rank (fun q : Fin 16777216 => (flat a1 (ix1 q)).toInt) p : ℕ) : Int) := by
    rw [BitVec.toInt_eq_toNat_cond, BitVec.toNat_ofNat]
    have : rank (fun q : Fin 16777216 => (flat a1 (ix1 q)).toInt) p % 2 ^ 32 = rank (fun q : Fin 16777216 => (flat a1 (ix1 q)).toInt) p :=
      Nat.mod_eq_of_lt (by omega)
    rw [this]
    split <;> omega
  unfold wrapN
  rw [if_neg (by rw [hnn]; omega), hnn]

include hr in
/-- No two positions share a destination. -/
theorem destCol_inj (k k' : Fin 16777216)
    (h : (destCol (Cert.KernelIdeal.Dests.dests (F := Ideal) a1) (ix2 k 0)).toInt
      = (destCol (Cert.KernelIdeal.Dests.dests (F := Ideal) a1) (ix2 k' 0)).toInt) : k = k' := by
  rw [destCol_toInt a1 hr, destCol_toInt a1 hr] at h
  exact rank_injective _ (by exact_mod_cast h)

/-- The rank as a self-map of the positions has the rank as its value (for any number of positions). -/
theorem rankFin_val {n : Nat} (key : Fin n → Int) (i : Fin n) : (rankFin key i).val = rank key i := rfl

/-- Every position is the rank of some position. -/
theorem exists_rank (q : Fin 16777216) :
    ∃ p : Fin 16777216, rank (fun q : Fin 16777216 => (flat a1 (ix1 q)).toInt) p = q.val := by
  obtain ⟨p, hp⟩ := (rankFin_bijective (fun q : Fin 16777216 => (flat a1 (ix1 q)).toInt)).2 q
  exact ⟨p, (rankFin_val _ p).symm.trans (congrArg Fin.val hp)⟩

include hr in
/-- THE SORTED SCORES AGREE. -/
theorem scores_eq :
    Host.scatter scatter_S16777216_S16777216x1_S16777216_n_0_0_1 (fun _ b => b)
        (broadcastInDim S16777216 ![] bcast_S_S16777216 (constant (F := Ideal) S_ .f32 0x00000000#32))
        (destCol (Cert.KernelIdeal.Dests.dests (F := Ideal) a1)) (flatScores a0)
      = res19 a0 a1 := by
  funext j
  obtain ⟨q, rfl⟩ : ∃ q : Fin 16777216, j = ix1 q := ⟨j 0, eq_ix1 j⟩
  obtain ⟨p, hp⟩ := exists_rank a1 q
  have hq : rankFin (fun q : Fin 16777216 => (flat a1 (ix1 q)).toInt) p = q := Fin.ext ((rankFin_val _ p).trans hp)
  have hk : (destCol (Cert.KernelIdeal.Dests.dests (F := Ideal) a1) (ix2 p 0)).toInt = (q.val : Int) := by
    rw [destCol_toInt a1 hr p, hp]
  have horder : order a1 (ix1 q) = BitVec.ofNat 32 p.val := by
    rw [← hq]
    exact order_at_rank a1 p
  refine (scatter_set_vec_hit (N := 16777216) (R := 16777216) scatter_S16777216_S16777216x1_S16777216_n_0_0_1_wf _ _ _
    (destCol_inj a1 hr) p q hk).trans ?_
  rw [Cert.KernelIdeal.HostValsIdeal.flatScores_apply, res19_at a0 a1 q p horder]

include hr in
/-- THE SORTED TOKEN INDICES AGREE. -/
theorem halves_eq :
    Host.scatter scatter_S16777216_S16777216x1_S16777216_n_0_0_1 (fun _ b => b)
        (broadcastInDim S16777216 ![] bcast_S_S16777216 (constantI S_ 32 0#32))
        (destCol (Cert.KernelIdeal.Dests.dests (F := Ideal) a1)) halfIota
      = res20 a1 := by
  funext j
  obtain ⟨q, rfl⟩ : ∃ q : Fin 16777216, j = ix1 q := ⟨j 0, eq_ix1 j⟩
  obtain ⟨p, hp⟩ := exists_rank a1 q
  have hq : rankFin (fun q : Fin 16777216 => (flat a1 (ix1 q)).toInt) p = q := Fin.ext ((rankFin_val _ p).trans hp)
  have hk : (destCol (Cert.KernelIdeal.Dests.dests (F := Ideal) a1) (ix2 p 0)).toInt = (q.val : Int) := by
    rw [destCol_toInt a1 hr p, hp]
  have horder : order a1 (ix1 q) = BitVec.ofNat 32 p.val := by
    rw [← hq]
    exact order_at_rank a1 p
  refine (scatter_set_vec_hit (N := 16777216) (R := 16777216) scatter_S16777216_S16777216x1_S16777216_n_0_0_1_wf _ _ _
    (destCol_inj a1 hr) p q hk).trans ?_
  rw [halfIota_apply, res20_at a1 q, horder]

end Cert.Bridge

end
-- ==== Proof.lean ====
/-
  The certificate: the Pallas kernel program (a histogram pass, a counting-sort rank pass, and scatters by the
  computed ranks) against the jnp reference (bincount, stable argsort, gather), under the precondition that the
  scores are finite and every expert id lies in [0, 8).

  The three frames: the kernel program's, at the word level and at the ideal instance, is the run of its host
  operations and two kernel regions with the two argument arrays read back unchanged; the reference's is its run of
  host operations. The idealization rewrote nothing. The value claim: at the ideal instance the kernel program ends
  with its three results at explicit terms of the two argument arrays, the reference with its three at its own
  terms, and under the precondition the terms are equal (Proof/Bridge.lean): the rank the kernel computes for a
  position is the position's place in the stable sort.
-/
import proofs.«428384_j28252294873409_1_alg».proof.Defs
import proofs.«428384_j28252294873409_1_alg».proof.Proof.Gen.Kernel
import proofs.«428384_j28252294873409_1_alg».proof.Proof.Gen.KernelIdeal
import proofs.«428384_j28252294873409_1_alg».proof.Proof.Gen.ReferenceIdeal
import proofs.«428384_j28252294873409_1_alg».proof.Proof.Gen.Pre_finite_inputs
import proofs.«428384_j28252294873409_1_alg».proof.Proof.K.Final
import proofs.«428384_j28252294873409_1_alg».proof.Proof.KI.Final
import proofs.«428384_j28252294873409_1_alg».proof.Proof.RefRun
import proofs.«428384_j28252294873409_1_alg».proof.Proof.PreDecode
import proofs.«428384_j28252294873409_1_alg».proof.Proof.Bridge

noncomputable section

namespace Cert.Proof

open Idealize.ShloMosaic Idealize.SL.Sem

/-- The word-level kernel program runs and leaves its arguments unchanged. -/
theorem frame_k : Cert.frame_Kernel (hKernel := Cert.Kernel.Gen.facts) (hPre_finite_inputs := Cert.Pre_finite_inputs.Gen.facts) :=
  fun m ρ _ => Cert.Kernel.Final.frame m ρ

/-- The idealized kernel program runs and leaves its arguments unchanged. -/
theorem frame_ki : Cert.frame_KernelIdeal (hKernelIdeal := Cert.KernelIdeal.Gen.facts) (hPre_finite_inputs := Cert.Pre_finite_inputs.Gen.facts) :=
  fun m ρ _ => Cert.KernelIdeal.Final.frame m ρ

/-- The reference runs and leaves its arguments unchanged: its run with the results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => ⟨(h c).2.2.2.1, (h c).2.2.2.2⟩)
    (Cert.ReferenceIdeal.RefRun.run (F := Ideal) m ρ)

/-- From memories agreeing on the arguments both idealized programs end with the reference's three terms of the
    arguments as results: the reference by its run, the kernel program by its run and the equality of the terms under
    the precondition. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.ReferenceIdeal.RefRun.res19 (F := Ideal) (m ((c.tc : Thread _ _).loc Cert.KernelIdeal.main_arg0)) (m ((c.tc : Thread _ _).loc Cert.KernelIdeal.main_arg1)),
    fun c => Cert.ReferenceIdeal.RefRun.res20 (m ((c.tc : Thread _ _).loc Cert.KernelIdeal.main_arg1)),
    fun c => Cert.ReferenceIdeal.RefRun.res10 (m ((c.tc : Thread _ _).loc Cert.KernelIdeal.main_arg1)), ?_, ?_⟩
  · refine (θ_run Cert.KernelIdeal.defs _ _).mono (fun r h c => ?_) (Cert.KernelIdeal.Final.run (F := Ideal) m ρ)
    have hr := fun r k => Cert.PreDecode.ids_in_range (F := Ideal) _ _ (hpre c) r k
    refine ⟨?_, ?_, ?_, ?_, ?_⟩
    · exact (Cert.KernelIdeal.Final.mem_of_run m h c Cert.KernelIdeal.main_v29 (by decide)).trans
        ((Cert.KernelIdeal.Final.v29_eq m c).trans (Cert.Bridge.scores_eq _ _ hr))
    · exact (Cert.KernelIdeal.Final.mem_of_run m h c Cert.KernelIdeal.main_v38 (by decide)).trans
        ((Cert.KernelIdeal.Final.v38_eq m c).trans (Cert.Bridge.halves_eq _ hr))
    · exact (Cert.KernelIdeal.Final.mem_of_run m h c Cert.KernelIdeal.main_v4 (by decide)).trans
        ((Cert.KernelIdeal.Final.v4_eq m c).trans (Cert.Bridge.counts_eq _ hr))
    · exact (Cert.KernelIdeal.Final.mem_of_run m h c Cert.KernelIdeal.main_arg0 (by decide)).trans
        (Cert.KernelIdeal.Gen.V9_main_arg0 m _ c)
    · exact (Cert.KernelIdeal.Final.mem_of_run m h c Cert.KernelIdeal.main_arg1 (by decide)).trans
        (Cert.KernelIdeal.Gen.V9_main_arg1 m _ c)
  · refine (θ_run Cert.ReferenceIdeal.defs _ _).mono (fun r h c => ?_) (Cert.ReferenceIdeal.RefRun.run (F := Ideal) m' ρ')
    refine ⟨?_, ?_, ?_, (h c).2.2.2.1, (h c).2.2.2.2⟩
    · rw [(h c).1, (hagree c).1, (hagree c).2]
    · rw [(h c).2.1, (hagree c).2]
    · rw [(h c).2.2.1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
